-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x256x4 : Shape := ⟨4, ![128, 256, 256, 4]⟩
abbrev S128x128x4 : Shape := ⟨3, ![128, 128, 4]⟩
abbrev S128x128 : Shape := ⟨2, ![128, 128]⟩
abbrev S128x128x3 : Shape := ⟨3, ![128, 128, 3]⟩
abbrev S_ : Shape := ⟨0, ![]⟩
abbrev S128x128x1 : Shape := ⟨3, ![128, 128, 1]⟩

class Facts : Prop where
  bcast_S_S128x256x256x4 : S_.BroadcastsInDim S128x256x256x4 (![] : Fin 0 → Fin S128x256x256x4.rank)
  reducesTo_S128x256x256x4_S_d0_1_2_3 : S128x256x256x4.ReducesTo [0, 1, 2, 3] S_
  h_S_ : 0 < S_.numel
  bcast_S_S128x128x4 : S_.BroadcastsInDim S128x128x4 (![] : Fin 0 → Fin S128x128x4.rank)
  reducesTo_S128x128x4_S_d0_1_2 : S128x128x4.ReducesTo [0, 1, 2] S_
  bcast_S_S128x128 : S_.BroadcastsInDim S128x128 (![] : Fin 0 → Fin S128x128.rank)
  reducesTo_S128x128_S_d0_1 : S128x128.ReducesTo [0, 1] S_
  slices_S128x128x3_S128x128x1_0_0_0 : S128x128x3.Slices ![0, 0, 0] S128x128x1
  shapeCasts_S128x128x1_S128x128 : S128x128x1.ShapeCasts S128x128
  slices_S128x128x3_S128x128x1_0_0_1 : S128x128x3.Slices ![0, 0, 1] S128x128x1

variable [Facts]

def fn_part2 {F : FTy → Type} [FloatOps F] (main_v31 : IVec S_ 1) (main_v33 : IVec S128x128 32) (main_v34 : IVec S128x128 32) : IVec S_ 1 :=
  let main_v35 : IVec S128x128 1 := cmpi .slt main_v33 main_v34
  let main_c_11 : IVec S_ 1 := constantI S_ 1 1#1
  let main_v36 : IVec S_ 1 := (fun x v => Host.reduce IntOp.andi x v reducesTo_S128x128_S_d0_1 h_S_) main_v35 main_c_11
  let main_v37 : IVec S_ 1 := andi main_v31 main_v36
  main_v37

def fn_part1 {F : FTy → Type} [FloatOps F] (main_arg3 : IVec S128x128x3 32) (main_v13 : IVec S_ 1) (main_v15 : IVec S128x128 32) (main_v16 : IVec S128x128 32) : IVec S_ 1 :=
  let main_v17 : IVec S128x128 1 := cmpi .sge main_v15 main_v16
  let main_c_5 : IVec S_ 1 := constantI S_ 1 1#1
  let main_v18 : IVec S_ 1 := (fun x v => Host.reduce IntOp.andi x v reducesTo_S128x128_S_d0_1 h_S_) main_v17 main_c_5
  let main_v19 : IVec S_ 1 := andi main_v13 main_v18
  let main_v20 : IVec S128x128x1 32 := (extractStridedSlice S128x128x1 ![0, 0, 0] · slices_S128x128x3_S128x128x1_0_0_0) main_arg3
  let main_v21 : IVec S128x128 32 := shapeCast S128x128 main_v20 shapeCasts_S128x128x1_S128x128
  let main_c_6 : IVec S_ 32 := constantI S_ 32 128#32
  let main_v22 : IVec S128x128 32 := broadcastInDim S128x128 ![] bcast_S_S128x128 main_c_6
  let main_v23 : IVec S128x128 1 := cmpi .slt main_v21 main_v22
  let main_c_7 : IVec S_ 1 := constantI S_ 1 1#1
  let main_v24 : IVec S_ 1 := (fun x v => Host.reduce IntOp.andi x v reducesTo_S128x128_S_d0_1 h_S_) main_v23 main_c_7
  let main_v25 : IVec S_ 1 := andi main_v19 main_v24
  let main_v26 : IVec S128x128x1 32 := (extractStridedSlice S128x128x1 ![0, 0, 1] · slices_S128x128x3_S128x128x1_0_0_1) main_arg3
  let main_v27 : IVec S128x128 32 := shapeCast S128x128 main_v26 shapeCasts_S128x128x1_S128x128
  let main_c_8 : IVec S_ 32 := constantI S_ 32 0#32
  let main_v28 : IVec S128x128 32 := broadcastInDim S128x128 ![] bcast_S_S128x128 main_c_8
  let main_v29 : IVec S128x128 1 := cmpi .sge main_v27 main_v28
  let main_c_9 : IVec S_ 1 := constantI S_ 1 1#1
  let main_v30 : IVec S_ 1 := (fun x v => Host.reduce IntOp.andi x v reducesTo_S128x128_S_d0_1 h_S_) main_v29 main_c_9
  let main_v31 : IVec S_ 1 := andi main_v25 main_v30
  let main_v32 : IVec S128x128x1 32 := (extractStridedSlice S128x128x1 ![0, 0, 1] · slices_S128x128x3_S128x128x1_0_0_1) main_arg3
  let main_v33 : IVec S128x128 32 := shapeCast S128x128 main_v32 shapeCasts_S128x128x1_S128x128
  let main_c_10 : IVec S_ 32 := constantI S_ 32 65536#32
  let main_v34 : IVec S128x128 32 := broadcastInDim S128x128 ![] bcast_S_S128x128 main_c_10
  fn_part2 (F := F) main_v31 main_v33 main_v34

def fn {F : FTy → Type} [FloatOps F] (main_arg0 : FVec F S128x256x256x4 .f32) (main_arg1 : FVec F S128x128x4 .f32) (main_arg2 : FVec F S128x128 .f32) (main_arg3 : IVec S128x128x3 32) : IVec S_ 1 :=
  let main_v0 : FVec F S128x256x256x4 .f32 := Host.absf main_arg0
  let main_cst : FVec F S_ .f32 := constant S_ .f32 0x7F800000#32
  let main_v1 : FVec F S128x256x256x4 .f32 := broadcastInDim S128x256x256x4 ![] bcast_S_S128x256x256x4 main_cst
  let main_v2 : IVec S128x256x256x4 1 := cmpf .olt main_v0 main_v1
  let main_c : IVec S_ 1 := constantI S_ 1 1#1
  let main_v3 : IVec S_ 1 := (fun x v => Host.reduce IntOp.andi x v reducesTo_S128x256x256x4_S_d0_1_2_3 h_S_) main_v2 main_c
  let main_v4 : FVec F S128x128x4 .f32 := Host.absf main_arg1
  let main_cst_0 : FVec F S_ .f32 := constant S_ .f32 0x7F800000#32
  let main_v5 : FVec F S128x128x4 .f32 := broadcastInDim S128x128x4 ![] bcast_S_S128x128x4 main_cst_0
  let main_v6 : IVec S128x128x4 1 := cmpf .olt main_v4 main_v5
  let main_c_1 : IVec S_ 1 := constantI S_ 1 1#1
  let main_v7 : IVec S_ 1 := (fun x v => Host.reduce IntOp.andi x v reducesTo_S128x128x4_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S128x128x1 32 := (extractStridedSlice S128x128x1 ![0, 0, 0] · slices_S128x128x3_S128x128x1_0_0_0) main_arg3
  let main_v15 : IVec S128x128 32 := shapeCast S128x128 main_v14 shapeCasts_S128x128x1_S128x128
  let main_c_4 : IVec S_ 32 := constantI S_ 32 0#32
  let main_v16 : IVec S128x128 32 := broadcastInDim S128x128 ![] bcast_S_S128x128 main_c_4
  fn_part1 (F := F) main_arg3 main_v13 main_v15 main_v16
-- ==== Kernel.lean ====
abbrev S128x256x256x4 : Shape := ⟨4, ![128, 256, 256, 4]⟩
abbrev S128x128x4 : Shape := ⟨3, ![128, 128, 4]⟩
abbrev S128x128 : Shape := ⟨2, ![128, 128]⟩
abbrev S128x128x3 : Shape := ⟨3, ![128, 128, 3]⟩
abbrev S8388608x4 : Shape := ⟨2, ![8388608, 4]⟩
abbrev S128x128x1 : Shape := ⟨3, ![128, 128, 1]⟩
abbrev S_ : Shape := ⟨0, ![]⟩
abbrev S1x128x4 : Shape := ⟨3, ![1, 128, 4]⟩
abbrev S1x128x1 : Shape := ⟨3, ![1, 128, 1]⟩
abbrev S128x4 : Shape := ⟨2, ![128, 4]⟩
abbrev S128 : Shape := ⟨1, ![128]⟩
abbrev S1x1 : Shape := ⟨2, ![1, 1]⟩
abbrev S1 : Shape := ⟨1, ![1]⟩
abbrev S1x4 : Shape := ⟨2, ![1, 4]⟩
abbrev S4 : Shape := ⟨1, ![4]⟩
abbrev S128x1 : Shape := ⟨2, ![128, 1]⟩

abbrev nBuf : Space → Nat
  | .hbm => 27
  | .vmem => 7
  | .smem => 1
  | _ => 0

abbrev bufTy : (tb : Table) → Fin (tcTables nBuf tb) → BufTy
  | .hbm, ⟨0, _⟩ => ⟨S128x256x256x4, .f32⟩
  | .hbm, ⟨1, _⟩ => ⟨S128x128x4, .f32⟩
  | .hbm, ⟨2, _⟩ => ⟨S128x128, .f32⟩
  | .hbm, ⟨3, _⟩ => ⟨S128x128x3, .i32⟩
  | .hbm, ⟨4, _⟩ => ⟨S8388608x4, .f32⟩
  | .hbm, ⟨5, _⟩ => ⟨S128x128x1, .i32⟩
  | .hbm, ⟨6, _⟩ => ⟨S128x128, .i32⟩
  | .hbm, ⟨7, _⟩ => ⟨S128x128x1, .i32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128x1, .f32⟩
  | .hbm, ⟨21, _⟩ => ⟨S128x128x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x128x4, .f32⟩
  | .local _ .vmem, ⟨1, _⟩ => ⟨S1x128x4, .f32⟩
  | .local _ .vmem, ⟨2, _⟩ => ⟨S1x128x1, .f32⟩
  | .local _ .vmem, ⟨3, _⟩ => ⟨S1x128x1, .f32⟩
  | .local _ .vmem, ⟨4, _⟩ => ⟨S1x128x1, .f32⟩
  | .local _ .vmem, ⟨5, _⟩ => ⟨S1x128x1, .f32⟩
  | .local _ .vmem, ⟨6, _⟩ => ⟨S128x4, .f32⟩
  | .local _ .smem, ⟨0, _⟩ => ⟨S128x128, .i32⟩
  | _, _ => ⟨S128x256x256x4, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (v1 : BitVec 32) : Fin 2 → Nat :=
  let c0_i32_2 : BitVec 32 := 0#32
  ![v1.toNat, 0]

def k0_chk1 (v1 : BitVec 32) : Prop :=
  (∀ a, (k0_off2 v1) a + S1x4.size a ≤ S8388608x4.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x4.size a ≤ S8388608x4.size a := fun v1 k0_hw1 => k0_hw1

def k0_off3 (i : grid0.Coords) : Fin 2 → Nat :=
  let arg0 : BitVec 32 := BitVec.ofNat 32 (i 0).val
  let v8 : Index := Scalar.indexCast arg0
  let c1 : Index := 1#32
  ![v8.toNat, 1]
def k0_off4 (v9 : BitVec 32) : Fin 2 → Nat :=
  let c0_i32_5 : BitVec 32 := 0#32
  ![v9.toNat, 0]

def k0_chk2 (v9 : BitVec 32) : Prop :=
  (∀ a, (k0_off4 v9) a + S1x4.size a ≤ S8388608x4.size a)
instance k0_chk2.dec : ∀ (v9 : BitVec 32), Decidable (k0_chk2 v9) := fun v9 => decidable_of_iff' _ (Iff.of_eq (k0_chk2.eq_1 v9))
theorem k0_off4_inb : ∀ (v9 : BitVec 32) (k0_hw2 : k0_chk2 v9), ∀ a, (k0_off4 v9) a + S1x4.size a ≤ S8388608x4.size a := fun v9 k0_hw2 => k0_hw2

def k0_off5 (i : grid0.Coords) : Fin 2 → Nat :=
  let arg0 : BitVec 32 := BitVec.ofNat 32 (i 0).val
  let v16 : Index := Scalar.indexCast arg0
  let c2 : Index := 2#32
  ![v16.toNat, 2]
def k0_off6 (v17 : BitVec 32) : Fin 2 → Nat :=
  let c0_i32_8 : BitVec 32 := 0#32
  ![v17.toNat, 0]

def k0_chk3 (v17 : BitVec 32) : Prop :=
  (∀ a, (k0_off6 v17) a + S1x4.size a ≤ S8388608x4.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S1x4.size a ≤ S8388608x4.size a := fun v17 k0_hw3 => k0_hw3

def k0_off7 (i : grid0.Coords) : Fin 2 → Nat :=
  let arg0 : BitVec 32 := BitVec.ofNat 32 (i 0).val
  let v24 : Index := Scalar.indexCast arg0
  let c3 : Index := 3#32
  ![v24.toNat, 3]
def k0_off8 (v25 : BitVec 32) : Fin 2 → Nat :=
  let c0_i32_11 : BitVec 32 := 0#32
  ![v25.toNat, 0]

def k0_chk4 (v25 : BitVec 32) : Prop :=
  (∀ a, (k0_off8 v25) a + S1x4.size a ≤ S8388608x4.size a)
instance k0_chk4.dec : ∀ (v25 : BitVec 32), Decidable (k0_chk4 v25) := fun v25 => decidable_of_iff' _ (Iff.of_eq (k0_chk4.eq_1 v25))
theorem k0_off8_inb : ∀ (v25 : BitVec 32) (k0_hw4 : k0_chk4 v25), ∀ a, (k0_off8 v25) a + S1x4.size a ≤ S8388608x4.size a := fun v25 k0_hw4 => k0_hw4

def k0_off9 (i : grid0.Coords) : Fin 2 → Nat :=
  let arg0 : BitVec 32 := BitVec.ofNat 32 (i 0).val
  let v32 : Index := Scalar.indexCast arg0
  let c4 : Index := 4#32
  ![v32.toNat, 4]
def k0_off10 (v33 : BitVec 32) : Fin 2 → Nat :=
  let c0_i32_14 : BitVec 32 := 0#32
  ![v33.toNat, 0]

def k0_chk5 (v33 : BitVec 32) : Prop :=
  (∀ a, (k0_off10 v33) a + S1x4.size a ≤ S8388608x4.size a)
instance k0_chk5.dec : ∀ (v33 : BitVec 32), Decidable (k0_chk5 v33) := fun v33 => decidable_of_iff' _ (Iff.of_eq (k0_chk5.eq_1 v33))
theorem k0_off10_inb : ∀ (v33 : BitVec 32) (k0_hw5 : k0_chk5 v33), ∀ a, (k0_off10 v33) a + S1x4.size a ≤ S8388608x4.size a := fun v33 k0_hw5 => k0_hw5

def k0_off11 (i : grid0.Coords) : Fin 2 → Nat :=
  let arg0 : BitVec 32 := BitVec.ofNat 32 (i 0).val
  let v40 : Index := Scalar.indexCast arg0
  let c5 : Index := 5#32
  ![v40.toNat, 5]
def k0_off12 (v41 : BitVec 32) : Fin 2 → Nat :=
  let c0_i32_17 : BitVec 32 := 0#32
  ![v41.toNat, 0]

def k0_chk6 (v41 : BitVec 32) : Prop :=
  (∀ a, (k0_off12 v41) a + S1x4.size a ≤ S8388608x4.size a)
instance k0_chk6.dec : ∀ (v41 : BitVec 32), Decidable (k0_chk6 v41) := fun v41 => decidable_of_iff' _ (Iff.of_eq (k0_chk6.eq_1 v41))
theorem k0_off12_inb : ∀ (v41 : BitVec 32) (k0_hw6 : k0_chk6 v41), ∀ a, (k0_off12 v41) a + S1x4.size a ≤ S8388608x4.size a := fun v41 k0_hw6 => k0_hw6

def k0_off13 (i : grid0.Coords) : Fin 2 → Nat :=
  let arg0 : BitVec 32 := BitVec.ofNat 32 (i 0).val
  let v48 : Index := Scalar.indexCast arg0
  let c6 : Index := 6#32
  ![v48.toNat, 6]
def k0_off14 (v49 : BitVec 32) : Fin 2 → Nat :=
  let c0_i32_20 : BitVec 32 := 0#32
  ![v49.toNat, 0]

def k0_chk7 (v49 : BitVec 32) : Prop :=
  (∀ a, (k0_off14 v49) a + S1x4.size a ≤ S8388608x4.size a)
instance k0_chk7.dec : ∀ (v49 : BitVec 32), Decidable (k0_chk7 v49) := fun v49 => decidable_of_iff' _ (Iff.of_eq (k0_chk7.eq_1 v49))
theorem k0_off14_inb : ∀ (v49 : BitVec 32) (k0_hw7 : k0_chk7 v49), ∀ a, (k0_off14 v49) a + S1x4.size a ≤ S8388608x4.size a := fun v49 k0_hw7 => k0_hw7

def k0_off15 (i : grid0.Coords) : Fin 2 → Nat :=
  let arg0 : BitVec 32 := BitVec.ofNat 32 (i 0).val
  let v56 : Index := Scalar.indexCast arg0
  let c7 : Index := 7#32
  ![v56.toNat, 7]
def k0_off16 (v57 : BitVec 32) : Fin 2 → Nat :=
  let c0_i32_23 : BitVec 32 := 0#32
  ![v57.toNat, 0]

def k0_chk8 (v57 : BitVec 32) : Prop :=
  (∀ a, (k0_off16 v57) a + S1x4.size a ≤ S8388608x4.size a)
instance k0_chk8.dec : ∀ (v57 : BitVec 32), Decidable (k0_chk8 v57) := fun v57 => decidable_of_iff' _ (Iff.of_eq (k0_chk8.eq_1 v57))
theorem k0_off16_inb : ∀ (v57 : BitVec 32) (k0_hw8 : k0_chk8 v57), ∀ a, (k0_off16 v57) a + S1x4.size a ≤ S8388608x4.size a := fun v57 k0_hw8 => k0_hw8

def k0_off17 (i : grid0.Coords) : Fin 2 → Nat :=
  let arg0 : BitVec 32 := BitVec.ofNat 32 (i 0).val
  let v64 : Index := Scalar.indexCast arg0
  let c8 : Index := 8#32
  ![v64.toNat, 8]
def k0_off18 (v65 : BitVec 32) : Fin 2 → Nat :=
  let c0_i32_26 : BitVec 32 := 0#32
  ![v65.toNat, 0]

def k0_chk9 (v65 : BitVec 32) : Prop :=
  (∀ a, (k0_off18 v65) a + S1x4.size a ≤ S8388608x4.size a)
instance k0_chk9.dec : ∀ (v65 : BitVec 32), Decidable (k0_chk9 v65) := fun v65 => decidable_of_iff' _ (Iff.of_eq (k0_chk9.eq_1 v65))
theorem k0_off18_inb : ∀ (v65 : BitVec 32) (k0_hw9 : k0_chk9 v65), ∀ a, (k0_off18 v65) a + S1x4.size a ≤ S8388608x4.size a := fun v65 k0_hw9 => k0_hw9

def k0_off19 (i : grid0.Coords) : Fin 2 → Nat :=
  let arg0 : BitVec 32 := BitVec.ofNat 32 (i 0).val
  let v72 : Index := Scalar.indexCast arg0
  let c9 : Index := 9#32
  ![v72.toNat, 9]
def k0_off20 (v73 : BitVec 32) : Fin 2 → Nat :=
  let c0_i32_29 : BitVec 32 := 0#32
  ![v73.toNat, 0]

def k0_chk10 (v73 : BitVec 32) : Prop :=
  (∀ a, (k0_off20 v73) a + S1x4.size a ≤ S8388608x4.size a)
instance k0_chk10.dec : ∀ (v73 : BitVec 32), Decidable (k0_chk10 v73) := fun v73 => decidable_of_iff' _ (Iff.of_eq (k0_chk10.eq_1 v73))
theorem k0_off20_inb : ∀ (v73 : BitVec 32) (k0_hw10 : k0_chk10 v73), ∀ a, (k0_off20 v73) a + S1x4.size a ≤ S8388608x4.size a := fun v73 k0_hw10 => k0_hw10

def k0_off21 (i : grid0.Coords) : Fin 2 → Nat :=
  let arg0 : BitVec 32 := BitVec.ofNat 32 (i 0).val
  let v80 : Index := Scalar.indexCast arg0
  let c10 : Index := 10#32
  ![v80.toNat, 10]
def k0_off22 (v81 : BitVec 32) : Fin 2 → Nat :=
  let c0_i32_32 : BitVec 32 := 0#32
  ![v81.toNat, 0]

def k0_chk11 (v81 : BitVec 32) : Prop :=
  (∀ a, (k0_off22 v81) a + S1x4.size a ≤ S8388608x4.size a)
instance k0_chk11.dec : ∀ (v81 : BitVec 32), Decidable (k0_chk11 v81) := fun v81 => decidable_of_iff' _ (Iff.of_eq (k0_chk11.eq_1 v81))
theorem k0_off22_inb : ∀ (v81 : BitVec 32) (k0_hw11 : k0_chk11 v81), ∀ a, (k0_off22 v81) a + S1x4.size a ≤ S8388608x4.size a := fun v81 k0_hw11 => k0_hw11

def k0_off23 (i : grid0.Coords) : Fin 2 → Nat :=
  let arg0 : BitVec 32 := BitVec.ofNat 32 (i 0).val
  let v88 : Index := Scalar.indexCast arg0
  let c11 : Index := 11#32
  ![v88.toNat, 11]
def k0_off24 (v89 : BitVec 32) : Fin 2 → Nat :=
  let c0_i32_35 : BitVec 32 := 0#32
  ![v89.toNat, 0]

def k0_chk12 (v89 : BitVec 32) : Prop :=
  (∀ a, (k0_off24 v89) a + S1x4.size a ≤ S8388608x4.size a)
instance k0_chk12.dec : ∀ (v89 : BitVec 32), Decidable (k0_chk12 v89) := fun v89 => decidable_of_iff' _ (Iff.of_eq (k0_chk12.eq_1 v89))
theorem k0_off24_inb : ∀ (v89 : BitVec 32) (k0_hw12 : k0_chk12 v89), ∀ a, (k0_off24 v89) a + S1x4.size a ≤ S8388608x4.size a := fun v89 k0_hw12 => k0_hw12

def k0_off25 (i : grid0.Coords) : Fin 2 → Nat :=
  let arg0 : BitVec 32 := BitVec.ofNat 32 (i 0).val
  let v96 : Index := Scalar.indexCast arg0
  let c12 : Index := 12#32
  ![v96.toNat, 12]
def k0_off26 (v97 : BitVec 32) : Fin 2 → Nat :=
  let c0_i32_38 : BitVec 32 := 0#32
  ![v97.toNat, 0]

def k0_chk13 (v97 : BitVec 32) : Prop :=
  (∀ a, (k0_off26 v97) a + S1x4.size a ≤ S8388608x4.size a)
instance k0_chk13.dec : ∀ (v97 : BitVec 32), Decidable (k0_chk13 v97) := fun v97 => decidable_of_iff' _ (Iff.of_eq (k0_chk13.eq_1 v97))
theorem k0_off26_inb : ∀ (v97 : BitVec 32) (k0_hw13 : k0_chk13 v97), ∀ a, (k0_off26 v97) a + S1x4.size a ≤ S8388608x4.size a := fun v97 k0_hw13 => k0_hw13

def k0_off27 (i : grid0.Coords) : Fin 2 → Nat :=
  let arg0 : BitVec 32 := BitVec.ofNat 32 (i 0).val
  let v104 : Index := Scalar.indexCast arg0
  let c13 : Index := 13#32
  ![v104.toNat, 13]
def k0_off28 (v105 : BitVec 32) : Fin 2 → Nat :=
  let c0_i32_41 : BitVec 32 := 0#32
  ![v105.toNat, 0]

def k0_chk14 (v105 : BitVec 32) : Prop :=
  (∀ a, (k0_off28 v105) a + S1x4.size a ≤ S8388608x4.size a)
instance k0_chk14.dec : ∀ (v105 : BitVec 32), Decidable (k0_chk14 v105) := fun v105 => decidable_of_iff' _ (Iff.of_eq (k0_chk14.eq_1 v105))
theorem k0_off28_inb : ∀ (v105 : BitVec 32) (k0_hw14 : k0_chk14 v105), ∀ a, (k0_off28 v105) a + S1x4.size a ≤ S8388608x4.size a := fun v105 k0_hw14 => k0_hw14

def k0_off29 (i : grid0.Coords) : Fin 2 → Nat :=
  let arg0 : BitVec 32 := BitVec.ofNat 32 (i 0).val
  let v112 : Index := Scalar.indexCast arg0
  let c14 : Index := 14#32
  ![v112.toNat, 14]
def k0_off30 (v113 : BitVec 32) : Fin 2 → Nat :=
  let c0_i32_44 : BitVec 32 := 0#32
  ![v113.toNat, 0]

def k0_chk15 (v113 : BitVec 32) : Prop :=
  (∀ a, (k0_off30 v113) a + S1x4.size a ≤ S8388608x4.size a)
instance k0_chk15.dec : ∀ (v113 : BitVec 32), Decidable (k0_chk15 v113) := fun v113 => decidable_of_iff' _ (Iff.of_eq (k0_chk15.eq_1 v113))
theorem k0_off30_inb : ∀ (v113 : BitVec 32) (k0_hw15 : k0_chk15 v113), ∀ a, (k0_off30 v113) a + S1x4.size a ≤ S8388608x4.size a := fun v113 k0_hw15 => k0_hw15

def k0_off31 (i : grid0.Coords) : Fin 2 → Nat :=
  let arg0 : BitVec 32 := BitVec.ofNat 32 (i 0).val
  let v120 : Index := Scalar.indexCast arg0
  let c15 : Index := 15#32
  ![v120.toNat, 15]
def k0_off32 (v121 : BitVec 32) : Fin 2 → Nat :=
  let c0_i32_47 : BitVec 32 := 0#32
  ![v121.toNat, 0]

def k0_chk16 (v121 : BitVec 32) : Prop :=
  (∀ a, (k0_off32 v121) a + S1x4.size a ≤ S8388608x4.size a)
instance k0_chk16.dec : ∀ (v121 : BitVec 32), Decidable (k0_chk16 v121) := fun v121 => decidable_of_iff' _ (Iff.of_eq (k0_chk16.eq_1 v121))
theorem k0_off32_inb : ∀ (v121 : BitVec 32) (k0_hw16 : k0_chk16 v121), ∀ a, (k0_off32 v121) a + S1x4.size a ≤ S8388608x4.size a := fun v121 k0_hw16 => k0_hw16

def k0_off33 (i : grid0.Coords) : Fin 2 → Nat :=
  let arg0 : BitVec 32 := BitVec.ofNat 32 (i 0).val
  let v128 : Index := Scalar.indexCast arg0
  let c16 : Index := 16#32
  ![v128.toNat, 16]
def k0_off34 (v129 : BitVec 32) : Fin 2 → Nat :=
  let c0_i32_50 : BitVec 32 := 0#32
  ![v129.toNat, 0]

def k0_chk17 (v129 : BitVec 32) : Prop :=
  (∀ a, (k0_off34 v129) a + S1x4.size a ≤ S8388608x4.size a)
instance k0_chk17.dec : ∀ (v129 : BitVec 32), Decidable (k0_chk17 v129) := fun v129 => decidable_of_iff' _ (Iff.of_eq (k0_chk17.eq_1 v129))
theorem k0_off34_inb : ∀ (v129 : BitVec 32) (k0_hw17 : k0_chk17 v129), ∀ a, (k0_off34 v129) a + S1x4.size a ≤ S8388608x4.size a := fun v129 k0_hw17 => k0_hw17

def k0_off35 (i : grid0.Coords) : Fin 2 → Nat :=
  let arg0 : BitVec 32 := BitVec.ofNat 32 (i 0).val
  let v136 : Index := Scalar.indexCast arg0
  let c17 : Index := 17#32
  ![v136.toNat, 17]
def k0_off36 (v137 : BitVec 32) : Fin 2 → Nat :=
  let c0_i32_53 : BitVec 32 := 0#32
  ![v137.toNat, 0]

def k0_chk18 (v137 : BitVec 32) : Prop :=
  (∀ a, (k0_off36 v137) a + S1x4.size a ≤ S8388608x4.size a)
instance k0_chk18.dec : ∀ (v137 : BitVec 32), Decidable (k0_chk18 v137) := fun v137 => decidable_of_iff' _ (Iff.of_eq (k0_chk18.eq_1 v137))
theorem k0_off36_inb : ∀ (v137 : BitVec 32) (k0_hw18 : k0_chk18 v137), ∀ a, (k0_off36 v137) a + S1x4.size a ≤ S8388608x4.size a := fun v137 k0_hw18 => k0_hw18

def k0_off37 (i : grid0.Coords) : Fin 2 → Nat :=
  let arg0 : BitVec 32 := BitVec.ofNat 32 (i 0).val
  let v144 : Index := Scalar.indexCast arg0
  let c18 : Index := 18#32
  ![v144.toNat, 18]
def k0_off38 (v145 : BitVec 32) : Fin 2 → Nat :=
  let c0_i32_56 : BitVec 32 := 0#32
  ![v145.toNat, 0]

def k0_chk19 (v145 : BitVec 32) : Prop :=
  (∀ a, (k0_off38 v145) a + S1x4.size a ≤ S8388608x4.size a)
instance k0_chk19.dec : ∀ (v145 : BitVec 32), Decidable (k0_chk19 v145) := fun v145 => decidable_of_iff' _ (Iff.of_eq (k0_chk19.eq_1 v145))
theorem k0_off38_inb : ∀ (v145 : BitVec 32) (k0_hw19 : k0_chk19 v145), ∀ a, (k0_off38 v145) a + S1x4.size a ≤ S8388608x4.size a := fun v145 k0_hw19 => k0_hw19

def k0_off39 (i : grid0.Coords) : Fin 2 → Nat :=
  let arg0 : BitVec 32 := BitVec.ofNat 32 (i 0).val
  let v152 : Index := Scalar.indexCast arg0
  let c19 : Index := 19#32
  ![v152.toNat, 19]
def k0_off40 (v153 : BitVec 32) : Fin 2 → Nat :=
  let c0_i32_59 : BitVec 32 := 0#32
  ![v153.toNat, 0]

def k0_chk20 (v153 : BitVec 32) : Prop :=
  (∀ a, (k0_off40 v153) a + S1x4.size a ≤ S8388608x4.size a)
instance k0_chk20.dec : ∀ (v153 : BitVec 32), Decidable (k0_chk20 v153) := fun v153 => decidable_of_iff' _ (Iff.of_eq (k0_chk20.eq_1 v153))
theorem k0_off40_inb : ∀ (v153 : BitVec 32) (k0_hw20 : k0_chk20 v153), ∀ a, (k0_off40 v153) a + S1x4.size a ≤ S8388608x4.size a := fun v153 k0_hw20 => k0_hw20

def k0_off41 (i : grid0.Coords) : Fin 2 → Nat :=
  let arg0 : BitVec 32 := BitVec.ofNat 32 (i 0).val
  let v160 : Index := Scalar.indexCast arg0
  let c20 : Index := 20#32
  ![v160.toNat, 20]
def k0_off42 (v161 : BitVec 32) : Fin 2 → Nat :=
  let c0_i32_62 : BitVec 32 := 0#32
  ![v161.toNat, 0]

def k0_chk21 (v161 : BitVec 32) : Prop :=
  (∀ a, (k0_off42 v161) a + S1x4.size a ≤ S8388608x4.size a)
instance k0_chk21.dec : ∀ (v161 : BitVec 32), Decidable (k0_chk21 v161) := fun v161 => decidable_of_iff' _ (Iff.of_eq (k0_chk21.eq_1 v161))
theorem k0_off42_inb : ∀ (v161 : BitVec 32) (k0_hw21 : k0_chk21 v161), ∀ a, (k0_off42 v161) a + S1x4.size a ≤ S8388608x4.size a := fun v161 k0_hw21 => k0_hw21

def k0_off43 (i : grid0.Coords) : Fin 2 → Nat :=
  let arg0 : BitVec 32 := BitVec.ofNat 32 (i 0).val
  let v168 : Index := Scalar.indexCast arg0
  let c21 : Index := 21#32
  ![v168.toNat, 21]
def k0_off44 (v169 : BitVec 32) : Fin 2 → Nat :=
  let c0_i32_65 : BitVec 32 := 0#32
  ![v169.toNat, 0]

def k0_chk22 (v169 : BitVec 32) : Prop :=
  (∀ a, (k0_off44 v169) a + S1x4.size a ≤ S8388608x4.size a)
instance k0_chk22.dec : ∀ (v169 : BitVec 32), Decidable (k0_chk22 v169) := fun v169 => decidable_of_iff' _ (Iff.of_eq (k0_chk22.eq_1 v169))
theorem k0_off44_inb : ∀ (v169 : BitVec 32) (k0_hw22 : k0_chk22 v169), ∀ a, (k0_off44 v169) a + S1x4.size a ≤ S8388608x4.size a := fun v169 k0_hw22 => k0_hw22

def k0_off45 (i : grid0.Coords) : Fin 2 → Nat :=
  let arg0 : BitVec 32 := BitVec.ofNat 32 (i 0).val
  let v176 : Index := Scalar.indexCast arg0
  let c22 : Index := 22#32
  ![v176.toNat, 22]
def k0_off46 (v177 : BitVec 32) : Fin 2 → Nat :=
  let c0_i32_68 : BitVec 32 := 0#32
  ![v177.toNat, 0]

def k0_chk23 (v177 : BitVec 32) : Prop :=
  (∀ a, (k0_off46 v177) a + S1x4.size a ≤ S8388608x4.size a)
instance k0_chk23.dec : ∀ (v177 : BitVec 32), Decidable (k0_chk23 v177) := fun v177 => decidable_of_iff' _ (Iff.of_eq (k0_chk23.eq_1 v177))
theorem k0_off46_inb : ∀ (v177 : BitVec 32) (k0_hw23 : k0_chk23 v177), ∀ a, (k0_off46 v177) a + S1x4.size a ≤ S8388608x4.size a := fun v177 k0_hw23 => k0_hw23

def k0_off47 (i : grid0.Coords) : Fin 2 → Nat :=
  let arg0 : BitVec 32 := BitVec.ofNat 32 (i 0).val
  let v184 : Index := Scalar.indexCast arg0
  let c23 : Index := 23#32
  ![v184.toNat, 23]
def k0_off48 (v185 : BitVec 32) : Fin 2 → Nat :=
  let c0_i32_71 : BitVec 32 := 0#32
  ![v185.toNat, 0]

def k0_chk24 (v185 : BitVec 32) : Prop :=
  (∀ a, (k0_off48 v185) a + S1x4.size a ≤ S8388608x4.size a)
instance k0_chk24.dec : ∀ (v185 : BitVec 32), Decidable (k0_chk24 v185) := fun v185 => decidable_of_iff' _ (Iff.of_eq (k0_chk24.eq_1 v185))
theorem k0_off48_inb : ∀ (v185 : BitVec 32) (k0_hw24 : k0_chk24 v185), ∀ a, (k0_off48 v185) a + S1x4.size a ≤ S8388608x4.size a := fun v185 k0_hw24 => k0_hw24

def k0_off49 (i : grid0.Coords) : Fin 2 → Nat :=
  let arg0 : BitVec 32 := BitVec.ofNat 32 (i 0).val
  let v192 : Index := Scalar.indexCast arg0
  let c24 : Index := 24#32
  ![v192.toNat, 24]
def k0_off50 (v193 : BitVec 32) : Fin 2 → Nat :=
  let c0_i32_74 : BitVec 32 := 0#32
  ![v193.toNat, 0]

def k0_chk25 (v193 : BitVec 32) : Prop :=
  (∀ a, (k0_off50 v193) a + S1x4.size a ≤ S8388608x4.size a)
instance k0_chk25.dec : ∀ (v193 : BitVec 32), Decidable (k0_chk25 v193) := fun v193 => decidable_of_iff' _ (Iff.of_eq (k0_chk25.eq_1 v193))
theorem k0_off50_inb : ∀ (v193 : BitVec 32) (k0_hw25 : k0_chk25 v193), ∀ a, (k0_off50 v193) a + S1x4.size a ≤ S8388608x4.size a := fun v193 k0_hw25 => k0_hw25

def k0_off51 (i : grid0.Coords) : Fin 2 → Nat :=
  let arg0 : BitVec 32 := BitVec.ofNat 32 (i 0).val
  let v200 : Index := Scalar.indexCast arg0
  let c25 : Index := 25#32
  ![v200.toNat, 25]
def k0_off52 (v201 : BitVec 32) : Fin 2 → Nat :=
  let c0_i32_77 : BitVec 32 := 0#32
  ![v201.toNat, 0]

def k0_chk26 (v201 : BitVec 32) : Prop :=
  (∀ a, (k0_off52 v201) a + S1x4.size a ≤ S8388608x4.size a)
instance k0_chk26.dec : ∀ (v201 : BitVec 32), Decidable (k0_chk26 v201) := fun v201 => decidable_of_iff' _ (Iff.of_eq (k0_chk26.eq_1 v201))
theorem k0_off52_inb : ∀ (v201 : BitVec 32) (k0_hw26 : k0_chk26 v201), ∀ a, (k0_off52 v201) a + S1x4.size a ≤ S8388608x4.size a := fun v201 k0_hw26 => k0_hw26

def k0_off53 (i : grid0.Coords) : Fin 2 → Nat :=
  let arg0 : BitVec 32 := BitVec.ofNat 32 (i 0).val
  let v208 : Index := Scalar.indexCast arg0
  let c26 : Index := 26#32
  ![v208.toNat, 26]
def k0_off54 (v209 : BitVec 32) : Fin 2 → Nat :=
  let c0_i32_80 : BitVec 32 := 0#32
  ![v209.toNat, 0]

def k0_chk27 (v209 : BitVec 32) : Prop :=
  (∀ a, (k0_off54 v209) a + S1x4.size a ≤ S8388608x4.size a)
instance k0_chk27.dec : ∀ (v209 : BitVec 32), Decidable (k0_chk27 v209) := fun v209 => decidable_of_iff' _ (Iff.of_eq (k0_chk27.eq_1 v209))
theorem k0_off54_inb : ∀ (v209 : BitVec 32) (k0_hw27 : k0_chk27 v209), ∀ a, (k0_off54 v209) a + S1x4.size a ≤ S8388608x4.size a := fun v209 k0_hw27 => k0_hw27

def k0_off55 (i : grid0.Coords) : Fin 2 → Nat :=
  let arg0 : BitVec 32 := BitVec.ofNat 32 (i 0).val
  let v216 : Index := Scalar.indexCast arg0
  let c27 : Index := 27#32
  ![v216.toNat, 27]
def k0_off56 (v217 : BitVec 32) : Fin 2 → Nat :=
  let c0_i32_83 : BitVec 32 := 0#32
  ![v217.toNat, 0]

def k0_chk28 (v217 : BitVec 32) : Prop :=
  (∀ a, (k0_off56 v217) a + S1x4.size a ≤ S8388608x4.size a)
instance k0_chk28.dec : ∀ (v217 : BitVec 32), Decidable (k0_chk28 v217) := fun v217 => decidable_of_iff' _ (Iff.of_eq (k0_chk28.eq_1 v217))
theorem k0_off56_inb : ∀ (v217 : BitVec 32) (k0_hw28 : k0_chk28 v217), ∀ a, (k0_off56 v217) a + S1x4.size a ≤ S8388608x4.size a := fun v217 k0_hw28 => k0_hw28

def k0_off57 (i : grid0.Coords) : Fin 2 → Nat :=
  let arg0 : BitVec 32 := BitVec.ofNat 32 (i 0).val
  let v224 : Index := Scalar.indexCast arg0
  let c28 : Index := 28#32
  ![v224.toNat, 28]
def k0_off58 (v225 : BitVec 32) : Fin 2 → Nat :=
  let c0_i32_86 : BitVec 32 := 0#32
  ![v225.toNat, 0]

def k0_chk29 (v225 : BitVec 32) : Prop :=
  (∀ a, (k0_off58 v225) a + S1x4.size a ≤ S8388608x4.size a)
instance k0_chk29.dec : ∀ (v225 : BitVec 32), Decidable (k0_chk29 v225) := fun v225 => decidable_of_iff' _ (Iff.of_eq (k0_chk29.eq_1 v225))
theorem k0_off58_inb : ∀ (v225 : BitVec 32) (k0_hw29 : k0_chk29 v225), ∀ a, (k0_off58 v225) a + S1x4.size a ≤ S8388608x4.size a := fun v225 k0_hw29 => k0_hw29

def k0_off59 (i : grid0.Coords) : Fin 2 → Nat :=
  let arg0 : BitVec 32 := BitVec.ofNat 32 (i 0).val
  let v232 : Index := Scalar.indexCast arg0
  let c29 : Index := 29#32
  ![v232.toNat, 29]
def k0_off60 (v233 : BitVec 32) : Fin 2 → Nat :=
  let c0_i32_89 : BitVec 32 := 0#32
  ![v233.toNat, 0]

def k0_chk30 (v233 : BitVec 32) : Prop :=
  (∀ a, (k0_off60 v233) a + S1x4.size a ≤ S8388608x4.size a)
instance k0_chk30.dec : ∀ (v233 : BitVec 32), Decidable (k0_chk30 v233) := fun v233 => decidable_of_iff' _ (Iff.of_eq (k0_chk30.eq_1 v233))
theorem k0_off60_inb : ∀ (v233 : BitVec 32) (k0_hw30 : k0_chk30 v233), ∀ a, (k0_off60 v233) a + S1x4.size a ≤ S8388608x4.size a := fun v233 k0_hw30 => k0_hw30

def k0_off61 (i : grid0.Coords) : Fin 2 → Nat :=
  let arg0 : BitVec 32 := BitVec.ofNat 32 (i 0).val
  let v240 : Index := Scalar.indexCast arg0
  let c30 : Index := 30#32
  ![v240.toNat, 30]
def k0_off62 (v241 : BitVec 32) : Fin 2 → Nat :=
  let c0_i32_92 : BitVec 32 := 0#32
  ![v241.toNat, 0]

def k0_chk31 (v241 : BitVec 32) : Prop :=
  (∀ a, (k0_off62 v241) a + S1x4.size a ≤ S8388608x4.size a)
instance k0_chk31.dec : ∀ (v241 : BitVec 32), Decidable (k0_chk31 v241) := fun v241 => decidable_of_iff' _ (Iff.of_eq (k0_chk31.eq_1 v241))
theorem k0_off62_inb : ∀ (v241 : BitVec 32) (k0_hw31 : k0_chk31 v241), ∀ a, (k0_off62 v241) a + S1x4.size a ≤ S8388608x4.size a := fun v241 k0_hw31 => k0_hw31

def k0_off63 (i : grid0.Coords) : Fin 2 → Nat :=
  let arg0 : BitVec 32 := BitVec.ofNat 32 (i 0).val
  let v248 : Index := Scalar.indexCast arg0
  let c31 : Index := 31#32
  ![v248.toNat, 31]
def k0_off64 (v249 : BitVec 32) : Fin 2 → Nat :=
  let c0_i32_95 : BitVec 32 := 0#32
  ![v249.toNat, 0]

def k0_chk32 (v249 : BitVec 32) : Prop :=
  (∀ a, (k0_off64 v249) a + S1x4.size a ≤ S8388608x4.size a)
instance k0_chk32.dec : ∀ (v249 : BitVec 32), Decidable (k0_chk32 v249) := fun v249 => decidable_of_iff' _ (Iff.of_eq (k0_chk32.eq_1 v249))
theorem k0_off64_inb : ∀ (v249 : BitVec 32) (k0_hw32 : k0_chk32 v249), ∀ a, (k0_off64 v249) a + S1x4.size a ≤ S8388608x4.size a := fun v249 k0_hw32 => k0_hw32

def k0_off65 (i : grid0.Coords) : Fin 2 → Nat :=
  let arg0 : BitVec 32 := BitVec.ofNat 32 (i 0).val
  let v256 : Index := Scalar.indexCast arg0
  let c32 : Index := 32#32
  ![v256.toNat, 32]
def k0_off66 (v257 : BitVec 32) : Fin 2 → Nat :=
  let c0_i32_98 : BitVec 32 := 0#32
  ![v257.toNat, 0]

def k0_chk33 (v257 : BitVec 32) : Prop :=
  (∀ a, (k0_off66 v257) a + S1x4.size a ≤ S8388608x4.size a)
instance k0_chk33.dec : ∀ (v257 : BitVec 32), Decidable (k0_chk33 v257) := fun v257 => decidable_of_iff' _ (Iff.of_eq (k0_chk33.eq_1 v257))
theorem k0_off66_inb : ∀ (v257 : BitVec 32) (k0_hw33 : k0_chk33 v257), ∀ a, (k0_off66 v257) a + S1x4.size a ≤ S8388608x4.size a := fun v257 k0_hw33 => k0_hw33

def k0_off67 (i : grid0.Coords) : Fin 2 → Nat :=
  let arg0 : BitVec 32 := BitVec.ofNat 32 (i 0).val
  let v264 : Index := Scalar.indexCast arg0
  let c33 : Index := 33#32
  ![v264.toNat, 33]
def k0_off68 (v265 : BitVec 32) : Fin 2 → Nat :=
  let c0_i32_101 : BitVec 32 := 0#32
  ![v265.toNat, 0]

def k0_chk34 (v265 : BitVec 32) : Prop :=
  (∀ a, (k0_off68 v265) a + S1x4.size a ≤ S8388608x4.size a)
instance k0_chk34.dec : ∀ (v265 : BitVec 32), Decidable (k0_chk34 v265) := fun v265 => decidable_of_iff' _ (Iff.of_eq (k0_chk34.eq_1 v265))
theorem k0_off68_inb : ∀ (v265 : BitVec 32) (k0_hw34 : k0_chk34 v265), ∀ a, (k0_off68 v265) a + S1x4.size a ≤ S8388608x4.size a := fun v265 k0_hw34 => k0_hw34

def k0_off69 (i : grid0.Coords) : Fin 2 → Nat :=
  let arg0 : BitVec 32 := BitVec.ofNat 32 (i 0).val
  let v272 : Index := Scalar.indexCast arg0
  let c34 : Index := 34#32
  ![v272.toNat, 34]
def k0_off70 (v273 : BitVec 32) : Fin 2 → Nat :=
  let c0_i32_104 : BitVec 32 := 0#32
  ![v273.toNat, 0]

def k0_chk35 (v273 : BitVec 32) : Prop :=
  (∀ a, (k0_off70 v273) a + S1x4.size a ≤ S8388608x4.size a)
instance k0_chk35.dec : ∀ (v273 : BitVec 32), Decidable (k0_chk35 v273) := fun v273 => decidable_of_iff' _ (Iff.of_eq (k0_chk35.eq_1 v273))
theorem k0_off70_inb : ∀ (v273 : BitVec 32) (k0_hw35 : k0_chk35 v273), ∀ a, (k0_off70 v273) a + S1x4.size a ≤ S8388608x4.size a := fun v273 k0_hw35 => k0_hw35

def k0_off71 (i : grid0.Coords) : Fin 2 → Nat :=
  let arg0 : BitVec 32 := BitVec.ofNat 32 (i 0).val
  let v280 : Index := Scalar.indexCast arg0
  let c35 : Index := 35#32
  ![v280.toNat, 35]
def k0_off72 (v281 : BitVec 32) : Fin 2 → Nat :=
  let c0_i32_107 : BitVec 32 := 0#32
  ![v281.toNat, 0]

def k0_chk36 (v281 : BitVec 32) : Prop :=
  (∀ a, (k0_off72 v281) a + S1x4.size a ≤ S8388608x4.size a)
instance k0_chk36.dec : ∀ (v281 : BitVec 32), Decidable (k0_chk36 v281) := fun v281 => decidable_of_iff' _ (Iff.of_eq (k0_chk36.eq_1 v281))
theorem k0_off72_inb : ∀ (v281 : BitVec 32) (k0_hw36 : k0_chk36 v281), ∀ a, (k0_off72 v281) a + S1x4.size a ≤ S8388608x4.size a := fun v281 k0_hw36 => k0_hw36

def k0_off73 (i : grid0.Coords) : Fin 2 → Nat :=
  let arg0 : BitVec 32 := BitVec.ofNat 32 (i 0).val
  let v288 : Index := Scalar.indexCast arg0
  let c36 : Index := 36#32
  ![v288.toNat, 36]
def k0_off74 (v289 : BitVec 32) : Fin 2 → Nat :=
  let c0_i32_110 : BitVec 32 := 0#32
  ![v289.toNat, 0]

def k0_chk37 (v289 : BitVec 32) : Prop :=
  (∀ a, (k0_off74 v289) a + S1x4.size a ≤ S8388608x4.size a)
instance k0_chk37.dec : ∀ (v289 : BitVec 32), Decidable (k0_chk37 v289) := fun v289 => decidable_of_iff' _ (Iff.of_eq (k0_chk37.eq_1 v289))
theorem k0_off74_inb : ∀ (v289 : BitVec 32) (k0_hw37 : k0_chk37 v289), ∀ a, (k0_off74 v289) a + S1x4.size a ≤ S8388608x4.size a := fun v289 k0_hw37 => k0_hw37

def k0_off75 (i : grid0.Coords) : Fin 2 → Nat :=
  let arg0 : BitVec 32 := BitVec.ofNat 32 (i 0).val
  let v296 : Index := Scalar.indexCast arg0
  let c37 : Index := 37#32
  ![v296.toNat, 37]
def k0_off76 (v297 : BitVec 32) : Fin 2 → Nat :=
  let c0_i32_113 : BitVec 32 := 0#32
  ![v297.toNat, 0]

def k0_chk38 (v297 : BitVec 32) : Prop :=
  (∀ a, (k0_off76 v297) a + S1x4.size a ≤ S8388608x4.size a)
instance k0_chk38.dec : ∀ (v297 : BitVec 32), Decidable (k0_chk38 v297) := fun v297 => decidable_of_iff' _ (Iff.of_eq (k0_chk38.eq_1 v297))
theorem k0_off76_inb : ∀ (v297 : BitVec 32) (k0_hw38 : k0_chk38 v297), ∀ a, (k0_off76 v297) a + S1x4.size a ≤ S8388608x4.size a := fun v297 k0_hw38 => k0_hw38

def k0_off77 (i : grid0.Coords) : Fin 2 → Nat :=
  let arg0 : BitVec 32 := BitVec.ofNat 32 (i 0).val
  let v304 : Index := Scalar.indexCast arg0
  let c38 : Index := 38#32
  ![v304.toNat, 38]
def k0_off78 (v305 : BitVec 32) : Fin 2 → Nat :=
  let c0_i32_116 : BitVec 32 := 0#32
  ![v305.toNat, 0]

def k0_chk39 (v305 : BitVec 32) : Prop :=
  (∀ a, (k0_off78 v305) a + S1x4.size a ≤ S8388608x4.size a)
instance k0_chk39.dec : ∀ (v305 : BitVec 32), Decidable (k0_chk39 v305) := fun v305 => decidable_of_iff' _ (Iff.of_eq (k0_chk39.eq_1 v305))
theorem k0_off78_inb : ∀ (v305 : BitVec 32) (k0_hw39 : k0_chk39 v305), ∀ a, (k0_off78 v305) a + S1x4.size a ≤ S8388608x4.size a := fun v305 k0_hw39 => k0_hw39

def k0_off79 (i : grid0.Coords) : Fin 2 → Nat :=
  let arg0 : BitVec 32 := BitVec.ofNat 32 (i 0).val
  let v312 : Index := Scalar.indexCast arg0
  let c39 : Index := 39#32
  ![v312.toNat, 39]
def k0_off80 (v313 : BitVec 32) : Fin 2 → Nat :=
  let c0_i32_119 : BitVec 32 := 0#32
  ![v313.toNat, 0]

def k0_chk40 (v313 : BitVec 32) : Prop :=
  (∀ a, (k0_off80 v313) a + S1x4.size a ≤ S8388608x4.size a)
instance k0_chk40.dec : ∀ (v313 : BitVec 32), Decidable (k0_chk40 v313) := fun v313 => decidable_of_iff' _ (Iff.of_eq (k0_chk40.eq_1 v313))
theorem k0_off80_inb : ∀ (v313 : BitVec 32) (k0_hw40 : k0_chk40 v313), ∀ a, (k0_off80 v313) a + S1x4.size a ≤ S8388608x4.size a := fun v313 k0_hw40 => k0_hw40

def k0_off81 (i : grid0.Coords) : Fin 2 → Nat :=
  let arg0 : BitVec 32 := BitVec.ofNat 32 (i 0).val
  let v320 : Index := Scalar.indexCast arg0
  let c40 : Index := 40#32
  ![v320.toNat, 40]
def k0_off82 (v321 : BitVec 32) : Fin 2 → Nat :=
  let c0_i32_122 : BitVec 32 := 0#32
  ![v321.toNat, 0]

def k0_chk41 (v321 : BitVec 32) : Prop :=
  (∀ a, (k0_off82 v321) a + S1x4.size a ≤ S8388608x4.size a)
instance k0_chk41.dec : ∀ (v321 : BitVec 32), Decidable (k0_chk41 v321) := fun v321 => decidable_of_iff' _ (Iff.of_eq (k0_chk41.eq_1 v321))
theorem k0_off82_inb : ∀ (v321 : BitVec 32) (k0_hw41 : k0_chk41 v321), ∀ a, (k0_off82 v321) a + S1x4.size a ≤ S8388608x4.size a := fun v321 k0_hw41 => k0_hw41

def k0_off83 (i : grid0.Coords) : Fin 2 → Nat :=
  let arg0 : BitVec 32 := BitVec.ofNat 32 (i 0).val
  let v328 : Index := Scalar.indexCast arg0
  let c41 : Index := 41#32
  ![v328.toNat, 41]
def k0_off84 (v329 : BitVec 32) : Fin 2 → Nat :=
  let c0_i32_125 : BitVec 32 := 0#32
  ![v329.toNat, 0]

def k0_chk42 (v329 : BitVec 32) : Prop :=
  (∀ a, (k0_off84 v329) a + S1x4.size a ≤ S8388608x4.size a)
instance k0_chk42.dec : ∀ (v329 : BitVec 32), Decidable (k0_chk42 v329) := fun v329 => decidable_of_iff' _ (Iff.of_eq (k0_chk42.eq_1 v329))
theorem k0_off84_inb : ∀ (v329 : BitVec 32) (k0_hw42 : k0_chk42 v329), ∀ a, (k0_off84 v329) a + S1x4.size a ≤ S8388608x4.size a := fun v329 k0_hw42 => k0_hw42

def k0_off85 (i : grid0.Coords) : Fin 2 → Nat :=
  let arg0 : BitVec 32 := BitVec.ofNat 32 (i 0).val
  let v336 : Index := Scalar.indexCast arg0
  let c42 : Index := 42#32
  ![v336.toNat, 42]
def k0_off86 (v337 : BitVec 32) : Fin 2 → Nat :=
  let c0_i32_128 : BitVec 32 := 0#32
  ![v337.toNat, 0]

def k0_chk43 (v337 : BitVec 32) : Prop :=
  (∀ a, (k0_off86 v337) a + S1x4.size a ≤ S8388608x4.size a)
instance k0_chk43.dec : ∀ (v337 : BitVec 32), Decidable (k0_chk43 v337) := fun v337 => decidable_of_iff' _ (Iff.of_eq (k0_chk43.eq_1 v337))
theorem k0_off86_inb : ∀ (v337 : BitVec 32) (k0_hw43 : k0_chk43 v337), ∀ a, (k0_off86 v337) a + S1x4.size a ≤ S8388608x4.size a := fun v337 k0_hw43 => k0_hw43

def k0_off87 (i : grid0.Coords) : Fin 2 → Nat :=
  let arg0 : BitVec 32 := BitVec.ofNat 32 (i 0).val
  let v344 : Index := Scalar.indexCast arg0
  let c43 : Index := 43#32
  ![v344.toNat, 43]
def k0_off88 (v345 : BitVec 32) : Fin 2 → Nat :=
  let c0_i32_131 : BitVec 32 := 0#32
  ![v345.toNat, 0]

def k0_chk44 (v345 : BitVec 32) : Prop :=
  (∀ a, (k0_off88 v345) a + S1x4.size a ≤ S8388608x4.size a)
instance k0_chk44.dec : ∀ (v345 : BitVec 32), Decidable (k0_chk44 v345) := fun v345 => decidable_of_iff' _ (Iff.of_eq (k0_chk44.eq_1 v345))
theorem k0_off88_inb : ∀ (v345 : BitVec 32) (k0_hw44 : k0_chk44 v345), ∀ a, (k0_off88 v345) a + S1x4.size a ≤ S8388608x4.size a := fun v345 k0_hw44 => k0_hw44

def k0_off89 (i : grid0.Coords) : Fin 2 → Nat :=
  let arg0 : BitVec 32 := BitVec.ofNat 32 (i 0).val
  let v352 : Index := Scalar.indexCast arg0
  let c44 : Index := 44#32
  ![v352.toNat, 44]
def k0_off90 (v353 : BitVec 32) : Fin 2 → Nat :=
  let c0_i32_134 : BitVec 32 := 0#32
  ![v353.toNat, 0]

def k0_chk45 (v353 : BitVec 32) : Prop :=
  (∀ a, (k0_off90 v353) a + S1x4.size a ≤ S8388608x4.size a)
instance k0_chk45.dec : ∀ (v353 : BitVec 32), Decidable (k0_chk45 v353) := fun v353 => decidable_of_iff' _ (Iff.of_eq (k0_chk45.eq_1 v353))
theorem k0_off90_inb : ∀ (v353 : BitVec 32) (k0_hw45 : k0_chk45 v353), ∀ a, (k0_off90 v353) a + S1x4.size a ≤ S8388608x4.size a := fun v353 k0_hw45 => k0_hw45

def k0_off91 (i : grid0.Coords) : Fin 2 → Nat :=
  let arg0 : BitVec 32 := BitVec.ofNat 32 (i 0).val
  let v360 : Index := Scalar.indexCast arg0
  let c45 : Index := 45#32
  ![v360.toNat, 45]
def k0_off92 (v361 : BitVec 32) : Fin 2 → Nat :=
  let c0_i32_137 : BitVec 32 := 0#32
  ![v361.toNat, 0]

def k0_chk46 (v361 : BitVec 32) : Prop :=
  (∀ a, (k0_off92 v361) a + S1x4.size a ≤ S8388608x4.size a)
instance k0_chk46.dec : ∀ (v361 : BitVec 32), Decidable (k0_chk46 v361) := fun v361 => decidable_of_iff' _ (Iff.of_eq (k0_chk46.eq_1 v361))
theorem k0_off92_inb : ∀ (v361 : BitVec 32) (k0_hw46 : k0_chk46 v361), ∀ a, (k0_off92 v361) a + S1x4.size a ≤ S8388608x4.size a := fun v361 k0_hw46 => k0_hw46

def k0_off93 (i : grid0.Coords) : Fin 2 → Nat :=
  let arg0 : BitVec 32 := BitVec.ofNat 32 (i 0).val
  let v368 : Index := Scalar.indexCast arg0
  let c46 : Index := 46#32
  ![v368.toNat, 46]
def k0_off94 (v369 : BitVec 32) : Fin 2 → Nat :=
  let c0_i32_140 : BitVec 32 := 0#32
  ![v369.toNat, 0]

def k0_chk47 (v369 : BitVec 32) : Prop :=
  (∀ a, (k0_off94 v369) a + S1x4.size a ≤ S8388608x4.size a)
instance k0_chk47.dec : ∀ (v369 : BitVec 32), Decidable (k0_chk47 v369) := fun v369 => decidable_of_iff' _ (Iff.of_eq (k0_chk47.eq_1 v369))
theorem k0_off94_inb : ∀ (v369 : BitVec 32) (k0_hw47 : k0_chk47 v369), ∀ a, (k0_off94 v369) a + S1x4.size a ≤ S8388608x4.size a := fun v369 k0_hw47 => k0_hw47

def k0_off95 (i : grid0.Coords) : Fin 2 → Nat :=
  let arg0 : BitVec 32 := BitVec.ofNat 32 (i 0).val
  let v376 : Index := Scalar.indexCast arg0
  let c47 : Index := 47#32
  ![v376.toNat, 47]
def k0_off96 (v377 : BitVec 32) : Fin 2 → Nat :=
  let c0_i32_143 : BitVec 32 := 0#32
  ![v377.toNat, 0]

def k0_chk48 (v377 : BitVec 32) : Prop :=
  (∀ a, (k0_off96 v377) a + S1x4.size a ≤ S8388608x4.size a)
instance k0_chk48.dec : ∀ (v377 : BitVec 32), Decidable (k0_chk48 v377) := fun v377 => decidable_of_iff' _ (Iff.of_eq (k0_chk48.eq_1 v377))
theorem k0_off96_inb : ∀ (v377 : BitVec 32) (k0_hw48 : k0_chk48 v377), ∀ a, (k0_off96 v377) a + S1x4.size a ≤ S8388608x4.size a := fun v377 k0_hw48 => k0_hw48

def k0_off97 (i : grid0.Coords) : Fin 2 → Nat :=
  let arg0 : BitVec 32 := BitVec.ofNat 32 (i 0).val
  let v384 : Index := Scalar.indexCast arg0
  let c48 : Index := 48#32
  ![v384.toNat, 48]
def k0_off98 (v385 : BitVec 32) : Fin 2 → Nat :=
  let c0_i32_146 : BitVec 32 := 0#32
  ![v385.toNat, 0]

def k0_chk49 (v385 : BitVec 32) : Prop :=
  (∀ a, (k0_off98 v385) a + S1x4.size a ≤ S8388608x4.size a)
instance k0_chk49.dec : ∀ (v385 : BitVec 32), Decidable (k0_chk49 v385) := fun v385 => decidable_of_iff' _ (Iff.of_eq (k0_chk49.eq_1 v385))
theorem k0_off98_inb : ∀ (v385 : BitVec 32) (k0_hw49 : k0_chk49 v385), ∀ a, (k0_off98 v385) a + S1x4.size a ≤ S8388608x4.size a := fun v385 k0_hw49 => k0_hw49

def k0_off99 (i : grid0.Coords) : Fin 2 → Nat :=
  let arg0 : BitVec 32 := BitVec.ofNat 32 (i 0).val
  let v392 : Index := Scalar.indexCast arg0
  let c49 : Index := 49#32
  ![v392.toNat, 49]
def k0_off100 (v393 : BitVec 32) : Fin 2 → Nat :=
  let c0_i32_149 : BitVec 32 := 0#32
  ![v393.toNat, 0]

def k0_chk50 (v393 : BitVec 32) : Prop :=
  (∀ a, (k0_off100 v393) a + S1x4.size a ≤ S8388608x4.size a)
instance k0_chk50.dec : ∀ (v393 : BitVec 32), Decidable (k0_chk50 v393) := fun v393 => decidable_of_iff' _ (Iff.of_eq (k0_chk50.eq_1 v393))
theorem k0_off100_inb : ∀ (v393 : BitVec 32) (k0_hw50 : k0_chk50 v393), ∀ a, (k0_off100 v393) a + S1x4.size a ≤ S8388608x4.size a := fun v393 k0_hw50 => k0_hw50

def k0_off101 (i : grid0.Coords) : Fin 2 → Nat :=
  let arg0 : BitVec 32 := BitVec.ofNat 32 (i 0).val
  let v400 : Index := Scalar.indexCast arg0
  let c50 : Index := 50#32
  ![v400.toNat, 50]
def k0_off102 (v401 : BitVec 32) : Fin 2 → Nat :=
  let c0_i32_152 : BitVec 32 := 0#32
  ![v401.toNat, 0]

def k0_chk51 (v401 : BitVec 32) : Prop :=
  (∀ a, (k0_off102 v401) a + S1x4.size a ≤ S8388608x4.size a)
instance k0_chk51.dec : ∀ (v401 : BitVec 32), Decidable (k0_chk51 v401) := fun v401 => decidable_of_iff' _ (Iff.of_eq (k0_chk51.eq_1 v401))
theorem k0_off102_inb : ∀ (v401 : BitVec 32) (k0_hw51 : k0_chk51 v401), ∀ a, (k0_off102 v401) a + S1x4.size a ≤ S8388608x4.size a := fun v401 k0_hw51 => k0_hw51

def k0_off103 (i : grid0.Coords) : Fin 2 → Nat :=
  let arg0 : BitVec 32 := BitVec.ofNat 32 (i 0).val
  let v408 : Index := Scalar.indexCast arg0
  let c51 : Index := 51#32
  ![v408.toNat, 51]
def k0_off104 (v409 : BitVec 32) : Fin 2 → Nat :=
  let c0_i32_155 : BitVec 32 := 0#32
  ![v409.toNat, 0]

def k0_chk52 (v409 : BitVec 32) : Prop :=
  (∀ a, (k0_off104 v409) a + S1x4.size a ≤ S8388608x4.size a)
instance k0_chk52.dec : ∀ (v409 : BitVec 32), Decidable (k0_chk52 v409) := fun v409 => decidable_of_iff' _ (Iff.of_eq (k0_chk52.eq_1 v409))
theorem k0_off104_inb : ∀ (v409 : BitVec 32) (k0_hw52 : k0_chk52 v409), ∀ a, (k0_off104 v409) a + S1x4.size a ≤ S8388608x4.size a := fun v409 k0_hw52 => k0_hw52

def k0_off105 (i : grid0.Coords) : Fin 2 → Nat :=
  let arg0 : BitVec 32 := BitVec.ofNat 32 (i 0).val
  let v416 : Index := Scalar.indexCast arg0
  let c52 : Index := 52#32
  ![v416.toNat, 52]
def k0_off106 (v417 : BitVec 32) : Fin 2 → Nat :=
  let c0_i32_158 : BitVec 32 := 0#32
  ![v417.toNat, 0]

def k0_chk53 (v417 : BitVec 32) : Prop :=
  (∀ a, (k0_off106 v417) a + S1x4.size a ≤ S8388608x4.size a)
instance k0_chk53.dec : ∀ (v417 : BitVec 32), Decidable (k0_chk53 v417) := fun v417 => decidable_of_iff' _ (Iff.of_eq (k0_chk53.eq_1 v417))
theorem k0_off106_inb : ∀ (v417 : BitVec 32) (k0_hw53 : k0_chk53 v417), ∀ a, (k0_off106 v417) a + S1x4.size a ≤ S8388608x4.size a := fun v417 k0_hw53 => k0_hw53

def k0_off107 (i : grid0.Coords) : Fin 2 → Nat :=
  let arg0 : BitVec 32 := BitVec.ofNat 32 (i 0).val
  let v424 : Index := Scalar.indexCast arg0
  let c53 : Index := 53#32
  ![v424.toNat, 53]
def k0_off108 (v425 : BitVec 32) : Fin 2 → Nat :=
  let c0_i32_161 : BitVec 32 := 0#32
  ![v425.toNat, 0]

def k0_chk54 (v425 : BitVec 32) : Prop :=
  (∀ a, (k0_off108 v425) a + S1x4.size a ≤ S8388608x4.size a)
instance k0_chk54.dec : ∀ (v425 : BitVec 32), Decidable (k0_chk54 v425) := fun v425 => decidable_of_iff' _ (Iff.of_eq (k0_chk54.eq_1 v425))
theorem k0_off108_inb : ∀ (v425 : BitVec 32) (k0_hw54 : k0_chk54 v425), ∀ a, (k0_off108 v425) a + S1x4.size a ≤ S8388608x4.size a := fun v425 k0_hw54 => k0_hw54

def k0_off109 (i : grid0.Coords) : Fin 2 → Nat :=
  let arg0 : BitVec 32 := BitVec.ofNat 32 (i 0).val
  let v432 : Index := Scalar.indexCast arg0
  let c54 : Index := 54#32
  ![v432.toNat, 54]
def k0_off110 (v433 : BitVec 32) : Fin 2 → Nat :=
  let c0_i32_164 : BitVec 32 := 0#32
  ![v433.toNat, 0]

def k0_chk55 (v433 : BitVec 32) : Prop :=
  (∀ a, (k0_off110 v433) a + S1x4.size a ≤ S8388608x4.size a)
instance k0_chk55.dec : ∀ (v433 : BitVec 32), Decidable (k0_chk55 v433) := fun v433 => decidable_of_iff' _ (Iff.of_eq (k0_chk55.eq_1 v433))
theorem k0_off110_inb : ∀ (v433 : BitVec 32) (k0_hw55 : k0_chk55 v433), ∀ a, (k0_off110 v433) a + S1x4.size a ≤ S8388608x4.size a := fun v433 k0_hw55 => k0_hw55

def k0_off111 (i : grid0.Coords) : Fin 2 → Nat :=
  let arg0 : BitVec 32 := BitVec.ofNat 32 (i 0).val
  let v440 : Index := Scalar.indexCast arg0
  let c55 : Index := 55#32
  ![v440.toNat, 55]
def k0_off112 (v441 : BitVec 32) : Fin 2 → Nat :=
  let c0_i32_167 : BitVec 32 := 0#32
  ![v441.toNat, 0]

def k0_chk56 (v441 : BitVec 32) : Prop :=
  (∀ a, (k0_off112 v441) a + S1x4.size a ≤ S8388608x4.size a)
instance k0_chk56.dec : ∀ (v441 : BitVec 32), Decidable (k0_chk56 v441) := fun v441 => decidable_of_iff' _ (Iff.of_eq (k0_chk56.eq_1 v441))
theorem k0_off112_inb : ∀ (v441 : BitVec 32) (k0_hw56 : k0_chk56 v441), ∀ a, (k0_off112 v441) a + S1x4.size a ≤ S8388608x4.size a := fun v441 k0_hw56 => k0_hw56

def k0_off113 (i : grid0.Coords) : Fin 2 → Nat :=
  let arg0 : BitVec 32 := BitVec.ofNat 32 (i 0).val
  let v448 : Index := Scalar.indexCast arg0
  let c56 : Index := 56#32
  ![v448.toNat, 56]
def k0_off114 (v449 : BitVec 32) : Fin 2 → Nat :=
  let c0_i32_170 : BitVec 32 := 0#32
  ![v449.toNat, 0]

def k0_chk57 (v449 : BitVec 32) : Prop :=
  (∀ a, (k0_off114 v449) a + S1x4.size a ≤ S8388608x4.size a)
instance k0_chk57.dec : ∀ (v449 : BitVec 32), Decidable (k0_chk57 v449) := fun v449 => decidable_of_iff' _ (Iff.of_eq (k0_chk57.eq_1 v449))
theorem k0_off114_inb : ∀ (v449 : BitVec 32) (k0_hw57 : k0_chk57 v449), ∀ a, (k0_off114 v449) a + S1x4.size a ≤ S8388608x4.size a := fun v449 k0_hw57 => k0_hw57

def k0_off115 (i : grid0.Coords) : Fin 2 → Nat :=
  let arg0 : BitVec 32 := BitVec.ofNat 32 (i 0).val
  let v456 : Index := Scalar.indexCast arg0
  let c57 : Index := 57#32
  ![v456.toNat, 57]
def k0_off116 (v457 : BitVec 32) : Fin 2 → Nat :=
  let c0_i32_173 : BitVec 32 := 0#32
  ![v457.toNat, 0]

def k0_chk58 (v457 : BitVec 32) : Prop :=
  (∀ a, (k0_off116 v457) a + S1x4.size a ≤ S8388608x4.size a)
instance k0_chk58.dec : ∀ (v457 : BitVec 32), Decidable (k0_chk58 v457) := fun v457 => decidable_of_iff' _ (Iff.of_eq (k0_chk58.eq_1 v457))
theorem k0_off116_inb : ∀ (v457 : BitVec 32) (k0_hw58 : k0_chk58 v457), ∀ a, (k0_off116 v457) a + S1x4.size a ≤ S8388608x4.size a := fun v457 k0_hw58 => k0_hw58

def k0_off117 (i : grid0.Coords) : Fin 2 → Nat :=
  let arg0 : BitVec 32 := BitVec.ofNat 32 (i 0).val
  let v464 : Index := Scalar.indexCast arg0
  let c58 : Index := 58#32
  ![v464.toNat, 58]
def k0_off118 (v465 : BitVec 32) : Fin 2 → Nat :=
  let c0_i32_176 : BitVec 32 := 0#32
  ![v465.toNat, 0]

def k0_chk59 (v465 : BitVec 32) : Prop :=
  (∀ a, (k0_off118 v465) a + S1x4.size a ≤ S8388608x4.size a)
instance k0_chk59.dec : ∀ (v465 : BitVec 32), Decidable (k0_chk59 v465) := fun v465 => decidable_of_iff' _ (Iff.of_eq (k0_chk59.eq_1 v465))
theorem k0_off118_inb : ∀ (v465 : BitVec 32) (k0_hw59 : k0_chk59 v465), ∀ a, (k0_off118 v465) a + S1x4.size a ≤ S8388608x4.size a := fun v465 k0_hw59 => k0_hw59

def k0_off119 (i : grid0.Coords) : Fin 2 → Nat :=
  let arg0 : BitVec 32 := BitVec.ofNat 32 (i 0).val
  let v472 : Index := Scalar.indexCast arg0
  let c59 : Index := 59#32
  ![v472.toNat, 59]
def k0_off120 (v473 : BitVec 32) : Fin 2 → Nat :=
  let c0_i32_179 : BitVec 32 := 0#32
  ![v473.toNat, 0]

def k0_chk60 (v473 : BitVec 32) : Prop :=
  (∀ a, (k0_off120 v473) a + S1x4.size a ≤ S8388608x4.size a)
instance k0_chk60.dec : ∀ (v473 : BitVec 32), Decidable (k0_chk60 v473) := fun v473 => decidable_of_iff' _ (Iff.of_eq (k0_chk60.eq_1 v473))
theorem k0_off120_inb : ∀ (v473 : BitVec 32) (k0_hw60 : k0_chk60 v473), ∀ a, (k0_off120 v473) a + S1x4.size a ≤ S8388608x4.size a := fun v473 k0_hw60 => k0_hw60

def k0_off121 (i : grid0.Coords) : Fin 2 → Nat :=
  let arg0 : BitVec 32 := BitVec.ofNat 32 (i 0).val
  let v480 : Index := Scalar.indexCast arg0
  let c60 : Index := 60#32
  ![v480.toNat, 60]
def k0_off122 (v481 : BitVec 32) : Fin 2 → Nat :=
  let c0_i32_182 : BitVec 32 := 0#32
  ![v481.toNat, 0]

def k0_chk61 (v481 : BitVec 32) : Prop :=
  (∀ a, (k0_off122 v481) a + S1x4.size a ≤ S8388608x4.size a)
instance k0_chk61.dec : ∀ (v481 : BitVec 32), Decidable (k0_chk61 v481) := fun v481 => decidable_of_iff' _ (Iff.of_eq (k0_chk61.eq_1 v481))
theorem k0_off122_inb : ∀ (v481 : BitVec 32) (k0_hw61 : k0_chk61 v481), ∀ a, (k0_off122 v481) a + S1x4.size a ≤ S8388608x4.size a := fun v481 k0_hw61 => k0_hw61

def k0_off123 (i : grid0.Coords) : Fin 2 → Nat :=
  let arg0 : BitVec 32 := BitVec.ofNat 32 (i 0).val
  let v488 : Index := Scalar.indexCast arg0
  let c61 : Index := 61#32
  ![v488.toNat, 61]
def k0_off124 (v489 : BitVec 32) : Fin 2 → Nat :=
  let c0_i32_185 : BitVec 32 := 0#32
  ![v489.toNat, 0]

def k0_chk62 (v489 : BitVec 32) : Prop :=
  (∀ a, (k0_off124 v489) a + S1x4.size a ≤ S8388608x4.size a)
instance k0_chk62.dec : ∀ (v489 : BitVec 32), Decidable (k0_chk62 v489) := fun v489 => decidable_of_iff' _ (Iff.of_eq (k0_chk62.eq_1 v489))
theorem k0_off124_inb : ∀ (v489 : BitVec 32) (k0_hw62 : k0_chk62 v489), ∀ a, (k0_off124 v489) a + S1x4.size a ≤ S8388608x4.size a := fun v489 k0_hw62 => k0_hw62

def k0_off125 (i : grid0.Coords) : Fin 2 → Nat :=
  let arg0 : BitVec 32 := BitVec.ofNat 32 (i 0).val
  let v496 : Index := Scalar.indexCast arg0
  let c62 : Index := 62#32
  ![v496.toNat, 62]
def k0_off126 (v497 : BitVec 32) : Fin 2 → Nat :=
  let c0_i32_188 : BitVec 32 := 0#32
  ![v497.toNat, 0]

def k0_chk63 (v497 : BitVec 32) : Prop :=
  (∀ a, (k0_off126 v497) a + S1x4.size a ≤ S8388608x4.size a)
instance k0_chk63.dec : ∀ (v497 : BitVec 32), Decidable (k0_chk63 v497) := fun v497 => decidable_of_iff' _ (Iff.of_eq (k0_chk63.eq_1 v497))
theorem k0_off126_inb : ∀ (v497 : BitVec 32) (k0_hw63 : k0_chk63 v497), ∀ a, (k0_off126 v497) a + S1x4.size a ≤ S8388608x4.size a := fun v497 k0_hw63 => k0_hw63

def k0_off127 (i : grid0.Coords) : Fin 2 → Nat :=
  let arg0 : BitVec 32 := BitVec.ofNat 32 (i 0).val
  let v504 : Index := Scalar.indexCast arg0
  let c63 : Index := 63#32
  ![v504.toNat, 63]
def k0_off128 (v505 : BitVec 32) : Fin 2 → Nat :=
  let c0_i32_191 : BitVec 32 := 0#32
  ![v505.toNat, 0]

def k0_chk64 (v505 : BitVec 32) : Prop :=
  (∀ a, (k0_off128 v505) a + S1x4.size a ≤ S8388608x4.size a)
instance k0_chk64.dec : ∀ (v505 : BitVec 32), Decidable (k0_chk64 v505) := fun v505 => decidable_of_iff' _ (Iff.of_eq (k0_chk64.eq_1 v505))
theorem k0_off128_inb : ∀ (v505 : BitVec 32) (k0_hw64 : k0_chk64 v505), ∀ a, (k0_off128 v505) a + S1x4.size a ≤ S8388608x4.size a := fun v505 k0_hw64 => k0_hw64

def k0_off129 (i : grid0.Coords) : Fin 2 → Nat :=
  let arg0 : BitVec 32 := BitVec.ofNat 32 (i 0).val
  let v512 : Index := Scalar.indexCast arg0
  let c64 : Index := 64#32
  ![v512.toNat, 64]
def k0_off130 (v513 : BitVec 32) : Fin 2 → Nat :=
  let c0_i32_194 : BitVec 32 := 0#32
  ![v513.toNat, 0]

def k0_chk65 (v513 : BitVec 32) : Prop :=
  (∀ a, (k0_off130 v513) a + S1x4.size a ≤ S8388608x4.size a)
instance k0_chk65.dec : ∀ (v513 : BitVec 32), Decidable (k0_chk65 v513) := fun v513 => decidable_of_iff' _ (Iff.of_eq (k0_chk65.eq_1 v513))
theorem k0_off130_inb : ∀ (v513 : BitVec 32) (k0_hw65 : k0_chk65 v513), ∀ a, (k0_off130 v513) a + S1x4.size a ≤ S8388608x4.size a := fun v513 k0_hw65 => k0_hw65

def k0_off131 (i : grid0.Coords) : Fin 2 → Nat :=
  let arg0 : BitVec 32 := BitVec.ofNat 32 (i 0).val
  let v520 : Index := Scalar.indexCast arg0
  let c65 : Index := 65#32
  ![v520.toNat, 65]
def k0_off132 (v521 : BitVec 32) : Fin 2 → Nat :=
  let c0_i32_197 : BitVec 32 := 0#32
  ![v521.toNat, 0]

def k0_chk66 (v521 : BitVec 32) : Prop :=
  (∀ a, (k0_off132 v521) a + S1x4.size a ≤ S8388608x4.size a)
instance k0_chk66.dec : ∀ (v521 : BitVec 32), Decidable (k0_chk66 v521) := fun v521 => decidable_of_iff' _ (Iff.of_eq (k0_chk66.eq_1 v521))
theorem k0_off132_inb : ∀ (v521 : BitVec 32) (k0_hw66 : k0_chk66 v521), ∀ a, (k0_off132 v521) a + S1x4.size a ≤ S8388608x4.size a := fun v521 k0_hw66 => k0_hw66

def k0_off133 (i : grid0.Coords) : Fin 2 → Nat :=
  let arg0 : BitVec 32 := BitVec.ofNat 32 (i 0).val
  let v528 : Index := Scalar.indexCast arg0
  let c66 : Index := 66#32
  ![v528.toNat, 66]
def k0_off134 (v529 : BitVec 32) : Fin 2 → Nat :=
  let c0_i32_200 : BitVec 32 := 0#32
  ![v529.toNat, 0]

def k0_chk67 (v529 : BitVec 32) : Prop :=
  (∀ a, (k0_off134 v529) a + S1x4.size a ≤ S8388608x4.size a)
instance k0_chk67.dec : ∀ (v529 : BitVec 32), Decidable (k0_chk67 v529) := fun v529 => decidable_of_iff' _ (Iff.of_eq (k0_chk67.eq_1 v529))
theorem k0_off134_inb : ∀ (v529 : BitVec 32) (k0_hw67 : k0_chk67 v529), ∀ a, (k0_off134 v529) a + S1x4.size a ≤ S8388608x4.size a := fun v529 k0_hw67 => k0_hw67

def k0_off135 (i : grid0.Coords) : Fin 2 → Nat :=
  let arg0 : BitVec 32 := BitVec.ofNat 32 (i 0).val
  let v536 : Index := Scalar.indexCast arg0
  let c67 : Index := 67#32
  ![v536.toNat, 67]
def k0_off136 (v537 : BitVec 32) : Fin 2 → Nat :=
  let c0_i32_203 : BitVec 32 := 0#32
  ![v537.toNat, 0]

def k0_chk68 (v537 : BitVec 32) : Prop :=
  (∀ a, (k0_off136 v537) a + S1x4.size a ≤ S8388608x4.size a)
instance k0_chk68.dec : ∀ (v537 : BitVec 32), Decidable (k0_chk68 v537) := fun v537 => decidable_of_iff' _ (Iff.of_eq (k0_chk68.eq_1 v537))
theorem k0_off136_inb : ∀ (v537 : BitVec 32) (k0_hw68 : k0_chk68 v537), ∀ a, (k0_off136 v537) a + S1x4.size a ≤ S8388608x4.size a := fun v537 k0_hw68 => k0_hw68

def k0_off137 (i : grid0.Coords) : Fin 2 → Nat :=
  let arg0 : BitVec 32 := BitVec.ofNat 32 (i 0).val
  let v544 : Index := Scalar.indexCast arg0
  let c68 : Index := 68#32
  ![v544.toNat, 68]
def k0_off138 (v545 : BitVec 32) : Fin 2 → Nat :=
  let c0_i32_206 : BitVec 32 := 0#32
  ![v545.toNat, 0]

def k0_chk69 (v545 : BitVec 32) : Prop :=
  (∀ a, (k0_off138 v545) a + S1x4.size a ≤ S8388608x4.size a)
instance k0_chk69.dec : ∀ (v545 : BitVec 32), Decidable (k0_chk69 v545) := fun v545 => decidable_of_iff' _ (Iff.of_eq (k0_chk69.eq_1 v545))
theorem k0_off138_inb : ∀ (v545 : BitVec 32) (k0_hw69 : k0_chk69 v545), ∀ a, (k0_off138 v545) a + S1x4.size a ≤ S8388608x4.size a := fun v545 k0_hw69 => k0_hw69

def k0_off139 (i : grid0.Coords) : Fin 2 → Nat :=
  let arg0 : BitVec 32 := BitVec.ofNat 32 (i 0).val
  let v552 : Index := Scalar.indexCast arg0
  let c69 : Index := 69#32
  ![v552.toNat, 69]
def k0_off140 (v553 : BitVec 32) : Fin 2 → Nat :=
  let c0_i32_209 : BitVec 32 := 0#32
  ![v553.toNat, 0]

def k0_chk70 (v553 : BitVec 32) : Prop :=
  (∀ a, (k0_off140 v553) a + S1x4.size a ≤ S8388608x4.size a)
instance k0_chk70.dec : ∀ (v553 : BitVec 32), Decidable (k0_chk70 v553) := fun v553 => decidable_of_iff' _ (Iff.of_eq (k0_chk70.eq_1 v553))
theorem k0_off140_inb : ∀ (v553 : BitVec 32) (k0_hw70 : k0_chk70 v553), ∀ a, (k0_off140 v553) a + S1x4.size a ≤ S8388608x4.size a := fun v553 k0_hw70 => k0_hw70

def k0_off141 (i : grid0.Coords) : Fin 2 → Nat :=
  let arg0 : BitVec 32 := BitVec.ofNat 32 (i 0).val
  let v560 : Index := Scalar.indexCast arg0
  let c70 : Index := 70#32
  ![v560.toNat, 70]
def k0_off142 (v561 : BitVec 32) : Fin 2 → Nat :=
  let c0_i32_212 : BitVec 32 := 0#32
  ![v561.toNat, 0]

def k0_chk71 (v561 : BitVec 32) : Prop :=
  (∀ a, (k0_off142 v561) a + S1x4.size a ≤ S8388608x4.size a)
instance k0_chk71.dec : ∀ (v561 : BitVec 32), Decidable (k0_chk71 v561) := fun v561 => decidable_of_iff' _ (Iff.of_eq (k0_chk71.eq_1 v561))
theorem k0_off142_inb : ∀ (v561 : BitVec 32) (k0_hw71 : k0_chk71 v561), ∀ a, (k0_off142 v561) a + S1x4.size a ≤ S8388608x4.size a := fun v561 k0_hw71 => k0_hw71

def k0_off143 (i : grid0.Coords) : Fin 2 → Nat :=
  let arg0 : BitVec 32 := BitVec.ofNat 32 (i 0).val
  let v568 : Index := Scalar.indexCast arg0
  let c71 : Index := 71#32
  ![v568.toNat, 71]
def k0_off144 (v569 : BitVec 32) : Fin 2 → Nat :=
  let c0_i32_215 : BitVec 32 := 0#32
  ![v569.toNat, 0]

def k0_chk72 (v569 : BitVec 32) : Prop :=
  (∀ a, (k0_off144 v569) a + S1x4.size a ≤ S8388608x4.size a)
instance k0_chk72.dec : ∀ (v569 : BitVec 32), Decidable (k0_chk72 v569) := fun v569 => decidable_of_iff' _ (Iff.of_eq (k0_chk72.eq_1 v569))
theorem k0_off144_inb : ∀ (v569 : BitVec 32) (k0_hw72 : k0_chk72 v569), ∀ a, (k0_off144 v569) a + S1x4.size a ≤ S8388608x4.size a := fun v569 k0_hw72 => k0_hw72

def k0_off145 (i : grid0.Coords) : Fin 2 → Nat :=
  let arg0 : BitVec 32 := BitVec.ofNat 32 (i 0).val
  let v576 : Index := Scalar.indexCast arg0
  let c72 : Index := 72#32
  ![v576.toNat, 72]
def k0_off146 (v577 : BitVec 32) : Fin 2 → Nat :=
  let c0_i32_218 : BitVec 32 := 0#32
  ![v577.toNat, 0]

def k0_chk73 (v577 : BitVec 32) : Prop :=
  (∀ a, (k0_off146 v577) a + S1x4.size a ≤ S8388608x4.size a)
instance k0_chk73.dec : ∀ (v577 : BitVec 32), Decidable (k0_chk73 v577) := fun v577 => decidable_of_iff' _ (Iff.of_eq (k0_chk73.eq_1 v577))
theorem k0_off146_inb : ∀ (v577 : BitVec 32) (k0_hw73 : k0_chk73 v577), ∀ a, (k0_off146 v577) a + S1x4.size a ≤ S8388608x4.size a := fun v577 k0_hw73 => k0_hw73

def k0_off147 (i : grid0.Coords) : Fin 2 → Nat :=
  let arg0 : BitVec 32 := BitVec.ofNat 32 (i 0).val
  let v584 : Index := Scalar.indexCast arg0
  let c73 : Index := 73#32
  ![v584.toNat, 73]
def k0_off148 (v585 : BitVec 32) : Fin 2 → Nat :=
  let c0_i32_221 : BitVec 32 := 0#32
  ![v585.toNat, 0]

def k0_chk74 (v585 : BitVec 32) : Prop :=
  (∀ a, (k0_off148 v585) a + S1x4.size a ≤ S8388608x4.size a)
instance k0_chk74.dec : ∀ (v585 : BitVec 32), Decidable (k0_chk74 v585) := fun v585 => decidable_of_iff' _ (Iff.of_eq (k0_chk74.eq_1 v585))
theorem k0_off148_inb : ∀ (v585 : BitVec 32) (k0_hw74 : k0_chk74 v585), ∀ a, (k0_off148 v585) a + S1x4.size a ≤ S8388608x4.size a := fun v585 k0_hw74 => k0_hw74

def k0_off149 (i : grid0.Coords) : Fin 2 → Nat :=
  let arg0 : BitVec 32 := BitVec.ofNat 32 (i 0).val
  let v592 : Index := Scalar.indexCast arg0
  let c74 : Index := 74#32
  ![v592.toNat, 74]
def k0_off150 (v593 : BitVec 32) : Fin 2 → Nat :=
  let c0_i32_224 : BitVec 32 := 0#32
  ![v593.toNat, 0]

def k0_chk75 (v593 : BitVec 32) : Prop :=
  (∀ a, (k0_off150 v593) a + S1x4.size a ≤ S8388608x4.size a)
instance k0_chk75.dec : ∀ (v593 : BitVec 32), Decidable (k0_chk75 v593) := fun v593 => decidable_of_iff' _ (Iff.of_eq (k0_chk75.eq_1 v593))
theorem k0_off150_inb : ∀ (v593 : BitVec 32) (k0_hw75 : k0_chk75 v593), ∀ a, (k0_off150 v593) a + S1x4.size a ≤ S8388608x4.size a := fun v593 k0_hw75 => k0_hw75

def k0_off151 (i : grid0.Coords) : Fin 2 → Nat :=
  let arg0 : BitVec 32 := BitVec.ofNat 32 (i 0).val
  let v600 : Index := Scalar.indexCast arg0
  let c75 : Index := 75#32
  ![v600.toNat, 75]
def k0_off152 (v601 : BitVec 32) : Fin 2 → Nat :=
  let c0_i32_227 : BitVec 32 := 0#32
  ![v601.toNat, 0]

def k0_chk76 (v601 : BitVec 32) : Prop :=
  (∀ a, (k0_off152 v601) a + S1x4.size a ≤ S8388608x4.size a)
instance k0_chk76.dec : ∀ (v601 : BitVec 32), Decidable (k0_chk76 v601) := fun v601 => decidable_of_iff' _ (Iff.of_eq (k0_chk76.eq_1 v601))
theorem k0_off152_inb : ∀ (v601 : BitVec 32) (k0_hw76 : k0_chk76 v601), ∀ a, (k0_off152 v601) a + S1x4.size a ≤ S8388608x4.size a := fun v601 k0_hw76 => k0_hw76

def k0_off153 (i : grid0.Coords) : Fin 2 → Nat :=
  let arg0 : BitVec 32 := BitVec.ofNat 32 (i 0).val
  let v608 : Index := Scalar.indexCast arg0
  let c76 : Index := 76#32
  ![v608.toNat, 76]
def k0_off154 (v609 : BitVec 32) : Fin 2 → Nat :=
  let c0_i32_230 : BitVec 32 := 0#32
  ![v609.toNat, 0]

def k0_chk77 (v609 : BitVec 32) : Prop :=
  (∀ a, (k0_off154 v609) a + S1x4.size a ≤ S8388608x4.size a)
instance k0_chk77.dec : ∀ (v609 : BitVec 32), Decidable (k0_chk77 v609) := fun v609 => decidable_of_iff' _ (Iff.of_eq (k0_chk77.eq_1 v609))
theorem k0_off154_inb : ∀ (v609 : BitVec 32) (k0_hw77 : k0_chk77 v609), ∀ a, (k0_off154 v609) a + S1x4.size a ≤ S8388608x4.size a := fun v609 k0_hw77 => k0_hw77

def k0_off155 (i : grid0.Coords) : Fin 2 → Nat :=
  let arg0 : BitVec 32 := BitVec.ofNat 32 (i 0).val
  let v616 : Index := Scalar.indexCast arg0
  let c77 : Index := 77#32
  ![v616.toNat, 77]
def k0_off156 (v617 : BitVec 32) : Fin 2 → Nat :=
  let c0_i32_233 : BitVec 32 := 0#32
  ![v617.toNat, 0]

def k0_chk78 (v617 : BitVec 32) : Prop :=
  (∀ a, (k0_off156 v617) a + S1x4.size a ≤ S8388608x4.size a)
instance k0_chk78.dec : ∀ (v617 : BitVec 32), Decidable (k0_chk78 v617) := fun v617 => decidable_of_iff' _ (Iff.of_eq (k0_chk78.eq_1 v617))
theorem k0_off156_inb : ∀ (v617 : BitVec 32) (k0_hw78 : k0_chk78 v617), ∀ a, (k0_off156 v617) a + S1x4.size a ≤ S8388608x4.size a := fun v617 k0_hw78 => k0_hw78

def k0_off157 (i : grid0.Coords) : Fin 2 → Nat :=
  let arg0 : BitVec 32 := BitVec.ofNat 32 (i 0).val
  let v624 : Index := Scalar.indexCast arg0
  let c78 : Index := 78#32
  ![v624.toNat, 78]
def k0_off158 (v625 : BitVec 32) : Fin 2 → Nat :=
  let c0_i32_236 : BitVec 32 := 0#32
  ![v625.toNat, 0]

def k0_chk79 (v625 : BitVec 32) : Prop :=
  (∀ a, (k0_off158 v625) a + S1x4.size a ≤ S8388608x4.size a)
instance k0_chk79.dec : ∀ (v625 : BitVec 32), Decidable (k0_chk79 v625) := fun v625 => decidable_of_iff' _ (Iff.of_eq (k0_chk79.eq_1 v625))
theorem k0_off158_inb : ∀ (v625 : BitVec 32) (k0_hw79 : k0_chk79 v625), ∀ a, (k0_off158 v625) a + S1x4.size a ≤ S8388608x4.size a := fun v625 k0_hw79 => k0_hw79

def k0_off159 (i : grid0.Coords) : Fin 2 → Nat :=
  let arg0 : BitVec 32 := BitVec.ofNat 32 (i 0).val
  let v632 : Index := Scalar.indexCast arg0
  let c79 : Index := 79#32
  ![v632.toNat, 79]
def k0_off160 (v633 : BitVec 32) : Fin 2 → Nat :=
  let c0_i32_239 : BitVec 32 := 0#32
  ![v633.toNat, 0]

def k0_chk80 (v633 : BitVec 32) : Prop :=
  (∀ a, (k0_off160 v633) a + S1x4.size a ≤ S8388608x4.size a)
instance k0_chk80.dec : ∀ (v633 : BitVec 32), Decidable (k0_chk80 v633) := fun v633 => decidable_of_iff' _ (Iff.of_eq (k0_chk80.eq_1 v633))
theorem k0_off160_inb : ∀ (v633 : BitVec 32) (k0_hw80 : k0_chk80 v633), ∀ a, (k0_off160 v633) a + S1x4.size a ≤ S8388608x4.size a := fun v633 k0_hw80 => k0_hw80

def k0_off161 (i : grid0.Coords) : Fin 2 → Nat :=
  let arg0 : BitVec 32 := BitVec.ofNat 32 (i 0).val
  let v640 : Index := Scalar.indexCast arg0
  let c80 : Index := 80#32
  ![v640.toNat, 80]
def k0_off162 (v641 : BitVec 32) : Fin 2 → Nat :=
  let c0_i32_242 : BitVec 32 := 0#32
  ![v641.toNat, 0]

def k0_chk81 (v641 : BitVec 32) : Prop :=
  (∀ a, (k0_off162 v641) a + S1x4.size a ≤ S8388608x4.size a)
instance k0_chk81.dec : ∀ (v641 : BitVec 32), Decidable (k0_chk81 v641) := fun v641 => decidable_of_iff' _ (Iff.of_eq (k0_chk81.eq_1 v641))
theorem k0_off162_inb : ∀ (v641 : BitVec 32) (k0_hw81 : k0_chk81 v641), ∀ a, (k0_off162 v641) a + S1x4.size a ≤ S8388608x4.size a := fun v641 k0_hw81 => k0_hw81

def k0_off163 (i : grid0.Coords) : Fin 2 → Nat :=
  let arg0 : BitVec 32 := BitVec.ofNat 32 (i 0).val
  let v648 : Index := Scalar.indexCast arg0
  let c81 : Index := 81#32
  ![v648.toNat, 81]
def k0_off164 (v649 : BitVec 32) : Fin 2 → Nat :=
  let c0_i32_245 : BitVec 32 := 0#32
  ![v649.toNat, 0]

def k0_chk82 (v649 : BitVec 32) : Prop :=
  (∀ a, (k0_off164 v649) a + S1x4.size a ≤ S8388608x4.size a)
instance k0_chk82.dec : ∀ (v649 : BitVec 32), Decidable (k0_chk82 v649) := fun v649 => decidable_of_iff' _ (Iff.of_eq (k0_chk82.eq_1 v649))
theorem k0_off164_inb : ∀ (v649 : BitVec 32) (k0_hw82 : k0_chk82 v649), ∀ a, (k0_off164 v649) a + S1x4.size a ≤ S8388608x4.size a := fun v649 k0_hw82 => k0_hw82

def k0_off165 (i : grid0.Coords) : Fin 2 → Nat :=
  let arg0 : BitVec 32 := BitVec.ofNat 32 (i 0).val
  let v656 : Index := Scalar.indexCast arg0
  let c82 : Index := 82#32
  ![v656.toNat, 82]
def k0_off166 (v657 : BitVec 32) : Fin 2 → Nat :=
  let c0_i32_248 : BitVec 32 := 0#32
  ![v657.toNat, 0]

def k0_chk83 (v657 : BitVec 32) : Prop :=
  (∀ a, (k0_off166 v657) a + S1x4.size a ≤ S8388608x4.size a)
instance k0_chk83.dec : ∀ (v657 : BitVec 32), Decidable (k0_chk83 v657) := fun v657 => decidable_of_iff' _ (Iff.of_eq (k0_chk83.eq_1 v657))
theorem k0_off166_inb : ∀ (v657 : BitVec 32) (k0_hw83 : k0_chk83 v657), ∀ a, (k0_off166 v657) a + S1x4.size a ≤ S8388608x4.size a := fun v657 k0_hw83 => k0_hw83

def k0_off167 (i : grid0.Coords) : Fin 2 → Nat :=
  let arg0 : BitVec 32 := BitVec.ofNat 32 (i 0).val
  let v664 : Index := Scalar.indexCast arg0
  let c83 : Index := 83#32
  ![v664.toNat, 83]
def k0_off168 (v665 : BitVec 32) : Fin 2 → Nat :=
  let c0_i32_251 : BitVec 32 := 0#32
  ![v665.toNat, 0]

def k0_chk84 (v665 : BitVec 32) : Prop :=
  (∀ a, (k0_off168 v665) a + S1x4.size a ≤ S8388608x4.size a)
instance k0_chk84.dec : ∀ (v665 : BitVec 32), Decidable (k0_chk84 v665) := fun v665 => decidable_of_iff' _ (Iff.of_eq (k0_chk84.eq_1 v665))
theorem k0_off168_inb : ∀ (v665 : BitVec 32) (k0_hw84 : k0_chk84 v665), ∀ a, (k0_off168 v665) a + S1x4.size a ≤ S8388608x4.size a := fun v665 k0_hw84 => k0_hw84

def k0_off169 (i : grid0.Coords) : Fin 2 → Nat :=
  let arg0 : BitVec 32 := BitVec.ofNat 32 (i 0).val
  let v672 : Index := Scalar.indexCast arg0
  let c84 : Index := 84#32
  ![v672.toNat, 84]
def k0_off170 (v673 : BitVec 32) : Fin 2 → Nat :=
  let c0_i32_254 : BitVec 32 := 0#32
  ![v673.toNat, 0]

def k0_chk85 (v673 : BitVec 32) : Prop :=
  (∀ a, (k0_off170 v673) a + S1x4.size a ≤ S8388608x4.size a)
instance k0_chk85.dec : ∀ (v673 : BitVec 32), Decidable (k0_chk85 v673) := fun v673 => decidable_of_iff' _ (Iff.of_eq (k0_chk85.eq_1 v673))
theorem k0_off170_inb : ∀ (v673 : BitVec 32) (k0_hw85 : k0_chk85 v673), ∀ a, (k0_off170 v673) a + S1x4.size a ≤ S8388608x4.size a := fun v673 k0_hw85 => k0_hw85

def k0_off171 (i : grid0.Coords) : Fin 2 → Nat :=
  let arg0 : BitVec 32 := BitVec.ofNat 32 (i 0).val
  let v680 : Index := Scalar.indexCast arg0
  let c85 : Index := 85#32
  ![v680.toNat, 85]
def k0_off172 (v681 : BitVec 32) : Fin 2 → Nat :=
  let c0_i32_257 : BitVec 32 := 0#32
  ![v681.toNat, 0]

def k0_chk86 (v681 : BitVec 32) : Prop :=
  (∀ a, (k0_off172 v681) a + S1x4.size a ≤ S8388608x4.size a)
instance k0_chk86.dec : ∀ (v681 : BitVec 32), Decidable (k0_chk86 v681) := fun v681 => decidable_of_iff' _ (Iff.of_eq (k0_chk86.eq_1 v681))
theorem k0_off172_inb : ∀ (v681 : BitVec 32) (k0_hw86 : k0_chk86 v681), ∀ a, (k0_off172 v681) a + S1x4.size a ≤ S8388608x4.size a := fun v681 k0_hw86 => k0_hw86

def k0_off173 (i : grid0.Coords) : Fin 2 → Nat :=
  let arg0 : BitVec 32 := BitVec.ofNat 32 (i 0).val
  let v688 : Index := Scalar.indexCast arg0
  let c86 : Index := 86#32
  ![v688.toNat, 86]
def k0_off174 (v689 : BitVec 32) : Fin 2 → Nat :=
  let c0_i32_260 : BitVec 32 := 0#32
  ![v689.toNat, 0]

def k0_chk87 (v689 : BitVec 32) : Prop :=
  (∀ a, (k0_off174 v689) a + S1x4.size a ≤ S8388608x4.size a)
instance k0_chk87.dec : ∀ (v689 : BitVec 32), Decidable (k0_chk87 v689) := fun v689 => decidable_of_iff' _ (Iff.of_eq (k0_chk87.eq_1 v689))
theorem k0_off174_inb : ∀ (v689 : BitVec 32) (k0_hw87 : k0_chk87 v689), ∀ a, (k0_off174 v689) a + S1x4.size a ≤ S8388608x4.size a := fun v689 k0_hw87 => k0_hw87

def k0_off175 (i : grid0.Coords) : Fin 2 → Nat :=
  let arg0 : BitVec 32 := BitVec.ofNat 32 (i 0).val
  let v696 : Index := Scalar.indexCast arg0
  let c87 : Index := 87#32
  ![v696.toNat, 87]
def k0_off176 (v697 : BitVec 32) : Fin 2 → Nat :=
  let c0_i32_263 : BitVec 32 := 0#32
  ![v697.toNat, 0]

def k0_chk88 (v697 : BitVec 32) : Prop :=
  (∀ a, (k0_off176 v697) a + S1x4.size a ≤ S8388608x4.size a)
instance k0_chk88.dec : ∀ (v697 : BitVec 32), Decidable (k0_chk88 v697) := fun v697 => decidable_of_iff' _ (Iff.of_eq (k0_chk88.eq_1 v697))
theorem k0_off176_inb : ∀ (v697 : BitVec 32) (k0_hw88 : k0_chk88 v697), ∀ a, (k0_off176 v697) a + S1x4.size a ≤ S8388608x4.size a := fun v697 k0_hw88 => k0_hw88

def k0_off177 (i : grid0.Coords) : Fin 2 → Nat :=
  let arg0 : BitVec 32 := BitVec.ofNat 32 (i 0).val
  let v704 : Index := Scalar.indexCast arg0
  let c88 : Index := 88#32
  ![v704.toNat, 88]
def k0_off178 (v705 : BitVec 32) : Fin 2 → Nat :=
  let c0_i32_266 : BitVec 32 := 0#32
  ![v705.toNat, 0]

def k0_chk89 (v705 : BitVec 32) : Prop :=
  (∀ a, (k0_off178 v705) a + S1x4.size a ≤ S8388608x4.size a)
instance k0_chk89.dec : ∀ (v705 : BitVec 32), Decidable (k0_chk89 v705) := fun v705 => decidable_of_iff' _ (Iff.of_eq (k0_chk89.eq_1 v705))
theorem k0_off178_inb : ∀ (v705 : BitVec 32) (k0_hw89 : k0_chk89 v705), ∀ a, (k0_off178 v705) a + S1x4.size a ≤ S8388608x4.size a := fun v705 k0_hw89 => k0_hw89

def k0_off179 (i : grid0.Coords) : Fin 2 → Nat :=
  let arg0 : BitVec 32 := BitVec.ofNat 32 (i 0).val
  let v712 : Index := Scalar.indexCast arg0
  let c89 : Index := 89#32
  ![v712.toNat, 89]
def k0_off180 (v713 : BitVec 32) : Fin 2 → Nat :=
  let c0_i32_269 : BitVec 32 := 0#32
  ![v713.toNat, 0]

def k0_chk90 (v713 : BitVec 32) : Prop :=
  (∀ a, (k0_off180 v713) a + S1x4.size a ≤ S8388608x4.size a)
instance k0_chk90.dec : ∀ (v713 : BitVec 32), Decidable (k0_chk90 v713) := fun v713 => decidable_of_iff' _ (Iff.of_eq (k0_chk90.eq_1 v713))
theorem k0_off180_inb : ∀ (v713 : BitVec 32) (k0_hw90 : k0_chk90 v713), ∀ a, (k0_off180 v713) a + S1x4.size a ≤ S8388608x4.size a := fun v713 k0_hw90 => k0_hw90

def k0_off181 (i : grid0.Coords) : Fin 2 → Nat :=
  let arg0 : BitVec 32 := BitVec.ofNat 32 (i 0).val
  let v720 : Index := Scalar.indexCast arg0
  let c90 : Index := 90#32
  ![v720.toNat, 90]
def k0_off182 (v721 : BitVec 32) : Fin 2 → Nat :=
  let c0_i32_272 : BitVec 32 := 0#32
  ![v721.toNat, 0]

def k0_chk91 (v721 : BitVec 32) : Prop :=
  (∀ a, (k0_off182 v721) a + S1x4.size a ≤ S8388608x4.size a)
instance k0_chk91.dec : ∀ (v721 : BitVec 32), Decidable (k0_chk91 v721) := fun v721 => decidable_of_iff' _ (Iff.of_eq (k0_chk91.eq_1 v721))
theorem k0_off182_inb : ∀ (v721 : BitVec 32) (k0_hw91 : k0_chk91 v721), ∀ a, (k0_off182 v721) a + S1x4.size a ≤ S8388608x4.size a := fun v721 k0_hw91 => k0_hw91

def k0_off183 (i : grid0.Coords) : Fin 2 → Nat :=
  let arg0 : BitVec 32 := BitVec.ofNat 32 (i 0).val
  let v728 : Index := Scalar.indexCast arg0
  let c91 : Index := 91#32
  ![v728.toNat, 91]
def k0_off184 (v729 : BitVec 32) : Fin 2 → Nat :=
  let c0_i32_275 : BitVec 32 := 0#32
  ![v729.toNat, 0]

def k0_chk92 (v729 : BitVec 32) : Prop :=
  (∀ a, (k0_off184 v729) a + S1x4.size a ≤ S8388608x4.size a)
instance k0_chk92.dec : ∀ (v729 : BitVec 32), Decidable (k0_chk92 v729) := fun v729 => decidable_of_iff' _ (Iff.of_eq (k0_chk92.eq_1 v729))
theorem k0_off184_inb : ∀ (v729 : BitVec 32) (k0_hw92 : k0_chk92 v729), ∀ a, (k0_off184 v729) a + S1x4.size a ≤ S8388608x4.size a := fun v729 k0_hw92 => k0_hw92

def k0_off185 (i : grid0.Coords) : Fin 2 → Nat :=
  let arg0 : BitVec 32 := BitVec.ofNat 32 (i 0).val
  let v736 : Index := Scalar.indexCast arg0
  let c92 : Index := 92#32
  ![v736.toNat, 92]
def k0_off186 (v737 : BitVec 32) : Fin 2 → Nat :=
  let c0_i32_278 : BitVec 32 := 0#32
  ![v737.toNat, 0]

def k0_chk93 (v737 : BitVec 32) : Prop :=
  (∀ a, (k0_off186 v737) a + S1x4.size a ≤ S8388608x4.size a)
instance k0_chk93.dec : ∀ (v737 : BitVec 32), Decidable (k0_chk93 v737) := fun v737 => decidable_of_iff' _ (Iff.of_eq (k0_chk93.eq_1 v737))
theorem k0_off186_inb : ∀ (v737 : BitVec 32) (k0_hw93 : k0_chk93 v737), ∀ a, (k0_off186 v737) a + S1x4.size a ≤ S8388608x4.size a := fun v737 k0_hw93 => k0_hw93

def k0_off187 (i : grid0.Coords) : Fin 2 → Nat :=
  let arg0 : BitVec 32 := BitVec.ofNat 32 (i 0).val
  let v744 : Index := Scalar.indexCast arg0
  let c93 : Index := 93#32
  ![v744.toNat, 93]
def k0_off188 (v745 : BitVec 32) : Fin 2 → Nat :=
  let c0_i32_281 : BitVec 32 := 0#32
  ![v745.toNat, 0]

def k0_chk94 (v745 : BitVec 32) : Prop :=
  (∀ a, (k0_off188 v745) a + S1x4.size a ≤ S8388608x4.size a)
instance k0_chk94.dec : ∀ (v745 : BitVec 32), Decidable (k0_chk94 v745) := fun v745 => decidable_of_iff' _ (Iff.of_eq (k0_chk94.eq_1 v745))
theorem k0_off188_inb : ∀ (v745 : BitVec 32) (k0_hw94 : k0_chk94 v745), ∀ a, (k0_off188 v745) a + S1x4.size a ≤ S8388608x4.size a := fun v745 k0_hw94 => k0_hw94

def k0_off189 (i : grid0.Coords) : Fin 2 → Nat :=
  let arg0 : BitVec 32 := BitVec.ofNat 32 (i 0).val
  let v752 : Index := Scalar.indexCast arg0
  let c94 : Index := 94#32
  ![v752.toNat, 94]
def k0_off190 (v753 : BitVec 32) : Fin 2 → Nat :=
  let c0_i32_284 : BitVec 32 := 0#32
  ![v753.toNat, 0]

def k0_chk95 (v753 : BitVec 32) : Prop :=
  (∀ a, (k0_off190 v753) a + S1x4.size a ≤ S8388608x4.size a)
instance k0_chk95.dec : ∀ (v753 : BitVec 32), Decidable (k0_chk95 v753) := fun v753 => decidable_of_iff' _ (Iff.of_eq (k0_chk95.eq_1 v753))
theorem k0_off190_inb : ∀ (v753 : BitVec 32) (k0_hw95 : k0_chk95 v753), ∀ a, (k0_off190 v753) a + S1x4.size a ≤ S8388608x4.size a := fun v753 k0_hw95 => k0_hw95

def k0_off191 (i : grid0.Coords) : Fin 2 → Nat :=
  let arg0 : BitVec 32 := BitVec.ofNat 32 (i 0).val
  let v760 : Index := Scalar.indexCast arg0
  let c95 : Index := 95#32
  ![v760.toNat, 95]
def k0_off192 (v761 : BitVec 32) : Fin 2 → Nat :=
  let c0_i32_287 : BitVec 32 := 0#32
  ![v761.toNat, 0]

def k0_chk96 (v761 : BitVec 32) : Prop :=
  (∀ a, (k0_off192 v761) a + S1x4.size a ≤ S8388608x4.size a)
instance k0_chk96.dec : ∀ (v761 : BitVec 32), Decidable (k0_chk96 v761) := fun v761 => decidable_of_iff' _ (Iff.of_eq (k0_chk96.eq_1 v761))
theorem k0_off192_inb : ∀ (v761 : BitVec 32) (k0_hw96 : k0_chk96 v761), ∀ a, (k0_off192 v761) a + S1x4.size a ≤ S8388608x4.size a := fun v761 k0_hw96 => k0_hw96

def k0_off193 (i : grid0.Coords) : Fin 2 → Nat :=
  let arg0 : BitVec 32 := BitVec.ofNat 32 (i 0).val
  let v768 : Index := Scalar.indexCast arg0
  let c96 : Index := 96#32
  ![v768.toNat, 96]
def k0_off194 (v769 : BitVec 32) : Fin 2 → Nat :=
  let c0_i32_290 : BitVec 32 := 0#32
  ![v769.toNat, 0]

def k0_chk97 (v769 : BitVec 32) : Prop :=
  (∀ a, (k0_off194 v769) a + S1x4.size a ≤ S8388608x4.size a)
instance k0_chk97.dec : ∀ (v769 : BitVec 32), Decidable (k0_chk97 v769) := fun v769 => decidable_of_iff' _ (Iff.of_eq (k0_chk97.eq_1 v769))
theorem k0_off194_inb : ∀ (v769 : BitVec 32) (k0_hw97 : k0_chk97 v769), ∀ a, (k0_off194 v769) a + S1x4.size a ≤ S8388608x4.size a := fun v769 k0_hw97 => k0_hw97

def k0_off195 (i : grid0.Coords) : Fin 2 → Nat :=
  let arg0 : BitVec 32 := BitVec.ofNat 32 (i 0).val
  let v776 : Index := Scalar.indexCast arg0
  let c97 : Index := 97#32
  ![v776.toNat, 97]
def k0_off196 (v777 : BitVec 32) : Fin 2 → Nat :=
  let c0_i32_293 : BitVec 32 := 0#32
  ![v777.toNat, 0]

def k0_chk98 (v777 : BitVec 32) : Prop :=
  (∀ a, (k0_off196 v777) a + S1x4.size a ≤ S8388608x4.size a)
instance k0_chk98.dec : ∀ (v777 : BitVec 32), Decidable (k0_chk98 v777) := fun v777 => decidable_of_iff' _ (Iff.of_eq (k0_chk98.eq_1 v777))
theorem k0_off196_inb : ∀ (v777 : BitVec 32) (k0_hw98 : k0_chk98 v777), ∀ a, (k0_off196 v777) a + S1x4.size a ≤ S8388608x4.size a := fun v777 k0_hw98 => k0_hw98

def k0_off197 (i : grid0.Coords) : Fin 2 → Nat :=
  let arg0 : BitVec 32 := BitVec.ofNat 32 (i 0).val
  let v784 : Index := Scalar.indexCast arg0
  let c98 : Index := 98#32
  ![v784.toNat, 98]
def k0_off198 (v785 : BitVec 32) : Fin 2 → Nat :=
  let c0_i32_296 : BitVec 32 := 0#32
  ![v785.toNat, 0]

def k0_chk99 (v785 : BitVec 32) : Prop :=
  (∀ a, (k0_off198 v785) a + S1x4.size a ≤ S8388608x4.size a)
instance k0_chk99.dec : ∀ (v785 : BitVec 32), Decidable (k0_chk99 v785) := fun v785 => decidable_of_iff' _ (Iff.of_eq (k0_chk99.eq_1 v785))
theorem k0_off198_inb : ∀ (v785 : BitVec 32) (k0_hw99 : k0_chk99 v785), ∀ a, (k0_off198 v785) a + S1x4.size a ≤ S8388608x4.size a := fun v785 k0_hw99 => k0_hw99

def k0_off199 (i : grid0.Coords) : Fin 2 → Nat :=
  let arg0 : BitVec 32 := BitVec.ofNat 32 (i 0).val
  let v792 : Index := Scalar.indexCast arg0
  let c99 : Index := 99#32
  ![v792.toNat, 99]
def k0_off200 (v793 : BitVec 32) : Fin 2 → Nat :=
  let c0_i32_299 : BitVec 32 := 0#32
  ![v793.toNat, 0]

def k0_chk100 (v793 : BitVec 32) : Prop :=
  (∀ a, (k0_off200 v793) a + S1x4.size a ≤ S8388608x4.size a)
instance k0_chk100.dec : ∀ (v793 : BitVec 32), Decidable (k0_chk100 v793) := fun v793 => decidable_of_iff' _ (Iff.of_eq (k0_chk100.eq_1 v793))
theorem k0_off200_inb : ∀ (v793 : BitVec 32) (k0_hw100 : k0_chk100 v793), ∀ a, (k0_off200 v793) a + S1x4.size a ≤ S8388608x4.size a := fun v793 k0_hw100 => k0_hw100

def k0_off201 (i : grid0.Coords) : Fin 2 → Nat :=
  let arg0 : BitVec 32 := BitVec.ofNat 32 (i 0).val
  let v800 : Index := Scalar.indexCast arg0
  let c100 : Index := 100#32
  ![v800.toNat, 100]
def k0_off202 (v801 : BitVec 32) : Fin 2 → Nat :=
  let c0_i32_302 : BitVec 32 := 0#32
  ![v801.toNat, 0]

def k0_chk101 (v801 : BitVec 32) : Prop :=
  (∀ a, (k0_off202 v801) a + S1x4.size a ≤ S8388608x4.size a)
instance k0_chk101.dec : ∀ (v801 : BitVec 32), Decidable (k0_chk101 v801) := fun v801 => decidable_of_iff' _ (Iff.of_eq (k0_chk101.eq_1 v801))
theorem k0_off202_inb : ∀ (v801 : BitVec 32) (k0_hw101 : k0_chk101 v801), ∀ a, (k0_off202 v801) a + S1x4.size a ≤ S8388608x4.size a := fun v801 k0_hw101 => k0_hw101

def k0_off203 (i : grid0.Coords) : Fin 2 → Nat :=
  let arg0 : BitVec 32 := BitVec.ofNat 32 (i 0).val
  let v808 : Index := Scalar.indexCast arg0
  let c101 : Index := 101#32
  ![v808.toNat, 101]
def k0_off204 (v809 : BitVec 32) : Fin 2 → Nat :=
  let c0_i32_305 : BitVec 32 := 0#32
  ![v809.toNat, 0]

def k0_chk102 (v809 : BitVec 32) : Prop :=
  (∀ a, (k0_off204 v809) a + S1x4.size a ≤ S8388608x4.size a)
instance k0_chk102.dec : ∀ (v809 : BitVec 32), Decidable (k0_chk102 v809) := fun v809 => decidable_of_iff' _ (Iff.of_eq (k0_chk102.eq_1 v809))
theorem k0_off204_inb : ∀ (v809 : BitVec 32) (k0_hw102 : k0_chk102 v809), ∀ a, (k0_off204 v809) a + S1x4.size a ≤ S8388608x4.size a := fun v809 k0_hw102 => k0_hw102

def k0_off205 (i : grid0.Coords) : Fin 2 → Nat :=
  let arg0 : BitVec 32 := BitVec.ofNat 32 (i 0).val
  let v816 : Index := Scalar.indexCast arg0
  let c102 : Index := 102#32
  ![v816.toNat, 102]
def k0_off206 (v817 : BitVec 32) : Fin 2 → Nat :=
  let c0_i32_308 : BitVec 32 := 0#32
  ![v817.toNat, 0]

def k0_chk103 (v817 : BitVec 32) : Prop :=
  (∀ a, (k0_off206 v817) a + S1x4.size a ≤ S8388608x4.size a)
instance k0_chk103.dec : ∀ (v817 : BitVec 32), Decidable (k0_chk103 v817) := fun v817 => decidable_of_iff' _ (Iff.of_eq (k0_chk103.eq_1 v817))
theorem k0_off206_inb : ∀ (v817 : BitVec 32) (k0_hw103 : k0_chk103 v817), ∀ a, (k0_off206 v817) a + S1x4.size a ≤ S8388608x4.size a := fun v817 k0_hw103 => k0_hw103

def k0_off207 (i : grid0.Coords) : Fin 2 → Nat :=
  let arg0 : BitVec 32 := BitVec.ofNat 32 (i 0).val
  let v824 : Index := Scalar.indexCast arg0
  let c103 : Index := 103#32
  ![v824.toNat, 103]
def k0_off208 (v825 : BitVec 32) : Fin 2 → Nat :=
  let c0_i32_311 : BitVec 32 := 0#32
  ![v825.toNat, 0]

def k0_chk104 (v825 : BitVec 32) : Prop :=
  (∀ a, (k0_off208 v825) a + S1x4.size a ≤ S8388608x4.size a)
instance k0_chk104.dec : ∀ (v825 : BitVec 32), Decidable (k0_chk104 v825) := fun v825 => decidable_of_iff' _ (Iff.of_eq (k0_chk104.eq_1 v825))
theorem k0_off208_inb : ∀ (v825 : BitVec 32) (k0_hw104 : k0_chk104 v825), ∀ a, (k0_off208 v825) a + S1x4.size a ≤ S8388608x4.size a := fun v825 k0_hw104 => k0_hw104

def k0_off209 (i : grid0.Coords) : Fin 2 → Nat :=
  let arg0 : BitVec 32 := BitVec.ofNat 32 (i 0).val
  let v832 : Index := Scalar.indexCast arg0
  let c104 : Index := 104#32
  ![v832.toNat, 104]
def k0_off210 (v833 : BitVec 32) : Fin 2 → Nat :=
  let c0_i32_314 : BitVec 32 := 0#32
  ![v833.toNat, 0]

def k0_chk105 (v833 : BitVec 32) : Prop :=
  (∀ a, (k0_off210 v833) a + S1x4.size a ≤ S8388608x4.size a)
instance k0_chk105.dec : ∀ (v833 : BitVec 32), Decidable (k0_chk105 v833) := fun v833 => decidable_of_iff' _ (Iff.of_eq (k0_chk105.eq_1 v833))
theorem k0_off210_inb : ∀ (v833 : BitVec 32) (k0_hw105 : k0_chk105 v833), ∀ a, (k0_off210 v833) a + S1x4.size a ≤ S8388608x4.size a := fun v833 k0_hw105 => k0_hw105

def k0_off211 (i : grid0.Coords) : Fin 2 → Nat :=
  let arg0 : BitVec 32 := BitVec.ofNat 32 (i 0).val
  let v840 : Index := Scalar.indexCast arg0
  let c105 : Index := 105#32
  ![v840.toNat, 105]
def k0_off212 (v841 : BitVec 32) : Fin 2 → Nat :=
  let c0_i32_317 : BitVec 32 := 0#32
  ![v841.toNat, 0]

def k0_chk106 (v841 : BitVec 32) : Prop :=
  (∀ a, (k0_off212 v841) a + S1x4.size a ≤ S8388608x4.size a)
instance k0_chk106.dec : ∀ (v841 : BitVec 32), Decidable (k0_chk106 v841) := fun v841 => decidable_of_iff' _ (Iff.of_eq (k0_chk106.eq_1 v841))
theorem k0_off212_inb : ∀ (v841 : BitVec 32) (k0_hw106 : k0_chk106 v841), ∀ a, (k0_off212 v841) a + S1x4.size a ≤ S8388608x4.size a := fun v841 k0_hw106 => k0_hw106

def k0_off213 (i : grid0.Coords) : Fin 2 → Nat :=
  let arg0 : BitVec 32 := BitVec.ofNat 32 (i 0).val
  let v848 : Index := Scalar.indexCast arg0
  let c106 : Index := 106#32
  ![v848.toNat, 106]
def k0_off214 (v849 : BitVec 32) : Fin 2 → Nat :=
  let c0_i32_320 : BitVec 32 := 0#32
  ![v849.toNat, 0]

def k0_chk107 (v849 : BitVec 32) : Prop :=
  (∀ a, (k0_off214 v849) a + S1x4.size a ≤ S8388608x4.size a)
instance k0_chk107.dec : ∀ (v849 : BitVec 32), Decidable (k0_chk107 v849) := fun v849 => decidable_of_iff' _ (Iff.of_eq (k0_chk107.eq_1 v849))
theorem k0_off214_inb : ∀ (v849 : BitVec 32) (k0_hw107 : k0_chk107 v849), ∀ a, (k0_off214 v849) a + S1x4.size a ≤ S8388608x4.size a := fun v849 k0_hw107 => k0_hw107

def k0_off215 (i : grid0.Coords) : Fin 2 → Nat :=
  let arg0 : BitVec 32 := BitVec.ofNat 32 (i 0).val
  let v856 : Index := Scalar.indexCast arg0
  let c107 : Index := 107#32
  ![v856.toNat, 107]
def k0_off216 (v857 : BitVec 32) : Fin 2 → Nat :=
  let c0_i32_323 : BitVec 32 := 0#32
  ![v857.toNat, 0]

def k0_chk108 (v857 : BitVec 32) : Prop :=
  (∀ a, (k0_off216 v857) a + S1x4.size a ≤ S8388608x4.size a)
instance k0_chk108.dec : ∀ (v857 : BitVec 32), Decidable (k0_chk108 v857) := fun v857 => decidable_of_iff' _ (Iff.of_eq (k0_chk108.eq_1 v857))
theorem k0_off216_inb : ∀ (v857 : BitVec 32) (k0_hw108 : k0_chk108 v857), ∀ a, (k0_off216 v857) a + S1x4.size a ≤ S8388608x4.size a := fun v857 k0_hw108 => k0_hw108

def k0_off217 (i : grid0.Coords) : Fin 2 → Nat :=
  let arg0 : BitVec 32 := BitVec.ofNat 32 (i 0).val
  let v864 : Index := Scalar.indexCast arg0
  let c108 : Index := 108#32
  ![v864.toNat, 108]
def k0_off218 (v865 : BitVec 32) : Fin 2 → Nat :=
  let c0_i32_326 : BitVec 32 := 0#32
  ![v865.toNat, 0]

def k0_chk109 (v865 : BitVec 32) : Prop :=
  (∀ a, (k0_off218 v865) a + S1x4.size a ≤ S8388608x4.size a)
instance k0_chk109.dec : ∀ (v865 : BitVec 32), Decidable (k0_chk109 v865) := fun v865 => decidable_of_iff' _ (Iff.of_eq (k0_chk109.eq_1 v865))
theorem k0_off218_inb : ∀ (v865 : BitVec 32) (k0_hw109 : k0_chk109 v865), ∀ a, (k0_off218 v865) a + S1x4.size a ≤ S8388608x4.size a := fun v865 k0_hw109 => k0_hw109

def k0_off219 (i : grid0.Coords) : Fin 2 → Nat :=
  let arg0 : BitVec 32 := BitVec.ofNat 32 (i 0).val
  let v872 : Index := Scalar.indexCast arg0
  let c109 : Index := 109#32
  ![v872.toNat, 109]
def k0_off220 (v873 : BitVec 32) : Fin 2 → Nat :=
  let c0_i32_329 : BitVec 32 := 0#32
  ![v873.toNat, 0]

def k0_chk110 (v873 : BitVec 32) : Prop :=
  (∀ a, (k0_off220 v873) a + S1x4.size a ≤ S8388608x4.size a)
instance k0_chk110.dec : ∀ (v873 : BitVec 32), Decidable (k0_chk110 v873) := fun v873 => decidable_of_iff' _ (Iff.of_eq (k0_chk110.eq_1 v873))
theorem k0_off220_inb : ∀ (v873 : BitVec 32) (k0_hw110 : k0_chk110 v873), ∀ a, (k0_off220 v873) a + S1x4.size a ≤ S8388608x4.size a := fun v873 k0_hw110 => k0_hw110

def k0_off221 (i : grid0.Coords) : Fin 2 → Nat :=
  let arg0 : BitVec 32 := BitVec.ofNat 32 (i 0).val
  let v880 : Index := Scalar.indexCast arg0
  let c110 : Index := 110#32
  ![v880.toNat, 110]
def k0_off222 (v881 : BitVec 32) : Fin 2 → Nat :=
  let c0_i32_332 : BitVec 32 := 0#32
  ![v881.toNat, 0]

def k0_chk111 (v881 : BitVec 32) : Prop :=
  (∀ a, (k0_off222 v881) a + S1x4.size a ≤ S8388608x4.size a)
instance k0_chk111.dec : ∀ (v881 : BitVec 32), Decidable (k0_chk111 v881) := fun v881 => decidable_of_iff' _ (Iff.of_eq (k0_chk111.eq_1 v881))
theorem k0_off222_inb : ∀ (v881 : BitVec 32) (k0_hw111 : k0_chk111 v881), ∀ a, (k0_off222 v881) a + S1x4.size a ≤ S8388608x4.size a := fun v881 k0_hw111 => k0_hw111

def k0_off223 (i : grid0.Coords) : Fin 2 → Nat :=
  let arg0 : BitVec 32 := BitVec.ofNat 32 (i 0).val
  let v888 : Index := Scalar.indexCast arg0
  let c111 : Index := 111#32
  ![v888.toNat, 111]
def k0_off224 (v889 : BitVec 32) : Fin 2 → Nat :=
  let c0_i32_335 : BitVec 32 := 0#32
  ![v889.toNat, 0]

def k0_chk112 (v889 : BitVec 32) : Prop :=
  (∀ a, (k0_off224 v889) a + S1x4.size a ≤ S8388608x4.size a)
instance k0_chk112.dec : ∀ (v889 : BitVec 32), Decidable (k0_chk112 v889) := fun v889 => decidable_of_iff' _ (Iff.of_eq (k0_chk112.eq_1 v889))
theorem k0_off224_inb : ∀ (v889 : BitVec 32) (k0_hw112 : k0_chk112 v889), ∀ a, (k0_off224 v889) a + S1x4.size a ≤ S8388608x4.size a := fun v889 k0_hw112 => k0_hw112

def k0_off225 (i : grid0.Coords) : Fin 2 → Nat :=
  let arg0 : BitVec 32 := BitVec.ofNat 32 (i 0).val
  let v896 : Index := Scalar.indexCast arg0
  let c112 : Index := 112#32
  ![v896.toNat, 112]
def k0_off226 (v897 : BitVec 32) : Fin 2 → Nat :=
  let c0_i32_338 : BitVec 32 := 0#32
  ![v897.toNat, 0]

def k0_chk113 (v897 : BitVec 32) : Prop :=
  (∀ a, (k0_off226 v897) a + S1x4.size a ≤ S8388608x4.size a)
instance k0_chk113.dec : ∀ (v897 : BitVec 32), Decidable (k0_chk113 v897) := fun v897 => decidable_of_iff' _ (Iff.of_eq (k0_chk113.eq_1 v897))
theorem k0_off226_inb : ∀ (v897 : BitVec 32) (k0_hw113 : k0_chk113 v897), ∀ a, (k0_off226 v897) a + S1x4.size a ≤ S8388608x4.size a := fun v897 k0_hw113 => k0_hw113

def k0_off227 (i : grid0.Coords) : Fin 2 → Nat :=
  let arg0 : BitVec 32 := BitVec.ofNat 32 (i 0).val
  let v904 : Index := Scalar.indexCast arg0
  let c113 : Index := 113#32
  ![v904.toNat, 113]
def k0_off228 (v905 : BitVec 32) : Fin 2 → Nat :=
  let c0_i32_341 : BitVec 32 := 0#32
  ![v905.toNat, 0]

def k0_chk114 (v905 : BitVec 32) : Prop :=
  (∀ a, (k0_off228 v905) a + S1x4.size a ≤ S8388608x4.size a)
instance k0_chk114.dec : ∀ (v905 : BitVec 32), Decidable (k0_chk114 v905) := fun v905 => decidable_of_iff' _ (Iff.of_eq (k0_chk114.eq_1 v905))
theorem k0_off228_inb : ∀ (v905 : BitVec 32) (k0_hw114 : k0_chk114 v905), ∀ a, (k0_off228 v905) a + S1x4.size a ≤ S8388608x4.size a := fun v905 k0_hw114 => k0_hw114

def k0_off229 (i : grid0.Coords) : Fin 2 → Nat :=
  let arg0 : BitVec 32 := BitVec.ofNat 32 (i 0).val
  let v912 : Index := Scalar.indexCast arg0
  let c114 : Index := 114#32
  ![v912.toNat, 114]
def k0_off230 (v913 : BitVec 32) : Fin 2 → Nat :=
  let c0_i32_344 : BitVec 32 := 0#32
  ![v913.toNat, 0]

def k0_chk115 (v913 : BitVec 32) : Prop :=
  (∀ a, (k0_off230 v913) a + S1x4.size a ≤ S8388608x4.size a)
instance k0_chk115.dec : ∀ (v913 : BitVec 32), Decidable (k0_chk115 v913) := fun v913 => decidable_of_iff' _ (Iff.of_eq (k0_chk115.eq_1 v913))
theorem k0_off230_inb : ∀ (v913 : BitVec 32) (k0_hw115 : k0_chk115 v913), ∀ a, (k0_off230 v913) a + S1x4.size a ≤ S8388608x4.size a := fun v913 k0_hw115 => k0_hw115

def k0_off231 (i : grid0.Coords) : Fin 2 → Nat :=
  let arg0 : BitVec 32 := BitVec.ofNat 32 (i 0).val
  let v920 : Index := Scalar.indexCast arg0
  let c115 : Index := 115#32
  ![v920.toNat, 115]
def k0_off232 (v921 : BitVec 32) : Fin 2 → Nat :=
  let c0_i32_347 : BitVec 32 := 0#32
  ![v921.toNat, 0]

def k0_chk116 (v921 : BitVec 32) : Prop :=
  (∀ a, (k0_off232 v921) a + S1x4.size a ≤ S8388608x4.size a)
instance k0_chk116.dec : ∀ (v921 : BitVec 32), Decidable (k0_chk116 v921) := fun v921 => decidable_of_iff' _ (Iff.of_eq (k0_chk116.eq_1 v921))
theorem k0_off232_inb : ∀ (v921 : BitVec 32) (k0_hw116 : k0_chk116 v921), ∀ a, (k0_off232 v921) a + S1x4.size a ≤ S8388608x4.size a := fun v921 k0_hw116 => k0_hw116

def k0_off233 (i : grid0.Coords) : Fin 2 → Nat :=
  let arg0 : BitVec 32 := BitVec.ofNat 32 (i 0).val
  let v928 : Index := Scalar.indexCast arg0
  let c116 : Index := 116#32
  ![v928.toNat, 116]
def k0_off234 (v929 : BitVec 32) : Fin 2 → Nat :=
  let c0_i32_350 : BitVec 32 := 0#32
  ![v929.toNat, 0]

def k0_chk117 (v929 : BitVec 32) : Prop :=
  (∀ a, (k0_off234 v929) a + S1x4.size a ≤ S8388608x4.size a)
instance k0_chk117.dec : ∀ (v929 : BitVec 32), Decidable (k0_chk117 v929) := fun v929 => decidable_of_iff' _ (Iff.of_eq (k0_chk117.eq_1 v929))
theorem k0_off234_inb : ∀ (v929 : BitVec 32) (k0_hw117 : k0_chk117 v929), ∀ a, (k0_off234 v929) a + S1x4.size a ≤ S8388608x4.size a := fun v929 k0_hw117 => k0_hw117

def k0_off235 (i : grid0.Coords) : Fin 2 → Nat :=
  let arg0 : BitVec 32 := BitVec.ofNat 32 (i 0).val
  let v936 : Index := Scalar.indexCast arg0
  let c117 : Index := 117#32
  ![v936.toNat, 117]
def k0_off236 (v937 : BitVec 32) : Fin 2 → Nat :=
  let c0_i32_353 : BitVec 32 := 0#32
  ![v937.toNat, 0]

def k0_chk118 (v937 : BitVec 32) : Prop :=
  (∀ a, (k0_off236 v937) a + S1x4.size a ≤ S8388608x4.size a)
instance k0_chk118.dec : ∀ (v937 : BitVec 32), Decidable (k0_chk118 v937) := fun v937 => decidable_of_iff' _ (Iff.of_eq (k0_chk118.eq_1 v937))
theorem k0_off236_inb : ∀ (v937 : BitVec 32) (k0_hw118 : k0_chk118 v937), ∀ a, (k0_off236 v937) a + S1x4.size a ≤ S8388608x4.size a := fun v937 k0_hw118 => k0_hw118

def k0_off237 (i : grid0.Coords) : Fin 2 → Nat :=
  let arg0 : BitVec 32 := BitVec.ofNat 32 (i 0).val
  let v944 : Index := Scalar.indexCast arg0
  let c118 : Index := 118#32
  ![v944.toNat, 118]
def k0_off238 (v945 : BitVec 32) : Fin 2 → Nat :=
  let c0_i32_356 : BitVec 32 := 0#32
  ![v945.toNat, 0]

def k0_chk119 (v945 : BitVec 32) : Prop :=
  (∀ a, (k0_off238 v945) a + S1x4.size a ≤ S8388608x4.size a)
instance k0_chk119.dec : ∀ (v945 : BitVec 32), Decidable (k0_chk119 v945) := fun v945 => decidable_of_iff' _ (Iff.of_eq (k0_chk119.eq_1 v945))
theorem k0_off238_inb : ∀ (v945 : BitVec 32) (k0_hw119 : k0_chk119 v945), ∀ a, (k0_off238 v945) a + S1x4.size a ≤ S8388608x4.size a := fun v945 k0_hw119 => k0_hw119

def k0_off239 (i : grid0.Coords) : Fin 2 → Nat :=
  let arg0 : BitVec 32 := BitVec.ofNat 32 (i 0).val
  let v952 : Index := Scalar.indexCast arg0
  let c119 : Index := 119#32
  ![v952.toNat, 119]
def k0_off240 (v953 : BitVec 32) : Fin 2 → Nat :=
  let c0_i32_359 : BitVec 32 := 0#32
  ![v953.toNat, 0]

def k0_chk120 (v953 : BitVec 32) : Prop :=
  (∀ a, (k0_off240 v953) a + S1x4.size a ≤ S8388608x4.size a)
instance k0_chk120.dec : ∀ (v953 : BitVec 32), Decidable (k0_chk120 v953) := fun v953 => decidable_of_iff' _ (Iff.of_eq (k0_chk120.eq_1 v953))
theorem k0_off240_inb : ∀ (v953 : BitVec 32) (k0_hw120 : k0_chk120 v953), ∀ a, (k0_off240 v953) a + S1x4.size a ≤ S8388608x4.size a := fun v953 k0_hw120 => k0_hw120

def k0_off241 (i : grid0.Coords) : Fin 2 → Nat :=
  let arg0 : BitVec 32 := BitVec.ofNat 32 (i 0).val
  let v960 : Index := Scalar.indexCast arg0
  let c120 : Index := 120#32
  ![v960.toNat, 120]
def k0_off242 (v961 : BitVec 32) : Fin 2 → Nat :=
  let c0_i32_362 : BitVec 32 := 0#32
  ![v961.toNat, 0]

def k0_chk121 (v961 : BitVec 32) : Prop :=
  (∀ a, (k0_off242 v961) a + S1x4.size a ≤ S8388608x4.size a)
instance k0_chk121.dec : ∀ (v961 : BitVec 32), Decidable (k0_chk121 v961) := fun v961 => decidable_of_iff' _ (Iff.of_eq (k0_chk121.eq_1 v961))
theorem k0_off242_inb : ∀ (v961 : BitVec 32) (k0_hw121 : k0_chk121 v961), ∀ a, (k0_off242 v961) a + S1x4.size a ≤ S8388608x4.size a := fun v961 k0_hw121 => k0_hw121

def k0_off243 (i : grid0.Coords) : Fin 2 → Nat :=
  let arg0 : BitVec 32 := BitVec.ofNat 32 (i 0).val
  let v968 : Index := Scalar.indexCast arg0
  let c121 : Index := 121#32
  ![v968.toNat, 121]
def k0_off244 (v969 : BitVec 32) : Fin 2 → Nat :=
  let c0_i32_365 : BitVec 32 := 0#32
  ![v969.toNat, 0]

def k0_chk122 (v969 : BitVec 32) : Prop :=
  (∀ a, (k0_off244 v969) a + S1x4.size a ≤ S8388608x4.size a)
instance k0_chk122.dec : ∀ (v969 : BitVec 32), Decidable (k0_chk122 v969) := fun v969 => decidable_of_iff' _ (Iff.of_eq (k0_chk122.eq_1 v969))
theorem k0_off244_inb : ∀ (v969 : BitVec 32) (k0_hw122 : k0_chk122 v969), ∀ a, (k0_off244 v969) a + S1x4.size a ≤ S8388608x4.size a := fun v969 k0_hw122 => k0_hw122

def k0_off245 (i : grid0.Coords) : Fin 2 → Nat :=
  let arg0 : BitVec 32 := BitVec.ofNat 32 (i 0).val
  let v976 : Index := Scalar.indexCast arg0
  let c122 : Index := 122#32
  ![v976.toNat, 122]
def k0_off246 (v977 : BitVec 32) : Fin 2 → Nat :=
  let c0_i32_368 : BitVec 32 := 0#32
  ![v977.toNat, 0]

def k0_chk123 (v977 : BitVec 32) : Prop :=
  (∀ a, (k0_off246 v977) a + S1x4.size a ≤ S8388608x4.size a)
instance k0_chk123.dec : ∀ (v977 : BitVec 32), Decidable (k0_chk123 v977) := fun v977 => decidable_of_iff' _ (Iff.of_eq (k0_chk123.eq_1 v977))
theorem k0_off246_inb : ∀ (v977 : BitVec 32) (k0_hw123 : k0_chk123 v977), ∀ a, (k0_off246 v977) a + S1x4.size a ≤ S8388608x4.size a := fun v977 k0_hw123 => k0_hw123

def k0_off247 (i : grid0.Coords) : Fin 2 → Nat :=
  let arg0 : BitVec 32 := BitVec.ofNat 32 (i 0).val
  let v984 : Index := Scalar.indexCast arg0
  let c123 : Index := 123#32
  ![v984.toNat, 123]
def k0_off248 (v985 : BitVec 32) : Fin 2 → Nat :=
  let c0_i32_371 : BitVec 32 := 0#32
  ![v985.toNat, 0]

def k0_chk124 (v985 : BitVec 32) : Prop :=
  (∀ a, (k0_off248 v985) a + S1x4.size a ≤ S8388608x4.size a)
instance k0_chk124.dec : ∀ (v985 : BitVec 32), Decidable (k0_chk124 v985) := fun v985 => decidable_of_iff' _ (Iff.of_eq (k0_chk124.eq_1 v985))
theorem k0_off248_inb : ∀ (v985 : BitVec 32) (k0_hw124 : k0_chk124 v985), ∀ a, (k0_off248 v985) a + S1x4.size a ≤ S8388608x4.size a := fun v985 k0_hw124 => k0_hw124

def k0_off249 (i : grid0.Coords) : Fin 2 → Nat :=
  let arg0 : BitVec 32 := BitVec.ofNat 32 (i 0).val
  let v992 : Index := Scalar.indexCast arg0
  let c124 : Index := 124#32
  ![v992.toNat, 124]
def k0_off250 (v993 : BitVec 32) : Fin 2 → Nat :=
  let c0_i32_374 : BitVec 32 := 0#32
  ![v993.toNat, 0]

def k0_chk125 (v993 : BitVec 32) : Prop :=
  (∀ a, (k0_off250 v993) a + S1x4.size a ≤ S8388608x4.size a)
instance k0_chk125.dec : ∀ (v993 : BitVec 32), Decidable (k0_chk125 v993) := fun v993 => decidable_of_iff' _ (Iff.of_eq (k0_chk125.eq_1 v993))
theorem k0_off250_inb : ∀ (v993 : BitVec 32) (k0_hw125 : k0_chk125 v993), ∀ a, (k0_off250 v993) a + S1x4.size a ≤ S8388608x4.size a := fun v993 k0_hw125 => k0_hw125

def k0_off251 (i : grid0.Coords) : Fin 2 → Nat :=
  let arg0 : BitVec 32 := BitVec.ofNat 32 (i 0).val
  let v1000 : Index := Scalar.indexCast arg0
  let c125 : Index := 125#32
  ![v1000.toNat, 125]
def k0_off252 (v1001 : BitVec 32) : Fin 2 → Nat :=
  let c0_i32_377 : BitVec 32 := 0#32
  ![v1001.toNat, 0]

def k0_chk126 (v1001 : BitVec 32) : Prop :=
  (∀ a, (k0_off252 v1001) a + S1x4.size a ≤ S8388608x4.size a)
instance k0_chk126.dec : ∀ (v1001 : BitVec 32), Decidable (k0_chk126 v1001) := fun v1001 => decidable_of_iff' _ (Iff.of_eq (k0_chk126.eq_1 v1001))
theorem k0_off252_inb : ∀ (v1001 : BitVec 32) (k0_hw126 : k0_chk126 v1001), ∀ a, (k0_off252 v1001) a + S1x4.size a ≤ S8388608x4.size a := fun v1001 k0_hw126 => k0_hw126

def k0_off253 (i : grid0.Coords) : Fin 2 → Nat :=
  let arg0 : BitVec 32 := BitVec.ofNat 32 (i 0).val
  let v1008 : Index := Scalar.indexCast arg0
  let c126 : Index := 126#32
  ![v1008.toNat, 126]
def k0_off254 (v1009 : BitVec 32) : Fin 2 → Nat :=
  let c0_i32_380 : BitVec 32 := 0#32
  ![v1009.toNat, 0]

def k0_chk127 (v1009 : BitVec 32) : Prop :=
  (∀ a, (k0_off254 v1009) a + S1x4.size a ≤ S8388608x4.size a)
instance k0_chk127.dec : ∀ (v1009 : BitVec 32), Decidable (k0_chk127 v1009) := fun v1009 => decidable_of_iff' _ (Iff.of_eq (k0_chk127.eq_1 v1009))
theorem k0_off254_inb : ∀ (v1009 : BitVec 32) (k0_hw127 : k0_chk127 v1009), ∀ a, (k0_off254 v1009) a + S1x4.size a ≤ S8388608x4.size a := fun v1009 k0_hw127 => k0_hw127

def k0_off255 (i : grid0.Coords) : Fin 2 → Nat :=
  let arg0 : BitVec 32 := BitVec.ofNat 32 (i 0).val
  let v1016 : Index := Scalar.indexCast arg0
  let c127 : Index := 127#32
  ![v1016.toNat, 127]
def k0_off256 (v1017 : BitVec 32) : Fin 2 → Nat :=
  let c0_i32_383 : BitVec 32 := 0#32
  ![v1017.toNat, 0]

def k0_chk128 (v1017 : BitVec 32) : Prop :=
  (∀ a, (k0_off256 v1017) a + S1x4.size a ≤ S8388608x4.size a)
instance k0_chk128.dec : ∀ (v1017 : BitVec 32), Decidable (k0_chk128 v1017) := fun v1017 => decidable_of_iff' _ (Iff.of_eq (k0_chk128.eq_1 v1017))
theorem k0_off256_inb : ∀ (v1017 : BitVec 32) (k0_hw128 : k0_chk128 v1017), ∀ a, (k0_off256 v1017) a + S1x4.size a ≤ S8388608x4.size a := fun v1017 k0_hw128 => k0_hw128

def k0_off257 (i : grid0.Coords) : Fin 2 → Nat :=
  let arg0 : BitVec 32 := BitVec.ofNat 32 (i 0).val
  let v1024 : Index := Scalar.indexCast arg0
  let c0_384 : Index := 0#32
  ![v1024.toNat, 0]
def k0_off258 (v1025 : BitVec 32) : Fin 2 → Nat :=
  let c0_i32_388 : BitVec 32 := 0#32
  ![v1025.toNat, 0]

def k0_chk129 (v1025 : BitVec 32) : Prop :=
  (∀ a, (k0_off258 v1025) a + S1x4.size a ≤ S8388608x4.size a)
instance k0_chk129.dec : ∀ (v1025 : BitVec 32), Decidable (k0_chk129 v1025) := fun v1025 => decidable_of_iff' _ (Iff.of_eq (k0_chk129.eq_1 v1025))
theorem k0_off258_inb : ∀ (v1025 : BitVec 32) (k0_hw129 : k0_chk129 v1025), ∀ a, (k0_off258 v1025) a + S1x4.size a ≤ S8388608x4.size a := fun v1025 k0_hw129 => k0_hw129

def k0_off259 (i : grid0.Coords) : Fin 2 → Nat :=
  let arg0 : BitVec 32 := BitVec.ofNat 32 (i 0).val
  let v1032 : Index := Scalar.indexCast arg0
  let c1_389 : Index := 1#32
  ![v1032.toNat, 1]
def k0_off260 (v1033 : BitVec 32) : Fin 2 → Nat :=
  let c0_i32_393 : BitVec 32 := 0#32
  ![v1033.toNat, 0]

def k0_chk130 (v1033 : BitVec 32) : Prop :=
  (∀ a, (k0_off260 v1033) a + S1x4.size a ≤ S8388608x4.size a)
instance k0_chk130.dec : ∀ (v1033 : BitVec 32), Decidable (k0_chk130 v1033) := fun v1033 => decidable_of_iff' _ (Iff.of_eq (k0_chk130.eq_1 v1033))
theorem k0_off260_inb : ∀ (v1033 : BitVec 32) (k0_hw130 : k0_chk130 v1033), ∀ a, (k0_off260 v1033) a + S1x4.size a ≤ S8388608x4.size a := fun v1033 k0_hw130 => k0_hw130

def k0_off261 (i : grid0.Coords) : Fin 2 → Nat :=
  let arg0 : BitVec 32 := BitVec.ofNat 32 (i 0).val
  let v1040 : Index := Scalar.indexCast arg0
  let c2_394 : Index := 2#32
  ![v1040.toNat, 2]
def k0_off262 (v1041 : BitVec 32) : Fin 2 → Nat :=
  let c0_i32_398 : BitVec 32 := 0#32
  ![v1041.toNat, 0]

def k0_chk131 (v1041 : BitVec 32) : Prop :=
  (∀ a, (k0_off262 v1041) a + S1x4.size a ≤ S8388608x4.size a)
instance k0_chk131.dec : ∀ (v1041 : BitVec 32), Decidable (k0_chk131 v1041) := fun v1041 => decidable_of_iff' _ (Iff.of_eq (k0_chk131.eq_1 v1041))
theorem k0_off262_inb : ∀ (v1041 : BitVec 32) (k0_hw131 : k0_chk131 v1041), ∀ a, (k0_off262 v1041) a + S1x4.size a ≤ S8388608x4.size a := fun v1041 k0_hw131 => k0_hw131

def k0_off263 (i : grid0.Coords) : Fin 2 → Nat :=
  let arg0 : BitVec 32 := BitVec.ofNat 32 (i 0).val
  let v1048 : Index := Scalar.indexCast arg0
  let c3_399 : Index := 3#32
  ![v1048.toNat, 3]
def k0_off264 (v1049 : BitVec 32) : Fin 2 → Nat :=
  let c0_i32_403 : BitVec 32 := 0#32
  ![v1049.toNat, 0]

def k0_chk132 (v1049 : BitVec 32) : Prop :=
  (∀ a, (k0_off264 v1049) a + S1x4.size a ≤ S8388608x4.size a)
instance k0_chk132.dec : ∀ (v1049 : BitVec 32), Decidable (k0_chk132 v1049) := fun v1049 => decidable_of_iff' _ (Iff.of_eq (k0_chk132.eq_1 v1049))
theorem k0_off264_inb : ∀ (v1049 : BitVec 32) (k0_hw132 : k0_chk132 v1049), ∀ a, (k0_off264 v1049) a + S1x4.size a ≤ S8388608x4.size a := fun v1049 k0_hw132 => k0_hw132

def k0_off265 (i : grid0.Coords) : Fin 2 → Nat :=
  let arg0 : BitVec 32 := BitVec.ofNat 32 (i 0).val
  let v1056 : Index := Scalar.indexCast arg0
  let c4_404 : Index := 4#32
  ![v1056.toNat, 4]
def k0_off266 (v1057 : BitVec 32) : Fin 2 → Nat :=
  let c0_i32_408 : BitVec 32 := 0#32
  ![v1057.toNat, 0]

def k0_chk133 (v1057 : BitVec 32) : Prop :=
  (∀ a, (k0_off266 v1057) a + S1x4.size a ≤ S8388608x4.size a)
instance k0_chk133.dec : ∀ (v1057 : BitVec 32), Decidable (k0_chk133 v1057) := fun v1057 => decidable_of_iff' _ (Iff.of_eq (k0_chk133.eq_1 v1057))
theorem k0_off266_inb : ∀ (v1057 : BitVec 32) (k0_hw133 : k0_chk133 v1057), ∀ a, (k0_off266 v1057) a + S1x4.size a ≤ S8388608x4.size a := fun v1057 k0_hw133 => k0_hw133

def k0_off267 (i : grid0.Coords) : Fin 2 → Nat :=
  let arg0 : BitVec 32 := BitVec.ofNat 32 (i 0).val
  let v1064 : Index := Scalar.indexCast arg0
  let c5_409 : Index := 5#32
  ![v1064.toNat, 5]
def k0_off268 (v1065 : BitVec 32) : Fin 2 → Nat :=
  let c0_i32_413 : BitVec 32 := 0#32
  ![v1065.toNat, 0]

def k0_chk134 (v1065 : BitVec 32) : Prop :=
  (∀ a, (k0_off268 v1065) a + S1x4.size a ≤ S8388608x4.size a)
instance k0_chk134.dec : ∀ (v1065 : BitVec 32), Decidable (k0_chk134 v1065) := fun v1065 => decidable_of_iff' _ (Iff.of_eq (k0_chk134.eq_1 v1065))
theorem k0_off268_inb : ∀ (v1065 : BitVec 32) (k0_hw134 : k0_chk134 v1065), ∀ a, (k0_off268 v1065) a + S1x4.size a ≤ S8388608x4.size a := fun v1065 k0_hw134 => k0_hw134

def k0_off269 (i : grid0.Coords) : Fin 2 → Nat :=
  let arg0 : BitVec 32 := BitVec.ofNat 32 (i 0).val
  let v1072 : Index := Scalar.indexCast arg0
  let c6_414 : Index := 6#32
  ![v1072.toNat, 6]
def k0_off270 (v1073 : BitVec 32) : Fin 2 → Nat :=
  let c0_i32_418 : BitVec 32 := 0#32
  ![v1073.toNat, 0]

def k0_chk135 (v1073 : BitVec 32) : Prop :=
  (∀ a, (k0_off270 v1073) a + S1x4.size a ≤ S8388608x4.size a)
instance k0_chk135.dec : ∀ (v1073 : BitVec 32), Decidable (k0_chk135 v1073) := fun v1073 => decidable_of_iff' _ (Iff.of_eq (k0_chk135.eq_1 v1073))
theorem k0_off270_inb : ∀ (v1073 : BitVec 32) (k0_hw135 : k0_chk135 v1073), ∀ a, (k0_off270 v1073) a + S1x4.size a ≤ S8388608x4.size a := fun v1073 k0_hw135 => k0_hw135

def k0_off271 (i : grid0.Coords) : Fin 2 → Nat :=
  let arg0 : BitVec 32 := BitVec.ofNat 32 (i 0).val
  let v1080 : Index := Scalar.indexCast arg0
  let c7_419 : Index := 7#32
  ![v1080.toNat, 7]
def k0_off272 (v1081 : BitVec 32) : Fin 2 → Nat :=
  let c0_i32_423 : BitVec 32 := 0#32
  ![v1081.toNat, 0]

def k0_chk136 (v1081 : BitVec 32) : Prop :=
  (∀ a, (k0_off272 v1081) a + S1x4.size a ≤ S8388608x4.size a)
instance k0_chk136.dec : ∀ (v1081 : BitVec 32), Decidable (k0_chk136 v1081) := fun v1081 => decidable_of_iff' _ (Iff.of_eq (k0_chk136.eq_1 v1081))
theorem k0_off272_inb : ∀ (v1081 : BitVec 32) (k0_hw136 : k0_chk136 v1081), ∀ a, (k0_off272 v1081) a + S1x4.size a ≤ S8388608x4.size a := fun v1081 k0_hw136 => k0_hw136

def k0_off273 (i : grid0.Coords) : Fin 2 → Nat :=
  let arg0 : BitVec 32 := BitVec.ofNat 32 (i 0).val
  let v1088 : Index := Scalar.indexCast arg0
  let c8_424 : Index := 8#32
  ![v1088.toNat, 8]
def k0_off274 (v1089 : BitVec 32) : Fin 2 → Nat :=
  let c0_i32_428 : BitVec 32 := 0#32
  ![v1089.toNat, 0]

def k0_chk137 (v1089 : BitVec 32) : Prop :=
  (∀ a, (k0_off274 v1089) a + S1x4.size a ≤ S8388608x4.size a)
instance k0_chk137.dec : ∀ (v1089 : BitVec 32), Decidable (k0_chk137 v1089) := fun v1089 => decidable_of_iff' _ (Iff.of_eq (k0_chk137.eq_1 v1089))
theorem k0_off274_inb : ∀ (v1089 : BitVec 32) (k0_hw137 : k0_chk137 v1089), ∀ a, (k0_off274 v1089) a + S1x4.size a ≤ S8388608x4.size a := fun v1089 k0_hw137 => k0_hw137

def k0_off275 (i : grid0.Coords) : Fin 2 → Nat :=
  let arg0 : BitVec 32 := BitVec.ofNat 32 (i 0).val
  let v1096 : Index := Scalar.indexCast arg0
  let c9_429 : Index := 9#32
  ![v1096.toNat, 9]
def k0_off276 (v1097 : BitVec 32) : Fin 2 → Nat :=
  let c0_i32_433 : BitVec 32 := 0#32
  ![v1097.toNat, 0]

def k0_chk138 (v1097 : BitVec 32) : Prop :=
  (∀ a, (k0_off276 v1097) a + S1x4.size a ≤ S8388608x4.size a)
instance k0_chk138.dec : ∀ (v1097 : BitVec 32), Decidable (k0_chk138 v1097) := fun v1097 => decidable_of_iff' _ (Iff.of_eq (k0_chk138.eq_1 v1097))
theorem k0_off276_inb : ∀ (v1097 : BitVec 32) (k0_hw138 : k0_chk138 v1097), ∀ a, (k0_off276 v1097) a + S1x4.size a ≤ S8388608x4.size a := fun v1097 k0_hw138 => k0_hw138

def k0_off277 (i : grid0.Coords) : Fin 2 → Nat :=
  let arg0 : BitVec 32 := BitVec.ofNat 32 (i 0).val
  let v1104 : Index := Scalar.indexCast arg0
  let c10_434 : Index := 10#32
  ![v1104.toNat, 10]
def k0_off278 (v1105 : BitVec 32) : Fin 2 → Nat :=
  let c0_i32_438 : BitVec 32 := 0#32
  ![v1105.toNat, 0]

def k0_chk139 (v1105 : BitVec 32) : Prop :=
  (∀ a, (k0_off278 v1105) a + S1x4.size a ≤ S8388608x4.size a)
instance k0_chk139.dec : ∀ (v1105 : BitVec 32), Decidable (k0_chk139 v1105) := fun v1105 => decidable_of_iff' _ (Iff.of_eq (k0_chk139.eq_1 v1105))
theorem k0_off278_inb : ∀ (v1105 : BitVec 32) (k0_hw139 : k0_chk139 v1105), ∀ a, (k0_off278 v1105) a + S1x4.size a ≤ S8388608x4.size a := fun v1105 k0_hw139 => k0_hw139

def k0_off279 (i : grid0.Coords) : Fin 2 → Nat :=
  let arg0 : BitVec 32 := BitVec.ofNat 32 (i 0).val
  let v1112 : Index := Scalar.indexCast arg0
  let c11_439 : Index := 11#32
  ![v1112.toNat, 11]
def k0_off280 (v1113 : BitVec 32) : Fin 2 → Nat :=
  let c0_i32_443 : BitVec 32 := 0#32
  ![v1113.toNat, 0]

def k0_chk140 (v1113 : BitVec 32) : Prop :=
  (∀ a, (k0_off280 v1113) a + S1x4.size a ≤ S8388608x4.size a)
instance k0_chk140.dec : ∀ (v1113 : BitVec 32), Decidable (k0_chk140 v1113) := fun v1113 => decidable_of_iff' _ (Iff.of_eq (k0_chk140.eq_1 v1113))
theorem k0_off280_inb : ∀ (v1113 : BitVec 32) (k0_hw140 : k0_chk140 v1113), ∀ a, (k0_off280 v1113) a + S1x4.size a ≤ S8388608x4.size a := fun v1113 k0_hw140 => k0_hw140

def k0_off281 (i : grid0.Coords) : Fin 2 → Nat :=
  let arg0 : BitVec 32 := BitVec.ofNat 32 (i 0).val
  let v1120 : Index := Scalar.indexCast arg0
  let c12_444 : Index := 12#32
  ![v1120.toNat, 12]
def k0_off282 (v1121 : BitVec 32) : Fin 2 → Nat :=
  let c0_i32_448 : BitVec 32 := 0#32
  ![v1121.toNat, 0]

def k0_chk141 (v1121 : BitVec 32) : Prop :=
  (∀ a, (k0_off282 v1121) a + S1x4.size a ≤ S8388608x4.size a)
instance k0_chk141.dec : ∀ (v1121 : BitVec 32), Decidable (k0_chk141 v1121) := fun v1121 => decidable_of_iff' _ (Iff.of_eq (k0_chk141.eq_1 v1121))
theorem k0_off282_inb : ∀ (v1121 : BitVec 32) (k0_hw141 : k0_chk141 v1121), ∀ a, (k0_off282 v1121) a + S1x4.size a ≤ S8388608x4.size a := fun v1121 k0_hw141 => k0_hw141

def k0_off283 (i : grid0.Coords) : Fin 2 → Nat :=
  let arg0 : BitVec 32 := BitVec.ofNat 32 (i 0).val
  let v1128 : Index := Scalar.indexCast arg0
  let c13_449 : Index := 13#32
  ![v1128.toNat, 13]
def k0_off284 (v1129 : BitVec 32) : Fin 2 → Nat :=
  let c0_i32_453 : BitVec 32 := 0#32
  ![v1129.toNat, 0]

def k0_chk142 (v1129 : BitVec 32) : Prop :=
  (∀ a, (k0_off284 v1129) a + S1x4.size a ≤ S8388608x4.size a)
instance k0_chk142.dec : ∀ (v1129 : BitVec 32), Decidable (k0_chk142 v1129) := fun v1129 => decidable_of_iff' _ (Iff.of_eq (k0_chk142.eq_1 v1129))
theorem k0_off284_inb : ∀ (v1129 : BitVec 32) (k0_hw142 : k0_chk142 v1129), ∀ a, (k0_off284 v1129) a + S1x4.size a ≤ S8388608x4.size a := fun v1129 k0_hw142 => k0_hw142

def k0_off285 (i : grid0.Coords) : Fin 2 → Nat :=
  let arg0 : BitVec 32 := BitVec.ofNat 32 (i 0).val
  let v1136 : Index := Scalar.indexCast arg0
  let c14_454 : Index := 14#32
  ![v1136.toNat, 14]
def k0_off286 (v1137 : BitVec 32) : Fin 2 → Nat :=
  let c0_i32_458 : BitVec 32 := 0#32
  ![v1137.toNat, 0]

def k0_chk143 (v1137 : BitVec 32) : Prop :=
  (∀ a, (k0_off286 v1137) a + S1x4.size a ≤ S8388608x4.size a)
instance k0_chk143.dec : ∀ (v1137 : BitVec 32), Decidable (k0_chk143 v1137) := fun v1137 => decidable_of_iff' _ (Iff.of_eq (k0_chk143.eq_1 v1137))
theorem k0_off286_inb : ∀ (v1137 : BitVec 32) (k0_hw143 : k0_chk143 v1137), ∀ a, (k0_off286 v1137) a + S1x4.size a ≤ S8388608x4.size a := fun v1137 k0_hw143 => k0_hw143

def k0_off287 (i : grid0.Coords) : Fin 2 → Nat :=
  let arg0 : BitVec 32 := BitVec.ofNat 32 (i 0).val
  let v1144 : Index := Scalar.indexCast arg0
  let c15_459 : Index := 15#32
  ![v1144.toNat, 15]
def k0_off288 (v1145 : BitVec 32) : Fin 2 → Nat :=
  let c0_i32_463 : BitVec 32 := 0#32
  ![v1145.toNat, 0]

def k0_chk144 (v1145 : BitVec 32) : Prop :=
  (∀ a, (k0_off288 v1145) a + S1x4.size a ≤ S8388608x4.size a)
instance k0_chk144.dec : ∀ (v1145 : BitVec 32), Decidable (k0_chk144 v1145) := fun v1145 => decidable_of_iff' _ (Iff.of_eq (k0_chk144.eq_1 v1145))
theorem k0_off288_inb : ∀ (v1145 : BitVec 32) (k0_hw144 : k0_chk144 v1145), ∀ a, (k0_off288 v1145) a + S1x4.size a ≤ S8388608x4.size a := fun v1145 k0_hw144 => k0_hw144

def k0_off289 (i : grid0.Coords) : Fin 2 → Nat :=
  let arg0 : BitVec 32 := BitVec.ofNat 32 (i 0).val
  let v1152 : Index := Scalar.indexCast arg0
  let c16_464 : Index := 16#32
  ![v1152.toNat, 16]
def k0_off290 (v1153 : BitVec 32) : Fin 2 → Nat :=
  let c0_i32_468 : BitVec 32 := 0#32
  ![v1153.toNat, 0]

def k0_chk145 (v1153 : BitVec 32) : Prop :=
  (∀ a, (k0_off290 v1153) a + S1x4.size a ≤ S8388608x4.size a)
instance k0_chk145.dec : ∀ (v1153 : BitVec 32), Decidable (k0_chk145 v1153) := fun v1153 => decidable_of_iff' _ (Iff.of_eq (k0_chk145.eq_1 v1153))
theorem k0_off290_inb : ∀ (v1153 : BitVec 32) (k0_hw145 : k0_chk145 v1153), ∀ a, (k0_off290 v1153) a + S1x4.size a ≤ S8388608x4.size a := fun v1153 k0_hw145 => k0_hw145

def k0_off291 (i : grid0.Coords) : Fin 2 → Nat :=
  let arg0 : BitVec 32 := BitVec.ofNat 32 (i 0).val
  let v1160 : Index := Scalar.indexCast arg0
  let c17_469 : Index := 17#32
  ![v1160.toNat, 17]
def k0_off292 (v1161 : BitVec 32) : Fin 2 → Nat :=
  let c0_i32_473 : BitVec 32 := 0#32
  ![v1161.toNat, 0]

def k0_chk146 (v1161 : BitVec 32) : Prop :=
  (∀ a, (k0_off292 v1161) a + S1x4.size a ≤ S8388608x4.size a)
instance k0_chk146.dec : ∀ (v1161 : BitVec 32), Decidable (k0_chk146 v1161) := fun v1161 => decidable_of_iff' _ (Iff.of_eq (k0_chk146.eq_1 v1161))
theorem k0_off292_inb : ∀ (v1161 : BitVec 32) (k0_hw146 : k0_chk146 v1161), ∀ a, (k0_off292 v1161) a + S1x4.size a ≤ S8388608x4.size a := fun v1161 k0_hw146 => k0_hw146

def k0_off293 (i : grid0.Coords) : Fin 2 → Nat :=
  let arg0 : BitVec 32 := BitVec.ofNat 32 (i 0).val
  let v1168 : Index := Scalar.indexCast arg0
  let c18_474 : Index := 18#32
  ![v1168.toNat, 18]
def k0_off294 (v1169 : BitVec 32) : Fin 2 → Nat :=
  let c0_i32_478 : BitVec 32 := 0#32
  ![v1169.toNat, 0]

def k0_chk147 (v1169 : BitVec 32) : Prop :=
  (∀ a, (k0_off294 v1169) a + S1x4.size a ≤ S8388608x4.size a)
instance k0_chk147.dec : ∀ (v1169 : BitVec 32), Decidable (k0_chk147 v1169) := fun v1169 => decidable_of_iff' _ (Iff.of_eq (k0_chk147.eq_1 v1169))
theorem k0_off294_inb : ∀ (v1169 : BitVec 32) (k0_hw147 : k0_chk147 v1169), ∀ a, (k0_off294 v1169) a + S1x4.size a ≤ S8388608x4.size a := fun v1169 k0_hw147 => k0_hw147

def k0_off295 (i : grid0.Coords) : Fin 2 → Nat :=
  let arg0 : BitVec 32 := BitVec.ofNat 32 (i 0).val
  let v1176 : Index := Scalar.indexCast arg0
  let c19_479 : Index := 19#32
  ![v1176.toNat, 19]
def k0_off296 (v1177 : BitVec 32) : Fin 2 → Nat :=
  let c0_i32_483 : BitVec 32 := 0#32
  ![v1177.toNat, 0]

def k0_chk148 (v1177 : BitVec 32) : Prop :=
  (∀ a, (k0_off296 v1177) a + S1x4.size a ≤ S8388608x4.size a)
instance k0_chk148.dec : ∀ (v1177 : BitVec 32), Decidable (k0_chk148 v1177) := fun v1177 => decidable_of_iff' _ (Iff.of_eq (k0_chk148.eq_1 v1177))
theorem k0_off296_inb : ∀ (v1177 : BitVec 32) (k0_hw148 : k0_chk148 v1177), ∀ a, (k0_off296 v1177) a + S1x4.size a ≤ S8388608x4.size a := fun v1177 k0_hw148 => k0_hw148

def k0_off297 (i : grid0.Coords) : Fin 2 → Nat :=
  let arg0 : BitVec 32 := BitVec.ofNat 32 (i 0).val
  let v1184 : Index := Scalar.indexCast arg0
  let c20_484 : Index := 20#32
  ![v1184.toNat, 20]
def k0_off298 (v1185 : BitVec 32) : Fin 2 → Nat :=
  let c0_i32_488 : BitVec 32 := 0#32
  ![v1185.toNat, 0]

def k0_chk149 (v1185 : BitVec 32) : Prop :=
  (∀ a, (k0_off298 v1185) a + S1x4.size a ≤ S8388608x4.size a)
instance k0_chk149.dec : ∀ (v1185 : BitVec 32), Decidable (k0_chk149 v1185) := fun v1185 => decidable_of_iff' _ (Iff.of_eq (k0_chk149.eq_1 v1185))
theorem k0_off298_inb : ∀ (v1185 : BitVec 32) (k0_hw149 : k0_chk149 v1185), ∀ a, (k0_off298 v1185) a + S1x4.size a ≤ S8388608x4.size a := fun v1185 k0_hw149 => k0_hw149

def k0_off299 (i : grid0.Coords) : Fin 2 → Nat :=
  let arg0 : BitVec 32 := BitVec.ofNat 32 (i 0).val
  let v1192 : Index := Scalar.indexCast arg0
  let c21_489 : Index := 21#32
  ![v1192.toNat, 21]
def k0_off300 (v1193 : BitVec 32) : Fin 2 → Nat :=
  let c0_i32_493 : BitVec 32 := 0#32
  ![v1193.toNat, 0]

def k0_chk150 (v1193 : BitVec 32) : Prop :=
  (∀ a, (k0_off300 v1193) a + S1x4.size a ≤ S8388608x4.size a)
instance k0_chk150.dec : ∀ (v1193 : BitVec 32), Decidable (k0_chk150 v1193) := fun v1193 => decidable_of_iff' _ (Iff.of_eq (k0_chk150.eq_1 v1193))
theorem k0_off300_inb : ∀ (v1193 : BitVec 32) (k0_hw150 : k0_chk150 v1193), ∀ a, (k0_off300 v1193) a + S1x4.size a ≤ S8388608x4.size a := fun v1193 k0_hw150 => k0_hw150

def k0_off301 (i : grid0.Coords) : Fin 2 → Nat :=
  let arg0 : BitVec 32 := BitVec.ofNat 32 (i 0).val
  let v1200 : Index := Scalar.indexCast arg0
  let c22_494 : Index := 22#32
  ![v1200.toNat, 22]
def k0_off302 (v1201 : BitVec 32) : Fin 2 → Nat :=
  let c0_i32_498 : BitVec 32 := 0#32
  ![v1201.toNat, 0]

def k0_chk151 (v1201 : BitVec 32) : Prop :=
  (∀ a, (k0_off302 v1201) a + S1x4.size a ≤ S8388608x4.size a)
instance k0_chk151.dec : ∀ (v1201 : BitVec 32), Decidable (k0_chk151 v1201) := fun v1201 => decidable_of_iff' _ (Iff.of_eq (k0_chk151.eq_1 v1201))
theorem k0_off302_inb : ∀ (v1201 : BitVec 32) (k0_hw151 : k0_chk151 v1201), ∀ a, (k0_off302 v1201) a + S1x4.size a ≤ S8388608x4.size a := fun v1201 k0_hw151 => k0_hw151

def k0_off303 (i : grid0.Coords) : Fin 2 → Nat :=
  let arg0 : BitVec 32 := BitVec.ofNat 32 (i 0).val
  let v1208 : Index := Scalar.indexCast arg0
  let c23_499 : Index := 23#32
  ![v1208.toNat, 23]
def k0_off304 (v1209 : BitVec 32) : Fin 2 → Nat :=
  let c0_i32_503 : BitVec 32 := 0#32
  ![v1209.toNat, 0]

def k0_chk152 (v1209 : BitVec 32) : Prop :=
  (∀ a, (k0_off304 v1209) a + S1x4.size a ≤ S8388608x4.size a)
instance k0_chk152.dec : ∀ (v1209 : BitVec 32), Decidable (k0_chk152 v1209) := fun v1209 => decidable_of_iff' _ (Iff.of_eq (k0_chk152.eq_1 v1209))
theorem k0_off304_inb : ∀ (v1209 : BitVec 32) (k0_hw152 : k0_chk152 v1209), ∀ a, (k0_off304 v1209) a + S1x4.size a ≤ S8388608x4.size a := fun v1209 k0_hw152 => k0_hw152

def k0_off305 (i : grid0.Coords) : Fin 2 → Nat :=
  let arg0 : BitVec 32 := BitVec.ofNat 32 (i 0).val
  let v1216 : Index := Scalar.indexCast arg0
  let c24_504 : Index := 24#32
  ![v1216.toNat, 24]
def k0_off306 (v1217 : BitVec 32) : Fin 2 → Nat :=
  let c0_i32_508 : BitVec 32 := 0#32
  ![v1217.toNat, 0]

def k0_chk153 (v1217 : BitVec 32) : Prop :=
  (∀ a, (k0_off306 v1217) a + S1x4.size a ≤ S8388608x4.size a)
instance k0_chk153.dec : ∀ (v1217 : BitVec 32), Decidable (k0_chk153 v1217) := fun v1217 => decidable_of_iff' _ (Iff.of_eq (k0_chk153.eq_1 v1217))
theorem k0_off306_inb : ∀ (v1217 : BitVec 32) (k0_hw153 : k0_chk153 v1217), ∀ a, (k0_off306 v1217) a + S1x4.size a ≤ S8388608x4.size a := fun v1217 k0_hw153 => k0_hw153

def k0_off307 (i : grid0.Coords) : Fin 2 → Nat :=
  let arg0 : BitVec 32 := BitVec.ofNat 32 (i 0).val
  let v1224 : Index := Scalar.indexCast arg0
  let c25_509 : Index := 25#32
  ![v1224.toNat, 25]
def k0_off308 (v1225 : BitVec 32) : Fin 2 → Nat :=
  let c0_i32_513 : BitVec 32 := 0#32
  ![v1225.toNat, 0]

def k0_chk154 (v1225 : BitVec 32) : Prop :=
  (∀ a, (k0_off308 v1225) a + S1x4.size a ≤ S8388608x4.size a)
instance k0_chk154.dec : ∀ (v1225 : BitVec 32), Decidable (k0_chk154 v1225) := fun v1225 => decidable_of_iff' _ (Iff.of_eq (k0_chk154.eq_1 v1225))
theorem k0_off308_inb : ∀ (v1225 : BitVec 32) (k0_hw154 : k0_chk154 v1225), ∀ a, (k0_off308 v1225) a + S1x4.size a ≤ S8388608x4.size a := fun v1225 k0_hw154 => k0_hw154

def k0_off309 (i : grid0.Coords) : Fin 2 → Nat :=
  let arg0 : BitVec 32 := BitVec.ofNat 32 (i 0).val
  let v1232 : Index := Scalar.indexCast arg0
  let c26_514 : Index := 26#32
  ![v1232.toNat, 26]
def k0_off310 (v1233 : BitVec 32) : Fin 2 → Nat :=
  let c0_i32_518 : BitVec 32 := 0#32
  ![v1233.toNat, 0]

def k0_chk155 (v1233 : BitVec 32) : Prop :=
  (∀ a, (k0_off310 v1233) a + S1x4.size a ≤ S8388608x4.size a)
instance k0_chk155.dec : ∀ (v1233 : BitVec 32), Decidable (k0_chk155 v1233) := fun v1233 => decidable_of_iff' _ (Iff.of_eq (k0_chk155.eq_1 v1233))
theorem k0_off310_inb : ∀ (v1233 : BitVec 32) (k0_hw155 : k0_chk155 v1233), ∀ a, (k0_off310 v1233) a + S1x4.size a ≤ S8388608x4.size a := fun v1233 k0_hw155 => k0_hw155

def k0_off311 (i : grid0.Coords) : Fin 2 → Nat :=
  let arg0 : BitVec 32 := BitVec.ofNat 32 (i 0).val
  let v1240 : Index := Scalar.indexCast arg0
  let c27_519 : Index := 27#32
  ![v1240.toNat, 27]
def k0_off312 (v1241 : BitVec 32) : Fin 2 → Nat :=
  let c0_i32_523 : BitVec 32 := 0#32
  ![v1241.toNat, 0]

def k0_chk156 (v1241 : BitVec 32) : Prop :=
  (∀ a, (k0_off312 v1241) a + S1x4.size a ≤ S8388608x4.size a)
instance k0_chk156.dec : ∀ (v1241 : BitVec 32), Decidable (k0_chk156 v1241) := fun v1241 => decidable_of_iff' _ (Iff.of_eq (k0_chk156.eq_1 v1241))
theorem k0_off312_inb : ∀ (v1241 : BitVec 32) (k0_hw156 : k0_chk156 v1241), ∀ a, (k0_off312 v1241) a + S1x4.size a ≤ S8388608x4.size a := fun v1241 k0_hw156 => k0_hw156

def k0_off313 (i : grid0.Coords) : Fin 2 → Nat :=
  let arg0 : BitVec 32 := BitVec.ofNat 32 (i 0).val
  let v1248 : Index := Scalar.indexCast arg0
  let c28_524 : Index := 28#32
  ![v1248.toNat, 28]
def k0_off314 (v1249 : BitVec 32) : Fin 2 → Nat :=
  let c0_i32_528 : BitVec 32 := 0#32
  ![v1249.toNat, 0]

def k0_chk157 (v1249 : BitVec 32) : Prop :=
  (∀ a, (k0_off314 v1249) a + S1x4.size a ≤ S8388608x4.size a)
instance k0_chk157.dec : ∀ (v1249 : BitVec 32), Decidable (k0_chk157 v1249) := fun v1249 => decidable_of_iff' _ (Iff.of_eq (k0_chk157.eq_1 v1249))
theorem k0_off314_inb : ∀ (v1249 : BitVec 32) (k0_hw157 : k0_chk157 v1249), ∀ a, (k0_off314 v1249) a + S1x4.size a ≤ S8388608x4.size a := fun v1249 k0_hw157 => k0_hw157

def k0_off315 (i : grid0.Coords) : Fin 2 → Nat :=
  let arg0 : BitVec 32 := BitVec.ofNat 32 (i 0).val
  let v1256 : Index := Scalar.indexCast arg0
  let c29_529 : Index := 29#32
  ![v1256.toNat, 29]
def k0_off316 (v1257 : BitVec 32) : Fin 2 → Nat :=
  let c0_i32_533 : BitVec 32 := 0#32
  ![v1257.toNat, 0]

def k0_chk158 (v1257 : BitVec 32) : Prop :=
  (∀ a, (k0_off316 v1257) a + S1x4.size a ≤ S8388608x4.size a)
instance k0_chk158.dec : ∀ (v1257 : BitVec 32), Decidable (k0_chk158 v1257) := fun v1257 => decidable_of_iff' _ (Iff.of_eq (k0_chk158.eq_1 v1257))
theorem k0_off316_inb : ∀ (v1257 : BitVec 32) (k0_hw158 : k0_chk158 v1257), ∀ a, (k0_off316 v1257) a + S1x4.size a ≤ S8388608x4.size a := fun v1257 k0_hw158 => k0_hw158

def k0_off317 (i : grid0.Coords) : Fin 2 → Nat :=
  let arg0 : BitVec 32 := BitVec.ofNat 32 (i 0).val
  let v1264 : Index := Scalar.indexCast arg0
  let c30_534 : Index := 30#32
  ![v1264.toNat, 30]
def k0_off318 (v1265 : BitVec 32) : Fin 2 → Nat :=
  let c0_i32_538 : BitVec 32 := 0#32
  ![v1265.toNat, 0]

def k0_chk159 (v1265 : BitVec 32) : Prop :=
  (∀ a, (k0_off318 v1265) a + S1x4.size a ≤ S8388608x4.size a)
instance k0_chk159.dec : ∀ (v1265 : BitVec 32), Decidable (k0_chk159 v1265) := fun v1265 => decidable_of_iff' _ (Iff.of_eq (k0_chk159.eq_1 v1265))
theorem k0_off318_inb : ∀ (v1265 : BitVec 32) (k0_hw159 : k0_chk159 v1265), ∀ a, (k0_off318 v1265) a + S1x4.size a ≤ S8388608x4.size a := fun v1265 k0_hw159 => k0_hw159

def k0_off319 (i : grid0.Coords) : Fin 2 → Nat :=
  let arg0 : BitVec 32 := BitVec.ofNat 32 (i 0).val
  let v1272 : Index := Scalar.indexCast arg0
  let c31_539 : Index := 31#32
  ![v1272.toNat, 31]
def k0_off320 (v1273 : BitVec 32) : Fin 2 → Nat :=
  let c0_i32_543 : BitVec 32 := 0#32
  ![v1273.toNat, 0]

def k0_chk160 (v1273 : BitVec 32) : Prop :=
  (∀ a, (k0_off320 v1273) a + S1x4.size a ≤ S8388608x4.size a)
instance k0_chk160.dec : ∀ (v1273 : BitVec 32), Decidable (k0_chk160 v1273) := fun v1273 => decidable_of_iff' _ (Iff.of_eq (k0_chk160.eq_1 v1273))
theorem k0_off320_inb : ∀ (v1273 : BitVec 32) (k0_hw160 : k0_chk160 v1273), ∀ a, (k0_off320 v1273) a + S1x4.size a ≤ S8388608x4.size a := fun v1273 k0_hw160 => k0_hw160

def k0_off321 (i : grid0.Coords) : Fin 2 → Nat :=
  let arg0 : BitVec 32 := BitVec.ofNat 32 (i 0).val
  let v1280 : Index := Scalar.indexCast arg0
  let c32_544 : Index := 32#32
  ![v1280.toNat, 32]
def k0_off322 (v1281 : BitVec 32) : Fin 2 → Nat :=
  let c0_i32_548 : BitVec 32 := 0#32
  ![v1281.toNat, 0]

def k0_chk161 (v1281 : BitVec 32) : Prop :=
  (∀ a, (k0_off322 v1281) a + S1x4.size a ≤ S8388608x4.size a)
instance k0_chk161.dec : ∀ (v1281 : BitVec 32), Decidable (k0_chk161 v1281) := fun v1281 => decidable_of_iff' _ (Iff.of_eq (k0_chk161.eq_1 v1281))
theorem k0_off322_inb : ∀ (v1281 : BitVec 32) (k0_hw161 : k0_chk161 v1281), ∀ a, (k0_off322 v1281) a + S1x4.size a ≤ S8388608x4.size a := fun v1281 k0_hw161 => k0_hw161

def k0_off323 (i : grid0.Coords) : Fin 2 → Nat :=
  let arg0 : BitVec 32 := BitVec.ofNat 32 (i 0).val
  let v1288 : Index := Scalar.indexCast arg0
  let c33_549 : Index := 33#32
  ![v1288.toNat, 33]
def k0_off324 (v1289 : BitVec 32) : Fin 2 → Nat :=
  let c0_i32_553 : BitVec 32 := 0#32
  ![v1289.toNat, 0]

def k0_chk162 (v1289 : BitVec 32) : Prop :=
  (∀ a, (k0_off324 v1289) a + S1x4.size a ≤ S8388608x4.size a)
instance k0_chk162.dec : ∀ (v1289 : BitVec 32), Decidable (k0_chk162 v1289) := fun v1289 => decidable_of_iff' _ (Iff.of_eq (k0_chk162.eq_1 v1289))
theorem k0_off324_inb : ∀ (v1289 : BitVec 32) (k0_hw162 : k0_chk162 v1289), ∀ a, (k0_off324 v1289) a + S1x4.size a ≤ S8388608x4.size a := fun v1289 k0_hw162 => k0_hw162

def k0_off325 (i : grid0.Coords) : Fin 2 → Nat :=
  let arg0 : BitVec 32 := BitVec.ofNat 32 (i 0).val
  let v1296 : Index := Scalar.indexCast arg0
  let c34_554 : Index := 34#32
  ![v1296.toNat, 34]
def k0_off326 (v1297 : BitVec 32) : Fin 2 → Nat :=
  let c0_i32_558 : BitVec 32 := 0#32
  ![v1297.toNat, 0]

def k0_chk163 (v1297 : BitVec 32) : Prop :=
  (∀ a, (k0_off326 v1297) a + S1x4.size a ≤ S8388608x4.size a)
instance k0_chk163.dec : ∀ (v1297 : BitVec 32), Decidable (k0_chk163 v1297) := fun v1297 => decidable_of_iff' _ (Iff.of_eq (k0_chk163.eq_1 v1297))
theorem k0_off326_inb : ∀ (v1297 : BitVec 32) (k0_hw163 : k0_chk163 v1297), ∀ a, (k0_off326 v1297) a + S1x4.size a ≤ S8388608x4.size a := fun v1297 k0_hw163 => k0_hw163

def k0_off327 (i : grid0.Coords) : Fin 2 → Nat :=
  let arg0 : BitVec 32 := BitVec.ofNat 32 (i 0).val
  let v1304 : Index := Scalar.indexCast arg0
  let c35_559 : Index := 35#32
  ![v1304.toNat, 35]
def k0_off328 (v1305 : BitVec 32) : Fin 2 → Nat :=
  let c0_i32_563 : BitVec 32 := 0#32
  ![v1305.toNat, 0]

def k0_chk164 (v1305 : BitVec 32) : Prop :=
  (∀ a, (k0_off328 v1305) a + S1x4.size a ≤ S8388608x4.size a)
instance k0_chk164.dec : ∀ (v1305 : BitVec 32), Decidable (k0_chk164 v1305) := fun v1305 => decidable_of_iff' _ (Iff.of_eq (k0_chk164.eq_1 v1305))
theorem k0_off328_inb : ∀ (v1305 : BitVec 32) (k0_hw164 : k0_chk164 v1305), ∀ a, (k0_off328 v1305) a + S1x4.size a ≤ S8388608x4.size a := fun v1305 k0_hw164 => k0_hw164

def k0_off329 (i : grid0.Coords) : Fin 2 → Nat :=
  let arg0 : BitVec 32 := BitVec.ofNat 32 (i 0).val
  let v1312 : Index := Scalar.indexCast arg0
  let c36_564 : Index := 36#32
  ![v1312.toNat, 36]
def k0_off330 (v1313 : BitVec 32) : Fin 2 → Nat :=
  let c0_i32_568 : BitVec 32 := 0#32
  ![v1313.toNat, 0]

def k0_chk165 (v1313 : BitVec 32) : Prop :=
  (∀ a, (k0_off330 v1313) a + S1x4.size a ≤ S8388608x4.size a)
instance k0_chk165.dec : ∀ (v1313 : BitVec 32), Decidable (k0_chk165 v1313) := fun v1313 => decidable_of_iff' _ (Iff.of_eq (k0_chk165.eq_1 v1313))
theorem k0_off330_inb : ∀ (v1313 : BitVec 32) (k0_hw165 : k0_chk165 v1313), ∀ a, (k0_off330 v1313) a + S1x4.size a ≤ S8388608x4.size a := fun v1313 k0_hw165 => k0_hw165

def k0_off331 (i : grid0.Coords) : Fin 2 → Nat :=
  let arg0 : BitVec 32 := BitVec.ofNat 32 (i 0).val
  let v1320 : Index := Scalar.indexCast arg0
  let c37_569 : Index := 37#32
  ![v1320.toNat, 37]
def k0_off332 (v1321 : BitVec 32) : Fin 2 → Nat :=
  let c0_i32_573 : BitVec 32 := 0#32
  ![v1321.toNat, 0]

def k0_chk166 (v1321 : BitVec 32) : Prop :=
  (∀ a, (k0_off332 v1321) a + S1x4.size a ≤ S8388608x4.size a)
instance k0_chk166.dec : ∀ (v1321 : BitVec 32), Decidable (k0_chk166 v1321) := fun v1321 => decidable_of_iff' _ (Iff.of_eq (k0_chk166.eq_1 v1321))
theorem k0_off332_inb : ∀ (v1321 : BitVec 32) (k0_hw166 : k0_chk166 v1321), ∀ a, (k0_off332 v1321) a + S1x4.size a ≤ S8388608x4.size a := fun v1321 k0_hw166 => k0_hw166

def k0_off333 (i : grid0.Coords) : Fin 2 → Nat :=
  let arg0 : BitVec 32 := BitVec.ofNat 32 (i 0).val
  let v1328 : Index := Scalar.indexCast arg0
  let c38_574 : Index := 38#32
  ![v1328.toNat, 38]
def k0_off334 (v1329 : BitVec 32) : Fin 2 → Nat :=
  let c0_i32_578 : BitVec 32 := 0#32
  ![v1329.toNat, 0]

def k0_chk167 (v1329 : BitVec 32) : Prop :=
  (∀ a, (k0_off334 v1329) a + S1x4.size a ≤ S8388608x4.size a)
instance k0_chk167.dec : ∀ (v1329 : BitVec 32), Decidable (k0_chk167 v1329) := fun v1329 => decidable_of_iff' _ (Iff.of_eq (k0_chk167.eq_1 v1329))
theorem k0_off334_inb : ∀ (v1329 : BitVec 32) (k0_hw167 : k0_chk167 v1329), ∀ a, (k0_off334 v1329) a + S1x4.size a ≤ S8388608x4.size a := fun v1329 k0_hw167 => k0_hw167

def k0_off335 (i : grid0.Coords) : Fin 2 → Nat :=
  let arg0 : BitVec 32 := BitVec.ofNat 32 (i 0).val
  let v1336 : Index := Scalar.indexCast arg0
  let c39_579 : Index := 39#32
  ![v1336.toNat, 39]
def k0_off336 (v1337 : BitVec 32) : Fin 2 → Nat :=
  let c0_i32_583 : BitVec 32 := 0#32
  ![v1337.toNat, 0]

def k0_chk168 (v1337 : BitVec 32) : Prop :=
  (∀ a, (k0_off336 v1337) a + S1x4.size a ≤ S8388608x4.size a)
instance k0_chk168.dec : ∀ (v1337 : BitVec 32), Decidable (k0_chk168 v1337) := fun v1337 => decidable_of_iff' _ (Iff.of_eq (k0_chk168.eq_1 v1337))
theorem k0_off336_inb : ∀ (v1337 : BitVec 32) (k0_hw168 : k0_chk168 v1337), ∀ a, (k0_off336 v1337) a + S1x4.size a ≤ S8388608x4.size a := fun v1337 k0_hw168 => k0_hw168

def k0_off337 (i : grid0.Coords) : Fin 2 → Nat :=
  let arg0 : BitVec 32 := BitVec.ofNat 32 (i 0).val
  let v1344 : Index := Scalar.indexCast arg0
  let c40_584 : Index := 40#32
  ![v1344.toNat, 40]
def k0_off338 (v1345 : BitVec 32) : Fin 2 → Nat :=
  let c0_i32_588 : BitVec 32 := 0#32
  ![v1345.toNat, 0]

def k0_chk169 (v1345 : BitVec 32) : Prop :=
  (∀ a, (k0_off338 v1345) a + S1x4.size a ≤ S8388608x4.size a)
instance k0_chk169.dec : ∀ (v1345 : BitVec 32), Decidable (k0_chk169 v1345) := fun v1345 => decidable_of_iff' _ (Iff.of_eq (k0_chk169.eq_1 v1345))
theorem k0_off338_inb : ∀ (v1345 : BitVec 32) (k0_hw169 : k0_chk169 v1345), ∀ a, (k0_off338 v1345) a + S1x4.size a ≤ S8388608x4.size a := fun v1345 k0_hw169 => k0_hw169

def k0_off339 (i : grid0.Coords) : Fin 2 → Nat :=
  let arg0 : BitVec 32 := BitVec.ofNat 32 (i 0).val
  let v1352 : Index := Scalar.indexCast arg0
  let c41_589 : Index := 41#32
  ![v1352.toNat, 41]
def k0_off340 (v1353 : BitVec 32) : Fin 2 → Nat :=
  let c0_i32_593 : BitVec 32 := 0#32
  ![v1353.toNat, 0]

def k0_chk170 (v1353 : BitVec 32) : Prop :=
  (∀ a, (k0_off340 v1353) a + S1x4.size a ≤ S8388608x4.size a)
instance k0_chk170.dec : ∀ (v1353 : BitVec 32), Decidable (k0_chk170 v1353) := fun v1353 => decidable_of_iff' _ (Iff.of_eq (k0_chk170.eq_1 v1353))
theorem k0_off340_inb : ∀ (v1353 : BitVec 32) (k0_hw170 : k0_chk170 v1353), ∀ a, (k0_off340 v1353) a + S1x4.size a ≤ S8388608x4.size a := fun v1353 k0_hw170 => k0_hw170

def k0_off341 (i : grid0.Coords) : Fin 2 → Nat :=
  let arg0 : BitVec 32 := BitVec.ofNat 32 (i 0).val
  let v1360 : Index := Scalar.indexCast arg0
  let c42_594 : Index := 42#32
  ![v1360.toNat, 42]
def k0_off342 (v1361 : BitVec 32) : Fin 2 → Nat :=
  let c0_i32_598 : BitVec 32 := 0#32
  ![v1361.toNat, 0]

def k0_chk171 (v1361 : BitVec 32) : Prop :=
  (∀ a, (k0_off342 v1361) a + S1x4.size a ≤ S8388608x4.size a)
instance k0_chk171.dec : ∀ (v1361 : BitVec 32), Decidable (k0_chk171 v1361) := fun v1361 => decidable_of_iff' _ (Iff.of_eq (k0_chk171.eq_1 v1361))
theorem k0_off342_inb : ∀ (v1361 : BitVec 32) (k0_hw171 : k0_chk171 v1361), ∀ a, (k0_off342 v1361) a + S1x4.size a ≤ S8388608x4.size a := fun v1361 k0_hw171 => k0_hw171

def k0_off343 (i : grid0.Coords) : Fin 2 → Nat :=
  let arg0 : BitVec 32 := BitVec.ofNat 32 (i 0).val
  let v1368 : Index := Scalar.indexCast arg0
  let c43_599 : Index := 43#32
  ![v1368.toNat, 43]
def k0_off344 (v1369 : BitVec 32) : Fin 2 → Nat :=
  let c0_i32_603 : BitVec 32 := 0#32
  ![v1369.toNat, 0]

def k0_chk172 (v1369 : BitVec 32) : Prop :=
  (∀ a, (k0_off344 v1369) a + S1x4.size a ≤ S8388608x4.size a)
instance k0_chk172.dec : ∀ (v1369 : BitVec 32), Decidable (k0_chk172 v1369) := fun v1369 => decidable_of_iff' _ (Iff.of_eq (k0_chk172.eq_1 v1369))
theorem k0_off344_inb : ∀ (v1369 : BitVec 32) (k0_hw172 : k0_chk172 v1369), ∀ a, (k0_off344 v1369) a + S1x4.size a ≤ S8388608x4.size a := fun v1369 k0_hw172 => k0_hw172

def k0_off345 (i : grid0.Coords) : Fin 2 → Nat :=
  let arg0 : BitVec 32 := BitVec.ofNat 32 (i 0).val
  let v1376 : Index := Scalar.indexCast arg0
  let c44_604 : Index := 44#32
  ![v1376.toNat, 44]
def k0_off346 (v1377 : BitVec 32) : Fin 2 → Nat :=
  let c0_i32_608 : BitVec 32 := 0#32
  ![v1377.toNat, 0]

def k0_chk173 (v1377 : BitVec 32) : Prop :=
  (∀ a, (k0_off346 v1377) a + S1x4.size a ≤ S8388608x4.size a)
instance k0_chk173.dec : ∀ (v1377 : BitVec 32), Decidable (k0_chk173 v1377) := fun v1377 => decidable_of_iff' _ (Iff.of_eq (k0_chk173.eq_1 v1377))
theorem k0_off346_inb : ∀ (v1377 : BitVec 32) (k0_hw173 : k0_chk173 v1377), ∀ a, (k0_off346 v1377) a + S1x4.size a ≤ S8388608x4.size a := fun v1377 k0_hw173 => k0_hw173

def k0_off347 (i : grid0.Coords) : Fin 2 → Nat :=
  let arg0 : BitVec 32 := BitVec.ofNat 32 (i 0).val
  let v1384 : Index := Scalar.indexCast arg0
  let c45_609 : Index := 45#32
  ![v1384.toNat, 45]
def k0_off348 (v1385 : BitVec 32) : Fin 2 → Nat :=
  let c0_i32_613 : BitVec 32 := 0#32
  ![v1385.toNat, 0]

def k0_chk174 (v1385 : BitVec 32) : Prop :=
  (∀ a, (k0_off348 v1385) a + S1x4.size a ≤ S8388608x4.size a)
instance k0_chk174.dec : ∀ (v1385 : BitVec 32), Decidable (k0_chk174 v1385) := fun v1385 => decidable_of_iff' _ (Iff.of_eq (k0_chk174.eq_1 v1385))
theorem k0_off348_inb : ∀ (v1385 : BitVec 32) (k0_hw174 : k0_chk174 v1385), ∀ a, (k0_off348 v1385) a + S1x4.size a ≤ S8388608x4.size a := fun v1385 k0_hw174 => k0_hw174

def k0_off349 (i : grid0.Coords) : Fin 2 → Nat :=
  let arg0 : BitVec 32 := BitVec.ofNat 32 (i 0).val
  let v1392 : Index := Scalar.indexCast arg0
  let c46_614 : Index := 46#32
  ![v1392.toNat, 46]
def k0_off350 (v1393 : BitVec 32) : Fin 2 → Nat :=
  let c0_i32_618 : BitVec 32 := 0#32
  ![v1393.toNat, 0]

def k0_chk175 (v1393 : BitVec 32) : Prop :=
  (∀ a, (k0_off350 v1393) a + S1x4.size a ≤ S8388608x4.size a)
instance k0_chk175.dec : ∀ (v1393 : BitVec 32), Decidable (k0_chk175 v1393) := fun v1393 => decidable_of_iff' _ (Iff.of_eq (k0_chk175.eq_1 v1393))
theorem k0_off350_inb : ∀ (v1393 : BitVec 32) (k0_hw175 : k0_chk175 v1393), ∀ a, (k0_off350 v1393) a + S1x4.size a ≤ S8388608x4.size a := fun v1393 k0_hw175 => k0_hw175

def k0_off351 (i : grid0.Coords) : Fin 2 → Nat :=
  let arg0 : BitVec 32 := BitVec.ofNat 32 (i 0).val
  let v1400 : Index := Scalar.indexCast arg0
  let c47_619 : Index := 47#32
  ![v1400.toNat, 47]
def k0_off352 (v1401 : BitVec 32) : Fin 2 → Nat :=
  let c0_i32_623 : BitVec 32 := 0#32
  ![v1401.toNat, 0]

def k0_chk176 (v1401 : BitVec 32) : Prop :=
  (∀ a, (k0_off352 v1401) a + S1x4.size a ≤ S8388608x4.size a)
instance k0_chk176.dec : ∀ (v1401 : BitVec 32), Decidable (k0_chk176 v1401) := fun v1401 => decidable_of_iff' _ (Iff.of_eq (k0_chk176.eq_1 v1401))
theorem k0_off352_inb : ∀ (v1401 : BitVec 32) (k0_hw176 : k0_chk176 v1401), ∀ a, (k0_off352 v1401) a + S1x4.size a ≤ S8388608x4.size a := fun v1401 k0_hw176 => k0_hw176

def k0_off353 (i : grid0.Coords) : Fin 2 → Nat :=
  let arg0 : BitVec 32 := BitVec.ofNat 32 (i 0).val
  let v1408 : Index := Scalar.indexCast arg0
  let c48_624 : Index := 48#32
  ![v1408.toNat, 48]
def k0_off354 (v1409 : BitVec 32) : Fin 2 → Nat :=
  let c0_i32_628 : BitVec 32 := 0#32
  ![v1409.toNat, 0]

def k0_chk177 (v1409 : BitVec 32) : Prop :=
  (∀ a, (k0_off354 v1409) a + S1x4.size a ≤ S8388608x4.size a)
instance k0_chk177.dec : ∀ (v1409 : BitVec 32), Decidable (k0_chk177 v1409) := fun v1409 => decidable_of_iff' _ (Iff.of_eq (k0_chk177.eq_1 v1409))
theorem k0_off354_inb : ∀ (v1409 : BitVec 32) (k0_hw177 : k0_chk177 v1409), ∀ a, (k0_off354 v1409) a + S1x4.size a ≤ S8388608x4.size a := fun v1409 k0_hw177 => k0_hw177

def k0_off355 (i : grid0.Coords) : Fin 2 → Nat :=
  let arg0 : BitVec 32 := BitVec.ofNat 32 (i 0).val
  let v1416 : Index := Scalar.indexCast arg0
  let c49_629 : Index := 49#32
  ![v1416.toNat, 49]
def k0_off356 (v1417 : BitVec 32) : Fin 2 → Nat :=
  let c0_i32_633 : BitVec 32 := 0#32
  ![v1417.toNat, 0]

def k0_chk178 (v1417 : BitVec 32) : Prop :=
  (∀ a, (k0_off356 v1417) a + S1x4.size a ≤ S8388608x4.size a)
instance k0_chk178.dec : ∀ (v1417 : BitVec 32), Decidable (k0_chk178 v1417) := fun v1417 => decidable_of_iff' _ (Iff.of_eq (k0_chk178.eq_1 v1417))
theorem k0_off356_inb : ∀ (v1417 : BitVec 32) (k0_hw178 : k0_chk178 v1417), ∀ a, (k0_off356 v1417) a + S1x4.size a ≤ S8388608x4.size a := fun v1417 k0_hw178 => k0_hw178

def k0_off357 (i : grid0.Coords) : Fin 2 → Nat :=
  let arg0 : BitVec 32 := BitVec.ofNat 32 (i 0).val
  let v1424 : Index := Scalar.indexCast arg0
  let c50_634 : Index := 50#32
  ![v1424.toNat, 50]
def k0_off358 (v1425 : BitVec 32) : Fin 2 → Nat :=
  let c0_i32_638 : BitVec 32 := 0#32
  ![v1425.toNat, 0]

def k0_chk179 (v1425 : BitVec 32) : Prop :=
  (∀ a, (k0_off358 v1425) a + S1x4.size a ≤ S8388608x4.size a)
instance k0_chk179.dec : ∀ (v1425 : BitVec 32), Decidable (k0_chk179 v1425) := fun v1425 => decidable_of_iff' _ (Iff.of_eq (k0_chk179.eq_1 v1425))
theorem k0_off358_inb : ∀ (v1425 : BitVec 32) (k0_hw179 : k0_chk179 v1425), ∀ a, (k0_off358 v1425) a + S1x4.size a ≤ S8388608x4.size a := fun v1425 k0_hw179 => k0_hw179

def k0_off359 (i : grid0.Coords) : Fin 2 → Nat :=
  let arg0 : BitVec 32 := BitVec.ofNat 32 (i 0).val
  let v1432 : Index := Scalar.indexCast arg0
  let c51_639 : Index := 51#32
  ![v1432.toNat, 51]
def k0_off360 (v1433 : BitVec 32) : Fin 2 → Nat :=
  let c0_i32_643 : BitVec 32 := 0#32
  ![v1433.toNat, 0]

def k0_chk180 (v1433 : BitVec 32) : Prop :=
  (∀ a, (k0_off360 v1433) a + S1x4.size a ≤ S8388608x4.size a)
instance k0_chk180.dec : ∀ (v1433 : BitVec 32), Decidable (k0_chk180 v1433) := fun v1433 => decidable_of_iff' _ (Iff.of_eq (k0_chk180.eq_1 v1433))
theorem k0_off360_inb : ∀ (v1433 : BitVec 32) (k0_hw180 : k0_chk180 v1433), ∀ a, (k0_off360 v1433) a + S1x4.size a ≤ S8388608x4.size a := fun v1433 k0_hw180 => k0_hw180

def k0_off361 (i : grid0.Coords) : Fin 2 → Nat :=
  let arg0 : BitVec 32 := BitVec.ofNat 32 (i 0).val
  let v1440 : Index := Scalar.indexCast arg0
  let c52_644 : Index := 52#32
  ![v1440.toNat, 52]
def k0_off362 (v1441 : BitVec 32) : Fin 2 → Nat :=
  let c0_i32_648 : BitVec 32 := 0#32
  ![v1441.toNat, 0]

def k0_chk181 (v1441 : BitVec 32) : Prop :=
  (∀ a, (k0_off362 v1441) a + S1x4.size a ≤ S8388608x4.size a)
instance k0_chk181.dec : ∀ (v1441 : BitVec 32), Decidable (k0_chk181 v1441) := fun v1441 => decidable_of_iff' _ (Iff.of_eq (k0_chk181.eq_1 v1441))
theorem k0_off362_inb : ∀ (v1441 : BitVec 32) (k0_hw181 : k0_chk181 v1441), ∀ a, (k0_off362 v1441) a + S1x4.size a ≤ S8388608x4.size a := fun v1441 k0_hw181 => k0_hw181

def k0_off363 (i : grid0.Coords) : Fin 2 → Nat :=
  let arg0 : BitVec 32 := BitVec.ofNat 32 (i 0).val
  let v1448 : Index := Scalar.indexCast arg0
  let c53_649 : Index := 53#32
  ![v1448.toNat, 53]
def k0_off364 (v1449 : BitVec 32) : Fin 2 → Nat :=
  let c0_i32_653 : BitVec 32 := 0#32
  ![v1449.toNat, 0]

def k0_chk182 (v1449 : BitVec 32) : Prop :=
  (∀ a, (k0_off364 v1449) a + S1x4.size a ≤ S8388608x4.size a)
instance k0_chk182.dec : ∀ (v1449 : BitVec 32), Decidable (k0_chk182 v1449) := fun v1449 => decidable_of_iff' _ (Iff.of_eq (k0_chk182.eq_1 v1449))
theorem k0_off364_inb : ∀ (v1449 : BitVec 32) (k0_hw182 : k0_chk182 v1449), ∀ a, (k0_off364 v1449) a + S1x4.size a ≤ S8388608x4.size a := fun v1449 k0_hw182 => k0_hw182

def k0_off365 (i : grid0.Coords) : Fin 2 → Nat :=
  let arg0 : BitVec 32 := BitVec.ofNat 32 (i 0).val
  let v1456 : Index := Scalar.indexCast arg0
  let c54_654 : Index := 54#32
  ![v1456.toNat, 54]
def k0_off366 (v1457 : BitVec 32) : Fin 2 → Nat :=
  let c0_i32_658 : BitVec 32 := 0#32
  ![v1457.toNat, 0]

def k0_chk183 (v1457 : BitVec 32) : Prop :=
  (∀ a, (k0_off366 v1457) a + S1x4.size a ≤ S8388608x4.size a)
instance k0_chk183.dec : ∀ (v1457 : BitVec 32), Decidable (k0_chk183 v1457) := fun v1457 => decidable_of_iff' _ (Iff.of_eq (k0_chk183.eq_1 v1457))
theorem k0_off366_inb : ∀ (v1457 : BitVec 32) (k0_hw183 : k0_chk183 v1457), ∀ a, (k0_off366 v1457) a + S1x4.size a ≤ S8388608x4.size a := fun v1457 k0_hw183 => k0_hw183

def k0_off367 (i : grid0.Coords) : Fin 2 → Nat :=
  let arg0 : BitVec 32 := BitVec.ofNat 32 (i 0).val
  let v1464 : Index := Scalar.indexCast arg0
  let c55_659 : Index := 55#32
  ![v1464.toNat, 55]
def k0_off368 (v1465 : BitVec 32) : Fin 2 → Nat :=
  let c0_i32_663 : BitVec 32 := 0#32
  ![v1465.toNat, 0]

def k0_chk184 (v1465 : BitVec 32) : Prop :=
  (∀ a, (k0_off368 v1465) a + S1x4.size a ≤ S8388608x4.size a)
instance k0_chk184.dec : ∀ (v1465 : BitVec 32), Decidable (k0_chk184 v1465) := fun v1465 => decidable_of_iff' _ (Iff.of_eq (k0_chk184.eq_1 v1465))
theorem k0_off368_inb : ∀ (v1465 : BitVec 32) (k0_hw184 : k0_chk184 v1465), ∀ a, (k0_off368 v1465) a + S1x4.size a ≤ S8388608x4.size a := fun v1465 k0_hw184 => k0_hw184

def k0_off369 (i : grid0.Coords) : Fin 2 → Nat :=
  let arg0 : BitVec 32 := BitVec.ofNat 32 (i 0).val
  let v1472 : Index := Scalar.indexCast arg0
  let c56_664 : Index := 56#32
  ![v1472.toNat, 56]
def k0_off370 (v1473 : BitVec 32) : Fin 2 → Nat :=
  let c0_i32_668 : BitVec 32 := 0#32
  ![v1473.toNat, 0]

def k0_chk185 (v1473 : BitVec 32) : Prop :=
  (∀ a, (k0_off370 v1473) a + S1x4.size a ≤ S8388608x4.size a)
instance k0_chk185.dec : ∀ (v1473 : BitVec 32), Decidable (k0_chk185 v1473) := fun v1473 => decidable_of_iff' _ (Iff.of_eq (k0_chk185.eq_1 v1473))
theorem k0_off370_inb : ∀ (v1473 : BitVec 32) (k0_hw185 : k0_chk185 v1473), ∀ a, (k0_off370 v1473) a + S1x4.size a ≤ S8388608x4.size a := fun v1473 k0_hw185 => k0_hw185

def k0_off371 (i : grid0.Coords) : Fin 2 → Nat :=
  let arg0 : BitVec 32 := BitVec.ofNat 32 (i 0).val
  let v1480 : Index := Scalar.indexCast arg0
  let c57_669 : Index := 57#32
  ![v1480.toNat, 57]
def k0_off372 (v1481 : BitVec 32) : Fin 2 → Nat :=
  let c0_i32_673 : BitVec 32 := 0#32
  ![v1481.toNat, 0]

def k0_chk186 (v1481 : BitVec 32) : Prop :=
  (∀ a, (k0_off372 v1481) a + S1x4.size a ≤ S8388608x4.size a)
instance k0_chk186.dec : ∀ (v1481 : BitVec 32), Decidable (k0_chk186 v1481) := fun v1481 => decidable_of_iff' _ (Iff.of_eq (k0_chk186.eq_1 v1481))
theorem k0_off372_inb : ∀ (v1481 : BitVec 32) (k0_hw186 : k0_chk186 v1481), ∀ a, (k0_off372 v1481) a + S1x4.size a ≤ S8388608x4.size a := fun v1481 k0_hw186 => k0_hw186

def k0_off373 (i : grid0.Coords) : Fin 2 → Nat :=
  let arg0 : BitVec 32 := BitVec.ofNat 32 (i 0).val
  let v1488 : Index := Scalar.indexCast arg0
  let c58_674 : Index := 58#32
  ![v1488.toNat, 58]
def k0_off374 (v1489 : BitVec 32) : Fin 2 → Nat :=
  let c0_i32_678 : BitVec 32 := 0#32
  ![v1489.toNat, 0]

def k0_chk187 (v1489 : BitVec 32) : Prop :=
  (∀ a, (k0_off374 v1489) a + S1x4.size a ≤ S8388608x4.size a)
instance k0_chk187.dec : ∀ (v1489 : BitVec 32), Decidable (k0_chk187 v1489) := fun v1489 => decidable_of_iff' _ (Iff.of_eq (k0_chk187.eq_1 v1489))
theorem k0_off374_inb : ∀ (v1489 : BitVec 32) (k0_hw187 : k0_chk187 v1489), ∀ a, (k0_off374 v1489) a + S1x4.size a ≤ S8388608x4.size a := fun v1489 k0_hw187 => k0_hw187

def k0_off375 (i : grid0.Coords) : Fin 2 → Nat :=
  let arg0 : BitVec 32 := BitVec.ofNat 32 (i 0).val
  let v1496 : Index := Scalar.indexCast arg0
  let c59_679 : Index := 59#32
  ![v1496.toNat, 59]
def k0_off376 (v1497 : BitVec 32) : Fin 2 → Nat :=
  let c0_i32_683 : BitVec 32 := 0#32
  ![v1497.toNat, 0]

def k0_chk188 (v1497 : BitVec 32) : Prop :=
  (∀ a, (k0_off376 v1497) a + S1x4.size a ≤ S8388608x4.size a)
instance k0_chk188.dec : ∀ (v1497 : BitVec 32), Decidable (k0_chk188 v1497) := fun v1497 => decidable_of_iff' _ (Iff.of_eq (k0_chk188.eq_1 v1497))
theorem k0_off376_inb : ∀ (v1497 : BitVec 32) (k0_hw188 : k0_chk188 v1497), ∀ a, (k0_off376 v1497) a + S1x4.size a ≤ S8388608x4.size a := fun v1497 k0_hw188 => k0_hw188

def k0_off377 (i : grid0.Coords) : Fin 2 → Nat :=
  let arg0 : BitVec 32 := BitVec.ofNat 32 (i 0).val
  let v1504 : Index := Scalar.indexCast arg0
  let c60_684 : Index := 60#32
  ![v1504.toNat, 60]
def k0_off378 (v1505 : BitVec 32) : Fin 2 → Nat :=
  let c0_i32_688 : BitVec 32 := 0#32
  ![v1505.toNat, 0]

def k0_chk189 (v1505 : BitVec 32) : Prop :=
  (∀ a, (k0_off378 v1505) a + S1x4.size a ≤ S8388608x4.size a)
instance k0_chk189.dec : ∀ (v1505 : BitVec 32), Decidable (k0_chk189 v1505) := fun v1505 => decidable_of_iff' _ (Iff.of_eq (k0_chk189.eq_1 v1505))
theorem k0_off378_inb : ∀ (v1505 : BitVec 32) (k0_hw189 : k0_chk189 v1505), ∀ a, (k0_off378 v1505) a + S1x4.size a ≤ S8388608x4.size a := fun v1505 k0_hw189 => k0_hw189

def k0_off379 (i : grid0.Coords) : Fin 2 → Nat :=
  let arg0 : BitVec 32 := BitVec.ofNat 32 (i 0).val
  let v1512 : Index := Scalar.indexCast arg0
  let c61_689 : Index := 61#32
  ![v1512.toNat, 61]
def k0_off380 (v1513 : BitVec 32) : Fin 2 → Nat :=
  let c0_i32_693 : BitVec 32 := 0#32
  ![v1513.toNat, 0]

def k0_chk190 (v1513 : BitVec 32) : Prop :=
  (∀ a, (k0_off380 v1513) a + S1x4.size a ≤ S8388608x4.size a)
instance k0_chk190.dec : ∀ (v1513 : BitVec 32), Decidable (k0_chk190 v1513) := fun v1513 => decidable_of_iff' _ (Iff.of_eq (k0_chk190.eq_1 v1513))
theorem k0_off380_inb : ∀ (v1513 : BitVec 32) (k0_hw190 : k0_chk190 v1513), ∀ a, (k0_off380 v1513) a + S1x4.size a ≤ S8388608x4.size a := fun v1513 k0_hw190 => k0_hw190

def k0_off381 (i : grid0.Coords) : Fin 2 → Nat :=
  let arg0 : BitVec 32 := BitVec.ofNat 32 (i 0).val
  let v1520 : Index := Scalar.indexCast arg0
  let c62_694 : Index := 62#32
  ![v1520.toNat, 62]
def k0_off382 (v1521 : BitVec 32) : Fin 2 → Nat :=
  let c0_i32_698 : BitVec 32 := 0#32
  ![v1521.toNat, 0]

def k0_chk191 (v1521 : BitVec 32) : Prop :=
  (∀ a, (k0_off382 v1521) a + S1x4.size a ≤ S8388608x4.size a)
instance k0_chk191.dec : ∀ (v1521 : BitVec 32), Decidable (k0_chk191 v1521) := fun v1521 => decidable_of_iff' _ (Iff.of_eq (k0_chk191.eq_1 v1521))
theorem k0_off382_inb : ∀ (v1521 : BitVec 32) (k0_hw191 : k0_chk191 v1521), ∀ a, (k0_off382 v1521) a + S1x4.size a ≤ S8388608x4.size a := fun v1521 k0_hw191 => k0_hw191

def k0_off383 (i : grid0.Coords) : Fin 2 → Nat :=
  let arg0 : BitVec 32 := BitVec.ofNat 32 (i 0).val
  let v1528 : Index := Scalar.indexCast arg0
  let c63_699 : Index := 63#32
  ![v1528.toNat, 63]
def k0_off384 (v1529 : BitVec 32) : Fin 2 → Nat :=
  let c0_i32_703 : BitVec 32 := 0#32
  ![v1529.toNat, 0]

def k0_chk192 (v1529 : BitVec 32) : Prop :=
  (∀ a, (k0_off384 v1529) a + S1x4.size a ≤ S8388608x4.size a)
instance k0_chk192.dec : ∀ (v1529 : BitVec 32), Decidable (k0_chk192 v1529) := fun v1529 => decidable_of_iff' _ (Iff.of_eq (k0_chk192.eq_1 v1529))
theorem k0_off384_inb : ∀ (v1529 : BitVec 32) (k0_hw192 : k0_chk192 v1529), ∀ a, (k0_off384 v1529) a + S1x4.size a ≤ S8388608x4.size a := fun v1529 k0_hw192 => k0_hw192

def k0_off385 (i : grid0.Coords) : Fin 2 → Nat :=
  let arg0 : BitVec 32 := BitVec.ofNat 32 (i 0).val
  let v1536 : Index := Scalar.indexCast arg0
  let c64_704 : Index := 64#32
  ![v1536.toNat, 64]
def k0_off386 (v1537 : BitVec 32) : Fin 2 → Nat :=
  let c0_i32_708 : BitVec 32 := 0#32
  ![v1537.toNat, 0]

def k0_chk193 (v1537 : BitVec 32) : Prop :=
  (∀ a, (k0_off386 v1537) a + S1x4.size a ≤ S8388608x4.size a)
instance k0_chk193.dec : ∀ (v1537 : BitVec 32), Decidable (k0_chk193 v1537) := fun v1537 => decidable_of_iff' _ (Iff.of_eq (k0_chk193.eq_1 v1537))
theorem k0_off386_inb : ∀ (v1537 : BitVec 32) (k0_hw193 : k0_chk193 v1537), ∀ a, (k0_off386 v1537) a + S1x4.size a ≤ S8388608x4.size a := fun v1537 k0_hw193 => k0_hw193

def k0_off387 (i : grid0.Coords) : Fin 2 → Nat :=
  let arg0 : BitVec 32 := BitVec.ofNat 32 (i 0).val
  let v1544 : Index := Scalar.indexCast arg0
  let c65_709 : Index := 65#32
  ![v1544.toNat, 65]
def k0_off388 (v1545 : BitVec 32) : Fin 2 → Nat :=
  let c0_i32_713 : BitVec 32 := 0#32
  ![v1545.toNat, 0]

def k0_chk194 (v1545 : BitVec 32) : Prop :=
  (∀ a, (k0_off388 v1545) a + S1x4.size a ≤ S8388608x4.size a)
instance k0_chk194.dec : ∀ (v1545 : BitVec 32), Decidable (k0_chk194 v1545) := fun v1545 => decidable_of_iff' _ (Iff.of_eq (k0_chk194.eq_1 v1545))
theorem k0_off388_inb : ∀ (v1545 : BitVec 32) (k0_hw194 : k0_chk194 v1545), ∀ a, (k0_off388 v1545) a + S1x4.size a ≤ S8388608x4.size a := fun v1545 k0_hw194 => k0_hw194

def k0_off389 (i : grid0.Coords) : Fin 2 → Nat :=
  let arg0 : BitVec 32 := BitVec.ofNat 32 (i 0).val
  let v1552 : Index := Scalar.indexCast arg0
  let c66_714 : Index := 66#32
  ![v1552.toNat, 66]
def k0_off390 (v1553 : BitVec 32) : Fin 2 → Nat :=
  let c0_i32_718 : BitVec 32 := 0#32
  ![v1553.toNat, 0]

def k0_chk195 (v1553 : BitVec 32) : Prop :=
  (∀ a, (k0_off390 v1553) a + S1x4.size a ≤ S8388608x4.size a)
instance k0_chk195.dec : ∀ (v1553 : BitVec 32), Decidable (k0_chk195 v1553) := fun v1553 => decidable_of_iff' _ (Iff.of_eq (k0_chk195.eq_1 v1553))
theorem k0_off390_inb : ∀ (v1553 : BitVec 32) (k0_hw195 : k0_chk195 v1553), ∀ a, (k0_off390 v1553) a + S1x4.size a ≤ S8388608x4.size a := fun v1553 k0_hw195 => k0_hw195

def k0_off391 (i : grid0.Coords) : Fin 2 → Nat :=
  let arg0 : BitVec 32 := BitVec.ofNat 32 (i 0).val
  let v1560 : Index := Scalar.indexCast arg0
  let c67_719 : Index := 67#32
  ![v1560.toNat, 67]
def k0_off392 (v1561 : BitVec 32) : Fin 2 → Nat :=
  let c0_i32_723 : BitVec 32 := 0#32
  ![v1561.toNat, 0]

def k0_chk196 (v1561 : BitVec 32) : Prop :=
  (∀ a, (k0_off392 v1561) a + S1x4.size a ≤ S8388608x4.size a)
instance k0_chk196.dec : ∀ (v1561 : BitVec 32), Decidable (k0_chk196 v1561) := fun v1561 => decidable_of_iff' _ (Iff.of_eq (k0_chk196.eq_1 v1561))
theorem k0_off392_inb : ∀ (v1561 : BitVec 32) (k0_hw196 : k0_chk196 v1561), ∀ a, (k0_off392 v1561) a + S1x4.size a ≤ S8388608x4.size a := fun v1561 k0_hw196 => k0_hw196

def k0_off393 (i : grid0.Coords) : Fin 2 → Nat :=
  let arg0 : BitVec 32 := BitVec.ofNat 32 (i 0).val
  let v1568 : Index := Scalar.indexCast arg0
  let c68_724 : Index := 68#32
  ![v1568.toNat, 68]
def k0_off394 (v1569 : BitVec 32) : Fin 2 → Nat :=
  let c0_i32_728 : BitVec 32 := 0#32
  ![v1569.toNat, 0]

def k0_chk197 (v1569 : BitVec 32) : Prop :=
  (∀ a, (k0_off394 v1569) a + S1x4.size a ≤ S8388608x4.size a)
instance k0_chk197.dec : ∀ (v1569 : BitVec 32), Decidable (k0_chk197 v1569) := fun v1569 => decidable_of_iff' _ (Iff.of_eq (k0_chk197.eq_1 v1569))
theorem k0_off394_inb : ∀ (v1569 : BitVec 32) (k0_hw197 : k0_chk197 v1569), ∀ a, (k0_off394 v1569) a + S1x4.size a ≤ S8388608x4.size a := fun v1569 k0_hw197 => k0_hw197

def k0_off395 (i : grid0.Coords) : Fin 2 → Nat :=
  let arg0 : BitVec 32 := BitVec.ofNat 32 (i 0).val
  let v1576 : Index := Scalar.indexCast arg0
  let c69_729 : Index := 69#32
  ![v1576.toNat, 69]
def k0_off396 (v1577 : BitVec 32) : Fin 2 → Nat :=
  let c0_i32_733 : BitVec 32 := 0#32
  ![v1577.toNat, 0]

def k0_chk198 (v1577 : BitVec 32) : Prop :=
  (∀ a, (k0_off396 v1577) a + S1x4.size a ≤ S8388608x4.size a)
instance k0_chk198.dec : ∀ (v1577 : BitVec 32), Decidable (k0_chk198 v1577) := fun v1577 => decidable_of_iff' _ (Iff.of_eq (k0_chk198.eq_1 v1577))
theorem k0_off396_inb : ∀ (v1577 : BitVec 32) (k0_hw198 : k0_chk198 v1577), ∀ a, (k0_off396 v1577) a + S1x4.size a ≤ S8388608x4.size a := fun v1577 k0_hw198 => k0_hw198

def k0_off397 (i : grid0.Coords) : Fin 2 → Nat :=
  let arg0 : BitVec 32 := BitVec.ofNat 32 (i 0).val
  let v1584 : Index := Scalar.indexCast arg0
  let c70_734 : Index := 70#32
  ![v1584.toNat, 70]
def k0_off398 (v1585 : BitVec 32) : Fin 2 → Nat :=
  let c0_i32_738 : BitVec 32 := 0#32
  ![v1585.toNat, 0]

def k0_chk199 (v1585 : BitVec 32) : Prop :=
  (∀ a, (k0_off398 v1585) a + S1x4.size a ≤ S8388608x4.size a)
instance k0_chk199.dec : ∀ (v1585 : BitVec 32), Decidable (k0_chk199 v1585) := fun v1585 => decidable_of_iff' _ (Iff.of_eq (k0_chk199.eq_1 v1585))
theorem k0_off398_inb : ∀ (v1585 : BitVec 32) (k0_hw199 : k0_chk199 v1585), ∀ a, (k0_off398 v1585) a + S1x4.size a ≤ S8388608x4.size a := fun v1585 k0_hw199 => k0_hw199

def k0_off399 (i : grid0.Coords) : Fin 2 → Nat :=
  let arg0 : BitVec 32 := BitVec.ofNat 32 (i 0).val
  let v1592 : Index := Scalar.indexCast arg0
  let c71_739 : Index := 71#32
  ![v1592.toNat, 71]
def k0_off400 (v1593 : BitVec 32) : Fin 2 → Nat :=
  let c0_i32_743 : BitVec 32 := 0#32
  ![v1593.toNat, 0]

def k0_chk200 (v1593 : BitVec 32) : Prop :=
  (∀ a, (k0_off400 v1593) a + S1x4.size a ≤ S8388608x4.size a)
instance k0_chk200.dec : ∀ (v1593 : BitVec 32), Decidable (k0_chk200 v1593) := fun v1593 => decidable_of_iff' _ (Iff.of_eq (k0_chk200.eq_1 v1593))
theorem k0_off400_inb : ∀ (v1593 : BitVec 32) (k0_hw200 : k0_chk200 v1593), ∀ a, (k0_off400 v1593) a + S1x4.size a ≤ S8388608x4.size a := fun v1593 k0_hw200 => k0_hw200

def k0_off401 (i : grid0.Coords) : Fin 2 → Nat :=
  let arg0 : BitVec 32 := BitVec.ofNat 32 (i 0).val
  let v1600 : Index := Scalar.indexCast arg0
  let c72_744 : Index := 72#32
  ![v1600.toNat, 72]
def k0_off402 (v1601 : BitVec 32) : Fin 2 → Nat :=
  let c0_i32_748 : BitVec 32 := 0#32
  ![v1601.toNat, 0]

def k0_chk201 (v1601 : BitVec 32) : Prop :=
  (∀ a, (k0_off402 v1601) a + S1x4.size a ≤ S8388608x4.size a)
instance k0_chk201.dec : ∀ (v1601 : BitVec 32), Decidable (k0_chk201 v1601) := fun v1601 => decidable_of_iff' _ (Iff.of_eq (k0_chk201.eq_1 v1601))
theorem k0_off402_inb : ∀ (v1601 : BitVec 32) (k0_hw201 : k0_chk201 v1601), ∀ a, (k0_off402 v1601) a + S1x4.size a ≤ S8388608x4.size a := fun v1601 k0_hw201 => k0_hw201

def k0_off403 (i : grid0.Coords) : Fin 2 → Nat :=
  let arg0 : BitVec 32 := BitVec.ofNat 32 (i 0).val
  let v1608 : Index := Scalar.indexCast arg0
  let c73_749 : Index := 73#32
  ![v1608.toNat, 73]
def k0_off404 (v1609 : BitVec 32) : Fin 2 → Nat :=
  let c0_i32_753 : BitVec 32 := 0#32
  ![v1609.toNat, 0]

def k0_chk202 (v1609 : BitVec 32) : Prop :=
  (∀ a, (k0_off404 v1609) a + S1x4.size a ≤ S8388608x4.size a)
instance k0_chk202.dec : ∀ (v1609 : BitVec 32), Decidable (k0_chk202 v1609) := fun v1609 => decidable_of_iff' _ (Iff.of_eq (k0_chk202.eq_1 v1609))
theorem k0_off404_inb : ∀ (v1609 : BitVec 32) (k0_hw202 : k0_chk202 v1609), ∀ a, (k0_off404 v1609) a + S1x4.size a ≤ S8388608x4.size a := fun v1609 k0_hw202 => k0_hw202

def k0_off405 (i : grid0.Coords) : Fin 2 → Nat :=
  let arg0 : BitVec 32 := BitVec.ofNat 32 (i 0).val
  let v1616 : Index := Scalar.indexCast arg0
  let c74_754 : Index := 74#32
  ![v1616.toNat, 74]
def k0_off406 (v1617 : BitVec 32) : Fin 2 → Nat :=
  let c0_i32_758 : BitVec 32 := 0#32
  ![v1617.toNat, 0]

def k0_chk203 (v1617 : BitVec 32) : Prop :=
  (∀ a, (k0_off406 v1617) a + S1x4.size a ≤ S8388608x4.size a)
instance k0_chk203.dec : ∀ (v1617 : BitVec 32), Decidable (k0_chk203 v1617) := fun v1617 => decidable_of_iff' _ (Iff.of_eq (k0_chk203.eq_1 v1617))
theorem k0_off406_inb : ∀ (v1617 : BitVec 32) (k0_hw203 : k0_chk203 v1617), ∀ a, (k0_off406 v1617) a + S1x4.size a ≤ S8388608x4.size a := fun v1617 k0_hw203 => k0_hw203

def k0_off407 (i : grid0.Coords) : Fin 2 → Nat :=
  let arg0 : BitVec 32 := BitVec.ofNat 32 (i 0).val
  let v1624 : Index := Scalar.indexCast arg0
  let c75_759 : Index := 75#32
  ![v1624.toNat, 75]
def k0_off408 (v1625 : BitVec 32) : Fin 2 → Nat :=
  let c0_i32_763 : BitVec 32 := 0#32
  ![v1625.toNat, 0]

def k0_chk204 (v1625 : BitVec 32) : Prop :=
  (∀ a, (k0_off408 v1625) a + S1x4.size a ≤ S8388608x4.size a)
instance k0_chk204.dec : ∀ (v1625 : BitVec 32), Decidable (k0_chk204 v1625) := fun v1625 => decidable_of_iff' _ (Iff.of_eq (k0_chk204.eq_1 v1625))
theorem k0_off408_inb : ∀ (v1625 : BitVec 32) (k0_hw204 : k0_chk204 v1625), ∀ a, (k0_off408 v1625) a + S1x4.size a ≤ S8388608x4.size a := fun v1625 k0_hw204 => k0_hw204

def k0_off409 (i : grid0.Coords) : Fin 2 → Nat :=
  let arg0 : BitVec 32 := BitVec.ofNat 32 (i 0).val
  let v1632 : Index := Scalar.indexCast arg0
  let c76_764 : Index := 76#32
  ![v1632.toNat, 76]
def k0_off410 (v1633 : BitVec 32) : Fin 2 → Nat :=
  let c0_i32_768 : BitVec 32 := 0#32
  ![v1633.toNat, 0]

def k0_chk205 (v1633 : BitVec 32) : Prop :=
  (∀ a, (k0_off410 v1633) a + S1x4.size a ≤ S8388608x4.size a)
instance k0_chk205.dec : ∀ (v1633 : BitVec 32), Decidable (k0_chk205 v1633) := fun v1633 => decidable_of_iff' _ (Iff.of_eq (k0_chk205.eq_1 v1633))
theorem k0_off410_inb : ∀ (v1633 : BitVec 32) (k0_hw205 : k0_chk205 v1633), ∀ a, (k0_off410 v1633) a + S1x4.size a ≤ S8388608x4.size a := fun v1633 k0_hw205 => k0_hw205

def k0_off411 (i : grid0.Coords) : Fin 2 → Nat :=
  let arg0 : BitVec 32 := BitVec.ofNat 32 (i 0).val
  let v1640 : Index := Scalar.indexCast arg0
  let c77_769 : Index := 77#32
  ![v1640.toNat, 77]
def k0_off412 (v1641 : BitVec 32) : Fin 2 → Nat :=
  let c0_i32_773 : BitVec 32 := 0#32
  ![v1641.toNat, 0]

def k0_chk206 (v1641 : BitVec 32) : Prop :=
  (∀ a, (k0_off412 v1641) a + S1x4.size a ≤ S8388608x4.size a)
instance k0_chk206.dec : ∀ (v1641 : BitVec 32), Decidable (k0_chk206 v1641) := fun v1641 => decidable_of_iff' _ (Iff.of_eq (k0_chk206.eq_1 v1641))
theorem k0_off412_inb : ∀ (v1641 : BitVec 32) (k0_hw206 : k0_chk206 v1641), ∀ a, (k0_off412 v1641) a + S1x4.size a ≤ S8388608x4.size a := fun v1641 k0_hw206 => k0_hw206

def k0_off413 (i : grid0.Coords) : Fin 2 → Nat :=
  let arg0 : BitVec 32 := BitVec.ofNat 32 (i 0).val
  let v1648 : Index := Scalar.indexCast arg0
  let c78_774 : Index := 78#32
  ![v1648.toNat, 78]
def k0_off414 (v1649 : BitVec 32) : Fin 2 → Nat :=
  let c0_i32_778 : BitVec 32 := 0#32
  ![v1649.toNat, 0]

def k0_chk207 (v1649 : BitVec 32) : Prop :=
  (∀ a, (k0_off414 v1649) a + S1x4.size a ≤ S8388608x4.size a)
instance k0_chk207.dec : ∀ (v1649 : BitVec 32), Decidable (k0_chk207 v1649) := fun v1649 => decidable_of_iff' _ (Iff.of_eq (k0_chk207.eq_1 v1649))
theorem k0_off414_inb : ∀ (v1649 : BitVec 32) (k0_hw207 : k0_chk207 v1649), ∀ a, (k0_off414 v1649) a + S1x4.size a ≤ S8388608x4.size a := fun v1649 k0_hw207 => k0_hw207

def k0_off415 (i : grid0.Coords) : Fin 2 → Nat :=
  let arg0 : BitVec 32 := BitVec.ofNat 32 (i 0).val
  let v1656 : Index := Scalar.indexCast arg0
  let c79_779 : Index := 79#32
  ![v1656.toNat, 79]
def k0_off416 (v1657 : BitVec 32) : Fin 2 → Nat :=
  let c0_i32_783 : BitVec 32 := 0#32
  ![v1657.toNat, 0]

def k0_chk208 (v1657 : BitVec 32) : Prop :=
  (∀ a, (k0_off416 v1657) a + S1x4.size a ≤ S8388608x4.size a)
instance k0_chk208.dec : ∀ (v1657 : BitVec 32), Decidable (k0_chk208 v1657) := fun v1657 => decidable_of_iff' _ (Iff.of_eq (k0_chk208.eq_1 v1657))
theorem k0_off416_inb : ∀ (v1657 : BitVec 32) (k0_hw208 : k0_chk208 v1657), ∀ a, (k0_off416 v1657) a + S1x4.size a ≤ S8388608x4.size a := fun v1657 k0_hw208 => k0_hw208

def k0_off417 (i : grid0.Coords) : Fin 2 → Nat :=
  let arg0 : BitVec 32 := BitVec.ofNat 32 (i 0).val
  let v1664 : Index := Scalar.indexCast arg0
  let c80_784 : Index := 80#32
  ![v1664.toNat, 80]
def k0_off418 (v1665 : BitVec 32) : Fin 2 → Nat :=
  let c0_i32_788 : BitVec 32 := 0#32
  ![v1665.toNat, 0]

def k0_chk209 (v1665 : BitVec 32) : Prop :=
  (∀ a, (k0_off418 v1665) a + S1x4.size a ≤ S8388608x4.size a)
instance k0_chk209.dec : ∀ (v1665 : BitVec 32), Decidable (k0_chk209 v1665) := fun v1665 => decidable_of_iff' _ (Iff.of_eq (k0_chk209.eq_1 v1665))
theorem k0_off418_inb : ∀ (v1665 : BitVec 32) (k0_hw209 : k0_chk209 v1665), ∀ a, (k0_off418 v1665) a + S1x4.size a ≤ S8388608x4.size a := fun v1665 k0_hw209 => k0_hw209

def k0_off419 (i : grid0.Coords) : Fin 2 → Nat :=
  let arg0 : BitVec 32 := BitVec.ofNat 32 (i 0).val
  let v1672 : Index := Scalar.indexCast arg0
  let c81_789 : Index := 81#32
  ![v1672.toNat, 81]
def k0_off420 (v1673 : BitVec 32) : Fin 2 → Nat :=
  let c0_i32_793 : BitVec 32 := 0#32
  ![v1673.toNat, 0]

def k0_chk210 (v1673 : BitVec 32) : Prop :=
  (∀ a, (k0_off420 v1673) a + S1x4.size a ≤ S8388608x4.size a)
instance k0_chk210.dec : ∀ (v1673 : BitVec 32), Decidable (k0_chk210 v1673) := fun v1673 => decidable_of_iff' _ (Iff.of_eq (k0_chk210.eq_1 v1673))
theorem k0_off420_inb : ∀ (v1673 : BitVec 32) (k0_hw210 : k0_chk210 v1673), ∀ a, (k0_off420 v1673) a + S1x4.size a ≤ S8388608x4.size a := fun v1673 k0_hw210 => k0_hw210

def k0_off421 (i : grid0.Coords) : Fin 2 → Nat :=
  let arg0 : BitVec 32 := BitVec.ofNat 32 (i 0).val
  let v1680 : Index := Scalar.indexCast arg0
  let c82_794 : Index := 82#32
  ![v1680.toNat, 82]
def k0_off422 (v1681 : BitVec 32) : Fin 2 → Nat :=
  let c0_i32_798 : BitVec 32 := 0#32
  ![v1681.toNat, 0]

def k0_chk211 (v1681 : BitVec 32) : Prop :=
  (∀ a, (k0_off422 v1681) a + S1x4.size a ≤ S8388608x4.size a)
instance k0_chk211.dec : ∀ (v1681 : BitVec 32), Decidable (k0_chk211 v1681) := fun v1681 => decidable_of_iff' _ (Iff.of_eq (k0_chk211.eq_1 v1681))
theorem k0_off422_inb : ∀ (v1681 : BitVec 32) (k0_hw211 : k0_chk211 v1681), ∀ a, (k0_off422 v1681) a + S1x4.size a ≤ S8388608x4.size a := fun v1681 k0_hw211 => k0_hw211

def k0_off423 (i : grid0.Coords) : Fin 2 → Nat :=
  let arg0 : BitVec 32 := BitVec.ofNat 32 (i 0).val
  let v1688 : Index := Scalar.indexCast arg0
  let c83_799 : Index := 83#32
  ![v1688.toNat, 83]
def k0_off424 (v1689 : BitVec 32) : Fin 2 → Nat :=
  let c0_i32_803 : BitVec 32 := 0#32
  ![v1689.toNat, 0]

def k0_chk212 (v1689 : BitVec 32) : Prop :=
  (∀ a, (k0_off424 v1689) a + S1x4.size a ≤ S8388608x4.size a)
instance k0_chk212.dec : ∀ (v1689 : BitVec 32), Decidable (k0_chk212 v1689) := fun v1689 => decidable_of_iff' _ (Iff.of_eq (k0_chk212.eq_1 v1689))
theorem k0_off424_inb : ∀ (v1689 : BitVec 32) (k0_hw212 : k0_chk212 v1689), ∀ a, (k0_off424 v1689) a + S1x4.size a ≤ S8388608x4.size a := fun v1689 k0_hw212 => k0_hw212

def k0_off425 (i : grid0.Coords) : Fin 2 → Nat :=
  let arg0 : BitVec 32 := BitVec.ofNat 32 (i 0).val
  let v1696 : Index := Scalar.indexCast arg0
  let c84_804 : Index := 84#32
  ![v1696.toNat, 84]
def k0_off426 (v1697 : BitVec 32) : Fin 2 → Nat :=
  let c0_i32_808 : BitVec 32 := 0#32
  ![v1697.toNat, 0]

def k0_chk213 (v1697 : BitVec 32) : Prop :=
  (∀ a, (k0_off426 v1697) a + S1x4.size a ≤ S8388608x4.size a)
instance k0_chk213.dec : ∀ (v1697 : BitVec 32), Decidable (k0_chk213 v1697) := fun v1697 => decidable_of_iff' _ (Iff.of_eq (k0_chk213.eq_1 v1697))
theorem k0_off426_inb : ∀ (v1697 : BitVec 32) (k0_hw213 : k0_chk213 v1697), ∀ a, (k0_off426 v1697) a + S1x4.size a ≤ S8388608x4.size a := fun v1697 k0_hw213 => k0_hw213

def k0_off427 (i : grid0.Coords) : Fin 2 → Nat :=
  let arg0 : BitVec 32 := BitVec.ofNat 32 (i 0).val
  let v1704 : Index := Scalar.indexCast arg0
  let c85_809 : Index := 85#32
  ![v1704.toNat, 85]
def k0_off428 (v1705 : BitVec 32) : Fin 2 → Nat :=
  let c0_i32_813 : BitVec 32 := 0#32
  ![v1705.toNat, 0]

def k0_chk214 (v1705 : BitVec 32) : Prop :=
  (∀ a, (k0_off428 v1705) a + S1x4.size a ≤ S8388608x4.size a)
instance k0_chk214.dec : ∀ (v1705 : BitVec 32), Decidable (k0_chk214 v1705) := fun v1705 => decidable_of_iff' _ (Iff.of_eq (k0_chk214.eq_1 v1705))
theorem k0_off428_inb : ∀ (v1705 : BitVec 32) (k0_hw214 : k0_chk214 v1705), ∀ a, (k0_off428 v1705) a + S1x4.size a ≤ S8388608x4.size a := fun v1705 k0_hw214 => k0_hw214

def k0_off429 (i : grid0.Coords) : Fin 2 → Nat :=
  let arg0 : BitVec 32 := BitVec.ofNat 32 (i 0).val
  let v1712 : Index := Scalar.indexCast arg0
  let c86_814 : Index := 86#32
  ![v1712.toNat, 86]
def k0_off430 (v1713 : BitVec 32) : Fin 2 → Nat :=
  let c0_i32_818 : BitVec 32 := 0#32
  ![v1713.toNat, 0]

def k0_chk215 (v1713 : BitVec 32) : Prop :=
  (∀ a, (k0_off430 v1713) a + S1x4.size a ≤ S8388608x4.size a)
instance k0_chk215.dec : ∀ (v1713 : BitVec 32), Decidable (k0_chk215 v1713) := fun v1713 => decidable_of_iff' _ (Iff.of_eq (k0_chk215.eq_1 v1713))
theorem k0_off430_inb : ∀ (v1713 : BitVec 32) (k0_hw215 : k0_chk215 v1713), ∀ a, (k0_off430 v1713) a + S1x4.size a ≤ S8388608x4.size a := fun v1713 k0_hw215 => k0_hw215

def k0_off431 (i : grid0.Coords) : Fin 2 → Nat :=
  let arg0 : BitVec 32 := BitVec.ofNat 32 (i 0).val
  let v1720 : Index := Scalar.indexCast arg0
  let c87_819 : Index := 87#32
  ![v1720.toNat, 87]
def k0_off432 (v1721 : BitVec 32) : Fin 2 → Nat :=
  let c0_i32_823 : BitVec 32 := 0#32
  ![v1721.toNat, 0]

def k0_chk216 (v1721 : BitVec 32) : Prop :=
  (∀ a, (k0_off432 v1721) a + S1x4.size a ≤ S8388608x4.size a)
instance k0_chk216.dec : ∀ (v1721 : BitVec 32), Decidable (k0_chk216 v1721) := fun v1721 => decidable_of_iff' _ (Iff.of_eq (k0_chk216.eq_1 v1721))
theorem k0_off432_inb : ∀ (v1721 : BitVec 32) (k0_hw216 : k0_chk216 v1721), ∀ a, (k0_off432 v1721) a + S1x4.size a ≤ S8388608x4.size a := fun v1721 k0_hw216 => k0_hw216

def k0_off433 (i : grid0.Coords) : Fin 2 → Nat :=
  let arg0 : BitVec 32 := BitVec.ofNat 32 (i 0).val
  let v1728 : Index := Scalar.indexCast arg0
  let c88_824 : Index := 88#32
  ![v1728.toNat, 88]
def k0_off434 (v1729 : BitVec 32) : Fin 2 → Nat :=
  let c0_i32_828 : BitVec 32 := 0#32
  ![v1729.toNat, 0]

def k0_chk217 (v1729 : BitVec 32) : Prop :=
  (∀ a, (k0_off434 v1729) a + S1x4.size a ≤ S8388608x4.size a)
instance k0_chk217.dec : ∀ (v1729 : BitVec 32), Decidable (k0_chk217 v1729) := fun v1729 => decidable_of_iff' _ (Iff.of_eq (k0_chk217.eq_1 v1729))
theorem k0_off434_inb : ∀ (v1729 : BitVec 32) (k0_hw217 : k0_chk217 v1729), ∀ a, (k0_off434 v1729) a + S1x4.size a ≤ S8388608x4.size a := fun v1729 k0_hw217 => k0_hw217

def k0_off435 (i : grid0.Coords) : Fin 2 → Nat :=
  let arg0 : BitVec 32 := BitVec.ofNat 32 (i 0).val
  let v1736 : Index := Scalar.indexCast arg0
  let c89_829 : Index := 89#32
  ![v1736.toNat, 89]
def k0_off436 (v1737 : BitVec 32) : Fin 2 → Nat :=
  let c0_i32_833 : BitVec 32 := 0#32
  ![v1737.toNat, 0]

def k0_chk218 (v1737 : BitVec 32) : Prop :=
  (∀ a, (k0_off436 v1737) a + S1x4.size a ≤ S8388608x4.size a)
instance k0_chk218.dec : ∀ (v1737 : BitVec 32), Decidable (k0_chk218 v1737) := fun v1737 => decidable_of_iff' _ (Iff.of_eq (k0_chk218.eq_1 v1737))
theorem k0_off436_inb : ∀ (v1737 : BitVec 32) (k0_hw218 : k0_chk218 v1737), ∀ a, (k0_off436 v1737) a + S1x4.size a ≤ S8388608x4.size a := fun v1737 k0_hw218 => k0_hw218

def k0_off437 (i : grid0.Coords) : Fin 2 → Nat :=
  let arg0 : BitVec 32 := BitVec.ofNat 32 (i 0).val
  let v1744 : Index := Scalar.indexCast arg0
  let c90_834 : Index := 90#32
  ![v1744.toNat, 90]
def k0_off438 (v1745 : BitVec 32) : Fin 2 → Nat :=
  let c0_i32_838 : BitVec 32 := 0#32
  ![v1745.toNat, 0]

def k0_chk219 (v1745 : BitVec 32) : Prop :=
  (∀ a, (k0_off438 v1745) a + S1x4.size a ≤ S8388608x4.size a)
instance k0_chk219.dec : ∀ (v1745 : BitVec 32), Decidable (k0_chk219 v1745) := fun v1745 => decidable_of_iff' _ (Iff.of_eq (k0_chk219.eq_1 v1745))
theorem k0_off438_inb : ∀ (v1745 : BitVec 32) (k0_hw219 : k0_chk219 v1745), ∀ a, (k0_off438 v1745) a + S1x4.size a ≤ S8388608x4.size a := fun v1745 k0_hw219 => k0_hw219

def k0_off439 (i : grid0.Coords) : Fin 2 → Nat :=
  let arg0 : BitVec 32 := BitVec.ofNat 32 (i 0).val
  let v1752 : Index := Scalar.indexCast arg0
  let c91_839 : Index := 91#32
  ![v1752.toNat, 91]
def k0_off440 (v1753 : BitVec 32) : Fin 2 → Nat :=
  let c0_i32_843 : BitVec 32 := 0#32
  ![v1753.toNat, 0]

def k0_chk220 (v1753 : BitVec 32) : Prop :=
  (∀ a, (k0_off440 v1753) a + S1x4.size a ≤ S8388608x4.size a)
instance k0_chk220.dec : ∀ (v1753 : BitVec 32), Decidable (k0_chk220 v1753) := fun v1753 => decidable_of_iff' _ (Iff.of_eq (k0_chk220.eq_1 v1753))
theorem k0_off440_inb : ∀ (v1753 : BitVec 32) (k0_hw220 : k0_chk220 v1753), ∀ a, (k0_off440 v1753) a + S1x4.size a ≤ S8388608x4.size a := fun v1753 k0_hw220 => k0_hw220

def k0_off441 (i : grid0.Coords) : Fin 2 → Nat :=
  let arg0 : BitVec 32 := BitVec.ofNat 32 (i 0).val
  let v1760 : Index := Scalar.indexCast arg0
  let c92_844 : Index := 92#32
  ![v1760.toNat, 92]
def k0_off442 (v1761 : BitVec 32) : Fin 2 → Nat :=
  let c0_i32_848 : BitVec 32 := 0#32
  ![v1761.toNat, 0]

def k0_chk221 (v1761 : BitVec 32) : Prop :=
  (∀ a, (k0_off442 v1761) a + S1x4.size a ≤ S8388608x4.size a)
instance k0_chk221.dec : ∀ (v1761 : BitVec 32), Decidable (k0_chk221 v1761) := fun v1761 => decidable_of_iff' _ (Iff.of_eq (k0_chk221.eq_1 v1761))
theorem k0_off442_inb : ∀ (v1761 : BitVec 32) (k0_hw221 : k0_chk221 v1761), ∀ a, (k0_off442 v1761) a + S1x4.size a ≤ S8388608x4.size a := fun v1761 k0_hw221 => k0_hw221

def k0_off443 (i : grid0.Coords) : Fin 2 → Nat :=
  let arg0 : BitVec 32 := BitVec.ofNat 32 (i 0).val
  let v1768 : Index := Scalar.indexCast arg0
  let c93_849 : Index := 93#32
  ![v1768.toNat, 93]
def k0_off444 (v1769 : BitVec 32) : Fin 2 → Nat :=
  let c0_i32_853 : BitVec 32 := 0#32
  ![v1769.toNat, 0]

def k0_chk222 (v1769 : BitVec 32) : Prop :=
  (∀ a, (k0_off444 v1769) a + S1x4.size a ≤ S8388608x4.size a)
instance k0_chk222.dec : ∀ (v1769 : BitVec 32), Decidable (k0_chk222 v1769) := fun v1769 => decidable_of_iff' _ (Iff.of_eq (k0_chk222.eq_1 v1769))
theorem k0_off444_inb : ∀ (v1769 : BitVec 32) (k0_hw222 : k0_chk222 v1769), ∀ a, (k0_off444 v1769) a + S1x4.size a ≤ S8388608x4.size a := fun v1769 k0_hw222 => k0_hw222

def k0_off445 (i : grid0.Coords) : Fin 2 → Nat :=
  let arg0 : BitVec 32 := BitVec.ofNat 32 (i 0).val
  let v1776 : Index := Scalar.indexCast arg0
  let c94_854 : Index := 94#32
  ![v1776.toNat, 94]
def k0_off446 (v1777 : BitVec 32) : Fin 2 → Nat :=
  let c0_i32_858 : BitVec 32 := 0#32
  ![v1777.toNat, 0]

def k0_chk223 (v1777 : BitVec 32) : Prop :=
  (∀ a, (k0_off446 v1777) a + S1x4.size a ≤ S8388608x4.size a)
instance k0_chk223.dec : ∀ (v1777 : BitVec 32), Decidable (k0_chk223 v1777) := fun v1777 => decidable_of_iff' _ (Iff.of_eq (k0_chk223.eq_1 v1777))
theorem k0_off446_inb : ∀ (v1777 : BitVec 32) (k0_hw223 : k0_chk223 v1777), ∀ a, (k0_off446 v1777) a + S1x4.size a ≤ S8388608x4.size a := fun v1777 k0_hw223 => k0_hw223

def k0_off447 (i : grid0.Coords) : Fin 2 → Nat :=
  let arg0 : BitVec 32 := BitVec.ofNat 32 (i 0).val
  let v1784 : Index := Scalar.indexCast arg0
  let c95_859 : Index := 95#32
  ![v1784.toNat, 95]
def k0_off448 (v1785 : BitVec 32) : Fin 2 → Nat :=
  let c0_i32_863 : BitVec 32 := 0#32
  ![v1785.toNat, 0]

def k0_chk224 (v1785 : BitVec 32) : Prop :=
  (∀ a, (k0_off448 v1785) a + S1x4.size a ≤ S8388608x4.size a)
instance k0_chk224.dec : ∀ (v1785 : BitVec 32), Decidable (k0_chk224 v1785) := fun v1785 => decidable_of_iff' _ (Iff.of_eq (k0_chk224.eq_1 v1785))
theorem k0_off448_inb : ∀ (v1785 : BitVec 32) (k0_hw224 : k0_chk224 v1785), ∀ a, (k0_off448 v1785) a + S1x4.size a ≤ S8388608x4.size a := fun v1785 k0_hw224 => k0_hw224

def k0_off449 (i : grid0.Coords) : Fin 2 → Nat :=
  let arg0 : BitVec 32 := BitVec.ofNat 32 (i 0).val
  let v1792 : Index := Scalar.indexCast arg0
  let c96_864 : Index := 96#32
  ![v1792.toNat, 96]
def k0_off450 (v1793 : BitVec 32) : Fin 2 → Nat :=
  let c0_i32_868 : BitVec 32 := 0#32
  ![v1793.toNat, 0]

def k0_chk225 (v1793 : BitVec 32) : Prop :=
  (∀ a, (k0_off450 v1793) a + S1x4.size a ≤ S8388608x4.size a)
instance k0_chk225.dec : ∀ (v1793 : BitVec 32), Decidable (k0_chk225 v1793) := fun v1793 => decidable_of_iff' _ (Iff.of_eq (k0_chk225.eq_1 v1793))
theorem k0_off450_inb : ∀ (v1793 : BitVec 32) (k0_hw225 : k0_chk225 v1793), ∀ a, (k0_off450 v1793) a + S1x4.size a ≤ S8388608x4.size a := fun v1793 k0_hw225 => k0_hw225

def k0_off451 (i : grid0.Coords) : Fin 2 → Nat :=
  let arg0 : BitVec 32 := BitVec.ofNat 32 (i 0).val
  let v1800 : Index := Scalar.indexCast arg0
  let c97_869 : Index := 97#32
  ![v1800.toNat, 97]
def k0_off452 (v1801 : BitVec 32) : Fin 2 → Nat :=
  let c0_i32_873 : BitVec 32 := 0#32
  ![v1801.toNat, 0]

def k0_chk226 (v1801 : BitVec 32) : Prop :=
  (∀ a, (k0_off452 v1801) a + S1x4.size a ≤ S8388608x4.size a)
instance k0_chk226.dec : ∀ (v1801 : BitVec 32), Decidable (k0_chk226 v1801) := fun v1801 => decidable_of_iff' _ (Iff.of_eq (k0_chk226.eq_1 v1801))
theorem k0_off452_inb : ∀ (v1801 : BitVec 32) (k0_hw226 : k0_chk226 v1801), ∀ a, (k0_off452 v1801) a + S1x4.size a ≤ S8388608x4.size a := fun v1801 k0_hw226 => k0_hw226

def k0_off453 (i : grid0.Coords) : Fin 2 → Nat :=
  let arg0 : BitVec 32 := BitVec.ofNat 32 (i 0).val
  let v1808 : Index := Scalar.indexCast arg0
  let c98_874 : Index := 98#32
  ![v1808.toNat, 98]
def k0_off454 (v1809 : BitVec 32) : Fin 2 → Nat :=
  let c0_i32_878 : BitVec 32 := 0#32
  ![v1809.toNat, 0]

def k0_chk227 (v1809 : BitVec 32) : Prop :=
  (∀ a, (k0_off454 v1809) a + S1x4.size a ≤ S8388608x4.size a)
instance k0_chk227.dec : ∀ (v1809 : BitVec 32), Decidable (k0_chk227 v1809) := fun v1809 => decidable_of_iff' _ (Iff.of_eq (k0_chk227.eq_1 v1809))
theorem k0_off454_inb : ∀ (v1809 : BitVec 32) (k0_hw227 : k0_chk227 v1809), ∀ a, (k0_off454 v1809) a + S1x4.size a ≤ S8388608x4.size a := fun v1809 k0_hw227 => k0_hw227

def k0_off455 (i : grid0.Coords) : Fin 2 → Nat :=
  let arg0 : BitVec 32 := BitVec.ofNat 32 (i 0).val
  let v1816 : Index := Scalar.indexCast arg0
  let c99_879 : Index := 99#32
  ![v1816.toNat, 99]
def k0_off456 (v1817 : BitVec 32) : Fin 2 → Nat :=
  let c0_i32_883 : BitVec 32 := 0#32
  ![v1817.toNat, 0]

def k0_chk228 (v1817 : BitVec 32) : Prop :=
  (∀ a, (k0_off456 v1817) a + S1x4.size a ≤ S8388608x4.size a)
instance k0_chk228.dec : ∀ (v1817 : BitVec 32), Decidable (k0_chk228 v1817) := fun v1817 => decidable_of_iff' _ (Iff.of_eq (k0_chk228.eq_1 v1817))
theorem k0_off456_inb : ∀ (v1817 : BitVec 32) (k0_hw228 : k0_chk228 v1817), ∀ a, (k0_off456 v1817) a + S1x4.size a ≤ S8388608x4.size a := fun v1817 k0_hw228 => k0_hw228

def k0_off457 (i : grid0.Coords) : Fin 2 → Nat :=
  let arg0 : BitVec 32 := BitVec.ofNat 32 (i 0).val
  let v1824 : Index := Scalar.indexCast arg0
  let c100_884 : Index := 100#32
  ![v1824.toNat, 100]
def k0_off458 (v1825 : BitVec 32) : Fin 2 → Nat :=
  let c0_i32_888 : BitVec 32 := 0#32
  ![v1825.toNat, 0]

def k0_chk229 (v1825 : BitVec 32) : Prop :=
  (∀ a, (k0_off458 v1825) a + S1x4.size a ≤ S8388608x4.size a)
instance k0_chk229.dec : ∀ (v1825 : BitVec 32), Decidable (k0_chk229 v1825) := fun v1825 => decidable_of_iff' _ (Iff.of_eq (k0_chk229.eq_1 v1825))
theorem k0_off458_inb : ∀ (v1825 : BitVec 32) (k0_hw229 : k0_chk229 v1825), ∀ a, (k0_off458 v1825) a + S1x4.size a ≤ S8388608x4.size a := fun v1825 k0_hw229 => k0_hw229

def k0_off459 (i : grid0.Coords) : Fin 2 → Nat :=
  let arg0 : BitVec 32 := BitVec.ofNat 32 (i 0).val
  let v1832 : Index := Scalar.indexCast arg0
  let c101_889 : Index := 101#32
  ![v1832.toNat, 101]
def k0_off460 (v1833 : BitVec 32) : Fin 2 → Nat :=
  let c0_i32_893 : BitVec 32 := 0#32
  ![v1833.toNat, 0]

def k0_chk230 (v1833 : BitVec 32) : Prop :=
  (∀ a, (k0_off460 v1833) a + S1x4.size a ≤ S8388608x4.size a)
instance k0_chk230.dec : ∀ (v1833 : BitVec 32), Decidable (k0_chk230 v1833) := fun v1833 => decidable_of_iff' _ (Iff.of_eq (k0_chk230.eq_1 v1833))
theorem k0_off460_inb : ∀ (v1833 : BitVec 32) (k0_hw230 : k0_chk230 v1833), ∀ a, (k0_off460 v1833) a + S1x4.size a ≤ S8388608x4.size a := fun v1833 k0_hw230 => k0_hw230

def k0_off461 (i : grid0.Coords) : Fin 2 → Nat :=
  let arg0 : BitVec 32 := BitVec.ofNat 32 (i 0).val
  let v1840 : Index := Scalar.indexCast arg0
  let c102_894 : Index := 102#32
  ![v1840.toNat, 102]
def k0_off462 (v1841 : BitVec 32) : Fin 2 → Nat :=
  let c0_i32_898 : BitVec 32 := 0#32
  ![v1841.toNat, 0]

def k0_chk231 (v1841 : BitVec 32) : Prop :=
  (∀ a, (k0_off462 v1841) a + S1x4.size a ≤ S8388608x4.size a)
instance k0_chk231.dec : ∀ (v1841 : BitVec 32), Decidable (k0_chk231 v1841) := fun v1841 => decidable_of_iff' _ (Iff.of_eq (k0_chk231.eq_1 v1841))
theorem k0_off462_inb : ∀ (v1841 : BitVec 32) (k0_hw231 : k0_chk231 v1841), ∀ a, (k0_off462 v1841) a + S1x4.size a ≤ S8388608x4.size a := fun v1841 k0_hw231 => k0_hw231

def k0_off463 (i : grid0.Coords) : Fin 2 → Nat :=
  let arg0 : BitVec 32 := BitVec.ofNat 32 (i 0).val
  let v1848 : Index := Scalar.indexCast arg0
  let c103_899 : Index := 103#32
  ![v1848.toNat, 103]
def k0_off464 (v1849 : BitVec 32) : Fin 2 → Nat :=
  let c0_i32_903 : BitVec 32 := 0#32
  ![v1849.toNat, 0]

def k0_chk232 (v1849 : BitVec 32) : Prop :=
  (∀ a, (k0_off464 v1849) a + S1x4.size a ≤ S8388608x4.size a)
instance k0_chk232.dec : ∀ (v1849 : BitVec 32), Decidable (k0_chk232 v1849) := fun v1849 => decidable_of_iff' _ (Iff.of_eq (k0_chk232.eq_1 v1849))
theorem k0_off464_inb : ∀ (v1849 : BitVec 32) (k0_hw232 : k0_chk232 v1849), ∀ a, (k0_off464 v1849) a + S1x4.size a ≤ S8388608x4.size a := fun v1849 k0_hw232 => k0_hw232

def k0_off465 (i : grid0.Coords) : Fin 2 → Nat :=
  let arg0 : BitVec 32 := BitVec.ofNat 32 (i 0).val
  let v1856 : Index := Scalar.indexCast arg0
  let c104_904 : Index := 104#32
  ![v1856.toNat, 104]
def k0_off466 (v1857 : BitVec 32) : Fin 2 → Nat :=
  let c0_i32_908 : BitVec 32 := 0#32
  ![v1857.toNat, 0]

def k0_chk233 (v1857 : BitVec 32) : Prop :=
  (∀ a, (k0_off466 v1857) a + S1x4.size a ≤ S8388608x4.size a)
instance k0_chk233.dec : ∀ (v1857 : BitVec 32), Decidable (k0_chk233 v1857) := fun v1857 => decidable_of_iff' _ (Iff.of_eq (k0_chk233.eq_1 v1857))
theorem k0_off466_inb : ∀ (v1857 : BitVec 32) (k0_hw233 : k0_chk233 v1857), ∀ a, (k0_off466 v1857) a + S1x4.size a ≤ S8388608x4.size a := fun v1857 k0_hw233 => k0_hw233

def k0_off467 (i : grid0.Coords) : Fin 2 → Nat :=
  let arg0 : BitVec 32 := BitVec.ofNat 32 (i 0).val
  let v1864 : Index := Scalar.indexCast arg0
  let c105_909 : Index := 105#32
  ![v1864.toNat, 105]
def k0_off468 (v1865 : BitVec 32) : Fin 2 → Nat :=
  let c0_i32_913 : BitVec 32 := 0#32
  ![v1865.toNat, 0]

def k0_chk234 (v1865 : BitVec 32) : Prop :=
  (∀ a, (k0_off468 v1865) a + S1x4.size a ≤ S8388608x4.size a)
instance k0_chk234.dec : ∀ (v1865 : BitVec 32), Decidable (k0_chk234 v1865) := fun v1865 => decidable_of_iff' _ (Iff.of_eq (k0_chk234.eq_1 v1865))
theorem k0_off468_inb : ∀ (v1865 : BitVec 32) (k0_hw234 : k0_chk234 v1865), ∀ a, (k0_off468 v1865) a + S1x4.size a ≤ S8388608x4.size a := fun v1865 k0_hw234 => k0_hw234

def k0_off469 (i : grid0.Coords) : Fin 2 → Nat :=
  let arg0 : BitVec 32 := BitVec.ofNat 32 (i 0).val
  let v1872 : Index := Scalar.indexCast arg0
  let c106_914 : Index := 106#32
  ![v1872.toNat, 106]
def k0_off470 (v1873 : BitVec 32) : Fin 2 → Nat :=
  let c0_i32_918 : BitVec 32 := 0#32
  ![v1873.toNat, 0]

def k0_chk235 (v1873 : BitVec 32) : Prop :=
  (∀ a, (k0_off470 v1873) a + S1x4.size a ≤ S8388608x4.size a)
instance k0_chk235.dec : ∀ (v1873 : BitVec 32), Decidable (k0_chk235 v1873) := fun v1873 => decidable_of_iff' _ (Iff.of_eq (k0_chk235.eq_1 v1873))
theorem k0_off470_inb : ∀ (v1873 : BitVec 32) (k0_hw235 : k0_chk235 v1873), ∀ a, (k0_off470 v1873) a + S1x4.size a ≤ S8388608x4.size a := fun v1873 k0_hw235 => k0_hw235

def k0_off471 (i : grid0.Coords) : Fin 2 → Nat :=
  let arg0 : BitVec 32 := BitVec.ofNat 32 (i 0).val
  let v1880 : Index := Scalar.indexCast arg0
  let c107_919 : Index := 107#32
  ![v1880.toNat, 107]
def k0_off472 (v1881 : BitVec 32) : Fin 2 → Nat :=
  let c0_i32_923 : BitVec 32 := 0#32
  ![v1881.toNat, 0]

def k0_chk236 (v1881 : BitVec 32) : Prop :=
  (∀ a, (k0_off472 v1881) a + S1x4.size a ≤ S8388608x4.size a)
instance k0_chk236.dec : ∀ (v1881 : BitVec 32), Decidable (k0_chk236 v1881) := fun v1881 => decidable_of_iff' _ (Iff.of_eq (k0_chk236.eq_1 v1881))
theorem k0_off472_inb : ∀ (v1881 : BitVec 32) (k0_hw236 : k0_chk236 v1881), ∀ a, (k0_off472 v1881) a + S1x4.size a ≤ S8388608x4.size a := fun v1881 k0_hw236 => k0_hw236

def k0_off473 (i : grid0.Coords) : Fin 2 → Nat :=
  let arg0 : BitVec 32 := BitVec.ofNat 32 (i 0).val
  let v1888 : Index := Scalar.indexCast arg0
  let c108_924 : Index := 108#32
  ![v1888.toNat, 108]
def k0_off474 (v1889 : BitVec 32) : Fin 2 → Nat :=
  let c0_i32_928 : BitVec 32 := 0#32
  ![v1889.toNat, 0]

def k0_chk237 (v1889 : BitVec 32) : Prop :=
  (∀ a, (k0_off474 v1889) a + S1x4.size a ≤ S8388608x4.size a)
instance k0_chk237.dec : ∀ (v1889 : BitVec 32), Decidable (k0_chk237 v1889) := fun v1889 => decidable_of_iff' _ (Iff.of_eq (k0_chk237.eq_1 v1889))
theorem k0_off474_inb : ∀ (v1889 : BitVec 32) (k0_hw237 : k0_chk237 v1889), ∀ a, (k0_off474 v1889) a + S1x4.size a ≤ S8388608x4.size a := fun v1889 k0_hw237 => k0_hw237

def k0_off475 (i : grid0.Coords) : Fin 2 → Nat :=
  let arg0 : BitVec 32 := BitVec.ofNat 32 (i 0).val
  let v1896 : Index := Scalar.indexCast arg0
  let c109_929 : Index := 109#32
  ![v1896.toNat, 109]
def k0_off476 (v1897 : BitVec 32) : Fin 2 → Nat :=
  let c0_i32_933 : BitVec 32 := 0#32
  ![v1897.toNat, 0]

def k0_chk238 (v1897 : BitVec 32) : Prop :=
  (∀ a, (k0_off476 v1897) a + S1x4.size a ≤ S8388608x4.size a)
instance k0_chk238.dec : ∀ (v1897 : BitVec 32), Decidable (k0_chk238 v1897) := fun v1897 => decidable_of_iff' _ (Iff.of_eq (k0_chk238.eq_1 v1897))
theorem k0_off476_inb : ∀ (v1897 : BitVec 32) (k0_hw238 : k0_chk238 v1897), ∀ a, (k0_off476 v1897) a + S1x4.size a ≤ S8388608x4.size a := fun v1897 k0_hw238 => k0_hw238

def k0_off477 (i : grid0.Coords) : Fin 2 → Nat :=
  let arg0 : BitVec 32 := BitVec.ofNat 32 (i 0).val
  let v1904 : Index := Scalar.indexCast arg0
  let c110_934 : Index := 110#32
  ![v1904.toNat, 110]
def k0_off478 (v1905 : BitVec 32) : Fin 2 → Nat :=
  let c0_i32_938 : BitVec 32 := 0#32
  ![v1905.toNat, 0]

def k0_chk239 (v1905 : BitVec 32) : Prop :=
  (∀ a, (k0_off478 v1905) a + S1x4.size a ≤ S8388608x4.size a)
instance k0_chk239.dec : ∀ (v1905 : BitVec 32), Decidable (k0_chk239 v1905) := fun v1905 => decidable_of_iff' _ (Iff.of_eq (k0_chk239.eq_1 v1905))
theorem k0_off478_inb : ∀ (v1905 : BitVec 32) (k0_hw239 : k0_chk239 v1905), ∀ a, (k0_off478 v1905) a + S1x4.size a ≤ S8388608x4.size a := fun v1905 k0_hw239 => k0_hw239

def k0_off479 (i : grid0.Coords) : Fin 2 → Nat :=
  let arg0 : BitVec 32 := BitVec.ofNat 32 (i 0).val
  let v1912 : Index := Scalar.indexCast arg0
  let c111_939 : Index := 111#32
  ![v1912.toNat, 111]
def k0_off480 (v1913 : BitVec 32) : Fin 2 → Nat :=
  let c0_i32_943 : BitVec 32 := 0#32
  ![v1913.toNat, 0]

def k0_chk240 (v1913 : BitVec 32) : Prop :=
  (∀ a, (k0_off480 v1913) a + S1x4.size a ≤ S8388608x4.size a)
instance k0_chk240.dec : ∀ (v1913 : BitVec 32), Decidable (k0_chk240 v1913) := fun v1913 => decidable_of_iff' _ (Iff.of_eq (k0_chk240.eq_1 v1913))
theorem k0_off480_inb : ∀ (v1913 : BitVec 32) (k0_hw240 : k0_chk240 v1913), ∀ a, (k0_off480 v1913) a + S1x4.size a ≤ S8388608x4.size a := fun v1913 k0_hw240 => k0_hw240

def k0_off481 (i : grid0.Coords) : Fin 2 → Nat :=
  let arg0 : BitVec 32 := BitVec.ofNat 32 (i 0).val
  let v1920 : Index := Scalar.indexCast arg0
  let c112_944 : Index := 112#32
  ![v1920.toNat, 112]
def k0_off482 (v1921 : BitVec 32) : Fin 2 → Nat :=
  let c0_i32_948 : BitVec 32 := 0#32
  ![v1921.toNat, 0]

def k0_chk241 (v1921 : BitVec 32) : Prop :=
  (∀ a, (k0_off482 v1921) a + S1x4.size a ≤ S8388608x4.size a)
instance k0_chk241.dec : ∀ (v1921 : BitVec 32), Decidable (k0_chk241 v1921) := fun v1921 => decidable_of_iff' _ (Iff.of_eq (k0_chk241.eq_1 v1921))
theorem k0_off482_inb : ∀ (v1921 : BitVec 32) (k0_hw241 : k0_chk241 v1921), ∀ a, (k0_off482 v1921) a + S1x4.size a ≤ S8388608x4.size a := fun v1921 k0_hw241 => k0_hw241

def k0_off483 (i : grid0.Coords) : Fin 2 → Nat :=
  let arg0 : BitVec 32 := BitVec.ofNat 32 (i 0).val
  let v1928 : Index := Scalar.indexCast arg0
  let c113_949 : Index := 113#32
  ![v1928.toNat, 113]
def k0_off484 (v1929 : BitVec 32) : Fin 2 → Nat :=
  let c0_i32_953 : BitVec 32 := 0#32
  ![v1929.toNat, 0]

def k0_chk242 (v1929 : BitVec 32) : Prop :=
  (∀ a, (k0_off484 v1929) a + S1x4.size a ≤ S8388608x4.size a)
instance k0_chk242.dec : ∀ (v1929 : BitVec 32), Decidable (k0_chk242 v1929) := fun v1929 => decidable_of_iff' _ (Iff.of_eq (k0_chk242.eq_1 v1929))
theorem k0_off484_inb : ∀ (v1929 : BitVec 32) (k0_hw242 : k0_chk242 v1929), ∀ a, (k0_off484 v1929) a + S1x4.size a ≤ S8388608x4.size a := fun v1929 k0_hw242 => k0_hw242

def k0_off485 (i : grid0.Coords) : Fin 2 → Nat :=
  let arg0 : BitVec 32 := BitVec.ofNat 32 (i 0).val
  let v1936 : Index := Scalar.indexCast arg0
  let c114_954 : Index := 114#32
  ![v1936.toNat, 114]
def k0_off486 (v1937 : BitVec 32) : Fin 2 → Nat :=
  let c0_i32_958 : BitVec 32 := 0#32
  ![v1937.toNat, 0]

def k0_chk243 (v1937 : BitVec 32) : Prop :=
  (∀ a, (k0_off486 v1937) a + S1x4.size a ≤ S8388608x4.size a)
instance k0_chk243.dec : ∀ (v1937 : BitVec 32), Decidable (k0_chk243 v1937) := fun v1937 => decidable_of_iff' _ (Iff.of_eq (k0_chk243.eq_1 v1937))
theorem k0_off486_inb : ∀ (v1937 : BitVec 32) (k0_hw243 : k0_chk243 v1937), ∀ a, (k0_off486 v1937) a + S1x4.size a ≤ S8388608x4.size a := fun v1937 k0_hw243 => k0_hw243

def k0_off487 (i : grid0.Coords) : Fin 2 → Nat :=
  let arg0 : BitVec 32 := BitVec.ofNat 32 (i 0).val
  let v1944 : Index := Scalar.indexCast arg0
  let c115_959 : Index := 115#32
  ![v1944.toNat, 115]
def k0_off488 (v1945 : BitVec 32) : Fin 2 → Nat :=
  let c0_i32_963 : BitVec 32 := 0#32
  ![v1945.toNat, 0]

def k0_chk244 (v1945 : BitVec 32) : Prop :=
  (∀ a, (k0_off488 v1945) a + S1x4.size a ≤ S8388608x4.size a)
instance k0_chk244.dec : ∀ (v1945 : BitVec 32), Decidable (k0_chk244 v1945) := fun v1945 => decidable_of_iff' _ (Iff.of_eq (k0_chk244.eq_1 v1945))
theorem k0_off488_inb : ∀ (v1945 : BitVec 32) (k0_hw244 : k0_chk244 v1945), ∀ a, (k0_off488 v1945) a + S1x4.size a ≤ S8388608x4.size a := fun v1945 k0_hw244 => k0_hw244

def k0_off489 (i : grid0.Coords) : Fin 2 → Nat :=
  let arg0 : BitVec 32 := BitVec.ofNat 32 (i 0).val
  let v1952 : Index := Scalar.indexCast arg0
  let c116_964 : Index := 116#32
  ![v1952.toNat, 116]
def k0_off490 (v1953 : BitVec 32) : Fin 2 → Nat :=
  let c0_i32_968 : BitVec 32 := 0#32
  ![v1953.toNat, 0]

def k0_chk245 (v1953 : BitVec 32) : Prop :=
  (∀ a, (k0_off490 v1953) a + S1x4.size a ≤ S8388608x4.size a)
instance k0_chk245.dec : ∀ (v1953 : BitVec 32), Decidable (k0_chk245 v1953) := fun v1953 => decidable_of_iff' _ (Iff.of_eq (k0_chk245.eq_1 v1953))
theorem k0_off490_inb : ∀ (v1953 : BitVec 32) (k0_hw245 : k0_chk245 v1953), ∀ a, (k0_off490 v1953) a + S1x4.size a ≤ S8388608x4.size a := fun v1953 k0_hw245 => k0_hw245

def k0_off491 (i : grid0.Coords) : Fin 2 → Nat :=
  let arg0 : BitVec 32 := BitVec.ofNat 32 (i 0).val
  let v1960 : Index := Scalar.indexCast arg0
  let c117_969 : Index := 117#32
  ![v1960.toNat, 117]
def k0_off492 (v1961 : BitVec 32) : Fin 2 → Nat :=
  let c0_i32_973 : BitVec 32 := 0#32
  ![v1961.toNat, 0]

def k0_chk246 (v1961 : BitVec 32) : Prop :=
  (∀ a, (k0_off492 v1961) a + S1x4.size a ≤ S8388608x4.size a)
instance k0_chk246.dec : ∀ (v1961 : BitVec 32), Decidable (k0_chk246 v1961) := fun v1961 => decidable_of_iff' _ (Iff.of_eq (k0_chk246.eq_1 v1961))
theorem k0_off492_inb : ∀ (v1961 : BitVec 32) (k0_hw246 : k0_chk246 v1961), ∀ a, (k0_off492 v1961) a + S1x4.size a ≤ S8388608x4.size a := fun v1961 k0_hw246 => k0_hw246

def k0_off493 (i : grid0.Coords) : Fin 2 → Nat :=
  let arg0 : BitVec 32 := BitVec.ofNat 32 (i 0).val
  let v1968 : Index := Scalar.indexCast arg0
  let c118_974 : Index := 118#32
  ![v1968.toNat, 118]
def k0_off494 (v1969 : BitVec 32) : Fin 2 → Nat :=
  let c0_i32_978 : BitVec 32 := 0#32
  ![v1969.toNat, 0]

def k0_chk247 (v1969 : BitVec 32) : Prop :=
  (∀ a, (k0_off494 v1969) a + S1x4.size a ≤ S8388608x4.size a)
instance k0_chk247.dec : ∀ (v1969 : BitVec 32), Decidable (k0_chk247 v1969) := fun v1969 => decidable_of_iff' _ (Iff.of_eq (k0_chk247.eq_1 v1969))
theorem k0_off494_inb : ∀ (v1969 : BitVec 32) (k0_hw247 : k0_chk247 v1969), ∀ a, (k0_off494 v1969) a + S1x4.size a ≤ S8388608x4.size a := fun v1969 k0_hw247 => k0_hw247

def k0_off495 (i : grid0.Coords) : Fin 2 → Nat :=
  let arg0 : BitVec 32 := BitVec.ofNat 32 (i 0).val
  let v1976 : Index := Scalar.indexCast arg0
  let c119_979 : Index := 119#32
  ![v1976.toNat, 119]
def k0_off496 (v1977 : BitVec 32) : Fin 2 → Nat :=
  let c0_i32_983 : BitVec 32 := 0#32
  ![v1977.toNat, 0]

def k0_chk248 (v1977 : BitVec 32) : Prop :=
  (∀ a, (k0_off496 v1977) a + S1x4.size a ≤ S8388608x4.size a)
instance k0_chk248.dec : ∀ (v1977 : BitVec 32), Decidable (k0_chk248 v1977) := fun v1977 => decidable_of_iff' _ (Iff.of_eq (k0_chk248.eq_1 v1977))
theorem k0_off496_inb : ∀ (v1977 : BitVec 32) (k0_hw248 : k0_chk248 v1977), ∀ a, (k0_off496 v1977) a + S1x4.size a ≤ S8388608x4.size a := fun v1977 k0_hw248 => k0_hw248

def k0_off497 (i : grid0.Coords) : Fin 2 → Nat :=
  let arg0 : BitVec 32 := BitVec.ofNat 32 (i 0).val
  let v1984 : Index := Scalar.indexCast arg0
  let c120_984 : Index := 120#32
  ![v1984.toNat, 120]
def k0_off498 (v1985 : BitVec 32) : Fin 2 → Nat :=
  let c0_i32_988 : BitVec 32 := 0#32
  ![v1985.toNat, 0]

def k0_chk249 (v1985 : BitVec 32) : Prop :=
  (∀ a, (k0_off498 v1985) a + S1x4.size a ≤ S8388608x4.size a)
instance k0_chk249.dec : ∀ (v1985 : BitVec 32), Decidable (k0_chk249 v1985) := fun v1985 => decidable_of_iff' _ (Iff.of_eq (k0_chk249.eq_1 v1985))
theorem k0_off498_inb : ∀ (v1985 : BitVec 32) (k0_hw249 : k0_chk249 v1985), ∀ a, (k0_off498 v1985) a + S1x4.size a ≤ S8388608x4.size a := fun v1985 k0_hw249 => k0_hw249

def k0_off499 (i : grid0.Coords) : Fin 2 → Nat :=
  let arg0 : BitVec 32 := BitVec.ofNat 32 (i 0).val
  let v1992 : Index := Scalar.indexCast arg0
  let c121_989 : Index := 121#32
  ![v1992.toNat, 121]
def k0_off500 (v1993 : BitVec 32) : Fin 2 → Nat :=
  let c0_i32_993 : BitVec 32 := 0#32
  ![v1993.toNat, 0]

def k0_chk250 (v1993 : BitVec 32) : Prop :=
  (∀ a, (k0_off500 v1993) a + S1x4.size a ≤ S8388608x4.size a)
instance k0_chk250.dec : ∀ (v1993 : BitVec 32), Decidable (k0_chk250 v1993) := fun v1993 => decidable_of_iff' _ (Iff.of_eq (k0_chk250.eq_1 v1993))
theorem k0_off500_inb : ∀ (v1993 : BitVec 32) (k0_hw250 : k0_chk250 v1993), ∀ a, (k0_off500 v1993) a + S1x4.size a ≤ S8388608x4.size a := fun v1993 k0_hw250 => k0_hw250

def k0_off501 (i : grid0.Coords) : Fin 2 → Nat :=
  let arg0 : BitVec 32 := BitVec.ofNat 32 (i 0).val
  let v2000 : Index := Scalar.indexCast arg0
  let c122_994 : Index := 122#32
  ![v2000.toNat, 122]
def k0_off502 (v2001 : BitVec 32) : Fin 2 → Nat :=
  let c0_i32_998 : BitVec 32 := 0#32
  ![v2001.toNat, 0]

def k0_chk251 (v2001 : BitVec 32) : Prop :=
  (∀ a, (k0_off502 v2001) a + S1x4.size a ≤ S8388608x4.size a)
instance k0_chk251.dec : ∀ (v2001 : BitVec 32), Decidable (k0_chk251 v2001) := fun v2001 => decidable_of_iff' _ (Iff.of_eq (k0_chk251.eq_1 v2001))
theorem k0_off502_inb : ∀ (v2001 : BitVec 32) (k0_hw251 : k0_chk251 v2001), ∀ a, (k0_off502 v2001) a + S1x4.size a ≤ S8388608x4.size a := fun v2001 k0_hw251 => k0_hw251

def k0_off503 (i : grid0.Coords) : Fin 2 → Nat :=
  let arg0 : BitVec 32 := BitVec.ofNat 32 (i 0).val
  let v2008 : Index := Scalar.indexCast arg0
  let c123_999 : Index := 123#32
  ![v2008.toNat, 123]
def k0_off504 (v2009 : BitVec 32) : Fin 2 → Nat :=
  let c0_i32_1003 : BitVec 32 := 0#32
  ![v2009.toNat, 0]

def k0_chk252 (v2009 : BitVec 32) : Prop :=
  (∀ a, (k0_off504 v2009) a + S1x4.size a ≤ S8388608x4.size a)
instance k0_chk252.dec : ∀ (v2009 : BitVec 32), Decidable (k0_chk252 v2009) := fun v2009 => decidable_of_iff' _ (Iff.of_eq (k0_chk252.eq_1 v2009))
theorem k0_off504_inb : ∀ (v2009 : BitVec 32) (k0_hw252 : k0_chk252 v2009), ∀ a, (k0_off504 v2009) a + S1x4.size a ≤ S8388608x4.size a := fun v2009 k0_hw252 => k0_hw252

def k0_off505 (i : grid0.Coords) : Fin 2 → Nat :=
  let arg0 : BitVec 32 := BitVec.ofNat 32 (i 0).val
  let v2016 : Index := Scalar.indexCast arg0
  let c124_1004 : Index := 124#32
  ![v2016.toNat, 124]
def k0_off506 (v2017 : BitVec 32) : Fin 2 → Nat :=
  let c0_i32_1008 : BitVec 32 := 0#32
  ![v2017.toNat, 0]

def k0_chk253 (v2017 : BitVec 32) : Prop :=
  (∀ a, (k0_off506 v2017) a + S1x4.size a ≤ S8388608x4.size a)
instance k0_chk253.dec : ∀ (v2017 : BitVec 32), Decidable (k0_chk253 v2017) := fun v2017 => decidable_of_iff' _ (Iff.of_eq (k0_chk253.eq_1 v2017))
theorem k0_off506_inb : ∀ (v2017 : BitVec 32) (k0_hw253 : k0_chk253 v2017), ∀ a, (k0_off506 v2017) a + S1x4.size a ≤ S8388608x4.size a := fun v2017 k0_hw253 => k0_hw253

def k0_off507 (i : grid0.Coords) : Fin 2 → Nat :=
  let arg0 : BitVec 32 := BitVec.ofNat 32 (i 0).val
  let v2024 : Index := Scalar.indexCast arg0
  let c125_1009 : Index := 125#32
  ![v2024.toNat, 125]
def k0_off508 (v2025 : BitVec 32) : Fin 2 → Nat :=
  let c0_i32_1013 : BitVec 32 := 0#32
  ![v2025.toNat, 0]

def k0_chk254 (v2025 : BitVec 32) : Prop :=
  (∀ a, (k0_off508 v2025) a + S1x4.size a ≤ S8388608x4.size a)
instance k0_chk254.dec : ∀ (v2025 : BitVec 32), Decidable (k0_chk254 v2025) := fun v2025 => decidable_of_iff' _ (Iff.of_eq (k0_chk254.eq_1 v2025))
theorem k0_off508_inb : ∀ (v2025 : BitVec 32) (k0_hw254 : k0_chk254 v2025), ∀ a, (k0_off508 v2025) a + S1x4.size a ≤ S8388608x4.size a := fun v2025 k0_hw254 => k0_hw254

def k0_off509 (i : grid0.Coords) : Fin 2 → Nat :=
  let arg0 : BitVec 32 := BitVec.ofNat 32 (i 0).val
  let v2032 : Index := Scalar.indexCast arg0
  let c126_1014 : Index := 126#32
  ![v2032.toNat, 126]
def k0_off510 (v2033 : BitVec 32) : Fin 2 → Nat :=
  let c0_i32_1018 : BitVec 32 := 0#32
  ![v2033.toNat, 0]

def k0_chk255 (v2033 : BitVec 32) : Prop :=
  (∀ a, (k0_off510 v2033) a + S1x4.size a ≤ S8388608x4.size a)
instance k0_chk255.dec : ∀ (v2033 : BitVec 32), Decidable (k0_chk255 v2033) := fun v2033 => decidable_of_iff' _ (Iff.of_eq (k0_chk255.eq_1 v2033))
theorem k0_off510_inb : ∀ (v2033 : BitVec 32) (k0_hw255 : k0_chk255 v2033), ∀ a, (k0_off510 v2033) a + S1x4.size a ≤ S8388608x4.size a := fun v2033 k0_hw255 => k0_hw255

def k0_off511 (i : grid0.Coords) : Fin 2 → Nat :=
  let arg0 : BitVec 32 := BitVec.ofNat 32 (i 0).val
  let v2040 : Index := Scalar.indexCast arg0
  let c127_1019 : Index := 127#32
  ![v2040.toNat, 127]
def k0_off512 (v2041 : BitVec 32) : Fin 2 → Nat :=
  let c0_i32_1023 : BitVec 32 := 0#32
  ![v2041.toNat, 0]

def k0_chk256 (v2041 : BitVec 32) : Prop :=
  (∀ a, (k0_off512 v2041) a + S1x4.size a ≤ S8388608x4.size a)
instance k0_chk256.dec : ∀ (v2041 : BitVec 32), Decidable (k0_chk256 v2041) := fun v2041 => decidable_of_iff' _ (Iff.of_eq (k0_chk256.eq_1 v2041))
theorem k0_off512_inb : ∀ (v2041 : BitVec 32) (k0_hw256 : k0_chk256 v2041), ∀ a, (k0_off512 v2041) a + S1x4.size a ≤ S8388608x4.size a := fun v2041 k0_hw256 => k0_hw256

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x256x256x4_S8388608x4 : S128x256x256x4.ShapeCasts S8388608x4
  slices_S128x128x3_S128x128x1_0_0_0 : S128x128x3.Slices ![0, 0, 0] S128x128x1
  shapeCasts_S128x128x1_S128x128 : S128x128x1.ShapeCasts S128x128
  slices_S128x128x3_S128x128x1_0_0_1 : S128x128x3.Slices ![0, 0, 1] S128x128x1
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  numel1_S1x1 : S1x1.numel = 1
  inb_S128_S1_0 : ∀ a, (![0] : Fin 1 → Nat) a + S1.size a ≤ S128.size a
  squeezes_S1_S_ : S1.Squeezes S_
  inb_S128x4_S1x4_0_0 : ∀ a, (![0, 0] : Fin 2 → Nat) a + S1x4.size a ≤ S128x4.size a
  squeezes_S1x4_S4 : S1x4.Squeezes S4
  inb_S128_S1_1 : ∀ a, (![1] : Fin 1 → Nat) a + S1.size a ≤ S128.size a
  inb_S128x4_S1x4_1_0 : ∀ a, (![1, 0] : Fin 2 → Nat) a + S1x4.size a ≤ S128x4.size a
  inb_S128_S1_2 : ∀ a, (![2] : Fin 1 → Nat) a + S1.size a ≤ S128.size a
  inb_S128x4_S1x4_2_0 : ∀ a, (![2, 0] : Fin 2 → Nat) a + S1x4.size a ≤ S128x4.size a
  inb_S128_S1_3 : ∀ a, (![3] : Fin 1 → Nat) a + S1.size a ≤ S128.size a
  inb_S128x4_S1x4_3_0 : ∀ a, (![3, 0] : Fin 2 → Nat) a + S1x4.size a ≤ S128x4.size a
  inb_S128_S1_4 : ∀ a, (![4] : Fin 1 → Nat) a + S1.size a ≤ S128.size a
  inb_S128x4_S1x4_4_0 : ∀ a, (![4, 0] : Fin 2 → Nat) a + S1x4.size a ≤ S128x4.size a
  inb_S128_S1_5 : ∀ a, (![5] : Fin 1 → Nat) a + S1.size a ≤ S128.size a
  inb_S128x4_S1x4_5_0 : ∀ a, (![5, 0] : Fin 2 → Nat) a + S1x4.size a ≤ S128x4.size a
  inb_S128_S1_6 : ∀ a, (![6] : Fin 1 → Nat) a + S1.size a ≤ S128.size a
  inb_S128x4_S1x4_6_0 : ∀ a, (![6, 0] : Fin 2 → Nat) a + S1x4.size a ≤ S128x4.size a
  inb_S128_S1_7 : ∀ a, (![7] : Fin 1 → Nat) a + S1.size a ≤ S128.size a
  inb_S128x4_S1x4_7_0 : ∀ a, (![7, 0] : Fin 2 → Nat) a + S1x4.size a ≤ S128x4.size a
  inb_S128_S1_8 : ∀ a, (![8] : Fin 1 → Nat) a + S1.size a ≤ S128.size a
  inb_S128x4_S1x4_8_0 : ∀ a, (![8, 0] : Fin 2 → Nat) a + S1x4.size a ≤ S128x4.size a
  inb_S128_S1_9 : ∀ a, (![9] : Fin 1 → Nat) a + S1.size a ≤ S128.size a
  inb_S128x4_S1x4_9_0 : ∀ a, (![9, 0] : Fin 2 → Nat) a + S1x4.size a ≤ S128x4.size a
  inb_S128_S1_10 : ∀ a, (![10] : Fin 1 → Nat) a + S1.size a ≤ S128.size a
  inb_S128x4_S1x4_10_0 : ∀ a, (![10, 0] : Fin 2 → Nat) a + S1x4.size a ≤ S128x4.size a
  inb_S128_S1_11 : ∀ a, (![11] : Fin 1 → Nat) a + S1.size a ≤ S128.size a
  inb_S128x4_S1x4_11_0 : ∀ a, (![11, 0] : Fin 2 → Nat) a + S1x4.size a ≤ S128x4.size a
  inb_S128_S1_12 : ∀ a, (![12] : Fin 1 → Nat) a + S1.size a ≤ S128.size a
  inb_S128x4_S1x4_12_0 : ∀ a, (![12, 0] : Fin 2 → Nat) a + S1x4.size a ≤ S128x4.size a
  inb_S128_S1_13 : ∀ a, (![13] : Fin 1 → Nat) a + S1.size a ≤ S128.size a
  inb_S128x4_S1x4_13_0 : ∀ a, (![13, 0] : Fin 2 → Nat) a + S1x4.size a ≤ S128x4.size a
  inb_S128_S1_14 : ∀ a, (![14] : Fin 1 → Nat) a + S1.size a ≤ S128.size a
  inb_S128x4_S1x4_14_0 : ∀ a, (![14, 0] : Fin 2 → Nat) a + S1x4.size a ≤ S128x4.size a
  inb_S128_S1_15 : ∀ a, (![15] : Fin 1 → Nat) a + S1.size a ≤ S128.size a
  inb_S128x4_S1x4_15_0 : ∀ a, (![15, 0] : Fin 2 → Nat) a + S1x4.size a ≤ S128x4.size a
  inb_S128_S1_16 : ∀ a, (![16] : Fin 1 → Nat) a + S1.size a ≤ S128.size a
  inb_S128x4_S1x4_16_0 : ∀ a, (![16, 0] : Fin 2 → Nat) a + S1x4.size a ≤ S128x4.size a
  inb_S128_S1_17 : ∀ a, (![17] : Fin 1 → Nat) a + S1.size a ≤ S128.size a
  inb_S128x4_S1x4_17_0 : ∀ a, (![17, 0] : Fin 2 → Nat) a + S1x4.size a ≤ S128x4.size a
  inb_S128_S1_18 : ∀ a, (![18] : Fin 1 → Nat) a + S1.size a ≤ S128.size a
  inb_S128x4_S1x4_18_0 : ∀ a, (![18, 0] : Fin 2 → Nat) a + S1x4.size a ≤ S128x4.size a
  inb_S128_S1_19 : ∀ a, (![19] : Fin 1 → Nat) a + S1.size a ≤ S128.size a
  inb_S128x4_S1x4_19_0 : ∀ a, (![19, 0] : Fin 2 → Nat) a + S1x4.size a ≤ S128x4.size a
  inb_S128_S1_20 : ∀ a, (![20] : Fin 1 → Nat) a + S1.size a ≤ S128.size a
  inb_S128x4_S1x4_20_0 : ∀ a, (![20, 0] : Fin 2 → Nat) a + S1x4.size a ≤ S128x4.size a
  inb_S128_S1_21 : ∀ a, (![21] : Fin 1 → Nat) a + S1.size a ≤ S128.size a
  inb_S128x4_S1x4_21_0 : ∀ a, (![21, 0] : Fin 2 → Nat) a + S1x4.size a ≤ S128x4.size a
  inb_S128_S1_22 : ∀ a, (![22] : Fin 1 → Nat) a + S1.size a ≤ S128.size a
  inb_S128x4_S1x4_22_0 : ∀ a, (![22, 0] : Fin 2 → Nat) a + S1x4.size a ≤ S128x4.size a
  inb_S128_S1_23 : ∀ a, (![23] : Fin 1 → Nat) a + S1.size a ≤ S128.size a
  inb_S128x4_S1x4_23_0 : ∀ a, (![23, 0] : Fin 2 → Nat) a + S1x4.size a ≤ S128x4.size a
  inb_S128_S1_24 : ∀ a, (![24] : Fin 1 → Nat) a + S1.size a ≤ S128.size a
  inb_S128x4_S1x4_24_0 : ∀ a, (![24, 0] : Fin 2 → Nat) a + S1x4.size a ≤ S128x4.size a
  inb_S128_S1_25 : ∀ a, (![25] : Fin 1 → Nat) a + S1.size a ≤ S128.size a
  inb_S128x4_S1x4_25_0 : ∀ a, (![25, 0] : Fin 2 → Nat) a + S1x4.size a ≤ S128x4.size a
  inb_S128_S1_26 : ∀ a, (![26] : Fin 1 → Nat) a + S1.size a ≤ S128.size a
  inb_S128x4_S1x4_26_0 : ∀ a, (![26, 0] : Fin 2 → Nat) a + S1x4.size a ≤ S128x4.size a
  inb_S128_S1_27 : ∀ a, (![27] : Fin 1 → Nat) a + S1.size a ≤ S128.size a
  inb_S128x4_S1x4_27_0 : ∀ a, (![27, 0] : Fin 2 → Nat) a + S1x4.size a ≤ S128x4.size a
  inb_S128_S1_28 : ∀ a, (![28] : Fin 1 → Nat) a + S1.size a ≤ S128.size a
  inb_S128x4_S1x4_28_0 : ∀ a, (![28, 0] : Fin 2 → Nat) a + S1x4.size a ≤ S128x4.size a
  inb_S128_S1_29 : ∀ a, (![29] : Fin 1 → Nat) a + S1.size a ≤ S128.size a
  inb_S128x4_S1x4_29_0 : ∀ a, (![29, 0] : Fin 2 → Nat) a + S1x4.size a ≤ S128x4.size a
  inb_S128_S1_30 : ∀ a, (![30] : Fin 1 → Nat) a + S1.size a ≤ S128.size a
  inb_S128x4_S1x4_30_0 : ∀ a, (![30, 0] : Fin 2 → Nat) a + S1x4.size a ≤ S128x4.size a
  inb_S128_S1_31 : ∀ a, (![31] : Fin 1 → Nat) a + S1.size a ≤ S128.size a
  inb_S128x4_S1x4_31_0 : ∀ a, (![31, 0] : Fin 2 → Nat) a + S1x4.size a ≤ S128x4.size a
  inb_S128_S1_32 : ∀ a, (![32] : Fin 1 → Nat) a + S1.size a ≤ S128.size a
  inb_S128x4_S1x4_32_0 : ∀ a, (![32, 0] : Fin 2 → Nat) a + S1x4.size a ≤ S128x4.size a
  inb_S128_S1_33 : ∀ a, (![33] : Fin 1 → Nat) a + S1.size a ≤ S128.size a
  inb_S128x4_S1x4_33_0 : ∀ a, (![33, 0] : Fin 2 → Nat) a + S1x4.size a ≤ S128x4.size a
  inb_S128_S1_34 : ∀ a, (![34] : Fin 1 → Nat) a + S1.size a ≤ S128.size a
  inb_S128x4_S1x4_34_0 : ∀ a, (![34, 0] : Fin 2 → Nat) a + S1x4.size a ≤ S128x4.size a
  inb_S128_S1_35 : ∀ a, (![35] : Fin 1 → Nat) a + S1.size a ≤ S128.size a
  inb_S128x4_S1x4_35_0 : ∀ a, (![35, 0] : Fin 2 → Nat) a + S1x4.size a ≤ S128x4.size a
  inb_S128_S1_36 : ∀ a, (![36] : Fin 1 → Nat) a + S1.size a ≤ S128.size a
  inb_S128x4_S1x4_36_0 : ∀ a, (![36, 0] : Fin 2 → Nat) a + S1x4.size a ≤ S128x4.size a
  inb_S128_S1_37 : ∀ a, (![37] : Fin 1 → Nat) a + S1.size a ≤ S128.size a
  inb_S128x4_S1x4_37_0 : ∀ a, (![37, 0] : Fin 2 → Nat) a + S1x4.size a ≤ S128x4.size a
  inb_S128_S1_38 : ∀ a, (![38] : Fin 1 → Nat) a + S1.size a ≤ S128.size a
  inb_S128x4_S1x4_38_0 : ∀ a, (![38, 0] : Fin 2 → Nat) a + S1x4.size a ≤ S128x4.size a
  inb_S128_S1_39 : ∀ a, (![39] : Fin 1 → Nat) a + S1.size a ≤ S128.size a
  inb_S128x4_S1x4_39_0 : ∀ a, (![39, 0] : Fin 2 → Nat) a + S1x4.size a ≤ S128x4.size a
  inb_S128_S1_40 : ∀ a, (![40] : Fin 1 → Nat) a + S1.size a ≤ S128.size a
  inb_S128x4_S1x4_40_0 : ∀ a, (![40, 0] : Fin 2 → Nat) a + S1x4.size a ≤ S128x4.size a
  inb_S128_S1_41 : ∀ a, (![41] : Fin 1 → Nat) a + S1.size a ≤ S128.size a
  inb_S128x4_S1x4_41_0 : ∀ a, (![41, 0] : Fin 2 → Nat) a + S1x4.size a ≤ S128x4.size a
  inb_S128_S1_42 : ∀ a, (![42] : Fin 1 → Nat) a + S1.size a ≤ S128.size a
  inb_S128x4_S1x4_42_0 : ∀ a, (![42, 0] : Fin 2 → Nat) a + S1x4.size a ≤ S128x4.size a
  inb_S128_S1_43 : ∀ a, (![43] : Fin 1 → Nat) a + S1.size a ≤ S128.size a
  inb_S128x4_S1x4_43_0 : ∀ a, (![43, 0] : Fin 2 → Nat) a + S1x4.size a ≤ S128x4.size a
  inb_S128_S1_44 : ∀ a, (![44] : Fin 1 → Nat) a + S1.size a ≤ S128.size a
  inb_S128x4_S1x4_44_0 : ∀ a, (![44, 0] : Fin 2 → Nat) a + S1x4.size a ≤ S128x4.size a
  inb_S128_S1_45 : ∀ a, (![45] : Fin 1 → Nat) a + S1.size a ≤ S128.size a
  inb_S128x4_S1x4_45_0 : ∀ a, (![45, 0] : Fin 2 → Nat) a + S1x4.size a ≤ S128x4.size a
  inb_S128_S1_46 : ∀ a, (![46] : Fin 1 → Nat) a + S1.size a ≤ S128.size a
  inb_S128x4_S1x4_46_0 : ∀ a, (![46, 0] : Fin 2 → Nat) a + S1x4.size a ≤ S128x4.size a
  inb_S128_S1_47 : ∀ a, (![47] : Fin 1 → Nat) a + S1.size a ≤ S128.size a
  inb_S128x4_S1x4_47_0 : ∀ a, (![47, 0] : Fin 2 → Nat) a + S1x4.size a ≤ S128x4.size a
  inb_S128_S1_48 : ∀ a, (![48] : Fin 1 → Nat) a + S1.size a ≤ S128.size a
  inb_S128x4_S1x4_48_0 : ∀ a, (![48, 0] : Fin 2 → Nat) a + S1x4.size a ≤ S128x4.size a
  inb_S128_S1_49 : ∀ a, (![49] : Fin 1 → Nat) a + S1.size a ≤ S128.size a
  inb_S128x4_S1x4_49_0 : ∀ a, (![49, 0] : Fin 2 → Nat) a + S1x4.size a ≤ S128x4.size a
  inb_S128_S1_50 : ∀ a, (![50] : Fin 1 → Nat) a + S1.size a ≤ S128.size a
  inb_S128x4_S1x4_50_0 : ∀ a, (![50, 0] : Fin 2 → Nat) a + S1x4.size a ≤ S128x4.size a
  inb_S128_S1_51 : ∀ a, (![51] : Fin 1 → Nat) a + S1.size a ≤ S128.size a
  inb_S128x4_S1x4_51_0 : ∀ a, (![51, 0] : Fin 2 → Nat) a + S1x4.size a ≤ S128x4.size a
  inb_S128_S1_52 : ∀ a, (![52] : Fin 1 → Nat) a + S1.size a ≤ S128.size a
  inb_S128x4_S1x4_52_0 : ∀ a, (![52, 0] : Fin 2 → Nat) a + S1x4.size a ≤ S128x4.size a
  inb_S128_S1_53 : ∀ a, (![53] : Fin 1 → Nat) a + S1.size a ≤ S128.size a
  inb_S128x4_S1x4_53_0 : ∀ a, (![53, 0] : Fin 2 → Nat) a + S1x4.size a ≤ S128x4.size a
  inb_S128_S1_54 : ∀ a, (![54] : Fin 1 → Nat) a + S1.size a ≤ S128.size a
  inb_S128x4_S1x4_54_0 : ∀ a, (![54, 0] : Fin 2 → Nat) a + S1x4.size a ≤ S128x4.size a
  inb_S128_S1_55 : ∀ a, (![55] : Fin 1 → Nat) a + S1.size a ≤ S128.size a
  inb_S128x4_S1x4_55_0 : ∀ a, (![55, 0] : Fin 2 → Nat) a + S1x4.size a ≤ S128x4.size a
  inb_S128_S1_56 : ∀ a, (![56] : Fin 1 → Nat) a + S1.size a ≤ S128.size a
  inb_S128x4_S1x4_56_0 : ∀ a, (![56, 0] : Fin 2 → Nat) a + S1x4.size a ≤ S128x4.size a
  inb_S128_S1_57 : ∀ a, (![57] : Fin 1 → Nat) a + S1.size a ≤ S128.size a
  inb_S128x4_S1x4_57_0 : ∀ a, (![57, 0] : Fin 2 → Nat) a + S1x4.size a ≤ S128x4.size a
  inb_S128_S1_58 : ∀ a, (![58] : Fin 1 → Nat) a + S1.size a ≤ S128.size a
  inb_S128x4_S1x4_58_0 : ∀ a, (![58, 0] : Fin 2 → Nat) a + S1x4.size a ≤ S128x4.size a
  inb_S128_S1_59 : ∀ a, (![59] : Fin 1 → Nat) a + S1.size a ≤ S128.size a
  inb_S128x4_S1x4_59_0 : ∀ a, (![59, 0] : Fin 2 → Nat) a + S1x4.size a ≤ S128x4.size a
  inb_S128_S1_60 : ∀ a, (![60] : Fin 1 → Nat) a + S1.size a ≤ S128.size a
  inb_S128x4_S1x4_60_0 : ∀ a, (![60, 0] : Fin 2 → Nat) a + S1x4.size a ≤ S128x4.size a
  inb_S128_S1_61 : ∀ a, (![61] : Fin 1 → Nat) a + S1.size a ≤ S128.size a
  inb_S128x4_S1x4_61_0 : ∀ a, (![61, 0] : Fin 2 → Nat) a + S1x4.size a ≤ S128x4.size a
  inb_S128_S1_62 : ∀ a, (![62] : Fin 1 → Nat) a + S1.size a ≤ S128.size a
  inb_S128x4_S1x4_62_0 : ∀ a, (![62, 0] : Fin 2 → Nat) a + S1x4.size a ≤ S128x4.size a
  inb_S128_S1_63 : ∀ a, (![63] : Fin 1 → Nat) a + S1.size a ≤ S128.size a
  inb_S128x4_S1x4_63_0 : ∀ a, (![63, 0] : Fin 2 → Nat) a + S1x4.size a ≤ S128x4.size a
  inb_S128_S1_64 : ∀ a, (![64] : Fin 1 → Nat) a + S1.size a ≤ S128.size a
  inb_S128x4_S1x4_64_0 : ∀ a, (![64, 0] : Fin 2 → Nat) a + S1x4.size a ≤ S128x4.size a
  inb_S128_S1_65 : ∀ a, (![65] : Fin 1 → Nat) a + S1.size a ≤ S128.size a
  inb_S128x4_S1x4_65_0 : ∀ a, (![65, 0] : Fin 2 → Nat) a + S1x4.size a ≤ S128x4.size a
  inb_S128_S1_66 : ∀ a, (![66] : Fin 1 → Nat) a + S1.size a ≤ S128.size a
  inb_S128x4_S1x4_66_0 : ∀ a, (![66, 0] : Fin 2 → Nat) a + S1x4.size a ≤ S128x4.size a
  inb_S128_S1_67 : ∀ a, (![67] : Fin 1 → Nat) a + S1.size a ≤ S128.size a
  inb_S128x4_S1x4_67_0 : ∀ a, (![67, 0] : Fin 2 → Nat) a + S1x4.size a ≤ S128x4.size a
  inb_S128_S1_68 : ∀ a, (![68] : Fin 1 → Nat) a + S1.size a ≤ S128.size a
  inb_S128x4_S1x4_68_0 : ∀ a, (![68, 0] : Fin 2 → Nat) a + S1x4.size a ≤ S128x4.size a
  inb_S128_S1_69 : ∀ a, (![69] : Fin 1 → Nat) a + S1.size a ≤ S128.size a
  inb_S128x4_S1x4_69_0 : ∀ a, (![69, 0] : Fin 2 → Nat) a + S1x4.size a ≤ S128x4.size a
  inb_S128_S1_70 : ∀ a, (![70] : Fin 1 → Nat) a + S1.size a ≤ S128.size a
  inb_S128x4_S1x4_70_0 : ∀ a, (![70, 0] : Fin 2 → Nat) a + S1x4.size a ≤ S128x4.size a
  inb_S128_S1_71 : ∀ a, (![71] : Fin 1 → Nat) a + S1.size a ≤ S128.size a
  inb_S128x4_S1x4_71_0 : ∀ a, (![71, 0] : Fin 2 → Nat) a + S1x4.size a ≤ S128x4.size a
  inb_S128_S1_72 : ∀ a, (![72] : Fin 1 → Nat) a + S1.size a ≤ S128.size a
  inb_S128x4_S1x4_72_0 : ∀ a, (![72, 0] : Fin 2 → Nat) a + S1x4.size a ≤ S128x4.size a
  inb_S128_S1_73 : ∀ a, (![73] : Fin 1 → Nat) a + S1.size a ≤ S128.size a
  inb_S128x4_S1x4_73_0 : ∀ a, (![73, 0] : Fin 2 → Nat) a + S1x4.size a ≤ S128x4.size a
  inb_S128_S1_74 : ∀ a, (![74] : Fin 1 → Nat) a + S1.size a ≤ S128.size a
  inb_S128x4_S1x4_74_0 : ∀ a, (![74, 0] : Fin 2 → Nat) a + S1x4.size a ≤ S128x4.size a
  inb_S128_S1_75 : ∀ a, (![75] : Fin 1 → Nat) a + S1.size a ≤ S128.size a
  inb_S128x4_S1x4_75_0 : ∀ a, (![75, 0] : Fin 2 → Nat) a + S1x4.size a ≤ S128x4.size a
  inb_S128_S1_76 : ∀ a, (![76] : Fin 1 → Nat) a + S1.size a ≤ S128.size a
  inb_S128x4_S1x4_76_0 : ∀ a, (![76, 0] : Fin 2 → Nat) a + S1x4.size a ≤ S128x4.size a
  inb_S128_S1_77 : ∀ a, (![77] : Fin 1 → Nat) a + S1.size a ≤ S128.size a
  inb_S128x4_S1x4_77_0 : ∀ a, (![77, 0] : Fin 2 → Nat) a + S1x4.size a ≤ S128x4.size a
  inb_S128_S1_78 : ∀ a, (![78] : Fin 1 → Nat) a + S1.size a ≤ S128.size a
  inb_S128x4_S1x4_78_0 : ∀ a, (![78, 0] : Fin 2 → Nat) a + S1x4.size a ≤ S128x4.size a
  inb_S128_S1_79 : ∀ a, (![79] : Fin 1 → Nat) a + S1.size a ≤ S128.size a
  inb_S128x4_S1x4_79_0 : ∀ a, (![79, 0] : Fin 2 → Nat) a + S1x4.size a ≤ S128x4.size a
  inb_S128_S1_80 : ∀ a, (![80] : Fin 1 → Nat) a + S1.size a ≤ S128.size a
  inb_S128x4_S1x4_80_0 : ∀ a, (![80, 0] : Fin 2 → Nat) a + S1x4.size a ≤ S128x4.size a
  inb_S128_S1_81 : ∀ a, (![81] : Fin 1 → Nat) a + S1.size a ≤ S128.size a
  inb_S128x4_S1x4_81_0 : ∀ a, (![81, 0] : Fin 2 → Nat) a + S1x4.size a ≤ S128x4.size a
  inb_S128_S1_82 : ∀ a, (![82] : Fin 1 → Nat) a + S1.size a ≤ S128.size a
  inb_S128x4_S1x4_82_0 : ∀ a, (![82, 0] : Fin 2 → Nat) a + S1x4.size a ≤ S128x4.size a
  inb_S128_S1_83 : ∀ a, (![83] : Fin 1 → Nat) a + S1.size a ≤ S128.size a
  inb_S128x4_S1x4_83_0 : ∀ a, (![83, 0] : Fin 2 → Nat) a + S1x4.size a ≤ S128x4.size a
  inb_S128_S1_84 : ∀ a, (![84] : Fin 1 → Nat) a + S1.size a ≤ S128.size a
  inb_S128x4_S1x4_84_0 : ∀ a, (![84, 0] : Fin 2 → Nat) a + S1x4.size a ≤ S128x4.size a
  inb_S128_S1_85 : ∀ a, (![85] : Fin 1 → Nat) a + S1.size a ≤ S128.size a
  inb_S128x4_S1x4_85_0 : ∀ a, (![85, 0] : Fin 2 → Nat) a + S1x4.size a ≤ S128x4.size a
  inb_S128_S1_86 : ∀ a, (![86] : Fin 1 → Nat) a + S1.size a ≤ S128.size a
  inb_S128x4_S1x4_86_0 : ∀ a, (![86, 0] : Fin 2 → Nat) a + S1x4.size a ≤ S128x4.size a
  inb_S128_S1_87 : ∀ a, (![87] : Fin 1 → Nat) a + S1.size a ≤ S128.size a
  inb_S128x4_S1x4_87_0 : ∀ a, (![87, 0] : Fin 2 → Nat) a + S1x4.size a ≤ S128x4.size a
  inb_S128_S1_88 : ∀ a, (![88] : Fin 1 → Nat) a + S1.size a ≤ S128.size a
  inb_S128x4_S1x4_88_0 : ∀ a, (![88, 0] : Fin 2 → Nat) a + S1x4.size a ≤ S128x4.size a
  inb_S128_S1_89 : ∀ a, (![89] : Fin 1 → Nat) a + S1.size a ≤ S128.size a
  inb_S128x4_S1x4_89_0 : ∀ a, (![89, 0] : Fin 2 → Nat) a + S1x4.size a ≤ S128x4.size a
  inb_S128_S1_90 : ∀ a, (![90] : Fin 1 → Nat) a + S1.size a ≤ S128.size a
  inb_S128x4_S1x4_90_0 : ∀ a, (![90, 0] : Fin 2 → Nat) a + S1x4.size a ≤ S128x4.size a
  inb_S128_S1_91 : ∀ a, (![91] : Fin 1 → Nat) a + S1.size a ≤ S128.size a
  inb_S128x4_S1x4_91_0 : ∀ a, (![91, 0] : Fin 2 → Nat) a + S1x4.size a ≤ S128x4.size a
  inb_S128_S1_92 : ∀ a, (![92] : Fin 1 → Nat) a + S1.size a ≤ S128.size a
  inb_S128x4_S1x4_92_0 : ∀ a, (![92, 0] : Fin 2 → Nat) a + S1x4.size a ≤ S128x4.size a
  inb_S128_S1_93 : ∀ a, (![93] : Fin 1 → Nat) a + S1.size a ≤ S128.size a
  inb_S128x4_S1x4_93_0 : ∀ a, (![93, 0] : Fin 2 → Nat) a + S1x4.size a ≤ S128x4.size a
  inb_S128_S1_94 : ∀ a, (![94] : Fin 1 → Nat) a + S1.size a ≤ S128.size a
  inb_S128x4_S1x4_94_0 : ∀ a, (![94, 0] : Fin 2 → Nat) a + S1x4.size a ≤ S128x4.size a
  inb_S128_S1_95 : ∀ a, (![95] : Fin 1 → Nat) a + S1.size a ≤ S128.size a
  inb_S128x4_S1x4_95_0 : ∀ a, (![95, 0] : Fin 2 → Nat) a + S1x4.size a ≤ S128x4.size a
  inb_S128_S1_96 : ∀ a, (![96] : Fin 1 → Nat) a + S1.size a ≤ S128.size a
  inb_S128x4_S1x4_96_0 : ∀ a, (![96, 0] : Fin 2 → Nat) a + S1x4.size a ≤ S128x4.size a
  inb_S128_S1_97 : ∀ a, (![97] : Fin 1 → Nat) a + S1.size a ≤ S128.size a
  inb_S128x4_S1x4_97_0 : ∀ a, (![97, 0] : Fin 2 → Nat) a + S1x4.size a ≤ S128x4.size a
  inb_S128_S1_98 : ∀ a, (![98] : Fin 1 → Nat) a + S1.size a ≤ S128.size a
  inb_S128x4_S1x4_98_0 : ∀ a, (![98, 0] : Fin 2 → Nat) a + S1x4.size a ≤ S128x4.size a
  inb_S128_S1_99 : ∀ a, (![99] : Fin 1 → Nat) a + S1.size a ≤ S128.size a
  inb_S128x4_S1x4_99_0 : ∀ a, (![99, 0] : Fin 2 → Nat) a + S1x4.size a ≤ S128x4.size a
  inb_S128_S1_100 : ∀ a, (![100] : Fin 1 → Nat) a + S1.size a ≤ S128.size a
  inb_S128x4_S1x4_100_0 : ∀ a, (![100, 0] : Fin 2 → Nat) a + S1x4.size a ≤ S128x4.size a
  inb_S128_S1_101 : ∀ a, (![101] : Fin 1 → Nat) a + S1.size a ≤ S128.size a
  inb_S128x4_S1x4_101_0 : ∀ a, (![101, 0] : Fin 2 → Nat) a + S1x4.size a ≤ S128x4.size a
  inb_S128_S1_102 : ∀ a, (![102] : Fin 1 → Nat) a + S1.size a ≤ S128.size a
  inb_S128x4_S1x4_102_0 : ∀ a, (![102, 0] : Fin 2 → Nat) a + S1x4.size a ≤ S128x4.size a
  inb_S128_S1_103 : ∀ a, (![103] : Fin 1 → Nat) a + S1.size a ≤ S128.size a
  inb_S128x4_S1x4_103_0 : ∀ a, (![103, 0] : Fin 2 → Nat) a + S1x4.size a ≤ S128x4.size a
  inb_S128_S1_104 : ∀ a, (![104] : Fin 1 → Nat) a + S1.size a ≤ S128.size a
  inb_S128x4_S1x4_104_0 : ∀ a, (![104, 0] : Fin 2 → Nat) a + S1x4.size a ≤ S128x4.size a
  inb_S128_S1_105 : ∀ a, (![105] : Fin 1 → Nat) a + S1.size a ≤ S128.size a
  inb_S128x4_S1x4_105_0 : ∀ a, (![105, 0] : Fin 2 → Nat) a + S1x4.size a ≤ S128x4.size a
  inb_S128_S1_106 : ∀ a, (![106] : Fin 1 → Nat) a + S1.size a ≤ S128.size a
  inb_S128x4_S1x4_106_0 : ∀ a, (![106, 0] : Fin 2 → Nat) a + S1x4.size a ≤ S128x4.size a
  inb_S128_S1_107 : ∀ a, (![107] : Fin 1 → Nat) a + S1.size a ≤ S128.size a
  inb_S128x4_S1x4_107_0 : ∀ a, (![107, 0] : Fin 2 → Nat) a + S1x4.size a ≤ S128x4.size a
  inb_S128_S1_108 : ∀ a, (![108] : Fin 1 → Nat) a + S1.size a ≤ S128.size a
  inb_S128x4_S1x4_108_0 : ∀ a, (![108, 0] : Fin 2 → Nat) a + S1x4.size a ≤ S128x4.size a
  inb_S128_S1_109 : ∀ a, (![109] : Fin 1 → Nat) a + S1.size a ≤ S128.size a
  inb_S128x4_S1x4_109_0 : ∀ a, (![109, 0] : Fin 2 → Nat) a + S1x4.size a ≤ S128x4.size a
  inb_S128_S1_110 : ∀ a, (![110] : Fin 1 → Nat) a + S1.size a ≤ S128.size a
  inb_S128x4_S1x4_110_0 : ∀ a, (![110, 0] : Fin 2 → Nat) a + S1x4.size a ≤ S128x4.size a
  inb_S128_S1_111 : ∀ a, (![111] : Fin 1 → Nat) a + S1.size a ≤ S128.size a
  inb_S128x4_S1x4_111_0 : ∀ a, (![111, 0] : Fin 2 → Nat) a + S1x4.size a ≤ S128x4.size a
  inb_S128_S1_112 : ∀ a, (![112] : Fin 1 → Nat) a + S1.size a ≤ S128.size a
  inb_S128x4_S1x4_112_0 : ∀ a, (![112, 0] : Fin 2 → Nat) a + S1x4.size a ≤ S128x4.size a
  inb_S128_S1_113 : ∀ a, (![113] : Fin 1 → Nat) a + S1.size a ≤ S128.size a
  inb_S128x4_S1x4_113_0 : ∀ a, (![113, 0] : Fin 2 → Nat) a + S1x4.size a ≤ S128x4.size a
  inb_S128_S1_114 : ∀ a, (![114] : Fin 1 → Nat) a + S1.size a ≤ S128.size a
  inb_S128x4_S1x4_114_0 : ∀ a, (![114, 0] : Fin 2 → Nat) a + S1x4.size a ≤ S128x4.size a
  inb_S128_S1_115 : ∀ a, (![115] : Fin 1 → Nat) a + S1.size a ≤ S128.size a
  inb_S128x4_S1x4_115_0 : ∀ a, (![115, 0] : Fin 2 → Nat) a + S1x4.size a ≤ S128x4.size a
  inb_S128_S1_116 : ∀ a, (![116] : Fin 1 → Nat) a + S1.size a ≤ S128.size a
  inb_S128x4_S1x4_116_0 : ∀ a, (![116, 0] : Fin 2 → Nat) a + S1x4.size a ≤ S128x4.size a
  inb_S128_S1_117 : ∀ a, (![117] : Fin 1 → Nat) a + S1.size a ≤ S128.size a
  inb_S128x4_S1x4_117_0 : ∀ a, (![117, 0] : Fin 2 → Nat) a + S1x4.size a ≤ S128x4.size a
  inb_S128_S1_118 : ∀ a, (![118] : Fin 1 → Nat) a + S1.size a ≤ S128.size a
  inb_S128x4_S1x4_118_0 : ∀ a, (![118, 0] : Fin 2 → Nat) a + S1x4.size a ≤ S128x4.size a
  inb_S128_S1_119 : ∀ a, (![119] : Fin 1 → Nat) a + S1.size a ≤ S128.size a
  inb_S128x4_S1x4_119_0 : ∀ a, (![119, 0] : Fin 2 → Nat) a + S1x4.size a ≤ S128x4.size a
  inb_S128_S1_120 : ∀ a, (![120] : Fin 1 → Nat) a + S1.size a ≤ S128.size a
  inb_S128x4_S1x4_120_0 : ∀ a, (![120, 0] : Fin 2 → Nat) a + S1x4.size a ≤ S128x4.size a
  inb_S128_S1_121 : ∀ a, (![121] : Fin 1 → Nat) a + S1.size a ≤ S128.size a
  inb_S128x4_S1x4_121_0 : ∀ a, (![121, 0] : Fin 2 → Nat) a + S1x4.size a ≤ S128x4.size a
  inb_S128_S1_122 : ∀ a, (![122] : Fin 1 → Nat) a + S1.size a ≤ S128.size a
  inb_S128x4_S1x4_122_0 : ∀ a, (![122, 0] : Fin 2 → Nat) a + S1x4.size a ≤ S128x4.size a
  inb_S128_S1_123 : ∀ a, (![123] : Fin 1 → Nat) a + S1.size a ≤ S128.size a
  inb_S128x4_S1x4_123_0 : ∀ a, (![123, 0] : Fin 2 → Nat) a + S1x4.size a ≤ S128x4.size a
  inb_S128_S1_124 : ∀ a, (![124] : Fin 1 → Nat) a + S1.size a ≤ S128.size a
  inb_S128x4_S1x4_124_0 : ∀ a, (![124, 0] : Fin 2 → Nat) a + S1x4.size a ≤ S128x4.size a
  inb_S128_S1_125 : ∀ a, (![125] : Fin 1 → Nat) a + S1.size a ≤ S128.size a
  inb_S128x4_S1x4_125_0 : ∀ a, (![125, 0] : Fin 2 → Nat) a + S1x4.size a ≤ S128x4.size a
  inb_S128_S1_126 : ∀ a, (![126] : Fin 1 → Nat) a + S1.size a ≤ S128.size a
  inb_S128x4_S1x4_126_0 : ∀ a, (![126, 0] : Fin 2 → Nat) a + S1x4.size a ≤ S128x4.size a
  inb_S128_S1_127 : ∀ a, (![127] : Fin 1 → Nat) a + S1.size a ≤ S128.size a
  inb_S128x4_S1x4_127_0 : ∀ a, (![127, 0] : Fin 2 → Nat) a + S1x4.size a ≤ S128x4.size a
  inb_S128x4_S128x4_0_0 : ∀ a, (![0, 0] : Fin 2 → Nat) a + S128x4.size a ≤ S128x4.size a
  h_S128x4 : 0 < S128x4.numel
  slices_S128x4_o0_0_S128x1 : S128x4.Slices ![0, 0] S128x1
  slices_S128x4_o0_1_S128x1 : S128x4.Slices ![0, 1] S128x1
  slices_S128x4_o0_2_S128x1 : S128x4.Slices ![0, 2] S128x1
  slices_S128x4_o0_3_S128x1 : S128x4.Slices ![0, 3] S128x1
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S128x128_S_d0_1 : S128x128.ReducesTo [0, 1] S_
  h_S_ : 0 < S_.numel
  reducesTo_S128x128x1_S_d0_1_2 : S128x128x1.ReducesTo [0, 1, 2] S_
  hcc0_scratch1 : 6 + S128.numel ≤ 134
  hrank0 : 0 < grid0.rank
  k0_off1_inb : ∀ i : grid0.Coords, ∀ a, (k0_off1 i) a + S1x1.size a ≤ S128x128.size a
  k0_off3_inb : ∀ i : grid0.Coords, ∀ a, (k0_off3 i) a + S1x1.size a ≤ S128x128.size a
  k0_off5_inb : ∀ i : grid0.Coords, ∀ a, (k0_off5 i) a + S1x1.size a ≤ S128x128.size a
  k0_off7_inb : ∀ i : grid0.Coords, ∀ a, (k0_off7 i) a + S1x1.size a ≤ S128x128.size a
  k0_off9_inb : ∀ i : grid0.Coords, ∀ a, (k0_off9 i) a + S1x1.size a ≤ S128x128.size a
  k0_off11_inb : ∀ i : grid0.Coords, ∀ a, (k0_off11 i) a + S1x1.size a ≤ S128x128.size a
  k0_off13_inb : ∀ i : grid0.Coords, ∀ a, (k0_off13 i) a + S1x1.size a ≤ S128x128.size a
  k0_off15_inb : ∀ i : grid0.Coords, ∀ a, (k0_off15 i) a + S1x1.size a ≤ S128x128.size a
  k0_off17_inb : ∀ i : grid0.Coords, ∀ a, (k0_off17 i) a + S1x1.size a ≤ S128x128.size a
  k0_off19_inb : ∀ i : grid0.Coords, ∀ a, (k0_off19 i) a + S1x1.size a ≤ S128x128.size a
  k0_off21_inb : ∀ i : grid0.Coords, ∀ a, (k0_off21 i) a + S1x1.size a ≤ S128x128.size a
  k0_off23_inb : ∀ i : grid0.Coords, ∀ a, (k0_off23 i) a + S1x1.size a ≤ S128x128.size a
  k0_off25_inb : ∀ i : grid0.Coords, ∀ a, (k0_off25 i) a + S1x1.size a ≤ S128x128.size a
  k0_off27_inb : ∀ i : grid0.Coords, ∀ a, (k0_off27 i) a + S1x1.size a ≤ S128x128.size a
  k0_off29_inb : ∀ i : grid0.Coords, ∀ a, (k0_off29 i) a + S1x1.size a ≤ S128x128.size a
  k0_off31_inb : ∀ i : grid0.Coords, ∀ a, (k0_off31 i) a + S1x1.size a ≤ S128x128.size a
  k0_off33_inb : ∀ i : grid0.Coords, ∀ a, (k0_off33 i) a + S1x1.size a ≤ S128x128.size a
  k0_off35_inb : ∀ i : grid0.Coords, ∀ a, (k0_off35 i) a + S1x1.size a ≤ S128x128.size a
  k0_off37_inb : ∀ i : grid0.Coords, ∀ a, (k0_off37 i) a + S1x1.size a ≤ S128x128.size a
  k0_off39_inb : ∀ i : grid0.Coords, ∀ a, (k0_off39 i) a + S1x1.size a ≤ S128x128.size a
  k0_off41_inb : ∀ i : grid0.Coords, ∀ a, (k0_off41 i) a + S1x1.size a ≤ S128x128.size a
  k0_off43_inb : ∀ i : grid0.Coords, ∀ a, (k0_off43 i) a + S1x1.size a ≤ S128x128.size a
  k0_off45_inb : ∀ i : grid0.Coords, ∀ a, (k0_off45 i) a + S1x1.size a ≤ S128x128.size a
  k0_off47_inb : ∀ i : grid0.Coords, ∀ a, (k0_off47 i) a + S1x1.size a ≤ S128x128.size a
  k0_off49_inb : ∀ i : grid0.Coords, ∀ a, (k0_off49 i) a + S1x1.size a ≤ S128x128.size a
  k0_off51_inb : ∀ i : grid0.Coords, ∀ a, (k0_off51 i) a + S1x1.size a ≤ S128x128.size a
  k0_off53_inb : ∀ i : grid0.Coords, ∀ a, (k0_off53 i) a + S1x1.size a ≤ S128x128.size a
  k0_off55_inb : ∀ i : grid0.Coords, ∀ a, (k0_off55 i) a + S1x1.size a ≤ S128x128.size a
  k0_off57_inb : ∀ i : grid0.Coords, ∀ a, (k0_off57 i) a + S1x1.size a ≤ S128x128.size a
  k0_off59_inb : ∀ i : grid0.Coords, ∀ a, (k0_off59 i) a + S1x1.size a ≤ S128x128.size a
  k0_off61_inb : ∀ i : grid0.Coords, ∀ a, (k0_off61 i) a + S1x1.size a ≤ S128x128.size a
  k0_off63_inb : ∀ i : grid0.Coords, ∀ a, (k0_off63 i) a + S1x1.size a ≤ S128x128.size a
  k0_off65_inb : ∀ i : grid0.Coords, ∀ a, (k0_off65 i) a + S1x1.size a ≤ S128x128.size a
  k0_off67_inb : ∀ i : grid0.Coords, ∀ a, (k0_off67 i) a + S1x1.size a ≤ S128x128.size a
  k0_off69_inb : ∀ i : grid0.Coords, ∀ a, (k0_off69 i) a + S1x1.size a ≤ S128x128.size a
  k0_off71_inb : ∀ i : grid0.Coords, ∀ a, (k0_off71 i) a + S1x1.size a ≤ S128x128.size a
  k0_off73_inb : ∀ i : grid0.Coords, ∀ a, (k0_off73 i) a + S1x1.size a ≤ S128x128.size a
  k0_off75_inb : ∀ i : grid0.Coords, ∀ a, (k0_off75 i) a + S1x1.size a ≤ S128x128.size a
  k0_off77_inb : ∀ i : grid0.Coords, ∀ a, (k0_off77 i) a + S1x1.size a ≤ S128x128.size a
  k0_off79_inb : ∀ i : grid0.Coords, ∀ a, (k0_off79 i) a + S1x1.size a ≤ S128x128.size a
  k0_off81_inb : ∀ i : grid0.Coords, ∀ a, (k0_off81 i) a + S1x1.size a ≤ S128x128.size a
  k0_off83_inb : ∀ i : grid0.Coords, ∀ a, (k0_off83 i) a + S1x1.size a ≤ S128x128.size a
  k0_off85_inb : ∀ i : grid0.Coords, ∀ a, (k0_off85 i) a + S1x1.size a ≤ S128x128.size a
  k0_off87_inb : ∀ i : grid0.Coords, ∀ a, (k0_off87 i) a + S1x1.size a ≤ S128x128.size a
  k0_off89_inb : ∀ i : grid0.Coords, ∀ a, (k0_off89 i) a + S1x1.size a ≤ S128x128.size a
  k0_off91_inb : ∀ i : grid0.Coords, ∀ a, (k0_off91 i) a + S1x1.size a ≤ S128x128.size a
  k0_off93_inb : ∀ i : grid0.Coords, ∀ a, (k0_off93 i) a + S1x1.size a ≤ S128x128.size a
  k0_off95_inb : ∀ i : grid0.Coords, ∀ a, (k0_off95 i) a + S1x1.size a ≤ S128x128.size a
  k0_off97_inb : ∀ i : grid0.Coords, ∀ a, (k0_off97 i) a + S1x1.size a ≤ S128x128.size a
  k0_off99_inb : ∀ i : grid0.Coords, ∀ a, (k0_off99 i) a + S1x1.size a ≤ S128x128.size a
  k0_off101_inb : ∀ i : grid0.Coords, ∀ a, (k0_off101 i) a + S1x1.size a ≤ S128x128.size a
  k0_off103_inb : ∀ i : grid0.Coords, ∀ a, (k0_off103 i) a + S1x1.size a ≤ S128x128.size a
  k0_off105_inb : ∀ i : grid0.Coords, ∀ a, (k0_off105 i) a + S1x1.size a ≤ S128x128.size a
  k0_off107_inb : ∀ i : grid0.Coords, ∀ a, (k0_off107 i) a + S1x1.size a ≤ S128x128.size a
  k0_off109_inb : ∀ i : grid0.Coords, ∀ a, (k0_off109 i) a + S1x1.size a ≤ S128x128.size a
  k0_off111_inb : ∀ i : grid0.Coords, ∀ a, (k0_off111 i) a + S1x1.size a ≤ S128x128.size a
  k0_off113_inb : ∀ i : grid0.Coords, ∀ a, (k0_off113 i) a + S1x1.size a ≤ S128x128.size a
  k0_off115_inb : ∀ i : grid0.Coords, ∀ a, (k0_off115 i) a + S1x1.size a ≤ S128x128.size a
  k0_off117_inb : ∀ i : grid0.Coords, ∀ a, (k0_off117 i) a + S1x1.size a ≤ S128x128.size a
  k0_off119_inb : ∀ i : grid0.Coords, ∀ a, (k0_off119 i) a + S1x1.size a ≤ S128x128.size a
  k0_off121_inb : ∀ i : grid0.Coords, ∀ a, (k0_off121 i) a + S1x1.size a ≤ S128x128.size a
  k0_off123_inb : ∀ i : grid0.Coords, ∀ a, (k0_off123 i) a + S1x1.size a ≤ S128x128.size a
  k0_off125_inb : ∀ i : grid0.Coords, ∀ a, (k0_off125 i) a + S1x1.size a ≤ S128x128.size a
  k0_off127_inb : ∀ i : grid0.Coords, ∀ a, (k0_off127 i) a + S1x1.size a ≤ S128x128.size a
  k0_off129_inb : ∀ i : grid0.Coords, ∀ a, (k0_off129 i) a + S1x1.size a ≤ S128x128.size a
  k0_off131_inb : ∀ i : grid0.Coords, ∀ a, (k0_off131 i) a + S1x1.size a ≤ S128x128.size a
  k0_off133_inb : ∀ i : grid0.Coords, ∀ a, (k0_off133 i) a + S1x1.size a ≤ S128x128.size a
  k0_off135_inb : ∀ i : grid0.Coords, ∀ a, (k0_off135 i) a + S1x1.size a ≤ S128x128.size a
  k0_off137_inb : ∀ i : grid0.Coords, ∀ a, (k0_off137 i) a + S1x1.size a ≤ S128x128.size a
  k0_off139_inb : ∀ i : grid0.Coords, ∀ a, (k0_off139 i) a + S1x1.size a ≤ S128x128.size a
  k0_off141_inb : ∀ i : grid0.Coords, ∀ a, (k0_off141 i) a + S1x1.size a ≤ S128x128.size a
  k0_off143_inb : ∀ i : grid0.Coords, ∀ a, (k0_off143 i) a + S1x1.size a ≤ S128x128.size a
  k0_off145_inb : ∀ i : grid0.Coords, ∀ a, (k0_off145 i) a + S1x1.size a ≤ S128x128.size a
  k0_off147_inb : ∀ i : grid0.Coords, ∀ a, (k0_off147 i) a + S1x1.size a ≤ S128x128.size a
  k0_off149_inb : ∀ i : grid0.Coords, ∀ a, (k0_off149 i) a + S1x1.size a ≤ S128x128.size a
  k0_off151_inb : ∀ i : grid0.Coords, ∀ a, (k0_off151 i) a + S1x1.size a ≤ S128x128.size a
  k0_off153_inb : ∀ i : grid0.Coords, ∀ a, (k0_off153 i) a + S1x1.size a ≤ S128x128.size a
  k0_off155_inb : ∀ i : grid0.Coords, ∀ a, (k0_off155 i) a + S1x1.size a ≤ S128x128.size a
  k0_off157_inb : ∀ i : grid0.Coords, ∀ a, (k0_off157 i) a + S1x1.size a ≤ S128x128.size a
  k0_off159_inb : ∀ i : grid0.Coords, ∀ a, (k0_off159 i) a + S1x1.size a ≤ S128x128.size a
  k0_off161_inb : ∀ i : grid0.Coords, ∀ a, (k0_off161 i) a + S1x1.size a ≤ S128x128.size a
  k0_off163_inb : ∀ i : grid0.Coords, ∀ a, (k0_off163 i) a + S1x1.size a ≤ S128x128.size a
  k0_off165_inb : ∀ i : grid0.Coords, ∀ a, (k0_off165 i) a + S1x1.size a ≤ S128x128.size a
  k0_off167_inb : ∀ i : grid0.Coords, ∀ a, (k0_off167 i) a + S1x1.size a ≤ S128x128.size a
  k0_off169_inb : ∀ i : grid0.Coords, ∀ a, (k0_off169 i) a + S1x1.size a ≤ S128x128.size a
  k0_off171_inb : ∀ i : grid0.Coords, ∀ a, (k0_off171 i) a + S1x1.size a ≤ S128x128.size a
  k0_off173_inb : ∀ i : grid0.Coords, ∀ a, (k0_off173 i) a + S1x1.size a ≤ S128x128.size a
  k0_off175_inb : ∀ i : grid0.Coords, ∀ a, (k0_off175 i) a + S1x1.size a ≤ S128x128.size a
  k0_off177_inb : ∀ i : grid0.Coords, ∀ a, (k0_off177 i) a + S1x1.size a ≤ S128x128.size a
  k0_off179_inb : ∀ i : grid0.Coords, ∀ a, (k0_off179 i) a + S1x1.size a ≤ S128x128.size a
  k0_off181_inb : ∀ i : grid0.Coords, ∀ a, (k0_off181 i) a + S1x1.size a ≤ S128x128.size a
  k0_off183_inb : ∀ i : grid0.Coords, ∀ a, (k0_off183 i) a + S1x1.size a ≤ S128x128.size a
  k0_off185_inb : ∀ i : grid0.Coords, ∀ a, (k0_off185 i) a + S1x1.size a ≤ S128x128.size a
  k0_off187_inb : ∀ i : grid0.Coords, ∀ a, (k0_off187 i) a + S1x1.size a ≤ S128x128.size a
  k0_off189_inb : ∀ i : grid0.Coords, ∀ a, (k0_off189 i) a + S1x1.size a ≤ S128x128.size a
  k0_off191_inb : ∀ i : grid0.Coords, ∀ a, (k0_off191 i) a + S1x1.size a ≤ S128x128.size a
  k0_off193_inb : ∀ i : grid0.Coords, ∀ a, (k0_off193 i) a + S1x1.size a ≤ S128x128.size a
  k0_off195_inb : ∀ i : grid0.Coords, ∀ a, (k0_off195 i) a + S1x1.size a ≤ S128x128.size a
  k0_off197_inb : ∀ i : grid0.Coords, ∀ a, (k0_off197 i) a + S1x1.size a ≤ S128x128.size a
  k0_off199_inb : ∀ i : grid0.Coords, ∀ a, (k0_off199 i) a + S1x1.size a ≤ S128x128.size a
  k0_off201_inb : ∀ i : grid0.Coords, ∀ a, (k0_off201 i) a + S1x1.size a ≤ S128x128.size a
  k0_off203_inb : ∀ i : grid0.Coords, ∀ a, (k0_off203 i) a + S1x1.size a ≤ S128x128.size a
  k0_off205_inb : ∀ i : grid0.Coords, ∀ a, (k0_off205 i) a + S1x1.size a ≤ S128x128.size a
  k0_off207_inb : ∀ i : grid0.Coords, ∀ a, (k0_off207 i) a + S1x1.size a ≤ S128x128.size a
  k0_off209_inb : ∀ i : grid0.Coords, ∀ a, (k0_off209 i) a + S1x1.size a ≤ S128x128.size a
  k0_off211_inb : ∀ i : grid0.Coords, ∀ a, (k0_off211 i) a + S1x1.size a ≤ S128x128.size a
  k0_off213_inb : ∀ i : grid0.Coords, ∀ a, (k0_off213 i) a + S1x1.size a ≤ S128x128.size a
  k0_off215_inb : ∀ i : grid0.Coords, ∀ a, (k0_off215 i) a + S1x1.size a ≤ S128x128.size a
  k0_off217_inb : ∀ i : grid0.Coords, ∀ a, (k0_off217 i) a + S1x1.size a ≤ S128x128.size a
  k0_off219_inb : ∀ i : grid0.Coords, ∀ a, (k0_off219 i) a + S1x1.size a ≤ S128x128.size a
  k0_off221_inb : ∀ i : grid0.Coords, ∀ a, (k0_off221 i) a + S1x1.size a ≤ S128x128.size a
  k0_off223_inb : ∀ i : grid0.Coords, ∀ a, (k0_off223 i) a + S1x1.size a ≤ S128x128.size a
  k0_off225_inb : ∀ i : grid0.Coords, ∀ a, (k0_off225 i) a + S1x1.size a ≤ S128x128.size a
  k0_off227_inb : ∀ i : grid0.Coords, ∀ a, (k0_off227 i) a + S1x1.size a ≤ S128x128.size a
  k0_off229_inb : ∀ i : grid0.Coords, ∀ a, (k0_off229 i) a + S1x1.size a ≤ S128x128.size a
  k0_off231_inb : ∀ i : grid0.Coords, ∀ a, (k0_off231 i) a + S1x1.size a ≤ S128x128.size a
  k0_off233_inb : ∀ i : grid0.Coords, ∀ a, (k0_off233 i) a + S1x1.size a ≤ S128x128.size a
  k0_off235_inb : ∀ i : grid0.Coords, ∀ a, (k0_off235 i) a + S1x1.size a ≤ S128x128.size a
  k0_off237_inb : ∀ i : grid0.Coords, ∀ a, (k0_off237 i) a + S1x1.size a ≤ S128x128.size a
  k0_off239_inb : ∀ i : grid0.Coords, ∀ a, (k0_off239 i) a + S1x1.size a ≤ S128x128.size a
  k0_off241_inb : ∀ i : grid0.Coords, ∀ a, (k0_off241 i) a + S1x1.size a ≤ S128x128.size a
  k0_off243_inb : ∀ i : grid0.Coords, ∀ a, (k0_off243 i) a + S1x1.size a ≤ S128x128.size a
  k0_off245_inb : ∀ i : grid0.Coords, ∀ a, (k0_off245 i) a + S1x1.size a ≤ S128x128.size a
  k0_off247_inb : ∀ i : grid0.Coords, ∀ a, (k0_off247 i) a + S1x1.size a ≤ S128x128.size a
  k0_off249_inb : ∀ i : grid0.Coords, ∀ a, (k0_off249 i) a + S1x1.size a ≤ S128x128.size a
  k0_off251_inb : ∀ i : grid0.Coords, ∀ a, (k0_off251 i) a + S1x1.size a ≤ S128x128.size a
  k0_off253_inb : ∀ i : grid0.Coords, ∀ a, (k0_off253 i) a + S1x1.size a ≤ S128x128.size a
  k0_off255_inb : ∀ i : grid0.Coords, ∀ a, (k0_off255 i) a + S1x1.size a ≤ S128x128.size a
  k0_off257_inb : ∀ i : grid0.Coords, ∀ a, (k0_off257 i) a + S1x1.size a ≤ S128x128.size a
  k0_off259_inb : ∀ i : grid0.Coords, ∀ a, (k0_off259 i) a + S1x1.size a ≤ S128x128.size a
  k0_off261_inb : ∀ i : grid0.Coords, ∀ a, (k0_off261 i) a + S1x1.size a ≤ S128x128.size a
  k0_off263_inb : ∀ i : grid0.Coords, ∀ a, (k0_off263 i) a + S1x1.size a ≤ S128x128.size a
  k0_off265_inb : ∀ i : grid0.Coords, ∀ a, (k0_off265 i) a + S1x1.size a ≤ S128x128.size a
  k0_off267_inb : ∀ i : grid0.Coords, ∀ a, (k0_off267 i) a + S1x1.size a ≤ S128x128.size a
  k0_off269_inb : ∀ i : grid0.Coords, ∀ a, (k0_off269 i) a + S1x1.size a ≤ S128x128.size a
  k0_off271_inb : ∀ i : grid0.Coords, ∀ a, (k0_off271 i) a + S1x1.size a ≤ S128x128.size a
  k0_off273_inb : ∀ i : grid0.Coords, ∀ a, (k0_off273 i) a + S1x1.size a ≤ S128x128.size a
  k0_off275_inb : ∀ i : grid0.Coords, ∀ a, (k0_off275 i) a + S1x1.size a ≤ S128x128.size a
  k0_off277_inb : ∀ i : grid0.Coords, ∀ a, (k0_off277 i) a + S1x1.size a ≤ S128x128.size a
  k0_off279_inb : ∀ i : grid0.Coords, ∀ a, (k0_off279 i) a + S1x1.size a ≤ S128x128.size a
  k0_off281_inb : ∀ i : grid0.Coords, ∀ a, (k0_off281 i) a + S1x1.size a ≤ S128x128.size a
  k0_off283_inb : ∀ i : grid0.Coords, ∀ a, (k0_off283 i) a + S1x1.size a ≤ S128x128.size a
  k0_off285_inb : ∀ i : grid0.Coords, ∀ a, (k0_off285 i) a + S1x1.size a ≤ S128x128.size a
  k0_off287_inb : ∀ i : grid0.Coords, ∀ a, (k0_off287 i) a + S1x1.size a ≤ S128x128.size a
  k0_off289_inb : ∀ i : grid0.Coords, ∀ a, (k0_off289 i) a + S1x1.size a ≤ S128x128.size a
  k0_off291_inb : ∀ i : grid0.Coords, ∀ a, (k0_off291 i) a + S1x1.size a ≤ S128x128.size a
  k0_off293_inb : ∀ i : grid0.Coords, ∀ a, (k0_off293 i) a + S1x1.size a ≤ S128x128.size a
  k0_off295_inb : ∀ i : grid0.Coords, ∀ a, (k0_off295 i) a + S1x1.size a ≤ S128x128.size a
  k0_off297_inb : ∀ i : grid0.Coords, ∀ a, (k0_off297 i) a + S1x1.size a ≤ S128x128.size a
  k0_off299_inb : ∀ i : grid0.Coords, ∀ a, (k0_off299 i) a + S1x1.size a ≤ S128x128.size a
  k0_off301_inb : ∀ i : grid0.Coords, ∀ a, (k0_off301 i) a + S1x1.size a ≤ S128x128.size a
  k0_off303_inb : ∀ i : grid0.Coords, ∀ a, (k0_off303 i) a + S1x1.size a ≤ S128x128.size a
  k0_off305_inb : ∀ i : grid0.Coords, ∀ a, (k0_off305 i) a + S1x1.size a ≤ S128x128.size a
  k0_off307_inb : ∀ i : grid0.Coords, ∀ a, (k0_off307 i) a + S1x1.size a ≤ S128x128.size a
  k0_off309_inb : ∀ i : grid0.Coords, ∀ a, (k0_off309 i) a + S1x1.size a ≤ S128x128.size a
  k0_off311_inb : ∀ i : grid0.Coords, ∀ a, (k0_off311 i) a + S1x1.size a ≤ S128x128.size a
  k0_off313_inb : ∀ i : grid0.Coords, ∀ a, (k0_off313 i) a + S1x1.size a ≤ S128x128.size a
  k0_off315_inb : ∀ i : grid0.Coords, ∀ a, (k0_off315 i) a + S1x1.size a ≤ S128x128.size a
  k0_off317_inb : ∀ i : grid0.Coords, ∀ a, (k0_off317 i) a + S1x1.size a ≤ S128x128.size a
  k0_off319_inb : ∀ i : grid0.Coords, ∀ a, (k0_off319 i) a + S1x1.size a ≤ S128x128.size a
  k0_off321_inb : ∀ i : grid0.Coords, ∀ a, (k0_off321 i) a + S1x1.size a ≤ S128x128.size a
  k0_off323_inb : ∀ i : grid0.Coords, ∀ a, (k0_off323 i) a + S1x1.size a ≤ S128x128.size a
  k0_off325_inb : ∀ i : grid0.Coords, ∀ a, (k0_off325 i) a + S1x1.size a ≤ S128x128.size a
  k0_off327_inb : ∀ i : grid0.Coords, ∀ a, (k0_off327 i) a + S1x1.size a ≤ S128x128.size a
  k0_off329_inb : ∀ i : grid0.Coords, ∀ a, (k0_off329 i) a + S1x1.size a ≤ S128x128.size a
  k0_off331_inb : ∀ i : grid0.Coords, ∀ a, (k0_off331 i) a + S1x1.size a ≤ S128x128.size a
  k0_off333_inb : ∀ i : grid0.Coords, ∀ a, (k0_off333 i) a + S1x1.size a ≤ S128x128.size a
  k0_off335_inb : ∀ i : grid0.Coords, ∀ a, (k0_off335 i) a + S1x1.size a ≤ S128x128.size a
  k0_off337_inb : ∀ i : grid0.Coords, ∀ a, (k0_off337 i) a + S1x1.size a ≤ S128x128.size a
  k0_off339_inb : ∀ i : grid0.Coords, ∀ a, (k0_off339 i) a + S1x1.size a ≤ S128x128.size a
  k0_off341_inb : ∀ i : grid0.Coords, ∀ a, (k0_off341 i) a + S1x1.size a ≤ S128x128.size a
  k0_off343_inb : ∀ i : grid0.Coords, ∀ a, (k0_off343 i) a + S1x1.size a ≤ S128x128.size a
  k0_off345_inb : ∀ i : grid0.Coords, ∀ a, (k0_off345 i) a + S1x1.size a ≤ S128x128.size a
  k0_off347_inb : ∀ i : grid0.Coords, ∀ a, (k0_off347 i) a + S1x1.size a ≤ S128x128.size a
  k0_off349_inb : ∀ i : grid0.Coords, ∀ a, (k0_off349 i) a + S1x1.size a ≤ S128x128.size a
  k0_off351_inb : ∀ i : grid0.Coords, ∀ a, (k0_off351 i) a + S1x1.size a ≤ S128x128.size a
  k0_off353_inb : ∀ i : grid0.Coords, ∀ a, (k0_off353 i) a + S1x1.size a ≤ S128x128.size a
  k0_off355_inb : ∀ i : grid0.Coords, ∀ a, (k0_off355 i) a + S1x1.size a ≤ S128x128.size a
  k0_off357_inb : ∀ i : grid0.Coords, ∀ a, (k0_off357 i) a + S1x1.size a ≤ S128x128.size a
  k0_off359_inb : ∀ i : grid0.Coords, ∀ a, (k0_off359 i) a + S1x1.size a ≤ S128x128.size a
  k0_off361_inb : ∀ i : grid0.Coords, ∀ a, (k0_off361 i) a + S1x1.size a ≤ S128x128.size a
  k0_off363_inb : ∀ i : grid0.Coords, ∀ a, (k0_off363 i) a + S1x1.size a ≤ S128x128.size a
  k0_off365_inb : ∀ i : grid0.Coords, ∀ a, (k0_off365 i) a + S1x1.size a ≤ S128x128.size a
  k0_off367_inb : ∀ i : grid0.Coords, ∀ a, (k0_off367 i) a + S1x1.size a ≤ S128x128.size a
  k0_off369_inb : ∀ i : grid0.Coords, ∀ a, (k0_off369 i) a + S1x1.size a ≤ S128x128.size a
  k0_off371_inb : ∀ i : grid0.Coords, ∀ a, (k0_off371 i) a + S1x1.size a ≤ S128x128.size a
  k0_off373_inb : ∀ i : grid0.Coords, ∀ a, (k0_off373 i) a + S1x1.size a ≤ S128x128.size a
  k0_off375_inb : ∀ i : grid0.Coords, ∀ a, (k0_off375 i) a + S1x1.size a ≤ S128x128.size a
  k0_off377_inb : ∀ i : grid0.Coords, ∀ a, (k0_off377 i) a + S1x1.size a ≤ S128x128.size a
  k0_off379_inb : ∀ i : grid0.Coords, ∀ a, (k0_off379 i) a + S1x1.size a ≤ S128x128.size a
  k0_off381_inb : ∀ i : grid0.Coords, ∀ a, (k0_off381 i) a + S1x1.size a ≤ S128x128.size a
  k0_off383_inb : ∀ i : grid0.Coords, ∀ a, (k0_off383 i) a + S1x1.size a ≤ S128x128.size a
  k0_off385_inb : ∀ i : grid0.Coords, ∀ a, (k0_off385 i) a + S1x1.size a ≤ S128x128.size a
  k0_off387_inb : ∀ i : grid0.Coords, ∀ a, (k0_off387 i) a + S1x1.size a ≤ S128x128.size a
  k0_off389_inb : ∀ i : grid0.Coords, ∀ a, (k0_off389 i) a + S1x1.size a ≤ S128x128.size a
  k0_off391_inb : ∀ i : grid0.Coords, ∀ a, (k0_off391 i) a + S1x1.size a ≤ S128x128.size a
  k0_off393_inb : ∀ i : grid0.Coords, ∀ a, (k0_off393 i) a + S1x1.size a ≤ S128x128.size a
  k0_off395_inb : ∀ i : grid0.Coords, ∀ a, (k0_off395 i) a + S1x1.size a ≤ S128x128.size a
  k0_off397_inb : ∀ i : grid0.Coords, ∀ a, (k0_off397 i) a + S1x1.size a ≤ S128x128.size a
  k0_off399_inb : ∀ i : grid0.Coords, ∀ a, (k0_off399 i) a + S1x1.size a ≤ S128x128.size a
  k0_off401_inb : ∀ i : grid0.Coords, ∀ a, (k0_off401 i) a + S1x1.size a ≤ S128x128.size a
  k0_off403_inb : ∀ i : grid0.Coords, ∀ a, (k0_off403 i) a + S1x1.size a ≤ S128x128.size a
  k0_off405_inb : ∀ i : grid0.Coords, ∀ a, (k0_off405 i) a + S1x1.size a ≤ S128x128.size a
  k0_off407_inb : ∀ i : grid0.Coords, ∀ a, (k0_off407 i) a + S1x1.size a ≤ S128x128.size a
  k0_off409_inb : ∀ i : grid0.Coords, ∀ a, (k0_off409 i) a + S1x1.size a ≤ S128x128.size a
  k0_off411_inb : ∀ i : grid0.Coords, ∀ a, (k0_off411 i) a + S1x1.size a ≤ S128x128.size a
  k0_off413_inb : ∀ i : grid0.Coords, ∀ a, (k0_off413 i) a + S1x1.size a ≤ S128x128.size a
  k0_off415_inb : ∀ i : grid0.Coords, ∀ a, (k0_off415 i) a + S1x1.size a ≤ S128x128.size a
  k0_off417_inb : ∀ i : grid0.Coords, ∀ a, (k0_off417 i) a + S1x1.size a ≤ S128x128.size a
  k0_off419_inb : ∀ i : grid0.Coords, ∀ a, (k0_off419 i) a + S1x1.size a ≤ S128x128.size a
  k0_off421_inb : ∀ i : grid0.Coords, ∀ a, (k0_off421 i) a + S1x1.size a ≤ S128x128.size a
  k0_off423_inb : ∀ i : grid0.Coords, ∀ a, (k0_off423 i) a + S1x1.size a ≤ S128x128.size a
  k0_off425_inb : ∀ i : grid0.Coords, ∀ a, (k0_off425 i) a + S1x1.size a ≤ S128x128.size a
  k0_off427_inb : ∀ i : grid0.Coords, ∀ a, (k0_off427 i) a + S1x1.size a ≤ S128x128.size a
  k0_off429_inb : ∀ i : grid0.Coords, ∀ a, (k0_off429 i) a + S1x1.size a ≤ S128x128.size a
  k0_off431_inb : ∀ i : grid0.Coords, ∀ a, (k0_off431 i) a + S1x1.size a ≤ S128x128.size a
  k0_off433_inb : ∀ i : grid0.Coords, ∀ a, (k0_off433 i) a + S1x1.size a ≤ S128x128.size a
  k0_off435_inb : ∀ i : grid0.Coords, ∀ a, (k0_off435 i) a + S1x1.size a ≤ S128x128.size a
  k0_off437_inb : ∀ i : grid0.Coords, ∀ a, (k0_off437 i) a + S1x1.size a ≤ S128x128.size a
  k0_off439_inb : ∀ i : grid0.Coords, ∀ a, (k0_off439 i) a + S1x1.size a ≤ S128x128.size a
  k0_off441_inb : ∀ i : grid0.Coords, ∀ a, (k0_off441 i) a + S1x1.size a ≤ S128x128.size a
  k0_off443_inb : ∀ i : grid0.Coords, ∀ a, (k0_off443 i) a + S1x1.size a ≤ S128x128.size a
  k0_off445_inb : ∀ i : grid0.Coords, ∀ a, (k0_off445 i) a + S1x1.size a ≤ S128x128.size a
  k0_off447_inb : ∀ i : grid0.Coords, ∀ a, (k0_off447 i) a + S1x1.size a ≤ S128x128.size a
  k0_off449_inb : ∀ i : grid0.Coords, ∀ a, (k0_off449 i) a + S1x1.size a ≤ S128x128.size a
  k0_off451_inb : ∀ i : grid0.Coords, ∀ a, (k0_off451 i) a + S1x1.size a ≤ S128x128.size a
  k0_off453_inb : ∀ i : grid0.Coords, ∀ a, (k0_off453 i) a + S1x1.size a ≤ S128x128.size a
  k0_off455_inb : ∀ i : grid0.Coords, ∀ a, (k0_off455 i) a + S1x1.size a ≤ S128x128.size a
  k0_off457_inb : ∀ i : grid0.Coords, ∀ a, (k0_off457 i) a + S1x1.size a ≤ S128x128.size a
  k0_off459_inb : ∀ i : grid0.Coords, ∀ a, (k0_off459 i) a + S1x1.size a ≤ S128x128.size a
  k0_off461_inb : ∀ i : grid0.Coords, ∀ a, (k0_off461 i) a + S1x1.size a ≤ S128x128.size a
  k0_off463_inb : ∀ i : grid0.Coords, ∀ a, (k0_off463 i) a + S1x1.size a ≤ S128x128.size a
  k0_off465_inb : ∀ i : grid0.Coords, ∀ a, (k0_off465 i) a + S1x1.size a ≤ S128x128.size a
  k0_off467_inb : ∀ i : grid0.Coords, ∀ a, (k0_off467 i) a + S1x1.size a ≤ S128x128.size a
  k0_off469_inb : ∀ i : grid0.Coords, ∀ a, (k0_off469 i) a + S1x1.size a ≤ S128x128.size a
  k0_off471_inb : ∀ i : grid0.Coords, ∀ a, (k0_off471 i) a + S1x1.size a ≤ S128x128.size a
  k0_off473_inb : ∀ i : grid0.Coords, ∀ a, (k0_off473 i) a + S1x1.size a ≤ S128x128.size a
  k0_off475_inb : ∀ i : grid0.Coords, ∀ a, (k0_off475 i) a + S1x1.size a ≤ S128x128.size a
  k0_off477_inb : ∀ i : grid0.Coords, ∀ a, (k0_off477 i) a + S1x1.size a ≤ S128x128.size a
  k0_off479_inb : ∀ i : grid0.Coords, ∀ a, (k0_off479 i) a + S1x1.size a ≤ S128x128.size a
  k0_off481_inb : ∀ i : grid0.Coords, ∀ a, (k0_off481 i) a + S1x1.size a ≤ S128x128.size a
  k0_off483_inb : ∀ i : grid0.Coords, ∀ a, (k0_off483 i) a + S1x1.size a ≤ S128x128.size a
  k0_off485_inb : ∀ i : grid0.Coords, ∀ a, (k0_off485 i) a + S1x1.size a ≤ S128x128.size a
  k0_off487_inb : ∀ i : grid0.Coords, ∀ a, (k0_off487 i) a + S1x1.size a ≤ S128x128.size a
  k0_off489_inb : ∀ i : grid0.Coords, ∀ a, (k0_off489 i) a + S1x1.size a ≤ S128x128.size a
  k0_off491_inb : ∀ i : grid0.Coords, ∀ a, (k0_off491 i) a + S1x1.size a ≤ S128x128.size a
  k0_off493_inb : ∀ i : grid0.Coords, ∀ a, (k0_off493 i) a + S1x1.size a ≤ S128x128.size a
  k0_off495_inb : ∀ i : grid0.Coords, ∀ a, (k0_off495 i) a + S1x1.size a ≤ S128x128.size a
  k0_off497_inb : ∀ i : grid0.Coords, ∀ a, (k0_off497 i) a + S1x1.size a ≤ S128x128.size a
  k0_off499_inb : ∀ i : grid0.Coords, ∀ a, (k0_off499 i) a + S1x1.size a ≤ S128x128.size a
  k0_off501_inb : ∀ i : grid0.Coords, ∀ a, (k0_off501 i) a + S1x1.size a ≤ S128x128.size a
  k0_off503_inb : ∀ i : grid0.Coords, ∀ a, (k0_off503 i) a + S1x1.size a ≤ S128x128.size a
  k0_off505_inb : ∀ i : grid0.Coords, ∀ a, (k0_off505 i) a + S1x1.size a ≤ S128x128.size a
  k0_off507_inb : ∀ i : grid0.Coords, ∀ a, (k0_off507 i) a + S1x1.size a ≤ S128x128.size a
  k0_off509_inb : ∀ i : grid0.Coords, ∀ a, (k0_off509 i) a + S1x1.size a ≤ S128x128.size a
  k0_off511_inb : ∀ i : grid0.Coords, ∀ a, (k0_off511 i) a + S1x1.size a ≤ S128x128.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x128x4.size a ≤ S128x128x4.size a
  hwx0_0 : ∀ i : grid0.Coords, EltTy.bits .f32 = 32 ∨ (Rect.block (s := S128x128x4) S1x128x4.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x128x1.size a ≤ S128x128x1.size a
  hwx0_1 : ∀ i : grid0.Coords, EltTy.bits .f32 = 32 ∨ (Rect.block (s := S128x128x1) S1x128x1.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S1x128x1.size a ≤ S128x128x1.size a
  hwx0_2 : ∀ i : grid0.Coords, EltTy.bits .f32 = 32 ∨ (Rect.block (s := S128x128x1) S1x128x1.size (cc0_transform_3 i) (hinb0_2 i)).WholeWords (EltTy.packing .f32)

variable [Facts₀]

abbrev cc0_scratch1 : DmaSems sig S128 := SemArray.consecutive 6 S128 hcc0_scratch1

abbrev spec0_0 : Pipeline.WinSpec sig grid0.rank :=
  Pipeline.WinSpec.ofSpec (Memref.whole main_arg1) S1x128x4.size reads0_0 false false 2 stage0_0 sem0_0 nbuf0_0 hstage0_0

abbrev spec0_1 : Pipeline.WinSpec sig grid0.rank :=
  Pipeline.WinSpec.ofSpec (Memref.whole main_v9) S1x128x1.size reads0_1 false false 2 stage0_1 sem0_1 nbuf0_1 hstage0_1

abbrev spec0_2 : Pipeline.WinSpec sig grid0.rank :=
  Pipeline.WinSpec.ofSpec (Memref.whole main_v10) S1x128x1.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_1 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S128x256x256x4 : Shape := ⟨4, ![128, 256, 256, 4]⟩
abbrev S128x128x4 : Shape := ⟨3, ![128, 128, 4]⟩
abbrev S128x128 : Shape := ⟨2, ![128, 128]⟩
abbrev S128x128x3 : Shape := ⟨3, ![128, 128, 3]⟩
abbrev S4 : Shape := ⟨1, ![4]⟩
abbrev S128x65536x4 : Shape := ⟨3, ![128, 65536, 4]⟩
abbrev S1x1x4 : Shape := ⟨3, ![1, 1, 4]⟩
abbrev S_ : Shape := ⟨0, ![]⟩
abbrev S128x128x1 : Shape := ⟨3, ![128, 128, 1]⟩
abbrev S128x128x2 : Shape := ⟨3, ![128, 128, 2]⟩

abbrev nBuf : Space → Nat
  | .hbm => 121
  | .vmem => 0
  | .smem => 0
  | _ => 0

abbrev bufTy : (tb : Table) → Fin (tcTables nBuf tb) → BufTy
  | .hbm, ⟨0, _⟩ => ⟨S128x256x256x4, .f32⟩
  | .hbm, ⟨1, _⟩ => ⟨S128x128x4, .f32⟩
  | .hbm, ⟨2, _⟩ => ⟨S128x128, .f32⟩
  | .hbm, ⟨3, _⟩ => ⟨S128x128x3, .i32⟩
  | .hbm, ⟨4, _⟩ => ⟨S4, .f32⟩
  | .hbm, ⟨5, _⟩ => ⟨S128x65536x4, .f32⟩
  | .hbm, ⟨6, _⟩ => ⟨S1x1x4, .f32⟩
  | .hbm, ⟨7, _⟩ => ⟨S128x65536x4, .f32⟩
  | .hbm, ⟨8, _⟩ => ⟨S128x65536x4, .f32⟩
  | .hbm, ⟨9, _⟩ => ⟨S_, .f32⟩
  | .hbm, ⟨10, _⟩ => ⟨S_, .f32⟩
  | .hbm, ⟨11, _⟩ => ⟨S128x128x1, .i32⟩
  | .hbm, ⟨12, _⟩ => ⟨S128x128, .i32⟩
  | .hbm, ⟨13, _⟩ => ⟨S128x128x1, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128x1, .i32⟩
  | .hbm, ⟨30, _⟩ => ⟨S128x128x1, .i32⟩
  | .hbm, ⟨31, _⟩ => ⟨S128x128x2, .i32⟩
  | .hbm, ⟨32, _⟩ => ⟨S128x128x4, .f32⟩
  | .hbm, ⟨33, _⟩ => ⟨S128x128x1, .f32⟩
  | .hbm, ⟨34, _⟩ => ⟨S128x128x1, .f32⟩
  | .hbm, ⟨35, _⟩ => ⟨S128x128x1, .f32⟩
  | .hbm, ⟨36, _⟩ => ⟨S128x128x1, .f32⟩
  | .hbm, ⟨37, _⟩ => ⟨S128x128x1, .f32⟩
  | .hbm, ⟨38, _⟩ => ⟨S128x128x1, .f32⟩
  | .hbm, ⟨39, _⟩ => ⟨S128x128x1, .f32⟩
  | .hbm, ⟨40, _⟩ => ⟨S128x128x1, .f32⟩
  | .hbm, ⟨41, _⟩ => ⟨S128x128x1, .f32⟩
  | .hbm, ⟨42, _⟩ => ⟨S_, .f32⟩
  | .hbm, ⟨43, _⟩ => ⟨S128x128x1, .f32⟩
  | .hbm, ⟨44, _⟩ => ⟨S128x128x1, .f32⟩
  | .hbm, ⟨45, _⟩ => ⟨S128x128x1, .f32⟩
  | .hbm, ⟨46, _⟩ => ⟨S_, .f32⟩
  | .hbm, ⟨47, _⟩ => ⟨S128x128x1, .f32⟩
  | .hbm, ⟨48, _⟩ => ⟨S128x128x1, .f32⟩
  | .hbm, ⟨49, _⟩ => ⟨S128x128x1, .f32⟩
  | .hbm, ⟨50, _⟩ => ⟨S128x128x1, .f32⟩
  | .hbm, ⟨51, _⟩ => ⟨S_, .f32⟩
  | .hbm, ⟨52, _⟩ => ⟨S128x128x1, .f32⟩
  | .hbm, ⟨53, _⟩ => ⟨S128x128x1, .f32⟩
  | .hbm, ⟨54, _⟩ => ⟨S128x128x1, .f32⟩
  | .hbm, ⟨55, _⟩ => ⟨S_, .f32⟩
  | .hbm, ⟨56, _⟩ => ⟨S128x128x1, .f32⟩
  | .hbm, ⟨57, _⟩ => ⟨S128x128x1, .f32⟩
  | .hbm, ⟨58, _⟩ => ⟨S128x128x1, .f32⟩
  | .hbm, ⟨59, _⟩ => ⟨S128x128x1, .f32⟩
  | .hbm, ⟨60, _⟩ => ⟨S128x128x1, .f32⟩
  | .hbm, ⟨61, _⟩ => ⟨S128x128x1, .f32⟩
  | .hbm, ⟨62, _⟩ => ⟨S128x128x1, .f32⟩
  | .hbm, ⟨63, _⟩ => ⟨S128x128x1, .f32⟩
  | .hbm, ⟨64, _⟩ => ⟨S_, .f32⟩
  | .hbm, ⟨65, _⟩ => ⟨S128x128x1, .f32⟩
  | .hbm, ⟨66, _⟩ => ⟨S128x128x1, .f32⟩
  | .hbm, ⟨67, _⟩ => ⟨S128x128x1, .f32⟩
  | .hbm, ⟨68, _⟩ => ⟨S_, .f32⟩
  | .hbm, ⟨69, _⟩ => ⟨S128x128x1, .f32⟩
  | .hbm, ⟨70, _⟩ => ⟨S128x128x1, .f32⟩
  | .hbm, ⟨71, _⟩ => ⟨S128x128x1, .f32⟩
  | .hbm, ⟨72, _⟩ => ⟨S128x128x1, .f32⟩
  | .hbm, ⟨73, _⟩ => ⟨S128x128x1, .f32⟩
  | .hbm, ⟨74, _⟩ => ⟨S_, .f32⟩
  | .hbm, ⟨75, _⟩ => ⟨S128x128x1, .f32⟩
  | .hbm, ⟨76, _⟩ => ⟨S128x128x1, .i1⟩
  | .hbm, ⟨77, _⟩ => ⟨S_, .f32⟩
  | .hbm, ⟨78, _⟩ => ⟨S_, .f32⟩
  | .hbm, ⟨79, _⟩ => ⟨S128x128x1, .f32⟩
  | .hbm, ⟨80, _⟩ => ⟨S128x128x1, .f32⟩
  | .hbm, ⟨81, _⟩ => ⟨S128x128x1, .f32⟩
  | .hbm, ⟨82, _⟩ => ⟨S_, .f32⟩
  | .hbm, ⟨83, _⟩ => ⟨S_, .f32⟩
  | .hbm, ⟨84, _⟩ => ⟨S128x128x1, .f32⟩
  | .hbm, ⟨85, _⟩ => ⟨S128x128x1, .f32⟩
  | .hbm, ⟨86, _⟩ => ⟨S128x128x1, .f32⟩
  | .hbm, ⟨87, _⟩ => ⟨S128x128x1, .f32⟩
  | .hbm, ⟨88, _⟩ => ⟨S128x128x1, .f32⟩
  | .hbm, ⟨89, _⟩ => ⟨S128x128x1, .f32⟩
  | .hbm, ⟨90, _⟩ => ⟨S128x128x1, .f32⟩
  | .hbm, ⟨91, _⟩ => ⟨S_, .f32⟩
  | .hbm, ⟨92, _⟩ => ⟨S128x128x1, .f32⟩
  | .hbm, ⟨93, _⟩ => ⟨S128x128x1, .f32⟩
  | .hbm, ⟨94, _⟩ => ⟨S128x128x1, .f32⟩
  | .hbm, ⟨95, _⟩ => ⟨S_, .f32⟩
  | .hbm, ⟨96, _⟩ => ⟨S128x128x1, .f32⟩
  | .hbm, ⟨97, _⟩ => ⟨S128x128x1, .f32⟩
  | .hbm, ⟨98, _⟩ => ⟨S128x128x1, .f32⟩
  | .hbm, ⟨99, _⟩ => ⟨S128x128x1, .f32⟩
  | .hbm, ⟨100, _⟩ => ⟨S_, .f32⟩
  | .hbm, ⟨101, _⟩ => ⟨S128x128x1, .f32⟩
  | .hbm, ⟨102, _⟩ => ⟨S128x128x1, .i1⟩
  | .hbm, ⟨103, _⟩ => ⟨S_, .f32⟩
  | .hbm, ⟨104, _⟩ => ⟨S_, .f32⟩
  | .hbm, ⟨105, _⟩ => ⟨S128x128x1, .f32⟩
  | .hbm, ⟨106, _⟩ => ⟨S128x128x1, .f32⟩
  | .hbm, ⟨107, _⟩ => ⟨S128x128x1, .f32⟩
  | .hbm, ⟨108, _⟩ => ⟨S_, .f32⟩
  | .hbm, ⟨109, _⟩ => ⟨S_, .f32⟩
  | .hbm, ⟨110, _⟩ => ⟨S128x128x1, .f32⟩
  | .hbm, ⟨111, _⟩ => ⟨S128x128x1, .f32⟩
  | .hbm, ⟨112, _⟩ => ⟨S128x128x1, .f32⟩
  | .hbm, ⟨113, _⟩ => ⟨S_, .f32⟩
  | .hbm, ⟨114, _⟩ => ⟨S128x128x1, .f32⟩
  | .hbm, ⟨115, _⟩ => ⟨S128x128x1, .f32⟩
  | .hbm, ⟨116, _⟩ => ⟨S128x128, .f32⟩
  | .hbm, ⟨117, _⟩ => ⟨S128x128, .f32⟩
  | .hbm, ⟨118, _⟩ => ⟨S_, .f32⟩
  | .hbm, ⟨119, _⟩ => ⟨S_, .f32⟩
  | .hbm, ⟨120, _⟩ => ⟨S_, .f32⟩
  | _, _ => ⟨S128x256x256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_call0_v0 : Ref sig .tc := ⟨.hbm, 78, rfl⟩
abbrev main_call0_v1 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_call2_v0 : Ref sig .tc := ⟨.hbm, 104, rfl⟩
abbrev main_call2_v1 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_call3_v0 : Ref sig .tc := ⟨.hbm, 109, rfl⟩
abbrev main_call3_v1 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]

class Facts₀ : Prop where
  shapeCasts_S128x256x256x4_S128x65536x4 : S128x256x256x4.ShapeCasts S128x65536x4
  bcast_S4_S1x1x4_2 : S4.BroadcastsInDim S1x1x4 (![2] : Fin 1 → Fin S1x1x4.rank)
  bcast_S1x1x4_S128x65536x4_0_1_2 : S1x1x4.BroadcastsInDim S128x65536x4 (![0, 1, 2] : Fin 3 → Fin S128x65536x4.rank)
  reducesTo_S128x128_S_d0_1 : S128x128.ReducesTo [0, 1] S_
  h_S_ : 0 < S_.numel
  slices_S128x128x3_S128x128x1_0_0_0 : S128x128x3.Slices ![0, 0, 0] S128x128x1
  shapeCasts_S128x128x1_S128x128 : S128x128x1.ShapeCasts S128x128
  slices_S128x128x3_S128x128x1_0_0_1 : S128x128x3.Slices ![0, 0, 1] S128x128x1
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  concatenates_S128x128x1_S128x128x1_S128x128x2_d2 : Shape.Concatenates [S128x128x1, S128x128x1] S128x128x2 2
  slices_S128x128x4_S128x128x1_0_0_0 : S128x128x4.Slices ![0, 0, 0] S128x128x1
  slices_S128x128x4_S128x128x1_0_0_1 : S128x128x4.Slices ![0, 0, 1] S128x128x1
  slices_S128x128x4_S128x128x1_0_0_2 : S128x128x4.Slices ![0, 0, 2] S128x128x1
  slices_S128x128x4_S128x128x1_0_0_3 : S128x128x4.Slices ![0, 0, 3] S128x128x1
  bcast_S_S128x128x1 : S_.BroadcastsInDim S128x128x1 (![] : Fin 0 → Fin S128x128x1.rank)
  gather_S128x65536x4_S128x128x2_S128x128x4_2_01_n_n_01_2_114_wf : GatherDims.WF S128x65536x4 S128x128x2 S128x128x4 [2] [0, 1] [] [0, 1] [] 2 ![1, 1, 4]

variable [Facts₀]

def gather_S128x65536x4_S128x128x2_S128x128x4_2_01_n_n_01_2_114 : GatherDims S128x65536x4 S128x128x2 S128x128x4 where
  offsetDims := [2]
  collapsedSliceDims := [0, 1]
  operandBatchingDims := []
  startIndicesBatchingDims := []
  startIndexMap := [0, 1]
  indexVectorDim := 2
  sliceSizes := ![1, 1, 4]
  wf := gather_S128x65536x4_S128x128x2_S128x128x4_2_01_n_n_01_2_114_wf

class Facts : Prop extends Facts₀ where

variable [Facts]
-- ==== Proof.KRuns.lean ====
import proofs.«412085_j52218212385067_2_alg».proof.Proof.Gen.Kernel.Launch
import proofs.«412085_j52218212385067_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s TensorCore buffer contents when the region is entered, as a valuation: the launch contents after the
    three stretches of host operations that precede the region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host operation of the program allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the three stretches of host operations before it, the region, the stretch after it.
    It reduces to the region continued by the later stretch, at the contents after the earlier ones. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The operand left in HBM that the body copies rows of by transfers of its own. -/
def H0 : Finset (Ref sig .tc) := {main_v0}
theorem H0_sub : H0 ⊆ Pipeline.restRefsP sig pre0 spec0 := by decide

/-- The operations after the region touch the pipeline's arrays and the bypassing buffers only, and neither the
    prefetched table nor the operand the body moves itself. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  refine Pipeline.sub_tailRefsBut pre0 spec0 H0 op ((List.forall_iff_forall_mem.mp hostOps1_sub) op hop) (fun k => ?_) (fun b hb => ?_)
  · -- the table is no operand and no result of a later operation
    have hk : pre0.ref k = main_v8 := by fin_cases k; rfl
    rw [hk]
    simp only [hostOps1, List.mem_cons, List.mem_nil_iff, or_false] at hop
    rcases hop with rfl | rfl | rfl | rfl | rfl <;>
      simp only [StableHlo.nullary_bufs, StableHlo.binary_bufs, Finset.mem_insert, Finset.mem_singleton, not_or] <;>
      (try refine ⟨?_, ?_, ?_⟩) <;> exact StableHlo.devRef_ne_of_ne (by decide)
  · -- nor is the operand the body moves itself
    rw [H0, Finset.mem_singleton] at hb
    subst hb
    simp only [hostOps1, List.mem_cons, List.mem_nil_iff, or_false] at hop
    rcases hop with rfl | rfl | rfl | rfl | rfl <;>
      simp only [StableHlo.nullary_bufs, StableHlo.binary_bufs, Finset.mem_insert, Finset.mem_singleton, not_or] <;>
      (try refine ⟨?_, ?_, ?_⟩) <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl
  all_goals
    intro w
    fin_cases w <;> simp only [StableHlo.nullary_writes, StableHlo.binary_writes, Finset.mem_singleton] <;>
      exact StableHlo.devRef_ne_of_ne (by decide)

/-- The host operations before the region write none of the program's arguments. -/
theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results
  try rfl
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results
  try rfl
theorem V_main_arg2 (c : Dev nD) : V m c main_arg2 = m ((c : Thread nD τ).loc main_arg2) := by
  dsimp only [V, V0]
  simp only [hostOps0, hostOps0_1, hostOps0_2, List.flatten_cons, List.flatten_nil, List.append_nil, List.cons_append, List.nil_append]
  after_results
  try rfl
theorem V_main_arg3 (c : Dev nD) : V m c main_arg3 = m ((c : Thread nD τ).loc main_arg3) := by
  dsimp only [V, V0]
  simp only [hostOps0, hostOps0_1, hostOps0_2, List.flatten_cons, List.flatten_nil, List.append_nil, List.cons_append, List.nil_append]
  after_results
  try rfl

/-! ## The prefetched table, read off the contents at the region's entry -/

/-- The table's contents when the region is entered (the program runs on one device: device 0's). -/
def tbl : pre0.Contents (Elt F) := fun j => V m (0 : Dev nD) (pre0.ref j)
/-- On every device the table holds those contents (there is one device). -/
theorem V_pre (c : Dev nD) (j : Fin 1) : V m c (pre0.ref j) = tbl m j := by
  obtain rfl : c = 0 := Subsingleton.elim _ _; rfl
/-- The table's contents as admissible contents (the side condition on them is trivial), and the pipeline at them. -/
abbrev adm : (pcfg0 (F := F)).Adm := ⟨tbl m, trivial⟩
abbrev cfgM : Pipeline.Cfg sig Λ₀ := cfg0 (adm m)

/-- The table, the operand left in HBM and the scratch as the body is handed them: whole buffers as memrefs. -/
abbrev tbM : Memref sig .tc .smem S128x128 .i32 := Memref.whole main_v8
abbrev hbM : Memref sig .tc .hbm S8388608x4 .f32 := Memref.whole main_v0
abbrev scM : Memref sig .tc .vmem S128x4 .f32 := Memref.whole cc0_scratch0

/-- Memref `M`'s buffer on core `c` held whole at share `q` and contents `f`. -/
abbrev ptAt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

/-- The table's half the region hands the body. -/
theorem PhiT0_eq (c : Dev nD) : (Pipeline.ΦT pre0 (tbl m) c : sProp 𝕄) = ptAt c tbM fullShare.right (tbl m 0) := by
  unfold Pipeline.ΦT Pipeline.prefHeld
  rw [show (Finset.univ : Finset (Fin 1)) = {(0 : Fin 1)} from by decide, bigSep_singleton]
  rfl

/-! ## The body's own DMA semaphores and the operand it moves -/

/-- The body's own DMA semaphores, cell by cell: the pool's numbers 6 … 133. -/
abbrev osem0 : Fin 128 → SemLoc sig := fun j => SemLoc.dma ⟨6 + j.val, by have := j.isLt; show 6 + j.val < 134; omega⟩
/-- They are scoped, pairwise distinct, and none is a window's staging semaphore. -/
theorem ownSemFacts0 : Pipeline.OwnSemFacts spec0 osem0 := by decide +kernel

/-- The moved operand's points-to at the region-entry contents. -/
theorem hbmPts0_eq (c : Dev nD) :
    (bigSep H0 (fun b => ((c : Thread nD τ).loc b) ↦{fullShare} V m c b) : sProp 𝕄) = ptAt c hbM fullShare (V m c main_v0) := by
  rw [BI.bigSep_eq_bigSepL_of_eq [main_v0] (by decide) (by decide)]; rfl

/-- The invariant of a body with transfers of its own, conjunct by conjunct: the scratch owned at some contents, the
    generator register at some state, the own cells at zero (kept as one term), the HBM operand at its region-entry
    contents. -/
theorem PhiD0_eq (c : Dev nD) :
    (Pipeline.ΦD osem0 spec0 H0 (V m) c : sProp 𝕄)
      = iprop((∃ d, owns (c : Thread nD τ) scM fullShare d) ∗ (∃ r, prngReg c r)
          ∗ Pipeline.ownSems0 (Ix := Unit) (Name := ℕ) (U := Pipeline.UD sig nD τ) (Lvl := ℕ) (Val := Elt F) (τ := τ) osem0 c
          ∗ ptAt c hbM fullShare (V m c main_v0)) := by
  rw [Pipeline.ΦD_eq, scopedRest0_eq, hbmPts0_eq]; simp only [scM, owns_whole]; try rfl

/-! ## The windows' staging memrefs and blocks -/

/-- Each window's current staging memref at point `t`, as the pipeline passes it to the body, and its wholeness. -/
abbrev ms0_0 (t : Fin (cfgM m).N) : Memref sig .tc .vmem S1x128x4 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x128x1 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x128x1 .f32 := spec0_2.stage ((cfgM m).slots t 2)
abbrev hs0_2 (t : Fin (cfgM m).N) : (ms0_2 m t).IsWhole := hstage0_2 (((cfgM m).slots t 2).cast nbuf0_2)

/-- One staging buffer of the output window, through which its contents are stated. -/
abbrev VO0_2 : View sig .tc .vmem S1x128x1 .f32 := (Memref.whole cc0_stg2_0 : Memref sig .tc .vmem S1x128x1 .f32).view

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (Pipeline.UD sig nD τ) ℕ (cfgM m) c)
    (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before0_1_of {c : Dev nD} (dat : Dat τ (Elt F) Unit ℕ (Pipeline.UD sig nD τ) ℕ (cfgM m) c)
    (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No operation after the region writes a buffer other than the five results of those operations. -/
theorem hostOps1_keeps (b : Ref sig .tc) (h0 : b ≠ main_cst) (h1 : b ≠ main_v11) (h2 : b ≠ main_cst_2) (h3 : b ≠ main_v12)
    (h4 : b ≠ main_v13) : ∀ op ∈ (hostOps1 : List (HloOp τ sig (Elt F))), Proc.devRef (τ := τ) .tc b ∉ op.writes := by
  intro op hop
  simp only [hostOps1, List.mem_cons, List.mem_nil_iff, or_false] at hop
  rcases hop with rfl | rfl | rfl | rfl | rfl <;>
    simp only [StableHlo.nullary_writes, StableHlo.binary_writes, Finset.mem_singleton] <;>
    exact StableHlo.devRef_ne_of_ne ‹_›

/-- A buffer that is no array of the pipeline and that no later operation writes holds, after the later operations,
    its region-entry contents. -/
theorem afterTail_keeps (dats : (p : Fin 1) → (c : Dev nD) → Dat τ (Elt F) Unit ℕ (Pipeline.UD sig nD τ) ℕ ((Pipeline.pin pcfgs fun _ => adm m) p) c)
    (c : Dev nD) (b : Ref sig .tc) (harr : ∀ w, Pipeline.arrRef spec0 w ≠ b)
    (hw : ∀ op ∈ (hostOps1 : List (HloOp τ sig (Elt F))), Proc.devRef (τ := τ) .tc b ∉ op.writes) :
    Pipeline.afterTail pcfgs (fun _ => adm m) dats 0 (V0 m) [hostOps1] c b = V m c b := by
  unfold Pipeline.afterTail
  rw [StableHlo.after_of_forall_not_mem _ _ (fun op hop => hw op (by simpa only [List.flatten_cons, List.flatten_nil, List.append_nil] using hop))]
  exact Pipeline.withArrays_of_ne _ c (V0 m c) _ b harr

/-- The frame from a frame run: for any proof data whose arrays are the region-entry contents, a run to the frame
    post at the contents after the later host operations, read at the argument arrays — the staged input by the
    input window's array being kept, the three bypassing arguments by no later operation writing them — is the frame
    claim's post. -/
theorem frame_of (dats : (p : Fin 1) → (c : Dev nD) → Dat τ (Elt F) Unit ℕ (Pipeline.UD sig nD τ) ℕ ((Pipeline.pin pcfgs fun _ => adm m) p) c)
    (hA : ∀ c w, (dats 0 c).A w = V m c (Pipeline.arrRef spec0 w))
    (h : θ_run defs (onTc (τ := τ) (main (F := F))) (s₀ m ρ)
      (Pipeline.FramePost (Pipeline.pin pcfgs fun _ => adm m) dats 0 (Pipeline.afterTail pcfgs (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (show main_arg0 ∈ Pipeline.restRefs sig spec0 from Pipeline.mem_restRefs_of main_arg0 (by decide) (by decide))).trans
        ((afterTail_keeps m dats c main_arg0 (by decide)
          (hostOps1_keeps main_arg0 (by decide) (by decide) (by decide) (by decide) (by decide))).trans (V_main_arg0 m c)),
      ((h c).1 0).trans (((dats 0 c).arrAt_in 0 rfl _).trans ((hA c 0).trans (V_main_arg1 m c))),
      ((h c).2 main_arg2 (show main_arg2 ∈ Pipeline.restRefs sig spec0 from Pipeline.mem_restRefs_of main_arg2 (by decide) (by decide))).trans
        ((afterTail_keeps m dats c main_arg2 (by decide)
          (hostOps1_keeps main_arg2 (by decide) (by decide) (by decide) (by decide) (by decide))).trans (V_main_arg2 m c)),
      ((h c).2 main_arg3 (show main_arg3 ∈ Pipeline.restRefs sig spec0 from Pipeline.mem_restRefs_of main_arg3 (by decide) (by decide))).trans
        ((afterTail_keeps m dats c main_arg3 (by decide)
          (hostOps1_keeps main_arg3 (by decide) (by decide) (by decide) (by decide) (by decide))).trans (V_main_arg3 m c))⟩) h

end Cert.Kernel.Hand

end
-- ==== Proof.Chains.lean ====
/-
  Long separating conjunctions, by their length.

  The kernel issues 128 copies, each on a semaphore of its own and each reading the same array, so its run holds 128
  counters and 128 read shares at once.  A conjunction  P 0 ∗ P 1 ∗ … ∗ P 127  is written, introduced, split and
  re-established here from its length and a name prefix, so that no statement or proof spells 128 conjuncts out.
-/
import Idealize.ShloMosaic.Lib.Tactic
import Idealize.ShloMosaic.Lib.HeldBySlice

open Idealize.SL Idealize.SL.RA Idealize.SL.BI
open scoped Idealize.SL.BI
open Idealize.SL.BI.BIBase Idealize.SL.BI.Laws Idealize.SL.ProofMode

namespace Cert.Chains
open Lean Elab Tactic Term

/-- introduce a right-nested separating conjunction of n hypotheses, named pre0 … pre(n-1) -/
elab "iintro_chain " pre:ident n:num : tactic => do
  let mut alts : Array (TSyntax `Idealize.SL.ProofMode.icasesPatAlts) := #[]
  for i in [0:n.getNat] do
    let id := mkIdent (Name.mkSimple s!"{pre.getId}{i}")
    let p ← `(icasesPat| $id:ident)
    alts := alts.push (← `(Idealize.SL.ProofMode.icasesPatAlts| $p:icasesPat))
  let big ← `(icasesPat| ⟨$alts,*⟩)
  evalTactic (← `(tactic| iintro $big:icasesPat))

/-- split a hypothesis that is a right-nested separating conjunction of n conjuncts -/
elab "icases_chain " h:ident " with " pre:ident n:num : tactic => do
  let mut alts : Array (TSyntax `Idealize.SL.ProofMode.icasesPatAlts) := #[]
  for i in [0:n.getNat] do
    let id := mkIdent (Name.mkSimple s!"{pre.getId}{i}")
    let p ← `(icasesPat| $id:ident)
    alts := alts.push (← `(Idealize.SL.ProofMode.icasesPatAlts| $p:icasesPat))
  let big ← `(icasesPat| ⟨$alts,*⟩)
  evalTactic (← `(tactic| icases $h:ident with $big:icasesPat))

/-- close a goal that is the right-nested separating conjunction of the hypotheses pre0 … pre(n-1), each given exactly -/
elab "iexact_chain " pre:ident n:num : tactic => do
  let k := n.getNat
  for i in [0:k] do
    let id := mkIdent (Name.mkSimple s!"{pre.getId}{i}")
    if i + 1 < k then
      evalTactic (← `(tactic| (isplitl [$id:ident]; · iexact $id:ident)))
    else
      evalTactic (← `(tactic| iexact $id:ident))

/-- the list of the n numerals 0 … n-1 -/
elab "num_list% " n:num : term <= ty => do
  let xs : Array (TSyntax `term) := (Array.range n.getNat).map fun i => quote i
  elabTerm (← `([$xs,*])) ty

/-- replace every occurrence of the identifier x in a syntax tree by the numeral k; an identifier whose last
    component contains "_kk_" names the k-th of a family of facts: "_kk_" becomes "_k_" there -/
partial def substNum (x : Name) (k : Nat) (stx : Syntax) : Syntax :=
  match stx with
  | .ident info raw n pre =>
    if n == x then (quote k : TSyntax `term).raw
    else match n with
      | .str p s =>
        if (s.splitOn "_kk_").length > 1 then
          let s' := s.replace "_kk_" s!"_{k}_"
          .ident info s'.toSubstring (.str p s') pre
        else stx
      | _ => stx
  | .node info kind args => .node info kind (args.map (substNum x k))
  | _ => stx

/-- the term  body[off] ∗ body[off+1] ∗ … ∗ body[off+n-1] , the bound name replaced by each numeral -/
elab "sep_chain% " n:num off:num " fun " x:ident " => " body:term : term <= ty => do
  let k := n.getNat
  let o := off.getNat
  if k = 0 then throwError "sep_chain%: empty"
  let inst (i : Nat) : TSyntax `term := ⟨substNum x.getId i body.raw⟩
  let mut acc : TSyntax `term := inst (o + k - 1)
  for j in [0:k-1] do
    let i := o + (k - 2 - j)
    acc ← `(iprop($(inst i) ∗ $acc))
  elabTerm acc ty

/-- the left-nested difference  base \ body[0] \ body[1] \ … \ body[n-1] -/
elab "sdiff_chain% " n:num base:term:max " fun " x:ident " => " body:term : term <= ty => do
  let mut acc : TSyntax `term := base
  for i in [0:n.getNat] do
    let b : TSyntax `term := ⟨substNum x.getId i body.raw⟩
    acc ← `(($acc \ $b))
  elabTerm acc ty

/-- the list  [body[0], …, body[n-1]] -/
elab "list_chain% " n:num " fun " x:ident " => " body:term : term <= ty => do
  let xs : Array (TSyntax `term) := (Array.range n.getNat).map fun i => ⟨substNum x.getId i body.raw⟩
  elabTerm (← `([$xs,*])) ty

/-- close the chain  (∃ f, piece 0) ∗ … ∗ (∃ f, piece (n-1)) ∗ emp  from the row hypotheses pre0 … pre(n-1) by the lemma lem (applied to the device, the row number, the row's bound fact, and the row's earlier contents and payload) -/
elab "pieces_chain " lem:ident pre:ident n:num : tactic => do
  let k := n.getNat
  for i in [0:k] do
    let id := mkIdent (Name.mkSimple s!"{pre.getId}{i}")
    let fact := mkIdent (Name.mkSimple s!"inb_S128x4_S1x4_{i}_0")
    evalTactic (← `(tactic| (isplitl [$id:ident]; · iapply ($lem:ident _ $(quote i) $fact _ _); iexact $id:ident)))
  evalTactic (← `(tactic| iempintro))

/-- join rows: from the row hypotheses pre(off) … pre(off+n-1) and the rest hypothesis, by the join theorem lem at device dev, obtain the hypothesis new -/
elab "ijoin_rows " lem:ident dev:ident n:num m:num pre:ident off:num rest:ident " => " new:ident : tactic => do
  let k := n.getNat
  let mm := m.getNat
  let o := off.getNat
  let names : Array String := (Array.range k).map fun i => s!"{pre.getId}{i + o}"
  let ids : Array Ident := names.map fun s => mkIdent (Name.mkSimple s)
  let holes := String.intercalate " " (List.replicate (2 * k + mm + 1) "_")
  let frames := String.intercalate " " (names.toList ++ [toString rest.getId])
  let txt := s!"ihave {new.getId} := ({lem.getId} {dev.getId} {holes}) $$ [{frames}]"
  let stx ← match Parser.runParserCategory (← getEnv) `tactic txt with
    | .ok stx => pure stx
    | .error e => throwError "ijoin_rows: {e}"
  evalTactic stx
  -- the premise: the rows' chain, then the rest
  evalTactic (← `(tactic| isplitr [$rest:ident]))
  for i in [0:k] do
    let id := ids[i]!
    if i + 1 < k then
      evalTactic (← `(tactic| (isplitl [$id:ident]; · iexact $id:ident)))
    else
      evalTactic (← `(tactic| iexact $id:ident))
  evalTactic (← `(tactic| iexact $rest:ident))

/-- split the goal  A ∗ B  giving the left side exactly the hypotheses pre(off) … pre(off+n-1) and the extra ones listed -/
elab "isplitl_chain " pre:ident n:num off:num extra:ident* : tactic => do
  let k := n.getNat
  let o := off.getNat
  let ids : Array Ident := ((Array.range k).map fun i => mkIdent (Name.mkSimple s!"{pre.getId}{i + o}")) ++ extra
  evalTactic (← `(tactic| isplitl [$ids*]))

end Cert.Chains
-- ==== Proof.KRun.lean ====
import proofs.«412085_j52218212385067_2_alg».proof.Proof.Gen.Kernel.Launch
import proofs.«412085_j52218212385067_2_alg».proof.Proof.Gen.Kernel.Skeleton
import proofs.«412085_j52218212385067_2_alg».proof.Proof.KRuns
import proofs.«412085_j52218212385067_2_alg».proof.Proof.Chains
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Cert.Chains

/-- row k of the scratch, as the body names a copy's destination -/
abbrev rowR (k : Nat) (h : ∀ a, (![k, 0] : Fin 2 → Nat) a + S1x4.size a ≤ S128x4.size a) : Rect S128x4 := Rect.unit (s := S128x4) ![k, 0] S1x4.size h
abbrev rowM (k : Nat) (h : ∀ a, (![k, 0] : Fin 2 → Nat) a + S1x4.size a ≤ S128x4.size a) : Memref sig .tc .vmem S4 .f32 :=
  ((scM).slice (Rect.unit (s := S128x4) ![k, 0] S1x4.size h) (fun _ => rfl)).squeeze S4 squeezes_S1x4_S4

/-- a list of rectangles checked pairwise separated, each against the ones after it -/
def pairwiseSep {s : Shape} : List (Rect s) → Bool
  | [] => true
  | r :: Rs => LoadRect.disjAll Rs r.toLoadRect && pairwiseSep Rs

theorem pairwise_of_sep {sig : RefSig} {κ : Kind} {sp : Space} {s : Shape} {e : EltTy} (v : View sig κ sp s e) :
    ∀ Rs : List (Rect s), pairwiseSep Rs = true → Rs.Pairwise (fun r r' => Disjoint (v.slice r).set (v.slice r').set)
  | [], _ => List.Pairwise.nil
  | r :: Rs, h => by
    simp only [pairwiseSep, Bool.and_eq_true] at h
    refine List.Pairwise.cons (fun r' hr' => ?_) (pairwise_of_sep v Rs h.2)
    have := List.all_eq_true.mp h.1 r' hr'
    exact (View.disjoint_slice_of_disj v r' r this).symm

theorem rowM_set (k : Nat) (h : ∀ a, (![k, 0] : Fin 2 → Nat) a + S1x4.size a ≤ S128x4.size a) :
    (rowM k h).view.set = (scM.access (rowR k h)).set := by
  simp only [Memref.view_squeeze, Memref.view_slice, View.set_reshape]

/-- one row's piece: a payload written through the row's squeezed slice over any contents is that payload, re-indexed
    to the row's rectangle, written through the rectangle -/
theorem piece_of_row (c : Dev nD) (k : Nat) (h : ∀ a, (![k, 0] : Fin 2 → Nat) a + S1x4.size a ≤ S128x4.size a)
    (f : Buf (Elt F) (scM.view.loc (c : Thread nD τ))) (d : S4.Idx → Elt F .f32) :
    (scM.view.loc (c : Thread nD τ) ↦[(rowM k h).view.set]{fullShare} View.write (Elt F) (rowM k h).view f d Finset.univ : sProp 𝕄)
      ⊢ iprop(∃ f' : Buf (Elt F) (scM.view.loc (c : Thread nD τ)), (scM.access (rowR k h)).loc (c : Thread nD τ) ↦[(scM.access (rowR k h)).set]{fullShare}
          (scM.access (rowR k h)).write (Elt F) f' (fun x => d ((Shape.reshapeEquiv squeezes_S1x4_S4.numel_eq).symm x)) Finset.univ) := by
  rw [rowM_set]
  rw [show View.write (Elt F) (rowM k h).view f d Finset.univ
      = (scM.access (rowR k h)).write (Elt F) f (fun x => d ((Shape.reshapeEquiv squeezes_S1x4_S4.numel_eq).symm x)) Finset.univ from by
    simp only [Memref.view_squeeze, Memref.view_slice]; exact View.write_reshape_univ _ _ _ _]
  iintro H; iexists f; iexact H

/-- pieces whose rectangles are a list checked pairwise separated are pairwise disjoint in the scratch -/
theorem pieces_pairwise (L : List (View.Piece (Elt F) S128x4 .f32)) (Rs : List (Rect S128x4)) (hRs : L.map Sigma.fst = Rs) (h : pairwiseSep Rs = true) :
    L.Pairwise (fun p p' => Disjoint (scM.access p.1).set (scM.access p'.1).set) := by
  subst hRs
  exact (List.pairwise_map (f := Sigma.fst) (R := fun r r' : Rect S128x4 => Disjoint (scM.access r).set (scM.access r').set)).mp (pairwise_of_sep scM.view _ h)

set_option hygiene false in
open Lean Elab Command in
/-- the join of the scratch's rows into the scratch whole, as a theorem named as given: rows 0 … n-1 held one by one,
    row k at a payload d_k_ written over any contents f_k_, and the elements outside them held at contents whose
    m outermost layers are the payloads d_n_ … d_(n+m-1)_ written through rows n … n+m-1 over X, are the scratch
    whole at all n+m rows' payloads written over X -/
elab "rows_join_theorem " name:ident n:num m:num : command => do
  let k := n.getNat
  let mm := m.getNat
  let fs : Array Ident := (Array.range k).map fun i => mkIdent (Name.mkSimple s!"f_{i}_")
  let ds : Array Ident := (Array.range (k + mm)).map fun i => mkIdent (Name.mkSimple s!"d_{i}_")
  let mut inner : Array (TSyntax `term) := #[]
  for j in [0:k] do
    let inb := mkIdent (Name.mkSimple s!"inb_S128x4_S1x4_{j}_0")
    let dj := ds[j]!
    inner := inner.push (← `((⟨rowR $(quote j) $inb, fun x => $dj ((Shape.reshapeEquiv squeezes_S1x4_S4.numel_eq).symm x)⟩ : View.Piece (Elt F) S128x4 .f32)))
  let mut nest : TSyntax `term ← `(X)
  let mut outer : Array (TSyntax `term) := #[]
  for j in [k:k+mm] do
    let inb := mkIdent (Name.mkSimple s!"inb_S128x4_S1x4_{j}_0")
    let dj := ds[j]!
    nest ← `(View.write (Elt F) (rowM $(quote j) $inb).view $nest $dj Finset.univ)
    outer := #[(← `((⟨rowR $(quote j) $inb, fun x => $dj ((Shape.reshapeEquiv squeezes_S1x4_S4.numel_eq).symm x)⟩ : View.Piece (Elt F) S128x4 .f32)))] ++ outer
  let all := inner ++ outer
  let stx ← `(theorem $name (c : Dev nD) ($fs* : Buf (Elt F) (scM.view.loc (c : Thread nD τ))) ($ds* : S4.Idx → Elt F .f32) (X : Buf (Elt F) (scM.view.loc (c : Thread nD τ))) :
      iprop((sep_chain% $n 0 fun k => (scM.view.loc (c : Thread nD τ) ↦[(rowM k inb_S128x4_S1x4_kk_0).view.set]{fullShare} View.write (Elt F) (rowM k inb_S128x4_S1x4_kk_0).view f_kk_ d_kk_ Finset.univ : sProp 𝕄))
        ∗ (scM.view.loc (c : Thread nD τ) ↦[(sdiff_chain% $n Finset.univ fun k => (rowM k inb_S128x4_S1x4_kk_0).view.set)]{fullShare} $nest : sProp 𝕄))
      ⊢ (scM.view.loc (c : Thread nD τ) ↦[scM.view.set]{fullShare} scM.view.writes (Elt F) X
          [$all,*] : sProp 𝕄) := by
    have e : $nest = scM.view.writes (Elt F) X [$outer,*] := by
      simp only [View.writes_cons, View.writes_nil, rowM, rowR, Memref.view_squeeze, Memref.view_slice, View.write_reshape_univ]
    rw [show ([$all,*] : List (View.Piece (Elt F) S128x4 .f32)) = [$inner,*] ++ [$outer,*] from rfl, View.writes_append, ← e]
    iintro ⟨HR, Hrest⟩
    icases_chain HR with HR $n
    iapply (Memref.heldBySlice_join_rest (c : Thread nD τ) scM fullShare _ (pieces_pairwise _ (list_chain% $n fun k => rowR k inb_S128x4_S1x4_kk_0) rfl rfl) _)
    isplitr [Hrest]
    · simp only [Memref.heldBySlice]
      pieces_chain piece_of_row HR $n
    · rw [show (scM.view.set \ Memref.piecesSet (c : Thread nD τ) scM _) = (sdiff_chain% $n Finset.univ fun k => (rowM k inb_S128x4_S1x4_kk_0).view.set) from by
        simp only [Memref.piecesSet, Finset.union_empty, Memref.view_whole, View.set_whole, Memref.view_squeeze, Memref.view_slice, View.set_reshape, sdiff_sdiff_left, Finset.sup_eq_union, Finset.union_assoc]]
      iexact Hrest)
  elabCommand stx

set_option maxHeartbeats 4000000 in
rows_join_theorem joinRows 112 16

abbrev semAt (c : Dev nD) (k : Nat) (h : k < 134 := by decide) : sProp 𝕄 := semVal ((c : Thread nD τ), SemLoc.dma ⟨k, h⟩) 0

/-- the 128 counters at zero, one by one -/
theorem sems_chain (c : Dev nD) :
    (Pipeline.ownSems0 (Ix := Unit) (Name := ℕ) (U := Pipeline.UD sig nD τ) (Lvl := ℕ) (Val := Elt F) (τ := τ) osem0 c : sProp 𝕄)
      = (sep_chain% 128 6 fun k => semAt (F := F) c k) := by
  rw [Pipeline.ownSems0_eq_of_list c osem0 (num_list% 128) (by decide) (by decide)]; rfl

/-- the scratch memref goes through every element of its buffer -/
theorem scM_set : scM.view.set = Finset.univ := by
  simp only [Memref.view_whole, View.set_whole]

/-- the 128 read shares of the array, one by one -/
theorem toks_chain (c : Dev nD) (fh : Buf (Elt F) (hbM.view.loc (c : Thread nD τ))) :
    (BI.bigSep Finset.univ (fun i : Fin 128 => (hbM.view.loc (c : Thread nD τ) ↦{Transfers.shareTok fullShare 128 i} fh : sProp 𝕄)))
      = (sep_chain% 128 0 fun k => ptAt c hbM (Transfers.shareTok fullShare 128 k) fh) := by
  rw [BI.bigSep_univ_eq_bigSepL (num_list% 128) (by decide) (by decide)]; rfl

/-- A loaded table word below the number of rows names a row slice inside the array. -/
theorem chk_of_lt (v : BitVec 32) (h : v.toNat < 8388608) :
    ∀ a : Fin 2, (![v.toNat, 0] : Fin 2 → Nat) a + S1x4.size a ≤ S8388608x4.size a := by
  intro a; fin_cases a
  · show v.toNat + 1 ≤ 8388608; omega
  · show 0 + 4 ≤ 4; omega

set_option sl_exec.dmaWindow true in
set_option maxHeartbeats 40000000 in
/-- The body at one grid point, on any whole staging memrefs: from the two input blocks, the output's and the
    scratch's buffers at anything, the table's half at contents whose words are rows of the array, the 128
    counters at zero, the array left in HBM whole, and the core owing nothing, it runs to the continuation
    with the inputs, the table, the counters and the array as they were, the scratch at some contents, the
    waits recorded, and the output's buffer with the pieces `L` written: each row's copy is started on its
    own counter from a read share of the array, all are waited for, and only then is the scratch read. -/
noncomputable def kernelRun0 (c : Dev nD) (i : grid0.Coords)
    (arg3 : Memref sig .tc .vmem S1x128x4 .f32) (harg3 : arg3.IsWhole) (arg4 : Memref sig .tc .vmem S1x128x1 .f32) (harg4 : arg4.IsWhole)
    (arg5 : Memref sig .tc .vmem S1x128x1 .f32) (harg5 : arg5.IsWhole)
    (x3 : Vec F S1x128x4 .f32) (x4 : Vec F S1x128x1 .f32)
    (T : Buf (Elt F) (tbM.view.loc (c : Thread nD τ))) (hT : ∀ j, (T j).toNat < 8388608)
    (fh : Buf (Elt F) (hbM.view.loc (c : Thread nD τ))) :
    { L : List (View.Piece (Elt F) S1x128x1 .f32) //
      ∀ (W : Waits sig Unit) (K : PUnit → sProp 𝕄),
        iprop(owns (c : Thread nD τ) arg3 fullShare x3 ∗ owns (c : Thread nD τ) arg4 fullShare x4
            ∗ (∃ d, owns (c : Thread nD τ) arg5 fullShare d) ∗ (∃ d, owns (c : Thread nD τ) scM fullShare d)
            ∗ ptAt c tbM fullShare.right T
            ∗ Pipeline.ownSems0 (Ix := Unit) (Name := ℕ) (U := Pipeline.UD sig nD τ) (Lvl := ℕ) (Val := Elt F) (τ := τ) osem0 c
            ∗ ptAt c hbM fullShare fh ∗ owes (c : Thread nD τ) 0 W
            ∗ (iprop(owns (c : Thread nD τ) arg3 fullShare x3 ∗ owns (c : Thread nD τ) arg4 fullShare x4
                ∗ (∃ f, arg5.view.loc (c : Thread nD τ) ↦[arg5.view.set]{fullShare} arg5.view.writes (Elt F) f L)
                ∗ (∃ d, owns (c : Thread nD τ) scM fullShare d)
                ∗ ptAt c tbM fullShare.right T
                ∗ Pipeline.ownSems0 (Ix := Unit) (Name := ℕ) (U := Pipeline.UD sig nD τ) (Lvl := ℕ) (Val := Elt F) (τ := τ) osem0 c
                ∗ ptAt c hbM fullShare fh ∗ (∃ W', owes (c : Thread nD τ) 0 W')) -∗ K ⟨⟩))
          ⊢ wp frame (wpE (defs₀ (F := F)) Variants.none c none) Set.univ
              (cc0__gather_giou_kernel (F := F) i tbM (Memref.isWhole_whole _) hbM (Memref.isWhole_whole _) arg3 harg3 arg4 harg4 arg5 harg5 scM (Memref.isWhole_whole _) cc0_scratch1) K } := by
  refine ⟨?_, fun W K => ?run⟩
  case run =>
    simp only [cc0__gather_giou_kernel_eq_skeleton]; unfold cc0__gather_giou_kernel_skel
    rw [sems_chain]
    unfold owns
    iintro ⟨⟨%f3, %hf3, H3⟩, ⟨%f4, %hf4, H4⟩, ⟨%d5, %f5, -, H5⟩, ⟨%ds, %fs, -, HS⟩, HT, Hq, Hh, HW, Hk⟩
    obtain rfl := harg3.eq_unread hf3
    obtain rfl := harg4.eq_unread hf4
    icases_chain Hq with Hq 128
    -- the scratch's own elements are all of its buffer's
    ihave HSu := (Entails.of_eq (congrArg (fun S => (scM.view.loc (c : Thread nD τ) ↦[S]{fullShare} fs : sProp 𝕄)) scM_set)) $$ HS
    irename HSu => HS
    -- the array as a remainder and one read share per copy
    ihave Hh' := (Transfers.pointsTo_toks_split (Ix := Unit) (Name := ℕ) (U := Pipeline.UD sig nD τ) (Lvl := ℕ) fullShare 128) $$ Hh
    icases Hh' with ⟨Hdrop, Htoks⟩
    ihave Htoks' := (Entails.of_eq (toks_chain c fh)) $$ Htoks
    icases_chain Htoks' with Hh 128
    -- the 128 copies started, the 128 waits: each row of the scratch comes back as a piece of its own
    sl_exec_parts (disch := (first | exact chk_of_lt _ (hT _)))
    -- the rows still held apart and the rest (the last rows already back in it) joined: the scratch whole, every row's
    -- payload a listed write
    ijoin_rows joinRows c 112 16 HS_ 2 HS => HSJ
    -- the scratch read whole, the arithmetic, the store
    sl_exec_parts (disch := (first | exact chk_of_lt _ (hT _)))
    sl_step
    iapply Hk
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [HSJ]
    · iexists _, _; isplitr; swap; · iexact HSJ
      ipureintro; rfl
    isplitl [HT]; · iexact HT
    isplitl_chain Hq 128 0
    · iexact_chain Hq 128
    isplitl_chain Hh 128 0 Hdrop
    · iapply (Transfers.pointsTo_toks_join (Ix := Unit) (Name := ℕ) (U := Pipeline.UD sig nD τ) (Lvl := ℕ) fullShare 128)
      isplitl [Hdrop]; · iexact Hdrop
      iapply (Entails.of_eq (toks_chain c fh).symm)
      iexact_chain Hh 128
    iexists _; iexact HW

end Cert.Kernel.Hand

end
-- ==== Proof.KFrame.lean ====
import proofs.«412085_j52218212385067_2_alg».proof.Proof.Gen.Kernel.Launch
import proofs.«412085_j52218212385067_2_alg».proof.Proof.Gen.Kernel.Skeleton
import proofs.«412085_j52218212385067_2_alg».proof.Proof.KRun
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The side condition on the table -/

/-- Every word of the prefetched table, as the region finds it, is the number of a row of the array left in HBM. -/
abbrev TblOk : Prop := ∀ j, (tbl m 0 j).toNat < 8388608

/-! ## The body at a point -/

/-- The kernel body at point `t`, on what the pipeline calls it with: the table and the HBM operand whole, the
    windows' current staging memrefs, the scratch and the body's own semaphores. -/
abbrev bodyAt0 (t : Fin (cfgM m).N) : Prog (TpuEff nD τ sig (Elt F) Λ₀ .tc) PUnit :=
  cc0__gather_giou_kernel (F := F) (grid0.coords t) tbM (Memref.isWhole_whole _) hbM (Memref.isWhole_whole _)
    (ms0_0 m t) (hs0_0 m t) (ms0_1 m t) (hs0_1 m t) (ms0_2 m t) (hs0_2 m t) scM (Memref.isWhole_whole _) cc0_scratch1

/-! ## What the output window holds after the body -/

/-- The run's pieces for the output window cover its block. -/
theorem cover0_2 (c : Dev nD) (i : grid0.Coords)
    (arg3 : Memref sig .tc .vmem S1x128x4 .f32) (harg3 : arg3.IsWhole) (arg4 : Memref sig .tc .vmem S1x128x1 .f32) (harg4 : arg4.IsWhole)
    (arg5 : Memref sig .tc .vmem S1x128x1 .f32) (harg5 : arg5.IsWhole)
    (x3 : Vec F S1x128x4 .f32) (x4 : Vec F S1x128x1 .f32)
    (T : Buf (Elt F) (tbM.view.loc (c : Thread nD τ))) (hT : ∀ j, (T j).toNat < 8388608)
    (fh : Buf (Elt F) (hbM.view.loc (c : Thread nD τ))) (y : S1x128x1.Idx) :
    ∃ pc ∈ (kernelRun0 c i arg3 harg3 arg4 harg4 arg5 harg5 x3 x4 T hT fh).1, y ∈ pc.1.set :=
  View.cover_of_tiledL (kernelRun0 c i arg3 harg3 arg4 harg4 arg5 harg5 x3 x4 T hT fh).1 S1x128x1.size (by sl_kernel_rfl) y

/-- What the run leaves in the output window's staging buffer: its pieces read back over junk. -/
def out0_2 (c : Dev nD) (i : grid0.Coords)
    (arg3 : Memref sig .tc .vmem S1x128x4 .f32) (harg3 : arg3.IsWhole) (arg4 : Memref sig .tc .vmem S1x128x1 .f32) (harg4 : arg4.IsWhole)
    (arg5 : Memref sig .tc .vmem S1x128x1 .f32) (harg5 : arg5.IsWhole)
    (x3 : Vec F S1x128x4 .f32) (x4 : Vec F S1x128x1 .f32)
    (T : Buf (Elt F) (tbM.view.loc (c : Thread nD τ))) (hT : ∀ j, (T j).toNat < 8388608)
    (fh : Buf (Elt F) (hbM.view.loc (c : Thread nD τ))) : Vec F S1x128x1 .f32 :=
  VO0_2.read (Elt F) (VO0_2.writes (Elt F) VO0_2.junk (kernelRun0 c i arg3 harg3 arg4 harg4 arg5 harg5 x3 x4 T hT fh).1)

/-- What the output window's staging buffer holds after the body at point `t`: the run's contents at the point's
    memrefs, the two input blocks, the table and the HBM operand. -/
def outsAt0 (hT : TblOk m) (c : Dev nD) (t : Fin (cfgM m).N) : Vec F S1x128x1 .f32 :=
  out0_2 c (grid0.coords t) (ms0_0 m t) (hs0_0 m t) (ms0_1 m t) (hs0_1 m t) (ms0_2 m t) (hs0_2 m t)
    (iblk m c 0 t) (iblk m c 1 t) (tbl m 0) hT (V m c main_v0)

/-! ## The pipeline's proof data -/

/-- The proof data of the one pipeline on core `c`: the arrays as the region finds them; after the body at point `t`
    each input's buffer at its block and the output's at `outsAt0`; the invariant of a body with transfers of its own
    together with the table's half; nothing owed; full shares. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => outsAt0 m hT c t
  Φ _ := iprop(Pipeline.ΦD osem0 spec0 H0 (V m) c ∗ Pipeline.ΦT pre0 (tbl m) c)
  q _ := fullShare
  owed _ := 0

/-- The proof data's arrays are the region-entry contents. -/
theorem A_eq (hT : TblOk m) (c : Dev nD) (w : Fin (cfgM m).W) : (dats m hT 0 c).A w = V m c (Pipeline.arrRef spec0 w) := by
  dsimp only [dats]

/-- What the body leaves, window by window. -/
theorem after0_0 (hT : TblOk m) (c : Dev nD) (t : Fin (cfgM m).N) : (dats m hT 0 c).after 0 t = iblk m c 0 t := by
  dsimp only [dats]; try rfl
theorem after0_1 (hT : TblOk m) (c : Dev nD) (t : Fin (cfgM m).N) : (dats m hT 0 c).after 1 t = iblk m c 1 t := by
  dsimp only [dats]; try rfl
theorem after0_2 (hT : TblOk m) (c : Dev nD) (t : Fin (cfgM m).N) : (dats m hT 0 c).after 2 t = outsAt0 m hT c t := by
  dsimp only [dats]; try rfl

/-- Each input's current staging buffer holds its block at every point, fetched there or not. -/
theorem before0_0 (hT : TblOk m) (c : Dev nD) (t : Fin (cfgM m).N) (d) : (dats m hT 0 c).before 0 t d = iblk m c 0 t :=
  before0_0_of m (dats m hT 0 c) (A_eq m hT c 0) (after0_0 m hT c) t d
theorem before0_1 (hT : TblOk m) (c : Dev nD) (t : Fin (cfgM m).N) (d) : (dats m hT 0 c).before 1 t d = iblk m c 1 t :=
  before0_1_of m (dats m hT 0 c) (A_eq m hT c 1) (after0_1 m hT c) t d

/-! ## The body obligation, at a generic point -/

/-- What the body is called with at point `t`, the windows one by one, -/
def bodyPre (hT : TblOk m) (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d))
    ∗ (∃ d, owns (c : Thread nD τ) (ms0_1 m t) fullShare ((dats m hT 0 c).before 1 t d))
    ∗ (∃ d, owns (c : Thread nD τ) (ms0_2 m t) fullShare ((dats m hT 0 c).before 2 t d)))

/-- and what it returns. -/
def bodyPost (hT : TblOk m) (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t)
    ∗ owns (c : Thread nD τ) (ms0_1 m t) fullShare ((dats m hT 0 c).after 1 t)
    ∗ owns (c : Thread nD τ) (ms0_2 m t) fullShare ((dats m hT 0 c).after 2 t))

/-- The body at any point: the inputs' memrefs hold their blocks, so the run applies; the invariant hands the body its
    scratch, its counters at zero, the HBM operand and the table's half, and takes them back as they were; the core's
    recorded waits go in at whatever the points before recorded and come back with this point's. -/
theorem sound_body (hT : TblOk m) (c : Dev nD) (t : Fin (cfgM m).N) (K : PUnit → sProp 𝕄) :
    iprop(bodyPre m hT c t ∗ (bodyPost m hT c t -∗ K ⟨⟩))
      ⊢ wp frame (wpE (defs₀ (F := F)) Variants.none c none) Set.univ (bodyAt0 m t) K := by
  unfold bodyPre bodyPost bodyAt0
  simp only [before0_0, before0_1]
  rw [show (dats m hT 0 c).Φ t.succ = (dats m hT 0 c).Φ t.castSucc from rfl,
    after0_0, after0_1, after0_2]
  rw [show (dats m hT 0 c).Φ t.castSucc
      = iprop(Pipeline.ΦD osem0 spec0 H0 (V m) c ∗ Pipeline.ΦT pre0 (tbl m) c) from rfl, PhiD0_eq, PhiT0_eq]
  unfold Dat.owesAt Pipeline.owesWithin
  rw [show (dats m hT 0 c).owed t.castSucc = 0 from rfl, show (dats m hT 0 c).owed t.succ = 0 from rfl]
  unfold outsAt0
  unfold out0_2
  iintro ⟨⟨⟨⟨HS, Hg, Hq, Hh⟩, HT⟩, ⟨%W, -, HW⟩, ⟨%d0, H0⟩, ⟨%d1, H1⟩, ⟨%d2, H2⟩⟩, Hk⟩
  iapply ((kernelRun0 c (grid0.coords t) _ _ _ _ _ _ (iblk m c 0 t) (iblk m c 1 t) (tbl m 0) hT (V m c main_v0)).2 W K)
  isplitl [H0]; · iexact H0
  isplitl [H1]; · iexact H1
  isplitl [H2]; · iexists _; iexact H2
  isplitl [HS]; · iexact HS
  isplitl [HT]; · iexact HT
  isplitl [Hq]; · iexact Hq
  isplitl [Hh]; · iexact Hh
  isplitl [HW]; · iexact HW
  iintro ⟨H0, H1, ⟨%e2, H2⟩, HS, HT, Hq, Hh, ⟨%W', HW'⟩⟩
  iapply Hk
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (cover0_2 c _ _ _ _ _ _ _ _ _ _ _ _)

/-- The library's body obligation, at every point. -/
theorem body_obligation (hT : TblOk m) (c : Dev nD) :
    BodyObligation (dats (F := F) m hT 0 c) (defs₀ (F := F)) Variants.none () Set.univ := fun t => by
  rw [bigSep_W0, bigSep_W0]
  -- the obligation's program is the body at the point, and no window is idle at any point
  have hprog : (defs₀ (F := F)) .tc (cfgM m).body ((cfgM m).bodyArgs t ((cfgM m).slots t)) = bodyAt0 m t := rfl
  have hi0 : (cfgM m).idle 0 ((cfgM m).grid.coords t) = false := rfl
  have hi1 : (cfgM m).idle 1 ((cfgM m).grid.coords t) = false := rfl
  have hi2 : (cfgM m).idle 2 ((cfgM m).grid.coords t) = false := rfl
  rw [hprog]
  simp only [hi0, hi1, hi2]
  iintro H
  iapply (sound_body m hT c t _)
  isplitl [H]
  · unfold bodyPre; iexact H
  unfold bodyPost
  iintro H; iexact H

/-! ## The run and the frame -/

set_option backward.isDefEq.respectTransparency.types false in
/-- From any memory with zero counters, every weakly fair execution of @main terminates, and every final state has every
    array of the pipeline at what the library computes from the proof data and every other unscoped buffer at its
    contents after the later host operations. -/
theorem run_main (hT : TblOk m) : θ_run defs (onTc (τ := τ) (main (F := F))) (s₀ m ρ)
    (Pipeline.FramePost (Pipeline.pin pcfgs fun _ => adm m) (dats m hT) 0
      (Pipeline.afterTail pcfgs (fun _ => adm m) (dats m hT) 0 (V0 m) [hostOps1])) :=
  Pipeline.θ_run_frameP_dma_around pcfgs (fun _ => adm m) (dats m hT) (0 : Fin 1) launch0 osem0 defs₀ Variants.none
    ownSemFacts0 H0 H0_sub m ρ main
    (hbody := fun c => (body_obligation m hT c).loose) (hshare := fun c => (dats m hT 0 c).share_full fun _ => rfl)
    (howed := fun _ _ => rfl) (V₀ := V0 m) (opss := [hostOps1]) (hsub := sfx_sub) (hfresh := sfx_fresh) (hkeep := sfx_keeps)
    (hmain := hmain m Variants.none) (hA := A_eq m hT) (hpf := V_pre m)
    (hin := fun _ => .rfl) (hout := fun c => show iprop(Pipeline.ΦD osem0 spec0 H0 (V m) c ∗ Pipeline.ΦT pre0 (tbl m) c) ⊢ Pipeline.ΦD osem0 spec0 H0 (V m) c from by
      iintro ⟨HD, -⟩; iexact HD)

/-- The frame: the program runs and its four argument arrays end unchanged, for every contents of the table whose
    words are rows of the array. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m hT) (A_eq m hT) (run_main m ρ hT)

end Cert.Kernel.Hand

end
-- ==== Proof.IndexFacts.lean ====
/-
  THE INDEX ARRAY'S TWO COLUMNS AND THE FLAT ROW MADE OF THEM. The index array is [128, 128, 3] of 32-bit words; column 0
  is a batch number, column 1 a position. The precondition says, signed, 0 ≤ batch < 128 and 0 ≤ position < 65536 at
  every (b, j); a word in [0, n) signed is below n unsigned, which is how the range is used (InRange, inRange_of_pre).
  The flat row is clip(batch * 65536 + position, 0, 8388607) in 32-bit arithmetic (tblOf): whatever the words, the clip
  leaves a value below 8388608 (tblOf_lt); in range, 127 * 65536 + 65535 = 8388607, so neither the product nor the
  sum wraps and the clip is the identity (tblOf_eq).
-/
import proofs.«412085_j52218212385067_2_alg».proof.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.IndexFacts

open Idealize.ShloMosaic Idealize.ShloMosaic.ValueIdx

abbrev SIdx : Shape := ⟨3, ![128, 128, 3]⟩
abbrev STab : Shape := ⟨2, ![128, 128]⟩
/-- One column of the index array, still with its unit axis. -/
abbrev SCol : Shape := ⟨3, ![128, 128, 1]⟩

/-- both index columns in range, as unsigned values -/
def InRange (idx : IVec SIdx 32) : Prop :=
  ∀ (b j : Fin 128), (idx (ValueIdx.ix3 b j (0 : Fin 3))).toNat < 128 ∧ (idx (ValueIdx.ix3 b j (1 : Fin 3))).toNat < 65536

/-! ## Words -/

/-- A word in [0, n) signed is below n unsigned: nonnegative signed means the top bit is clear, so the signed and the
    unsigned readings agree. -/
theorem toNat_lt_of_signed {w : BitVec 32} (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hlt : 2 * w.toNat < 2 ^ 32 := BitVec.toInt_pos_iff.mp h0
  rw [BitVec.toInt_eq_toNat_of_lt hlt] at h1
  omega

/-- The clip of a word to [0, 8388607]: the signed maximum with 0, then the signed minimum with 8388607. -/
def clip (v : BitVec 32) : BitVec 32 := IntOp.minsi 8388607#32 (IntOp.maxsi 0#32 v)

/-- A clipped word is below 8388608: a negative word goes to 0, one above 8388607 to 8388607, any other is kept. -/
theorem clip_lt (v : BitVec 32) : (clip v).toNat < 8388608 := by
  unfold clip IntOp.minsi IntOp.maxsi
  by_cases h : v.slt 0#32 = true
  · rw [if_pos h]; decide
  · rw [if_neg h]
    by_cases h2 : (8388607#32 : BitVec 32).slt v = true
    · rw [if_pos h2]; decide
    · rw [if_neg h2]
      rw [BitVec.slt_iff_toInt_lt] at h h2
      rw [show (0#32 : BitVec 32).toInt = 0 from by decide] at h
      rw [show (8388607#32 : BitVec 32).toInt = 8388607 from by decide] at h2
      have hlt : 2 * v.toNat < 2 ^ 32 := BitVec.toInt_pos_iff.mp (by omega)
      rw [BitVec.toInt_eq_toNat_of_lt hlt] at h2
      omega

/-- A word already in [0, 8388607] is its own clip. -/
theorem clip_eq (v : BitVec 32) (hv : v.toNat ≤ 8388607) : clip v = v := by
  have hlt : 2 * v.toNat < 2 ^ 32 := by omega
  have hi : v.toInt = v.toNat := BitVec.toInt_eq_toNat_of_lt hlt
  unfold clip IntOp.minsi IntOp.maxsi
  have h : ¬ (v.slt 0#32 = true) := by
    rw [BitVec.slt_iff_toInt_lt, show (0#32 : BitVec 32).toInt = 0 from by decide, hi]; omega
  rw [if_neg h]
  have h2 : ¬ ((8388607#32 : BitVec 32).slt v = true) := by
    rw [BitVec.slt_iff_toInt_lt, show (8388607#32 : BitVec 32).toInt = 8388607 from by decide, hi]; omega
  rw [if_neg h2]

/-- Nothing wraps: a batch below 128 and a position below 65536 make the row batch * 65536 + position, at most
    127 * 65536 + 65535 = 8388607. -/
theorem row_toNat (b p : BitVec 32) (hb : b.toNat < 128) (hp : p.toNat < 65536) :
    (IntOp.addi (IntOp.muli b 65536#32) p).toNat = b.toNat * 65536 + p.toNat := by
  unfold IntOp.addi IntOp.muli
  rw [BitVec.toNat_add, BitVec.toNat_mul, show (65536#32 : BitVec 32).toNat = 65536 from by decide]
  omega

/-! ## One column of the index array read at an element -/

/-- Column o of the index array, its unit axis dropped, reads at (b, j) the array at (b, j, o): (b, j) and (b, j, 0)
    have the same row-major position, b * 128 + j, and the slice shifts the last coordinate by o. -/
theorem col_read {α : Type} (o : Nat) (x : SIdx.Idx → α) (hs : SIdx.Slices ![0, 0, o] SCol) (hc : SCol.ShapeCasts STab)
    (b j : Fin 128) (k : Fin 3) (hk : k.val = o) :
    shapeCast STab (extractStridedSlice SCol ![0, 0, o] x hs) hc (ix2 b j) = x (ix3 b j k) := by
  refine (shapeCast_apply _ hc (ix2 b j) (ix3 b j (0 : Fin 1)) ?_).trans ?_
  · rw [Shape.rowMajor_val_three, Shape.rowMajor_val_two]
    show (b.val * 128 + j.val) * 1 + 0 = b.val * 128 + j.val
    omega
  · exact extractStridedSlice_apply _ x hs _ _ (fun ax => by
      match ax with
      | ⟨0, _⟩ => exact (Nat.zero_add _).symm
      | ⟨1, _⟩ => exact (Nat.zero_add _).symm
      | ⟨2, _⟩ => show k.val = o + 0; omega)

/-! ## The precondition decoded -/

instance : Subsingleton (⟨0, ![]⟩ : Shape).Idx := ⟨fun a b => funext fun d => d.elim0⟩

/-- The precondition's last four conjuncts, each an "all" over the [128, 128] table of a signed comparison of one column
    with a constant, say at every (b, j): 0 ≤ batch < 128 and 0 ≤ position < 65536, signed; hence unsigned. -/
theorem inRange_of_pre {F : FTy → Type} [FloatOps F] [Cert.Pre_finite_inputs.Facts]
    (a0 : FVec F Cert.Pre_finite_inputs.S128x256x256x4 .f32) (a1 : FVec F Cert.Pre_finite_inputs.S128x128x4 .f32)
    (a2 : FVec F Cert.Pre_finite_inputs.S128x128 .f32) (idx : IVec Cert.Pre_finite_inputs.S128x128x3 32)
    (h : Cert.Pre_finite_inputs.fn (F := F) a0 a1 a2 idx = fun _ => 1#1) : InRange idx := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨-, h0ge⟩, h0lt⟩, h1ge⟩, h1lt⟩ := e
  intro b j
  have g0 := Host.reduce_andi_all _ _ _ _ _ h0ge (ix2 b j)
  have g1 := Host.reduce_andi_all _ _ _ _ _ h0lt (ix2 b j)
  have g2 := Host.reduce_andi_all _ _ _ _ _ h1ge (ix2 b j)
  have g3 := Host.reduce_andi_all _ _ _ _ _ h1lt (ix2 b j)
  have e0 := col_read 0 idx Cert.Pre_finite_inputs.Facts.slices_S128x128x3_S128x128x1_0_0_0
    Cert.Pre_finite_inputs.Facts.shapeCasts_S128x128x1_S128x128 b j (0 : Fin 3) rfl
  have e1 := col_read 1 idx Cert.Pre_finite_inputs.Facts.slices_S128x128x3_S128x128x1_0_0_1
    Cert.Pre_finite_inputs.Facts.shapeCasts_S128x128x1_S128x128 b j (1 : Fin 3) rfl
  have k0 : IntOp.cmpi .sge (idx (ix3 b j (0 : Fin 3))) 0#32 = 1#1 := by rw [← e0]; exact g0
  have k1 : IntOp.cmpi .slt (idx (ix3 b j (0 : Fin 3))) (BitVec.ofNat 32 128) = 1#1 := by rw [← e0]; exact g1
  have k2 : IntOp.cmpi .sge (idx (ix3 b j (1 : Fin 3))) 0#32 = 1#1 := by rw [← e1]; exact g2
  have k3 : IntOp.cmpi .slt (idx (ix3 b j (1 : Fin 3))) (BitVec.ofNat 32 65536) = 1#1 := by rw [← e1]; exact g3
  exact ⟨toNat_lt_of_signed 128 (by decide) k0 k1, toNat_lt_of_signed 65536 (by decide) k2 k3⟩

/-! ## The flat row, as one function of the index array -/

/-- The flat row the host computes from the index array: column 0 times 65536 plus column 1, clipped to [0, 8388607];
    operation by operation as the program's host prefix writes it. -/
def tblOf (idx : IVec SIdx 32) : IVec STab 32 :=
  let v1 : IVec SCol 32 := extractStridedSlice SCol ![0, 0, 0] idx (by decide)
  let v2 : IVec STab 32 := shapeCast STab v1 (by decide)
  let v3 : IVec SCol 32 := extractStridedSlice SCol ![0, 0, 1] idx (by decide)
  let v4 : IVec STab 32 := shapeCast STab v3 (by decide)
  let v5 : IVec STab 32 := broadcastInDim STab ![] (by decide) (constantI ⟨0, ![]⟩ 32 65536#32)
  let v6 : IVec STab 32 := muli v2 v5
  let v7 : IVec STab 32 := addi v6 v4
  let c0 : IVec ⟨0, ![]⟩ 32 := constantI ⟨0, ![]⟩ 32 0#32
  let c1 : IVec ⟨0, ![]⟩ 32 := constantI ⟨0, ![]⟩ 32 8388607#32
  let w1 : IVec STab 32 := broadcastInDim STab ![] (by decide) (id c0)
  let w2 : IVec STab 32 := maxsi w1 v7
  let w4 : IVec STab 32 := broadcastInDim STab ![] (by decide) (id c1)
  minsi w4 w2

/-- The row at (b, j) is the clip of the word batch * 65536 + position: every operation but the two column reads is
    elementwise or a constant, and reads through by definition. -/
theorem tblOf_apply (idx : IVec SIdx 32) (b j : Fin 128) :
    tblOf idx (ix2 b j)
      = clip (IntOp.addi (IntOp.muli (idx (ix3 b j (0 : Fin 3))) 65536#32) (idx (ix3 b j (1 : Fin 3)))) := by
  have e0 := col_read 0 idx (by decide) (by decide) b j (0 : Fin 3) rfl
  have e1 := col_read 1 idx (by decide) (by decide) b j (1 : Fin 3) rfl
  rw [← e0, ← e1]
  rfl

/-- whatever the indices, the clipped row is a valid row of the 8388608-row array -/
theorem tblOf_lt (idx : IVec SIdx 32) (b j : Fin 128) : (tblOf idx (ValueIdx.ix2 b j)).toNat < 8388608 := by
  rw [tblOf_apply]; exact clip_lt _

/-- in range, the clip does nothing and nothing wraps: the row is bidx * 65536 + pos -/
theorem tblOf_eq (idx : IVec SIdx 32) (h : InRange idx) (b j : Fin 128) :
    (tblOf idx (ValueIdx.ix2 b j)).toNat = (idx (ValueIdx.ix3 b j (0 : Fin 3))).toNat * 65536 + (idx (ValueIdx.ix3 b j (1 : Fin 3))).toNat := by
  obtain ⟨hb, hp⟩ := h b j
  have hr := row_toNat _ _ hb hp
  rw [tblOf_apply, clip_eq _ (by rw [hr]; omega), hr]

end Cert.IndexFacts

end
-- ==== Proof.KTbl.lean ====
import proofs.«412085_j52218212385067_2_alg».proof.Proof.Gen.Kernel.Launch
import proofs.«412085_j52218212385067_2_alg».proof.Proof.Gen.Kernel.Skeleton
import proofs.«412085_j52218212385067_2_alg».proof.Proof.KRuns
import proofs.«412085_j52218212385067_2_alg».proof.Proof.IndexFacts
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.StableHlo

variable (m : (ℓ : Loc nD τ sig) → Buf (Elt F) ℓ)

/-- The table the region is entered with is the clipped flat row of every object: the host lines before the
    region compute it from the index argument, and nothing else. -/
theorem tbl_eq (c : Dev nD) : tbl m 0 = Cert.IndexFacts.tblOf (m ((c : Thread nD τ).loc main_arg3)) := by
  obtain rfl : c = 0 := Subsingleton.elim _ _
  show V m (0 : Dev nD) main_v8 = _
  dsimp only [V, V0]
  simp only [hostOps0, hostOps0_1, hostOps0_2, List.flatten_cons, List.flatten_nil, List.append_nil, List.cons_append, List.nil_append]
  after_results
  rfl

/-- Every word of the table is a row of the 8388608-row array: the clip sees to it, whatever the indices. -/
theorem tblOk : ∀ j, (tbl m 0 j).toNat < 8388608 := by
  intro j
  rw [tbl_eq m 0]
  let j' : Cert.IndexFacts.STab.Idx := j
  have h := Cert.IndexFacts.tblOf_lt (m (((0 : Dev nD) : Thread nD τ).loc main_arg3)) (j' 0) (j' 1)
  show (Cert.IndexFacts.tblOf (m (((0 : Dev nD) : Thread nD τ).loc main_arg3)) j').toNat < 8388608
  rw [ValueIdx.eq_ix2 j']
  exact h

end Cert.Kernel.Hand

end
-- ==== Proof.KIRuns.lean ====
import proofs.«412085_j52218212385067_2_alg».proof.Proof.Gen.KernelIdeal.Launch
import proofs.«412085_j52218212385067_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s TensorCore buffer contents when the region is entered, as a valuation: the launch contents after the
    three stretches of host operations that precede the region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host operation of the program allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the three stretches of host operations before it, the region, the stretch after it.
    It reduces to the region continued by the later stretch, at the contents after the earlier ones. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The operand left in HBM that the body copies rows of by transfers of its own. -/
def H0 : Finset (Ref sig .tc) := {main_v0}
theorem H0_sub : H0 ⊆ Pipeline.restRefsP sig pre0 spec0 := by decide

/-- The operations after the region touch the pipeline's arrays and the bypassing buffers only, and neither the
    prefetched table nor the operand the body moves itself. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  refine Pipeline.sub_tailRefsBut pre0 spec0 H0 op ((List.forall_iff_forall_mem.mp hostOps1_sub) op hop) (fun k => ?_) (fun b hb => ?_)
  · -- the table is no operand and no result of a later operation
    have hk : pre0.ref k = main_v8 := by fin_cases k; rfl
    rw [hk]
    simp only [hostOps1, List.mem_cons, List.mem_nil_iff, or_false] at hop
    rcases hop with rfl | rfl | rfl | rfl | rfl <;>
      simp only [StableHlo.nullary_bufs, StableHlo.binary_bufs, Finset.mem_insert, Finset.mem_singleton, not_or] <;>
      (try refine ⟨?_, ?_, ?_⟩) <;> exact StableHlo.devRef_ne_of_ne (by decide)
  · -- nor is the operand the body moves itself
    rw [H0, Finset.mem_singleton] at hb
    subst hb
    simp only [hostOps1, List.mem_cons, List.mem_nil_iff, or_false] at hop
    rcases hop with rfl | rfl | rfl | rfl | rfl <;>
      simp only [StableHlo.nullary_bufs, StableHlo.binary_bufs, Finset.mem_insert, Finset.mem_singleton, not_or] <;>
      (try refine ⟨?_, ?_, ?_⟩) <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl
  all_goals
    intro w
    fin_cases w <;> simp only [StableHlo.nullary_writes, StableHlo.binary_writes, Finset.mem_singleton] <;>
      exact StableHlo.devRef_ne_of_ne (by decide)

/-- The host operations before the region write none of the program's arguments. -/
theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results
  try rfl
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results
  try rfl
theorem V_main_arg2 (c : Dev nD) : V m c main_arg2 = m ((c : Thread nD τ).loc main_arg2) := by
  dsimp only [V, V0]
  simp only [hostOps0, hostOps0_1, hostOps0_2, List.flatten_cons, List.flatten_nil, List.append_nil, List.cons_append, List.nil_append]
  after_results
  try rfl
theorem V_main_arg3 (c : Dev nD) : V m c main_arg3 = m ((c : Thread nD τ).loc main_arg3) := by
  dsimp only [V, V0]
  simp only [hostOps0, hostOps0_1, hostOps0_2, List.flatten_cons, List.flatten_nil, List.append_nil, List.cons_append, List.nil_append]
  after_results
  try rfl

/-! ## The prefetched table, read off the contents at the region's entry -/

/-- The table's contents when the region is entered (the program runs on one device: device 0's). -/
def tbl : pre0.Contents (Elt F) := fun j => V m (0 : Dev nD) (pre0.ref j)
/-- On every device the table holds those contents (there is one device). -/
theorem V_pre (c : Dev nD) (j : Fin 1) : V m c (pre0.ref j) = tbl m j := by
  obtain rfl : c = 0 := Subsingleton.elim _ _; rfl
/-- The table's contents as admissible contents (the side condition on them is trivial), and the pipeline at them. -/
abbrev adm : (pcfg0 (F := F)).Adm := ⟨tbl m, trivial⟩
abbrev cfgM : Pipeline.Cfg sig Λ₀ := cfg0 (adm m)

/-- The table, the operand left in HBM and the scratch as the body is handed them: whole buffers as memrefs. -/
abbrev tbM : Memref sig .tc .smem S128x128 .i32 := Memref.whole main_v8
abbrev hbM : Memref sig .tc .hbm S8388608x4 .f32 := Memref.whole main_v0
abbrev scM : Memref sig .tc .vmem S128x4 .f32 := Memref.whole cc0_scratch0

/-- Memref `M`'s buffer on core `c` held whole at share `q` and contents `f`. -/
abbrev ptAt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

/-- The table's half the region hands the body. -/
theorem PhiT0_eq (c : Dev nD) : (Pipeline.ΦT pre0 (tbl m) c : sProp 𝕄) = ptAt c tbM fullShare.right (tbl m 0) := by
  unfold Pipeline.ΦT Pipeline.prefHeld
  rw [show (Finset.univ : Finset (Fin 1)) = {(0 : Fin 1)} from by decide, bigSep_singleton]
  rfl

/-! ## The body's own DMA semaphores and the operand it moves -/

/-- The body's own DMA semaphores, cell by cell: the pool's numbers 6 … 133. -/
abbrev osem0 : Fin 128 → SemLoc sig := fun j => SemLoc.dma ⟨6 + j.val, by have := j.isLt; show 6 + j.val < 134; omega⟩
/-- They are scoped, pairwise distinct, and none is a window's staging semaphore. -/
theorem ownSemFacts0 : Pipeline.OwnSemFacts spec0 osem0 := by decide +kernel

/-- The moved operand's points-to at the region-entry contents. -/
theorem hbmPts0_eq (c : Dev nD) :
    (bigSep H0 (fun b => ((c : Thread nD τ).loc b) ↦{fullShare} V m c b) : sProp 𝕄) = ptAt c hbM fullShare (V m c main_v0) := by
  rw [BI.bigSep_eq_bigSepL_of_eq [main_v0] (by decide) (by decide)]; rfl

/-- The invariant of a body with transfers of its own, conjunct by conjunct: the scratch owned at some contents, the
    generator register at some state, the own cells at zero (kept as one term), the HBM operand at its region-entry
    contents. -/
theorem PhiD0_eq (c : Dev nD) :
    (Pipeline.ΦD osem0 spec0 H0 (V m) c : sProp 𝕄)
      = iprop((∃ d, owns (c : Thread nD τ) scM fullShare d) ∗ (∃ r, prngReg c r)
          ∗ Pipeline.ownSems0 (Ix := Unit) (Name := ℕ) (U := Pipeline.UD sig nD τ) (Lvl := ℕ) (Val := Elt F) (τ := τ) osem0 c
          ∗ ptAt c hbM fullShare (V m c main_v0)) := by
  rw [Pipeline.ΦD_eq, scopedRest0_eq, hbmPts0_eq]; simp only [scM, owns_whole]; try rfl

/-! ## The windows' staging memrefs and blocks -/

/-- Each window's current staging memref at point `t`, as the pipeline passes it to the body, and its wholeness. -/
abbrev ms0_0 (t : Fin (cfgM m).N) : Memref sig .tc .vmem S1x128x4 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x128x1 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x128x1 .f32 := spec0_2.stage ((cfgM m).slots t 2)
abbrev hs0_2 (t : Fin (cfgM m).N) : (ms0_2 m t).IsWhole := hstage0_2 (((cfgM m).slots t 2).cast nbuf0_2)

/-- One staging buffer of the output window, through which its contents are stated. -/
abbrev VO0_2 : View sig .tc .vmem S1x128x1 .f32 := (Memref.whole cc0_stg2_0 : Memref sig .tc .vmem S1x128x1 .f32).view

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (Pipeline.UD sig nD τ) ℕ (cfgM m) c)
    (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before0_1_of {c : Dev nD} (dat : Dat τ (Elt F) Unit ℕ (Pipeline.UD sig nD τ) ℕ (cfgM m) c)
    (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No operation after the region writes a buffer other than the five results of those operations. -/
theorem hostOps1_keeps (b : Ref sig .tc) (h0 : b ≠ main_cst) (h1 : b ≠ main_v11) (h2 : b ≠ main_cst_2) (h3 : b ≠ main_v12)
    (h4 : b ≠ main_v13) : ∀ op ∈ (hostOps1 : List (HloOp τ sig (Elt F))), Proc.devRef (τ := τ) .tc b ∉ op.writes := by
  intro op hop
  simp only [hostOps1, List.mem_cons, List.mem_nil_iff, or_false] at hop
  rcases hop with rfl | rfl | rfl | rfl | rfl <;>
    simp only [StableHlo.nullary_writes, StableHlo.binary_writes, Finset.mem_singleton] <;>
    exact StableHlo.devRef_ne_of_ne ‹_›

/-- A buffer that is no array of the pipeline and that no later operation writes holds, after the later operations,
    its region-entry contents. -/
theorem afterTail_keeps (dats : (p : Fin 1) → (c : Dev nD) → Dat τ (Elt F) Unit ℕ (Pipeline.UD sig nD τ) ℕ ((Pipeline.pin pcfgs fun _ => adm m) p) c)
    (c : Dev nD) (b : Ref sig .tc) (harr : ∀ w, Pipeline.arrRef spec0 w ≠ b)
    (hw : ∀ op ∈ (hostOps1 : List (HloOp τ sig (Elt F))), Proc.devRef (τ := τ) .tc b ∉ op.writes) :
    Pipeline.afterTail pcfgs (fun _ => adm m) dats 0 (V0 m) [hostOps1] c b = V m c b := by
  unfold Pipeline.afterTail
  rw [StableHlo.after_of_forall_not_mem _ _ (fun op hop => hw op (by simpa only [List.flatten_cons, List.flatten_nil, List.append_nil] using hop))]
  exact Pipeline.withArrays_of_ne _ c (V0 m c) _ b harr

/-- The frame from a frame run: for any proof data whose arrays are the region-entry contents, a run to the frame
    post at the contents after the later host operations, read at the argument arrays — the staged input by the
    input window's array being kept, the three bypassing arguments by no later operation writing them — is the frame
    claim's post. -/
theorem frame_of (dats : (p : Fin 1) → (c : Dev nD) → Dat τ (Elt F) Unit ℕ (Pipeline.UD sig nD τ) ℕ ((Pipeline.pin pcfgs fun _ => adm m) p) c)
    (hA : ∀ c w, (dats 0 c).A w = V m c (Pipeline.arrRef spec0 w))
    (h : θ_run defs (onTc (τ := τ) (main (F := F))) (s₀ m ρ)
      (Pipeline.FramePost (Pipeline.pin pcfgs fun _ => adm m) dats 0 (Pipeline.afterTail pcfgs (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (show main_arg0 ∈ Pipeline.restRefs sig spec0 from Pipeline.mem_restRefs_of main_arg0 (by decide) (by decide))).trans
        ((afterTail_keeps m dats c main_arg0 (by decide)
          (hostOps1_keeps main_arg0 (by decide) (by decide) (by decide) (by decide) (by decide))).trans (V_main_arg0 m c)),
      ((h c).1 0).trans (((dats 0 c).arrAt_in 0 rfl _).trans ((hA c 0).trans (V_main_arg1 m c))),
      ((h c).2 main_arg2 (show main_arg2 ∈ Pipeline.restRefs sig spec0 from Pipeline.mem_restRefs_of main_arg2 (by decide) (by decide))).trans
        ((afterTail_keeps m dats c main_arg2 (by decide)
          (hostOps1_keeps main_arg2 (by decide) (by decide) (by decide) (by decide) (by decide))).trans (V_main_arg2 m c)),
      ((h c).2 main_arg3 (show main_arg3 ∈ Pipeline.restRefs sig spec0 from Pipeline.mem_restRefs_of main_arg3 (by decide) (by decide))).trans
        ((afterTail_keeps m dats c main_arg3 (by decide)
          (hostOps1_keeps main_arg3 (by decide) (by decide) (by decide) (by decide) (by decide))).trans (V_main_arg3 m c))⟩) h

end Cert.KernelIdeal.Hand

end
-- ==== Proof.KIRun.lean ====
import proofs.«412085_j52218212385067_2_alg».proof.Proof.Gen.KernelIdeal.Launch
import proofs.«412085_j52218212385067_2_alg».proof.Proof.Gen.KernelIdeal.Skeleton
import proofs.«412085_j52218212385067_2_alg».proof.Proof.KIRuns
import proofs.«412085_j52218212385067_2_alg».proof.Proof.Chains
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Cert.Chains

/-- row k of the scratch, as the body names a copy's destination -/
abbrev rowR (k : Nat) (h : ∀ a, (![k, 0] : Fin 2 → Nat) a + S1x4.size a ≤ S128x4.size a) : Rect S128x4 := Rect.unit (s := S128x4) ![k, 0] S1x4.size h
abbrev rowM (k : Nat) (h : ∀ a, (![k, 0] : Fin 2 → Nat) a + S1x4.size a ≤ S128x4.size a) : Memref sig .tc .vmem S4 .f32 :=
  ((scM).slice (Rect.unit (s := S128x4) ![k, 0] S1x4.size h) (fun _ => rfl)).squeeze S4 squeezes_S1x4_S4

/-- a list of rectangles checked pairwise separated, each against the ones after it -/
def pairwiseSep {s : Shape} : List (Rect s) → Bool
  | [] => true
  | r :: Rs => LoadRect.disjAll Rs r.toLoadRect && pairwiseSep Rs

theorem pairwise_of_sep {sig : RefSig} {κ : Kind} {sp : Space} {s : Shape} {e : EltTy} (v : View sig κ sp s e) :
    ∀ Rs : List (Rect s), pairwiseSep Rs = true → Rs.Pairwise (fun r r' => Disjoint (v.slice r).set (v.slice r').set)
  | [], _ => List.Pairwise.nil
  | r :: Rs, h => by
    simp only [pairwiseSep, Bool.and_eq_true] at h
    refine List.Pairwise.cons (fun r' hr' => ?_) (pairwise_of_sep v Rs h.2)
    have := List.all_eq_true.mp h.1 r' hr'
    exact (View.disjoint_slice_of_disj v r' r this).symm

theorem rowM_set (k : Nat) (h : ∀ a, (![k, 0] : Fin 2 → Nat) a + S1x4.size a ≤ S128x4.size a) :
    (rowM k h).view.set = (scM.access (rowR k h)).set := by
  simp only [Memref.view_squeeze, Memref.view_slice, View.set_reshape]

/-- one row's piece: a payload written through the row's squeezed slice over any contents is that payload, re-indexed
    to the row's rectangle, written through the rectangle -/
theorem piece_of_row (c : Dev nD) (k : Nat) (h : ∀ a, (![k, 0] : Fin 2 → Nat) a + S1x4.size a ≤ S128x4.size a)
    (f : Buf (Elt F) (scM.view.loc (c : Thread nD τ))) (d : S4.Idx → Elt F .f32) :
    (scM.view.loc (c : Thread nD τ) ↦[(rowM k h).view.set]{fullShare} View.write (Elt F) (rowM k h).view f d Finset.univ : sProp 𝕄)
      ⊢ iprop(∃ f' : Buf (Elt F) (scM.view.loc (c : Thread nD τ)), (scM.access (rowR k h)).loc (c : Thread nD τ) ↦[(scM.access (rowR k h)).set]{fullShare}
          (scM.access (rowR k h)).write (Elt F) f' (fun x => d ((Shape.reshapeEquiv squeezes_S1x4_S4.numel_eq).symm x)) Finset.univ) := by
  rw [rowM_set]
  rw [show View.write (Elt F) (rowM k h).view f d Finset.univ
      = (scM.access (rowR k h)).write (Elt F) f (fun x => d ((Shape.reshapeEquiv squeezes_S1x4_S4.numel_eq).symm x)) Finset.univ from by
    simp only [Memref.view_squeeze, Memref.view_slice]; exact View.write_reshape_univ _ _ _ _]
  iintro H; iexists f; iexact H

/-- pieces whose rectangles are a list checked pairwise separated are pairwise disjoint in the scratch -/
theorem pieces_pairwise (L : List (View.Piece (Elt F) S128x4 .f32)) (Rs : List (Rect S128x4)) (hRs : L.map Sigma.fst = Rs) (h : pairwiseSep Rs = true) :
    L.Pairwise (fun p p' => Disjoint (scM.access p.1).set (scM.access p'.1).set) := by
  subst hRs
  exact (List.pairwise_map (f := Sigma.fst) (R := fun r r' : Rect S128x4 => Disjoint (scM.access r).set (scM.access r').set)).mp (pairwise_of_sep scM.view _ h)

set_option hygiene false in
open Lean Elab Command in
/-- the join of the scratch's rows into the scratch whole, as a theorem named as given: rows 0 … n-1 held one by one,
    row k at a payload d_k_ written over any contents f_k_, and the elements outside them held at contents whose
    m outermost layers are the payloads d_n_ … d_(n+m-1)_ written through rows n … n+m-1 over X, are the scratch
    whole at all n+m rows' payloads written over X -/
elab "rows_join_theorem " name:ident n:num m:num : command => do
  let k := n.getNat
  let mm := m.getNat
  let fs : Array Ident := (Array.range k).map fun i => mkIdent (Name.mkSimple s!"f_{i}_")
  let ds : Array Ident := (Array.range (k + mm)).map fun i => mkIdent (Name.mkSimple s!"d_{i}_")
  let mut inner : Array (TSyntax `term) := #[]
  for j in [0:k] do
    let inb := mkIdent (Name.mkSimple s!"inb_S128x4_S1x4_{j}_0")
    let dj := ds[j]!
    inner := inner.push (← `((⟨rowR $(quote j) $inb, fun x => $dj ((Shape.reshapeEquiv squeezes_S1x4_S4.numel_eq).symm x)⟩ : View.Piece (Elt F) S128x4 .f32)))
  let mut nest : TSyntax `term ← `(X)
  let mut outer : Array (TSyntax `term) := #[]
  for j in [k:k+mm] do
    let inb := mkIdent (Name.mkSimple s!"inb_S128x4_S1x4_{j}_0")
    let dj := ds[j]!
    nest ← `(View.write (Elt F) (rowM $(quote j) $inb).view $nest $dj Finset.univ)
    outer := #[(← `((⟨rowR $(quote j) $inb, fun x => $dj ((Shape.reshapeEquiv squeezes_S1x4_S4.numel_eq).symm x)⟩ : View.Piece (Elt F) S128x4 .f32)))] ++ outer
  let all := inner ++ outer
  let stx ← `(theorem $name (c : Dev nD) ($fs* : Buf (Elt F) (scM.view.loc (c : Thread nD τ))) ($ds* : S4.Idx → Elt F .f32) (X : Buf (Elt F) (scM.view.loc (c : Thread nD τ))) :
      iprop((sep_chain% $n 0 fun k => (scM.view.loc (c : Thread nD τ) ↦[(rowM k inb_S128x4_S1x4_kk_0).view.set]{fullShare} View.write (Elt F) (rowM k inb_S128x4_S1x4_kk_0).view f_kk_ d_kk_ Finset.univ : sProp 𝕄))
        ∗ (scM.view.loc (c : Thread nD τ) ↦[(sdiff_chain% $n Finset.univ fun k => (rowM k inb_S128x4_S1x4_kk_0).view.set)]{fullShare} $nest : sProp 𝕄))
      ⊢ (scM.view.loc (c : Thread nD τ) ↦[scM.view.set]{fullShare} scM.view.writes (Elt F) X
          [$all,*] : sProp 𝕄) := by
    have e : $nest = scM.view.writes (Elt F) X [$outer,*] := by
      simp only [View.writes_cons, View.writes_nil, rowM, rowR, Memref.view_squeeze, Memref.view_slice, View.write_reshape_univ]
    rw [show ([$all,*] : List (View.Piece (Elt F) S128x4 .f32)) = [$inner,*] ++ [$outer,*] from rfl, View.writes_append, ← e]
    iintro ⟨HR, Hrest⟩
    icases_chain HR with HR $n
    iapply (Memref.heldBySlice_join_rest (c : Thread nD τ) scM fullShare _ (pieces_pairwise _ (list_chain% $n fun k => rowR k inb_S128x4_S1x4_kk_0) rfl rfl) _)
    isplitr [Hrest]
    · simp only [Memref.heldBySlice]
      pieces_chain piece_of_row HR $n
    · rw [show (scM.view.set \ Memref.piecesSet (c : Thread nD τ) scM _) = (sdiff_chain% $n Finset.univ fun k => (rowM k inb_S128x4_S1x4_kk_0).view.set) from by
        simp only [Memref.piecesSet, Finset.union_empty, Memref.view_whole, View.set_whole, Memref.view_squeeze, Memref.view_slice, View.set_reshape, sdiff_sdiff_left, Finset.sup_eq_union, Finset.union_assoc]]
      iexact Hrest)
  elabCommand stx

set_option maxHeartbeats 4000000 in
rows_join_theorem joinRows 112 16

abbrev semAt (c : Dev nD) (k : Nat) (h : k < 134 := by decide) : sProp 𝕄 := semVal ((c : Thread nD τ), SemLoc.dma ⟨k, h⟩) 0

/-- the 128 counters at zero, one by one -/
theorem sems_chain (c : Dev nD) :
    (Pipeline.ownSems0 (Ix := Unit) (Name := ℕ) (U := Pipeline.UD sig nD τ) (Lvl := ℕ) (Val := Elt F) (τ := τ) osem0 c : sProp 𝕄)
      = (sep_chain% 128 6 fun k => semAt (F := F) c k) := by
  rw [Pipeline.ownSems0_eq_of_list c osem0 (num_list% 128) (by decide) (by decide)]; rfl

/-- the scratch memref goes through every element of its buffer -/
theorem scM_set : scM.view.set = Finset.univ := by
  simp only [Memref.view_whole, View.set_whole]

/-- the 128 read shares of the array, one by one -/
theorem toks_chain (c : Dev nD) (fh : Buf (Elt F) (hbM.view.loc (c : Thread nD τ))) :
    (BI.bigSep Finset.univ (fun i : Fin 128 => (hbM.view.loc (c : Thread nD τ) ↦{Transfers.shareTok fullShare 128 i} fh : sProp 𝕄)))
      = (sep_chain% 128 0 fun k => ptAt c hbM (Transfers.shareTok fullShare 128 k) fh) := by
  rw [BI.bigSep_univ_eq_bigSepL (num_list% 128) (by decide) (by decide)]; rfl

/-- A loaded table word below the number of rows names a row slice inside the array. -/
theorem chk_of_lt (v : BitVec 32) (h : v.toNat < 8388608) :
    ∀ a : Fin 2, (![v.toNat, 0] : Fin 2 → Nat) a + S1x4.size a ≤ S8388608x4.size a := by
  intro a; fin_cases a
  · show v.toNat + 1 ≤ 8388608; omega
  · show 0 + 4 ≤ 4; omega

set_option sl_exec.dmaWindow true in
set_option maxHeartbeats 40000000 in
/-- The body at one grid point, on any whole staging memrefs: from the two input blocks, the output's and the
    scratch's buffers at anything, the table's half at contents whose words are rows of the array, the 128
    counters at zero, the array left in HBM whole, and the core owing nothing, it runs to the continuation
    with the inputs, the table, the counters and the array as they were, the scratch at some contents, the
    waits recorded, and the output's buffer with the pieces `L` written: each row's copy is started on its
    own counter from a read share of the array, all are waited for, and only then is the scratch read. -/
noncomputable def kernelRun0 (c : Dev nD) (i : grid0.Coords)
    (arg3 : Memref sig .tc .vmem S1x128x4 .f32) (harg3 : arg3.IsWhole) (arg4 : Memref sig .tc .vmem S1x128x1 .f32) (harg4 : arg4.IsWhole)
    (arg5 : Memref sig .tc .vmem S1x128x1 .f32) (harg5 : arg5.IsWhole)
    (x3 : Vec F S1x128x4 .f32) (x4 : Vec F S1x128x1 .f32)
    (T : Buf (Elt F) (tbM.view.loc (c : Thread nD τ))) (hT : ∀ j, (T j).toNat < 8388608)
    (fh : Buf (Elt F) (hbM.view.loc (c : Thread nD τ))) :
    { L : List (View.Piece (Elt F) S1x128x1 .f32) //
      ∀ (W : Waits sig Unit) (K : PUnit → sProp 𝕄),
        iprop(owns (c : Thread nD τ) arg3 fullShare x3 ∗ owns (c : Thread nD τ) arg4 fullShare x4
            ∗ (∃ d, owns (c : Thread nD τ) arg5 fullShare d) ∗ (∃ d, owns (c : Thread nD τ) scM fullShare d)
            ∗ ptAt c tbM fullShare.right T
            ∗ Pipeline.ownSems0 (Ix := Unit) (Name := ℕ) (U := Pipeline.UD sig nD τ) (Lvl := ℕ) (Val := Elt F) (τ := τ) osem0 c
            ∗ ptAt c hbM fullShare fh ∗ owes (c : Thread nD τ) 0 W
            ∗ (iprop(owns (c : Thread nD τ) arg3 fullShare x3 ∗ owns (c : Thread nD τ) arg4 fullShare x4
                ∗ (∃ f, arg5.view.loc (c : Thread nD τ) ↦[arg5.view.set]{fullShare} arg5.view.writes (Elt F) f L)
                ∗ (∃ d, owns (c : Thread nD τ) scM fullShare d)
                ∗ ptAt c tbM fullShare.right T
                ∗ Pipeline.ownSems0 (Ix := Unit) (Name := ℕ) (U := Pipeline.UD sig nD τ) (Lvl := ℕ) (Val := Elt F) (τ := τ) osem0 c
                ∗ ptAt c hbM fullShare fh ∗ (∃ W', owes (c : Thread nD τ) 0 W')) -∗ K ⟨⟩))
          ⊢ wp frame (wpE (defs₀ (F := F)) Variants.none c none) Set.univ
              (cc0__gather_giou_kernel (F := F) i tbM (Memref.isWhole_whole _) hbM (Memref.isWhole_whole _) arg3 harg3 arg4 harg4 arg5 harg5 scM (Memref.isWhole_whole _) cc0_scratch1) K } := by
  refine ⟨?_, fun W K => ?run⟩
  case run =>
    simp only [cc0__gather_giou_kernel_eq_skeleton]; unfold cc0__gather_giou_kernel_skel
    rw [sems_chain]
    unfold owns
    iintro ⟨⟨%f3, %hf3, H3⟩, ⟨%f4, %hf4, H4⟩, ⟨%d5, %f5, -, H5⟩, ⟨%ds, %fs, -, HS⟩, HT, Hq, Hh, HW, Hk⟩
    obtain rfl := harg3.eq_unread hf3
    obtain rfl := harg4.eq_unread hf4
    icases_chain Hq with Hq 128
    -- the scratch's own elements are all of its buffer's
    ihave HSu := (Entails.of_eq (congrArg (fun S => (scM.view.loc (c : Thread nD τ) ↦[S]{fullShare} fs : sProp 𝕄)) scM_set)) $$ HS
    irename HSu => HS
    -- the array as a remainder and one read share per copy
    ihave Hh' := (Transfers.pointsTo_toks_split (Ix := Unit) (Name := ℕ) (U := Pipeline.UD sig nD τ) (Lvl := ℕ) fullShare 128) $$ Hh
    icases Hh' with ⟨Hdrop, Htoks⟩
    ihave Htoks' := (Entails.of_eq (toks_chain c fh)) $$ Htoks
    icases_chain Htoks' with Hh 128
    -- the 128 copies started, the 128 waits: each row of the scratch comes back as a piece of its own
    sl_exec_parts (disch := (first | exact chk_of_lt _ (hT _)))
    -- the rows still held apart and the rest (the last rows already back in it) joined: the scratch whole, every row's
    -- payload a listed write
    ijoin_rows joinRows c 112 16 HS_ 2 HS => HSJ
    -- the scratch read whole, the arithmetic, the store
    sl_exec_parts (disch := (first | exact chk_of_lt _ (hT _)))
    sl_step
    iapply Hk
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [HSJ]
    · iexists _, _; isplitr; swap; · iexact HSJ
      ipureintro; rfl
    isplitl [HT]; · iexact HT
    isplitl_chain Hq 128 0
    · iexact_chain Hq 128
    isplitl_chain Hh 128 0 Hdrop
    · iapply (Transfers.pointsTo_toks_join (Ix := Unit) (Name := ℕ) (U := Pipeline.UD sig nD τ) (Lvl := ℕ) fullShare 128)
      isplitl [Hdrop]; · iexact Hdrop
      iapply (Entails.of_eq (toks_chain c fh).symm)
      iexact_chain Hh 128
    iexists _; iexact HW

end Cert.KernelIdeal.Hand

end
-- ==== Proof.KIFrame.lean ====
import proofs.«412085_j52218212385067_2_alg».proof.Proof.Gen.KernelIdeal.Launch
import proofs.«412085_j52218212385067_2_alg».proof.Proof.Gen.KernelIdeal.Skeleton
import proofs.«412085_j52218212385067_2_alg».proof.Proof.KIRun
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The side condition on the table -/

/-- Every word of the prefetched table, as the region finds it, is the number of a row of the array left in HBM. -/
abbrev TblOk : Prop := ∀ j, (tbl m 0 j).toNat < 8388608

/-! ## The body at a point -/

/-- The kernel body at point `t`, on what the pipeline calls it with: the table and the HBM operand whole, the
    windows' current staging memrefs, the scratch and the body's own semaphores. -/
abbrev bodyAt0 (t : Fin (cfgM m).N) : Prog (TpuEff nD τ sig (Elt F) Λ₀ .tc) PUnit :=
  cc0__gather_giou_kernel (F := F) (grid0.coords t) tbM (Memref.isWhole_whole _) hbM (Memref.isWhole_whole _)
    (ms0_0 m t) (hs0_0 m t) (ms0_1 m t) (hs0_1 m t) (ms0_2 m t) (hs0_2 m t) scM (Memref.isWhole_whole _) cc0_scratch1

/-! ## What the output window holds after the body -/

/-- The run's pieces for the output window cover its block. -/
theorem cover0_2 (c : Dev nD) (i : grid0.Coords)
    (arg3 : Memref sig .tc .vmem S1x128x4 .f32) (harg3 : arg3.IsWhole) (arg4 : Memref sig .tc .vmem S1x128x1 .f32) (harg4 : arg4.IsWhole)
    (arg5 : Memref sig .tc .vmem S1x128x1 .f32) (harg5 : arg5.IsWhole)
    (x3 : Vec F S1x128x4 .f32) (x4 : Vec F S1x128x1 .f32)
    (T : Buf (Elt F) (tbM.view.loc (c : Thread nD τ))) (hT : ∀ j, (T j).toNat < 8388608)
    (fh : Buf (Elt F) (hbM.view.loc (c : Thread nD τ))) (y : S1x128x1.Idx) :
    ∃ pc ∈ (kernelRun0 c i arg3 harg3 arg4 harg4 arg5 harg5 x3 x4 T hT fh).1, y ∈ pc.1.set :=
  View.cover_of_tiledL (kernelRun0 c i arg3 harg3 arg4 harg4 arg5 harg5 x3 x4 T hT fh).1 S1x128x1.size (by sl_kernel_rfl) y

/-- What the run leaves in the output window's staging buffer: its pieces read back over junk. -/
def out0_2 (c : Dev nD) (i : grid0.Coords)
    (arg3 : Memref sig .tc .vmem S1x128x4 .f32) (harg3 : arg3.IsWhole) (arg4 : Memref sig .tc .vmem S1x128x1 .f32) (harg4 : arg4.IsWhole)
    (arg5 : Memref sig .tc .vmem S1x128x1 .f32) (harg5 : arg5.IsWhole)
    (x3 : Vec F S1x128x4 .f32) (x4 : Vec F S1x128x1 .f32)
    (T : Buf (Elt F) (tbM.view.loc (c : Thread nD τ))) (hT : ∀ j, (T j).toNat < 8388608)
    (fh : Buf (Elt F) (hbM.view.loc (c : Thread nD τ))) : Vec F S1x128x1 .f32 :=
  VO0_2.read (Elt F) (VO0_2.writes (Elt F) VO0_2.junk (kernelRun0 c i arg3 harg3 arg4 harg4 arg5 harg5 x3 x4 T hT fh).1)

/-- What the output window's staging buffer holds after the body at point `t`: the run's contents at the point's
    memrefs, the two input blocks, the table and the HBM operand. -/
def outsAt0 (hT : TblOk m) (c : Dev nD) (t : Fin (cfgM m).N) : Vec F S1x128x1 .f32 :=
  out0_2 c (grid0.coords t) (ms0_0 m t) (hs0_0 m t) (ms0_1 m t) (hs0_1 m t) (ms0_2 m t) (hs0_2 m t)
    (iblk m c 0 t) (iblk m c 1 t) (tbl m 0) hT (V m c main_v0)

/-! ## The pipeline's proof data -/

/-- The proof data of the one pipeline on core `c`: the arrays as the region finds them; after the body at point `t`
    each input's buffer at its block and the output's at `outsAt0`; the invariant of a body with transfers of its own
    together with the table's half; nothing owed; full shares. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => outsAt0 m hT c t
  Φ _ := iprop(Pipeline.ΦD osem0 spec0 H0 (V m) c ∗ Pipeline.ΦT pre0 (tbl m) c)
  q _ := fullShare
  owed _ := 0

/-- The proof data's arrays are the region-entry contents. -/
theorem A_eq (hT : TblOk m) (c : Dev nD) (w : Fin (cfgM m).W) : (dats m hT 0 c).A w = V m c (Pipeline.arrRef spec0 w) := by
  dsimp only [dats]

/-- What the body leaves, window by window. -/
theorem after0_0 (hT : TblOk m) (c : Dev nD) (t : Fin (cfgM m).N) : (dats m hT 0 c).after 0 t = iblk m c 0 t := by
  dsimp only [dats]; try rfl
theorem after0_1 (hT : TblOk m) (c : Dev nD) (t : Fin (cfgM m).N) : (dats m hT 0 c).after 1 t = iblk m c 1 t := by
  dsimp only [dats]; try rfl
theorem after0_2 (hT : TblOk m) (c : Dev nD) (t : Fin (cfgM m).N) : (dats m hT 0 c).after 2 t = outsAt0 m hT c t := by
  dsimp only [dats]; try rfl

/-- Each input's current staging buffer holds its block at every point, fetched there or not. -/
theorem before0_0 (hT : TblOk m) (c : Dev nD) (t : Fin (cfgM m).N) (d) : (dats m hT 0 c).before 0 t d = iblk m c 0 t :=
  before0_0_of m (dats m hT 0 c) (A_eq m hT c 0) (after0_0 m hT c) t d
theorem before0_1 (hT : TblOk m) (c : Dev nD) (t : Fin (cfgM m).N) (d) : (dats m hT 0 c).before 1 t d = iblk m c 1 t :=
  before0_1_of m (dats m hT 0 c) (A_eq m hT c 1) (after0_1 m hT c) t d

/-! ## The body obligation, at a generic point -/

/-- What the body is called with at point `t`, the windows one by one, -/
def bodyPre (hT : TblOk m) (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d))
    ∗ (∃ d, owns (c : Thread nD τ) (ms0_1 m t) fullShare ((dats m hT 0 c).before 1 t d))
    ∗ (∃ d, owns (c : Thread nD τ) (ms0_2 m t) fullShare ((dats m hT 0 c).before 2 t d)))

/-- and what it returns. -/
def bodyPost (hT : TblOk m) (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t)
    ∗ owns (c : Thread nD τ) (ms0_1 m t) fullShare ((dats m hT 0 c).after 1 t)
    ∗ owns (c : Thread nD τ) (ms0_2 m t) fullShare ((dats m hT 0 c).after 2 t))

/-- The body at any point: the inputs' memrefs hold their blocks, so the run applies; the invariant hands the body its
    scratch, its counters at zero, the HBM operand and the table's half, and takes them back as they were; the core's
    recorded waits go in at whatever the points before recorded and come back with this point's. -/
theorem sound_body (hT : TblOk m) (c : Dev nD) (t : Fin (cfgM m).N) (K : PUnit → sProp 𝕄) :
    iprop(bodyPre m hT c t ∗ (bodyPost m hT c t -∗ K ⟨⟩))
      ⊢ wp frame (wpE (defs₀ (F := F)) Variants.none c none) Set.univ (bodyAt0 m t) K := by
  unfold bodyPre bodyPost bodyAt0
  simp only [before0_0, before0_1]
  rw [show (dats m hT 0 c).Φ t.succ = (dats m hT 0 c).Φ t.castSucc from rfl,
    after0_0, after0_1, after0_2]
  rw [show (dats m hT 0 c).Φ t.castSucc
      = iprop(Pipeline.ΦD osem0 spec0 H0 (V m) c ∗ Pipeline.ΦT pre0 (tbl m) c) from rfl, PhiD0_eq, PhiT0_eq]
  unfold Dat.owesAt Pipeline.owesWithin
  rw [show (dats m hT 0 c).owed t.castSucc = 0 from rfl, show (dats m hT 0 c).owed t.succ = 0 from rfl]
  unfold outsAt0
  unfold out0_2
  iintro ⟨⟨⟨⟨HS, Hg, Hq, Hh⟩, HT⟩, ⟨%W, -, HW⟩, ⟨%d0, H0⟩, ⟨%d1, H1⟩, ⟨%d2, H2⟩⟩, Hk⟩
  iapply ((kernelRun0 c (grid0.coords t) _ _ _ _ _ _ (iblk m c 0 t) (iblk m c 1 t) (tbl m 0) hT (V m c main_v0)).2 W K)
  isplitl [H0]; · iexact H0
  isplitl [H1]; · iexact H1
  isplitl [H2]; · iexists _; iexact H2
  isplitl [HS]; · iexact HS
  isplitl [HT]; · iexact HT
  isplitl [Hq]; · iexact Hq
  isplitl [Hh]; · iexact Hh
  isplitl [HW]; · iexact HW
  iintro ⟨H0, H1, ⟨%e2, H2⟩, HS, HT, Hq, Hh, ⟨%W', HW'⟩⟩
  iapply Hk
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (cover0_2 c _ _ _ _ _ _ _ _ _ _ _ _)

/-- The library's body obligation, at every point. -/
theorem body_obligation (hT : TblOk m) (c : Dev nD) :
    BodyObligation (dats (F := F) m hT 0 c) (defs₀ (F := F)) Variants.none () Set.univ := fun t => by
  rw [bigSep_W0, bigSep_W0]
  -- the obligation's program is the body at the point, and no window is idle at any point
  have hprog : (defs₀ (F := F)) .tc (cfgM m).body ((cfgM m).bodyArgs t ((cfgM m).slots t)) = bodyAt0 m t := rfl
  have hi0 : (cfgM m).idle 0 ((cfgM m).grid.coords t) = false := rfl
  have hi1 : (cfgM m).idle 1 ((cfgM m).grid.coords t) = false := rfl
  have hi2 : (cfgM m).idle 2 ((cfgM m).grid.coords t) = false := rfl
  rw [hprog]
  simp only [hi0, hi1, hi2]
  iintro H
  iapply (sound_body m hT c t _)
  isplitl [H]
  · unfold bodyPre; iexact H
  unfold bodyPost
  iintro H; iexact H

/-! ## The run and the frame -/

set_option backward.isDefEq.respectTransparency.types false in
/-- From any memory with zero counters, every weakly fair execution of @main terminates, and every final state has every
    array of the pipeline at what the library computes from the proof data and every other unscoped buffer at its
    contents after the later host operations. -/
theorem run_main (hT : TblOk m) : θ_run defs (onTc (τ := τ) (main (F := F))) (s₀ m ρ)
    (Pipeline.FramePost (Pipeline.pin pcfgs fun _ => adm m) (dats m hT) 0
      (Pipeline.afterTail pcfgs (fun _ => adm m) (dats m hT) 0 (V0 m) [hostOps1])) :=
  Pipeline.θ_run_frameP_dma_around pcfgs (fun _ => adm m) (dats m hT) (0 : Fin 1) launch0 osem0 defs₀ Variants.none
    ownSemFacts0 H0 H0_sub m ρ main
    (hbody := fun c => (body_obligation m hT c).loose) (hshare := fun c => (dats m hT 0 c).share_full fun _ => rfl)
    (howed := fun _ _ => rfl) (V₀ := V0 m) (opss := [hostOps1]) (hsub := sfx_sub) (hfresh := sfx_fresh) (hkeep := sfx_keeps)
    (hmain := hmain m Variants.none) (hA := A_eq m hT) (hpf := V_pre m)
    (hin := fun _ => .rfl) (hout := fun c => show iprop(Pipeline.ΦD osem0 spec0 H0 (V m) c ∗ Pipeline.ΦT pre0 (tbl m) c) ⊢ Pipeline.ΦD osem0 spec0 H0 (V m) c from by
      iintro ⟨HD, -⟩; iexact HD)

/-- The frame: the program runs and its four argument arrays end unchanged, for every contents of the table whose
    words are rows of the array. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m hT) (A_eq m hT) (run_main m ρ hT)

end Cert.KernelIdeal.Hand

end
-- ==== Proof.KITbl.lean ====
import proofs.«412085_j52218212385067_2_alg».proof.Proof.Gen.KernelIdeal.Launch
import proofs.«412085_j52218212385067_2_alg».proof.Proof.Gen.KernelIdeal.Skeleton
import proofs.«412085_j52218212385067_2_alg».proof.Proof.KIRuns
import proofs.«412085_j52218212385067_2_alg».proof.Proof.IndexFacts
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.StableHlo

variable (m : (ℓ : Loc nD τ sig) → Buf (Elt F) ℓ)

/-- The table the region is entered with is the clipped flat row of every object: the host lines before the
    region compute it from the index argument, and nothing else. -/
theorem tbl_eq (c : Dev nD) : tbl m 0 = Cert.IndexFacts.tblOf (m ((c : Thread nD τ).loc main_arg3)) := by
  obtain rfl : c = 0 := Subsingleton.elim _ _
  show V m (0 : Dev nD) main_v8 = _
  dsimp only [V, V0]
  simp only [hostOps0, hostOps0_1, hostOps0_2, List.flatten_cons, List.flatten_nil, List.append_nil, List.cons_append, List.nil_append]
  after_results
  rfl

/-- Every word of the table is a row of the 8388608-row array: the clip sees to it, whatever the indices. -/
theorem tblOk : ∀ j, (tbl m 0 j).toNat < 8388608 := by
  intro j
  rw [tbl_eq m 0]
  let j' : Cert.IndexFacts.STab.Idx := j
  have h := Cert.IndexFacts.tblOf_lt (m (((0 : Dev nD) : Thread nD τ).loc main_arg3)) (j' 0) (j' 1)
  show (Cert.IndexFacts.tblOf (m (((0 : Dev nD) : Thread nD τ).loc main_arg3)) j').toNat < 8388608
  rw [ValueIdx.eq_ix2 j']
  exact h

end Cert.KernelIdeal.Hand

end
-- ==== Proof.KIGather.lean ====
import proofs.«412085_j52218212385067_2_alg».proof.Proof.Gen.KernelIdeal.Launch
import proofs.«412085_j52218212385067_2_alg».proof.Proof.Gen.KernelIdeal.Skeleton
import proofs.«412085_j52218212385067_2_alg».proof.Proof.KIRuns
import Idealize.ShloMosaic.Lib.ValueIdx
import Idealize.ShloMosaic.Lib.Writes
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

variable {c : Dev nD}

/-! ## A row of four against a one-by-four block -/

/-- The index `y` of a row of four, matched with the shape one by four, is `(0, y)`. -/
theorem reshape_S4_S1x4 (h : S4.numel = S1x4.numel) (y : S4.Idx) :
    Shape.reshapeEquiv h y = ix2 (n0 := 1) (n1 := 4) ⟨0, Nat.one_pos⟩ (y 0) :=
  Shape.reshapeEquiv_eq_of_rowMajor h
    ((Shape.rowMajor_val_two (d := ![1, 4]) (ix2 (n0 := 1) (n1 := 4) ⟨0, Nat.one_pos⟩ (y 0))).trans
      ((show 0 * 4 + (y 0).val = (y 0).val by omega).trans (Shape.rowMajor_val_one (d := ![4]) y).symm))

/-- The index `(0, x)` of the shape one by four, matched with a row of four, is `x`. -/
theorem reshape_S1x4_S4 (h : S4.numel = S1x4.numel) (x : S1x4.Idx) :
    (Shape.reshapeEquiv h).symm x = ix1 (n := 4) (x 1) := by
  rw [Equiv.symm_apply_eq, reshape_S4_S1x4]
  funext a
  match a with
  | ⟨0, _⟩ => exact Fin.ext (by have := (x 0).isLt; change (x 0).val < 1 at this; show (x 0).val = 0; omega)
  | ⟨1, _⟩ => rfl

/-! ## Row `k` of the scratch after a row was written into it -/

/-- Row `k` of the scratch, read back after a row of four was written through the squeezed view of that row, is the row
    written. -/
theorem read_row_write (k : Nat) (h : ∀ a, (![k, 0] : Fin 2 → Nat) a + S1x4.size a ≤ S128x4.size a)
    (f : Buf (Elt F) (scM.view.loc (c : Thread nD τ))) (d : S4.Idx → Elt F .f32)
    (x : (Rect.unit (s := S128x4) ![k, 0] S1x4.size h).shape.Idx) :
    (scM.access (Rect.unit (s := S128x4) ![k, 0] S1x4.size h)).read (Elt F)
        (View.write (Elt F) ((scM.slice (Rect.unit (s := S128x4) ![k, 0] S1x4.size h) (fun _ => rfl)).squeeze S4 squeezes_S1x4_S4).view f d Finset.univ) x
      = d ((Shape.reshapeEquiv squeezes_S1x4_S4.numel_eq).symm x) := by
  have hw := View.write_reshape_univ (Val := Elt F) (v := scM.view.slice (Rect.unit (s := S128x4) ![k, 0] S1x4.size h))
    (s' := S4) squeezes_S1x4_S4.numel_eq f d
  refine (congrArg (fun g => (scM.access (Rect.unit (s := S128x4) ![k, 0] S1x4.size h)).read (Elt F) g x) hw).trans ?_
  exact View.read_write_of_mem _ _ (Finset.mem_univ x)

/-- The same with the row's index spelt out: entry `(0, j)` of the block is entry `j` of the row written. -/
theorem read_row_write_ix (k : Nat) (h : ∀ a, (![k, 0] : Fin 2 → Nat) a + S1x4.size a ≤ S128x4.size a)
    (f : Buf (Elt F) (scM.view.loc (c : Thread nD τ))) (d : S4.Idx → Elt F .f32)
    (x : (Rect.unit (s := S128x4) ![k, 0] S1x4.size h).shape.Idx) :
    (scM.access (Rect.unit (s := S128x4) ![k, 0] S1x4.size h)).read (Elt F)
        (View.write (Elt F) ((scM.slice (Rect.unit (s := S128x4) ![k, 0] S1x4.size h) (fun _ => rfl)).squeeze S4 squeezes_S1x4_S4).view f d Finset.univ) x
      = d (ix1 (n := 4) (x 1)) := by
  rw [read_row_write]
  exact congrArg d (reshape_S1x4_S4 _ x)

/-! ## A row of the array left in HBM -/

/-- A row of the array read through the squeezed one-by-four slice at offsets `off = (r, 0)` is row `r` of the array. -/
theorem src_row_read_at (off : Fin 2 → Nat) (h : ∀ a, off a + S1x4.size a ≤ S8388608x4.size a)
    (hr : ∀ a, (Rect.unit (s := S8388608x4) off S1x4.size h).stride a = 1)
    (fh : Buf (Elt F) (hbM.view.loc (c : Thread nD τ))) (y : S4.Idx) (r : Fin 8388608) (e : off = ![r.val, 0]) :
    ReadAs.same.apply (View.read (Elt F) ((hbM.slice (Rect.unit (s := S8388608x4) off S1x4.size h) hr).squeeze S4 squeezes_S1x4_S4).view fh) y
      = fh (ix2 r (⟨(y 0).val, (y 0).isLt⟩ : Fin 4)) := by
  subst e
  rw [ReadAs.apply_same, View.read_apply, cast_eq]
  refine congrArg fh ?_
  -- the squeezed slice places index y at the slice's (0, y), the slice places that at (r, y)
  show (Rect.unit (s := S8388608x4) ![r.val, 0] S1x4.size h).emb (Shape.reshapeEquiv squeezes_S1x4_S4.numel_eq y) = _
  rw [reshape_S4_S1x4]
  funext a
  match a with
  | ⟨0, _⟩ => exact Fin.ext (show r.val + 1 * 0 = r.val by omega)
  | ⟨1, _⟩ => exact Fin.ext (show 0 + 1 * (y 0).val = (y 0).val by omega)

/-- The same with the offsets written out from a word `w` below the number of rows. -/
theorem src_row_read (w : BitVec 32) (h : ∀ a, (![w.toNat, 0] : Fin 2 → Nat) a + S1x4.size a ≤ S8388608x4.size a)
    (hr : ∀ a, (Rect.unit (s := S8388608x4) ![w.toNat, 0] S1x4.size h).stride a = 1)
    (fh : Buf (Elt F) (hbM.view.loc (c : Thread nD τ))) (y : S4.Idx) :
    ReadAs.same.apply (View.read (Elt F) ((hbM.slice (Rect.unit (s := S8388608x4) ![w.toNat, 0] S1x4.size h) hr).squeeze S4 squeezes_S1x4_S4).view fh) y
      = fh (ix2 (⟨w.toNat, Nat.lt_of_succ_le (h 0)⟩ : Fin 8388608) (⟨(y 0).val, (y 0).isLt⟩ : Fin 4)) :=
  src_row_read_at ![w.toNat, 0] h hr fh y ⟨w.toNat, Nat.lt_of_succ_le (h 0)⟩ rfl

/-! ## A word of the table -/

/-- The word the body loads from the table at offsets `off = (r, k)` is entry `(r, k)` of the table. -/
theorem tbl_word_read_at (off : Fin 2 → Nat) (h : ∀ a, off a + S1x1.size a ≤ S128x128.size a)
    (hfirst : 0 < (Rect.unit (s := S128x128) off S1x1.size h).toLoadRect.shape.numel)
    (T : Buf (Elt F) (tbM.view.loc (c : Thread nD τ))) (r k : Fin 128) (e : off = ![r.val, k.val]) :
    View.readAt (Elt F) tbM.view (Rect.unit (s := S128x128) off S1x1.size h).toLoadRect T (Shape.Idx.first hfirst) = T (ix2 r k) := by
  subst e
  rw [View.readAt_apply]
  show T ((Rect.unit (s := S128x128) ![r.val, k.val] S1x1.size h).idx (Shape.Idx.first hfirst)) = T (ix2 r k)
  refine congrArg T ?_
  funext a
  match a with
  | ⟨0, _⟩ => exact Fin.ext (show r.val + 1 * 0 = r.val by omega)
  | ⟨1, _⟩ => exact Fin.ext (show k.val + 1 * 0 = k.val by omega)

/-- The same with the offsets written out as the body computes them from the point's coordinate and a column. -/
theorem tbl_word_read (i : grid0.Coords) (k : Fin 128)
    (h : ∀ a, (![(Scalar.indexCast (BitVec.ofNat 32 (i 0).val)).toNat, k.val] : Fin 2 → Nat) a + S1x1.size a ≤ S128x128.size a)
    (hfirst : 0 < (Rect.unit (s := S128x128) ![(Scalar.indexCast (BitVec.ofNat 32 (i 0).val)).toNat, k.val] S1x1.size h).toLoadRect.shape.numel)
    (T : Buf (Elt F) (tbM.view.loc (c : Thread nD τ))) :
    View.readAt (Elt F) tbM.view (Rect.unit (s := S128x128) ![(Scalar.indexCast (BitVec.ofNat 32 (i 0).val)).toNat, k.val] S1x1.size h).toLoadRect T
        (Shape.Idx.first hfirst)
      = T (ix2 (⟨(i 0).val, (i 0).isLt⟩ : Fin 128) k) :=
  tbl_word_read_at _ h hfirst T ⟨(i 0).val, (i 0).isLt⟩ k (by
    have hi : (i 0).val < 128 := (i 0).isLt
    have e : (Scalar.indexCast (BitVec.ofNat 32 (i 0).val)).toNat = (i 0).val := by
      show (BitVec.ofNat 32 (i 0).val).toNat = (i 0).val
      rw [BitVec.toNat_ofNat]; exact Nat.mod_eq_of_lt (by omega)
    rw [e])

/-! ## One copied row, read at an index -/

/-- The row a copy moves, when its source offsets are `(wd, 0)` for the word `wd` the body loaded from entry `(r, k)` of
    the table: row `T (r, k)` of the array. -/
theorem gather_row_read (T : Buf (Elt F) (tbM.view.loc (c : Thread nD τ))) (hT : ∀ j, (T j).toNat < 8388608)
    (fh : Buf (Elt F) (hbM.view.loc (c : Thread nD τ))) (wd : Elt F .i32) (r k : Fin 128) (hw : wd = T (ix2 r k))
    (off : Fin 2 → Nat) (e : off = ![wd.toNat, 0]) (h : ∀ a, off a + S1x4.size a ≤ S8388608x4.size a)
    (hr : ∀ a, (Rect.unit (s := S8388608x4) off S1x4.size h).stride a = 1) (y : S4.Idx) :
    ReadAs.same.apply (View.read (Elt F) ((hbM.slice (Rect.unit (s := S8388608x4) off S1x4.size h) hr).squeeze S4 squeezes_S1x4_S4).view fh) y
      = fh (ix2 (⟨(T (ix2 r k)).toNat, hT _⟩ : Fin 8388608) (⟨(y 0).val, (y 0).isLt⟩ : Fin 4)) := by
  subst hw
  exact src_row_read_at off h hr fh y ⟨_, hT _⟩ e

end Cert.KernelIdeal.Hand

end
-- ==== Proof.Spec.lean ====
/-
  The common value of the two programs, one object at a time.

  For one object with predicted box row (r0, r1, r2, r3) (raw, in pixel units), true box (t0, t1, t2, t3)
  and mask weight mk, the loss is  (1 - giou) * mk  where the predicted box is the raw row scaled by 1/256
  (an exact dyadic, so scaling by it and dividing by 256 agree on every extended real), the boxes' areas,
  their intersection and their smallest enclosing box are products of clamped side lengths, and each of the
  two quotients is guarded: where the divisor is zero the quotient is replaced by zero (the divisor being
  replaced by one under the same test).  The operations are written in the order both programs apply them.
-/
import Idealize.ShloMosaic.PureOps.Ideal
import Idealize.ShloMosaic.Lib.ValueIdx

noncomputable section

namespace Cert.Spec

open Idealize.ShloMosaic

/-- The printed words for 0, 1 and 1/256. -/
abbrev zero : EReal := Ideal.ofBits .f32 0x00000000#32
abbrev one : EReal := Ideal.ofBits .f32 0x3F800000#32
abbrev inv256 : EReal := Ideal.ofBits .f32 0x3B800000#32

/-- A guarded quotient: n / d where d ≠ 0, else 0. -/
def divNoNan (n d : EReal) : EReal :=
  Scalar.select (Ideal.cmp .one d zero) (Ideal.div n (Scalar.select (Ideal.cmp .one d zero) d one)) zero

/-- The area of the box (y0, x0, y1, x1): clamped height times clamped width. -/
def area (y0 x0 y1 x1 : EReal) : EReal := max (y1 - y0) zero * max (x1 - x0) zero

/-- One object's masked loss from the SCALED predicted box (p0..p3), the true box and the mask weight. -/
def lossOf (p0 p1 p2 p3 t0 t1 t2 t3 mk : EReal) : EReal :=
  let a1 := area p0 p1 p2 p3
  let a2 := area t0 t1 t2 t3
  let inter := area (max p0 t0) (max p1 t1) (min p2 t2) (min p3 t3)
  let union := a1 + a2 - inter
  let iou := divNoNan inter union
  let enclose := area (min p0 t0) (min p1 t1) (max p2 t2) (max p3 t3)
  let giou := iou - divNoNan (enclose - union) enclose
  (one - giou) * mk

/-- One object's masked loss from the RAW predicted row: each coordinate scaled by 1/256 first. -/
def loss (r0 r1 r2 r3 t0 t1 t2 t3 mk : EReal) : EReal :=
  lossOf (r0 * inv256) (r1 * inv256) (r2 * inv256) (r3 * inv256) t0 t1 t2 t3 mk

/-- The word 0x3B800000 is the real 1/256. -/
theorem inv256_eq : inv256 = ((1 / 256 : ℝ) : EReal) := by
  simp [inv256, Ideal.ofBits, Ideal.ieee]
  rw [← EReal.coe_mul]; norm_num

/-- The word 0x43800000 is the real 256. -/
theorem w256_eq : (Ideal.ofBits .f32 0x43800000#32 : EReal) = ((256 : ℝ) : EReal) := by
  simp [Ideal.ofBits, Ideal.ieee]
  rw [← EReal.coe_mul]; norm_num

/-- Dividing by 256 is scaling by 1/256, at the infinities too. -/
theorem div256 (x : EReal) : Ideal.div x (Ideal.ofBits .f32 0x43800000#32) = x * inv256 := by
  rw [w256_eq, inv256_eq]; exact Ideal.div_coe (by norm_num) x

end Cert.Spec

end
-- ==== Proof.KPayload.lean ====
/-
  The stored block of one grid point, read at one object.

  The kernel's arithmetic is thirteen pure functions of the three blocks it loads: the gathered predicted rows,
  the true boxes and the mask weights.  Each is read here at the coordinates of one object j: a column of the
  gathered rows scaled by 1/256, a column of the true boxes, the two areas, the intersection, and last the
  stored block, which at j is the specification's scalar loss of row j of the gathered rows, row j of the true
  boxes and the mask weight of j.  Every step reads an elementwise operation at an index, or a column slice or a
  unit-axis cast at an index given by coordinates; nothing is evaluated.
-/
import proofs.«412085_j52218212385067_2_alg».proof.Proof.Gen.KernelIdeal.Skeleton
import proofs.«412085_j52218212385067_2_alg».proof.Proof.Spec
import Idealize.ShloMosaic.Lib.ValueIdx
import Idealize.ShloMosaic.Lib.ValueLayout

noncomputable section

namespace Cert.KPayload

open Cert.KernelIdeal Cert.KernelIdeal.Gen Idealize.ShloMosaic Idealize.ShloMosaic.ValueIdx

/-! ## The four columns of the gathered rows, each scaled by 1/256 -/

/-- Column 0 of the gathered rows at object j, scaled. -/
theorem pay2_apply (G : Vec Ideal S128x4 .f32) (j : Fin 128) :
    k0_pay2 (F := Ideal) G (ix2 j (0 : Fin 1)) = (G (ix2 j (0 : Fin 4)) : EReal) * Spec.inv256 := by
  unfold k0_pay2
  exact congrArg (fun x : EReal => x * Spec.inv256) (slice2_axis1_apply 0 G _ j (0 : Fin 1) (0 : Fin 4) rfl)

/-- Column 1 of the gathered rows at object j, scaled. -/
theorem pay3_apply (G : Vec Ideal S128x4 .f32) (j : Fin 128) :
    k0_pay3 (F := Ideal) G (ix2 j (0 : Fin 1)) = (G (ix2 j (1 : Fin 4)) : EReal) * Spec.inv256 := by
  unfold k0_pay3
  exact congrArg (fun x : EReal => x * Spec.inv256) (slice2_axis1_apply 1 G _ j (0 : Fin 1) (1 : Fin 4) rfl)

/-- Column 2 of the gathered rows at object j, scaled. -/
theorem pay4_apply (G : Vec Ideal S128x4 .f32) (j : Fin 128) :
    k0_pay4 (F := Ideal) G (ix2 j (0 : Fin 1)) = (G (ix2 j (2 : Fin 4)) : EReal) * Spec.inv256 := by
  unfold k0_pay4
  exact congrArg (fun x : EReal => x * Spec.inv256) (slice2_axis1_apply 2 G _ j (0 : Fin 1) (2 : Fin 4) rfl)

/-- Column 3 of the gathered rows at object j, scaled. -/
theorem pay5_apply (G : Vec Ideal S128x4 .f32) (j : Fin 128) :
    k0_pay5 (F := Ideal) G (ix2 j (0 : Fin 1)) = (G (ix2 j (3 : Fin 4)) : EReal) * Spec.inv256 := by
  unfold k0_pay5
  exact congrArg (fun x : EReal => x * Spec.inv256) (slice2_axis1_apply 3 G _ j (0 : Fin 1) (3 : Fin 4) rfl)

/-! ## The four columns of the true boxes -/

/-- The true boxes with their leading unit axis dropped, at (j, k). -/
theorem pay6_apply (B2 : Vec Ideal S1x128x4 .f32) (j : Fin 128) (k : Fin 4) :
    k0_pay6 (F := Ideal) B2 (ix2 j k) = B2 (ix3 (0 : Fin 1) j k) := by
  unfold k0_pay6
  exact shapeCast_1ab_ab_apply B2 _ j k

/-- Column 0 of the true boxes at object j. -/
theorem pay7_apply (B2 : Vec Ideal S1x128x4 .f32) (j : Fin 128) :
    k0_pay7 (F := Ideal) B2 (ix2 j (0 : Fin 1)) = B2 (ix3 (0 : Fin 1) j (0 : Fin 4)) := by
  unfold k0_pay7
  exact (slice2_axis1_apply 0 (k0_pay6 (F := Ideal) B2) _ j (0 : Fin 1) (0 : Fin 4) rfl).trans (pay6_apply B2 j 0)

/-- Column 1 of the true boxes at object j. -/
theorem pay8_apply (B2 : Vec Ideal S1x128x4 .f32) (j : Fin 128) :
    k0_pay8 (F := Ideal) B2 (ix2 j (0 : Fin 1)) = B2 (ix3 (0 : Fin 1) j (1 : Fin 4)) := by
  unfold k0_pay8
  exact (slice2_axis1_apply 1 (k0_pay6 (F := Ideal) B2) _ j (0 : Fin 1) (1 : Fin 4) rfl).trans (pay6_apply B2 j 1)

/-- Column 2 of the true boxes at object j. -/
theorem pay9_apply (B2 : Vec Ideal S1x128x4 .f32) (j : Fin 128) :
    k0_pay9 (F := Ideal) B2 (ix2 j (0 : Fin 1)) = B2 (ix3 (0 : Fin 1) j (2 : Fin 4)) := by
  unfold k0_pay9
  exact (slice2_axis1_apply 2 (k0_pay6 (F := Ideal) B2) _ j (0 : Fin 1) (2 : Fin 4) rfl).trans (pay6_apply B2 j 2)

/-- Column 3 of the true boxes at object j. -/
theorem pay10_apply (B2 : Vec Ideal S1x128x4 .f32) (j : Fin 128) :
    k0_pay10 (F := Ideal) B2 (ix2 j (0 : Fin 1)) = B2 (ix3 (0 : Fin 1) j (3 : Fin 4)) := by
  unfold k0_pay10
  exact (slice2_axis1_apply 3 (k0_pay6 (F := Ideal) B2) _ j (0 : Fin 1) (3 : Fin 4) rfl).trans (pay6_apply B2 j 3)

/-! ## The two areas and the intersection -/

/-- The predicted box's area at object j: the area of the scaled row. -/
theorem pay11_apply (G : Vec Ideal S128x4 .f32) (j : Fin 128) :
    k0_pay11 (F := Ideal) G (ix2 j (0 : Fin 1))
      = Spec.area ((G (ix2 j (0 : Fin 4)) : EReal) * Spec.inv256) ((G (ix2 j (1 : Fin 4)) : EReal) * Spec.inv256)
          ((G (ix2 j (2 : Fin 4)) : EReal) * Spec.inv256) ((G (ix2 j (3 : Fin 4)) : EReal) * Spec.inv256) := by
  unfold k0_pay11 Spec.area
  show max (k0_pay4 (F := Ideal) G (ix2 j (0 : Fin 1)) - k0_pay2 (F := Ideal) G (ix2 j (0 : Fin 1))) Spec.zero
      * max (k0_pay5 (F := Ideal) G (ix2 j (0 : Fin 1)) - k0_pay3 (F := Ideal) G (ix2 j (0 : Fin 1))) Spec.zero = _
  rw [pay2_apply, pay3_apply, pay4_apply, pay5_apply]

/-- The true box's area at object j. -/
theorem pay12_apply (B2 : Vec Ideal S1x128x4 .f32) (j : Fin 128) :
    k0_pay12 (F := Ideal) B2 (ix2 j (0 : Fin 1))
      = Spec.area (B2 (ix3 (0 : Fin 1) j (0 : Fin 4))) (B2 (ix3 (0 : Fin 1) j (1 : Fin 4)))
          (B2 (ix3 (0 : Fin 1) j (2 : Fin 4))) (B2 (ix3 (0 : Fin 1) j (3 : Fin 4))) := by
  unfold k0_pay12 Spec.area
  show max (k0_pay9 (F := Ideal) B2 (ix2 j (0 : Fin 1)) - k0_pay7 (F := Ideal) B2 (ix2 j (0 : Fin 1))) Spec.zero
      * max (k0_pay10 (F := Ideal) B2 (ix2 j (0 : Fin 1)) - k0_pay8 (F := Ideal) B2 (ix2 j (0 : Fin 1))) Spec.zero = _
  rw [pay7_apply, pay8_apply, pay9_apply, pay10_apply]

/-- The intersection's area at object j: the area of the box between the larger low corners and the smaller high
    corners. -/
theorem pay13_apply (G : Vec Ideal S128x4 .f32) (B2 : Vec Ideal S1x128x4 .f32) (j : Fin 128) :
    k0_pay13 (F := Ideal) G B2 (ix2 j (0 : Fin 1))
      = Spec.area
          (max ((G (ix2 j (0 : Fin 4)) : EReal) * Spec.inv256) (B2 (ix3 (0 : Fin 1) j (0 : Fin 4))))
          (max ((G (ix2 j (1 : Fin 4)) : EReal) * Spec.inv256) (B2 (ix3 (0 : Fin 1) j (1 : Fin 4))))
          (min ((G (ix2 j (2 : Fin 4)) : EReal) * Spec.inv256) (B2 (ix3 (0 : Fin 1) j (2 : Fin 4))))
          (min ((G (ix2 j (3 : Fin 4)) : EReal) * Spec.inv256) (B2 (ix3 (0 : Fin 1) j (3 : Fin 4)))) := by
  unfold k0_pay13 Spec.area
  show max (min (k0_pay4 (F := Ideal) G (ix2 j (0 : Fin 1))) (k0_pay9 (F := Ideal) B2 (ix2 j (0 : Fin 1)))
          - max (k0_pay2 (F := Ideal) G (ix2 j (0 : Fin 1))) (k0_pay7 (F := Ideal) B2 (ix2 j (0 : Fin 1)))) Spec.zero
      * max (min (k0_pay5 (F := Ideal) G (ix2 j (0 : Fin 1))) (k0_pay10 (F := Ideal) B2 (ix2 j (0 : Fin 1)))
          - max (k0_pay3 (F := Ideal) G (ix2 j (0 : Fin 1))) (k0_pay8 (F := Ideal) B2 (ix2 j (0 : Fin 1)))) Spec.zero = _
  rw [pay2_apply, pay3_apply, pay4_apply, pay5_apply, pay7_apply, pay8_apply, pay9_apply, pay10_apply]

/-! ## The stored block -/

/-- The stored block at object j, over any eleven columns: one minus the difference of the two guarded quotients,
    times the mask weight of j. -/
theorem pay1_apply (p0 p1 p2 p3 t0 t1 t2 t3 a1 a2 inter : FVec Ideal S128x1 .f32) (M : Vec Ideal S1x128x1 .f32)
    (j : Fin 128) :
    k0_pay1 (F := Ideal) p0 p1 p2 p3 t0 t1 t2 t3 a1 a2 inter M (ix3 (0 : Fin 1) j (0 : Fin 1))
      = (Spec.one
          - (Spec.divNoNan (inter (ix2 j (0 : Fin 1)))
                (a1 (ix2 j (0 : Fin 1)) + a2 (ix2 j (0 : Fin 1)) - inter (ix2 j (0 : Fin 1)))
              - Spec.divNoNan
                  (Spec.area (min (p0 (ix2 j (0 : Fin 1))) (t0 (ix2 j (0 : Fin 1))))
                      (min (p1 (ix2 j (0 : Fin 1))) (t1 (ix2 j (0 : Fin 1))))
                      (max (p2 (ix2 j (0 : Fin 1))) (t2 (ix2 j (0 : Fin 1))))
                      (max (p3 (ix2 j (0 : Fin 1))) (t3 (ix2 j (0 : Fin 1))))
                    - (a1 (ix2 j (0 : Fin 1)) + a2 (ix2 j (0 : Fin 1)) - inter (ix2 j (0 : Fin 1))))
                  (Spec.area (min (p0 (ix2 j (0 : Fin 1))) (t0 (ix2 j (0 : Fin 1))))
                      (min (p1 (ix2 j (0 : Fin 1))) (t1 (ix2 j (0 : Fin 1))))
                      (max (p2 (ix2 j (0 : Fin 1))) (t2 (ix2 j (0 : Fin 1))))
                      (max (p3 (ix2 j (0 : Fin 1))) (t3 (ix2 j (0 : Fin 1)))))))
        * (M (ix3 (0 : Fin 1) j (0 : Fin 1)) : EReal) := by
  unfold k0_pay1
  refine (shapeCast_ab_1ab_apply _ _ (0 : Fin 1) j (0 : Fin 1)).trans ?_
  show (_ : EReal) * shapeCast S128x1 M shapeCasts_S1x128x1_S128x1 (ix2 j (0 : Fin 1)) = _
  rw [shapeCast_1ab_ab_apply M _ j (0 : Fin 1)]
  rfl

/-- the stored block at object j is the specification's scalar loss of row j of the gathered rows, row j of the true boxes and the mask weight of j -/
theorem pay_apply (G : Vec Ideal Cert.KernelIdeal.S128x4 .f32) (B2 : Vec Ideal Cert.KernelIdeal.S1x128x4 .f32) (M : Vec Ideal Cert.KernelIdeal.S1x128x1 .f32) (j : Fin 128) :
    (Cert.KernelIdeal.Gen.k0_pay1 (F := Ideal) (k0_pay2 G) (k0_pay3 G) (k0_pay4 G) (k0_pay5 G) (k0_pay7 B2) (k0_pay8 B2) (k0_pay9 B2) (k0_pay10 B2) (k0_pay11 G) (k0_pay12 B2) (k0_pay13 G B2) M) (ValueIdx.ix3 (0 : Fin 1) j (0 : Fin 1))
      = Cert.Spec.loss (G (ValueIdx.ix2 j (0 : Fin 4))) (G (ValueIdx.ix2 j (1 : Fin 4))) (G (ValueIdx.ix2 j (2 : Fin 4))) (G (ValueIdx.ix2 j (3 : Fin 4)))
          (B2 (ValueIdx.ix3 (0 : Fin 1) j (0 : Fin 4))) (B2 (ValueIdx.ix3 (0 : Fin 1) j (1 : Fin 4))) (B2 (ValueIdx.ix3 (0 : Fin 1) j (2 : Fin 4))) (B2 (ValueIdx.ix3 (0 : Fin 1) j (3 : Fin 4)))
          (M (ValueIdx.ix3 (0 : Fin 1) j (0 : Fin 1))) := by
  rw [pay1_apply, pay2_apply, pay3_apply, pay4_apply, pay5_apply, pay7_apply, pay8_apply, pay9_apply, pay10_apply,
    pay11_apply, pay12_apply, pay13_apply]
  rfl

end Cert.KPayload

end
-- ==== Proof.KIOut.lean ====
/-
  What the kernel writes at one grid point, object by object.

  The scratch the body reads is, row by row, the rows of the array left in HBM that the point's table words name
  (each row's copy read that row, and the rows were joined as a list of writes); the arithmetic after the read is the
  specification's loss of that row, the object's true box and its mask weight.
-/
import proofs.«412085_j52218212385067_2_alg».proof.Proof.Gen.KernelIdeal.Launch
import proofs.«412085_j52218212385067_2_alg».proof.Proof.Gen.KernelIdeal.Skeleton
import proofs.«412085_j52218212385067_2_alg».proof.Proof.KIFrame
import proofs.«412085_j52218212385067_2_alg».proof.Proof.KIGather
import proofs.«412085_j52218212385067_2_alg».proof.Proof.KPayload
import Idealize.ShloMosaic.Lib.Pipeline.Value
import Idealize.ShloMosaic.Lib.WholeRead
import proofs.«412085_j52218212385067_2_alg».proof.Proof.Chains
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ
open Cert.Chains Idealize.ShloMosaic.ValueIdx

variable {c : Dev nD}

/-- The rows the copies bring in, as ONE function of the scratch's index: row r of the scratch is row  T[t, r]  of the
    array left in HBM (t the grid point), column by column. -/
def gath (i : grid0.Coords) (T : Buf (Elt F) (tbM.view.loc (c : Thread nD τ))) (hT : ∀ j, (T j).toNat < 8388608)
    (fh : Buf (Elt F) (hbM.view.loc (c : Thread nD τ))) : S128x4.Idx → Elt F .f32 :=
  fun y => fh (ix2 (⟨(T (ix2 (⟨(i 0).val, (i 0).isLt⟩ : Fin 128) (⟨(y 0).val, (y 0).isLt⟩ : Fin 128))).toNat, hT _⟩ : Fin 8388608)
    (⟨(y 1).val, (y 1).isLt⟩ : Fin 4))

/-- It depends on the index through its two coordinates' values only. -/
theorem gath_at (i : grid0.Coords) (T : Buf (Elt F) (tbM.view.loc (c : Thread nD τ))) (hT : ∀ j, (T j).toNat < 8388608)
    (fh : Buf (Elt F) (hbM.view.loc (c : Thread nD τ))) (y : S128x4.Idx) (r : Fin 128) (q : Fin 4) (h0 : (y 0).val = r.val) (h1 : (y 1).val = q.val) :
    gath i T hT fh y = fh (ix2 (⟨(T (ix2 (⟨(i 0).val, (i 0).isLt⟩ : Fin 128) r)).toNat, hT _⟩ : Fin 8388608) q) := by
  unfold gath
  obtain rfl : r = (⟨(y 0).val, (y 0).isLt⟩ : Fin 128) := Fin.ext h0.symm
  obtain rfl : q = (⟨(y 1).val, (y 1).isLt⟩ : Fin 4) := Fin.ext h1.symm
  rfl

/-- Row k's rectangle embeds its index at row k, -/
theorem row_emb0 (k : Nat) (h : ∀ a, (![k, 0] : Fin 2 → Nat) a + S1x4.size a ≤ S128x4.size a) (x : (rowR k h).shape.Idx) :
    ((rowR k h).emb x 0).val = k := by
  have := (x 0).isLt
  show k + 1 * (x 0).val = k
  have h1 : (x 0).val < 1 := this
  omega

/-- and at the same column. -/
theorem row_emb1 (k : Nat) (h : ∀ a, (![k, 0] : Fin 2 → Nat) a + S1x4.size a ≤ S128x4.size a) (x : (rowR k h).shape.Idx) :
    ((rowR k h).emb x 1).val = (x 1).val := by
  show 0 + 1 * (x 1).val = (x 1).val
  omega

/-- A row's re-indexed payload is the gathered rows on the row's rectangle, once the payload is known to be row
    T[t, k] of the array. -/
theorem piece_fact (i : grid0.Coords) (T : Buf (Elt F) (tbM.view.loc (c : Thread nD τ))) (hT : ∀ j, (T j).toNat < 8388608)
    (fh : Buf (Elt F) (hbM.view.loc (c : Thread nD τ))) (k : Nat) (hk : k < 128)
    (h : ∀ a, (![k, 0] : Fin 2 → Nat) a + S1x4.size a ≤ S128x4.size a) (d : S4.Idx → Elt F .f32)
    (hd : ∀ y : S4.Idx, d y = fh (ix2 (⟨(T (ix2 (⟨(i 0).val, (i 0).isLt⟩ : Fin 128) (⟨k, hk⟩ : Fin 128))).toNat, hT _⟩ : Fin 8388608) (⟨(y 0).val, (y 0).isLt⟩ : Fin 4)))
    (x : (rowR k h).shape.Idx) :
    d ((Shape.reshapeEquiv squeezes_S1x4_S4.numel_eq).symm x) = gath i T hT fh ((rowR k h).emb x) := by
  rw [gath_at i T hT fh _ (⟨k, hk⟩ : Fin 128) (⟨(x 1).val, (x 1).isLt⟩ : Fin 4) (row_emb0 k h x) (row_emb1 k h x), hd,
    reshape_S1x4_S4 squeezes_S1x4_S4.numel_eq x]

set_option hygiene false in
open Lean Elab Command in
/-- for each copy k < n: the payload the run names for it is row T[t, k] of the array, column by column -/
elab "copy_read_theorems " root:ident n:num : command => do
  for k in [0:n.getNat] do
    let nm := mkIdent (Name.mkSimple s!"copy{k}_read")
    let dma := mkIdent (root.getId ++ `sl ++ Name.mkSimple s!"dma{k+1}")
    let r := mkIdent (root.getId ++ `sl ++ Name.mkSimple (if k == 0 then "r" else s!"r_{k}"))
    let offA := mkIdent (Name.mkSimple s!"k0_off{2*k+1}")
    let offAeq := mkIdent (Name.mkSimple s!"k0_off{2*k+1}_eq")
    let offB := mkIdent (Name.mkSimple s!"k0_off{2*k+2}")
    let stx ← `(theorem $nm (c : Dev nD) (i : grid0.Coords) (T : Buf (Elt F) (tbM.view.loc (c : Thread nD τ))) (hT : ∀ j, (T j).toNat < 8388608)
        (fh : Buf (Elt F) (hbM.view.loc (c : Thread nD τ))) (y : S4.Idx) :
        $dma c i T hT fh y = fh (ix2 (⟨(T (ix2 (⟨(i 0).val, (i 0).isLt⟩ : Fin 128) ($(quote k) : Fin 128))).toNat, hT _⟩ : Fin 8388608) (⟨(y 0).val, (y 0).isLt⟩ : Fin 4)) :=
      gather_row_read T hT fh ($r c i T) ⟨(i 0).val, (i 0).isLt⟩ $(quote k) (tbl_word_read_at ($offA i) _ _ T _ _ ($offAeq i)) ($offB ($r c i T)) rfl _ _ y)
    elabCommand stx

set_option hygiene false in
open Lean Elab Term in
/-- the fact, for the joined list of n + m row pieces in its order (rows 0 … n-1, then n+m-1 down to n), that every piece
    is the gathered rows on its rectangle: one conjunct per piece, from that copy's read -/
elab "pieces_facts% " n:num m:num : term <= ty => do
  let k := n.getNat
  let mm := m.getNat
  let order : List Nat := (List.range k) ++ ((List.range mm).map fun j => k + mm - 1 - j)
  let mut acc : TSyntax `term ← `(fun _ h => absurd h List.not_mem_nil)
  for j in order.reverse do
    let inb := mkIdent (Name.mkSimple s!"inb_S128x4_S1x4_{j}_0")
    let cr := mkIdent (Name.mkSimple s!"copy{j}_read")
    acc ← `(List.forall_mem_cons.2 ⟨fun x => piece_fact i T hT fh $(quote j) (by decide) $inb _ ($cr c i T hT fh) x, $acc⟩)
  elabTerm acc ty

copy_read_theorems Cert.KernelIdeal.Hand.kernelRun0 128

/-- A whole-block load's index is the index itself. -/
theorem idx_unit_zero {s : Shape} (off : Fin s.rank → Nat) (inb : ∀ a, off a + s.size a ≤ s.size a) (h0 : ∀ a, off a = 0)
    (x : (Rect.unit (s := s) off s.size inb).toLoadRect.shape.Idx) (a : Fin s.rank) :
    (((Rect.unit (s := s) off s.size inb).toLoadRect.idx x) a).val = (x a).val := by
  show off a + 1 * (x a).val = (x a).val
  rw [h0 a]; omega

/-- A whole-block load of a block held at the contents that read X is X, index by index. -/
theorem readAt_whole_unread {S : Shape} {e : EltTy} (mr : Memref sig .tc .vmem S e) (h : mr.IsWhole) (X : S.Idx → Elt F e)
    (off : Fin S.rank → Nat) (inb : ∀ a, off a + S.size a ≤ S.size a) (h0 : ∀ a, off a = 0) (y : S.Idx) :
    View.readAt (Elt F) mr.view (Rect.unit (s := S) off S.size inb).toLoadRect (h.unread X) y = X y := by
  rw [Memref.IsWhole.readAt_unread]
  congr 1
  funext a
  exact Fin.ext (idx_unit_zero off inb h0 y a)

/-- One object's loss as a function of the point's row A of the table and the object j: row T[A, j] of the array, the
    object's true box in the block x3 and its mask weight in the block x4. -/
def lossAt (fh : Buf (Elt Ideal) (hbM.view.loc (c : Thread nD τ))) (T : Buf (Elt Ideal) (tbM.view.loc (c : Thread nD τ))) (hT : ∀ j, (T j).toNat < 8388608)
    (x3 : Vec Ideal S1x128x4 .f32) (x4 : Vec Ideal S1x128x1 .f32) (A j : Fin 128) : EReal :=
  Cert.Spec.loss
    (fh (ix2 (⟨(T (ix2 A j)).toNat, hT _⟩ : Fin 8388608) (0 : Fin 4))) (fh (ix2 (⟨(T (ix2 A j)).toNat, hT _⟩ : Fin 8388608) (1 : Fin 4)))
    (fh (ix2 (⟨(T (ix2 A j)).toNat, hT _⟩ : Fin 8388608) (2 : Fin 4))) (fh (ix2 (⟨(T (ix2 A j)).toNat, hT _⟩ : Fin 8388608) (3 : Fin 4)))
    (x3 (ix3 (0 : Fin 1) j (0 : Fin 4))) (x3 (ix3 (0 : Fin 1) j (1 : Fin 4))) (x3 (ix3 (0 : Fin 1) j (2 : Fin 4))) (x3 (ix3 (0 : Fin 1) j (3 : Fin 4)))
    (x4 (ix3 (0 : Fin 1) j (0 : Fin 1)))

set_option maxHeartbeats 8000000 in
/-- THE SCRATCH AS THE BODY READS IT: entry (j, q) is entry q of row T[t, j] of the array. The read-back is the canon
    of the 128 row pieces; each piece is the gathered rows on its rectangle (that copy's read); the rows tile the
    scratch. -/
theorem gathered_apply (c : Dev nD) (i : grid0.Coords) (T : Buf (Elt Ideal) (tbM.view.loc (c : Thread nD τ))) (hT : ∀ j, (T j).toNat < 8388608)
    (fh : Buf (Elt Ideal) (hbM.view.loc (c : Thread nD τ))) (j : Fin 128) (q : Fin 4) :
    kernelRun0.sl.v2048_1 (F := Ideal) c i T hT fh (ix2 j q)
      = fh (ix2 (⟨(T (ix2 (⟨(i 0).val, (i 0).isLt⟩ : Fin 128) j)).toNat, hT _⟩ : Fin 8388608) q) := by
  unfold kernelRun0.sl.v2048_1
  rw [View.readCov_eq_canon']
  show View.canon _ ((Rect.unit (s := S128x4) ![0, 0] S128x4.size inb_S128x4_S128x4_0_0).toLoadRect.idx (ix2 j q)) = _
  rw [View.canon_apply_of_pieces (gath i T hT fh) _ (pieces_facts% 112 16) _ (View.cover_of_tiledL (s := S128x4) _ ![1, 4] (by sl_kernel_rfl) _)]
  exact gath_at i T hT fh _ j q
    (idx_unit_zero (s := S128x4) ![0, 0] inb_S128x4_S128x4_0_0 (fun a => by fin_cases a <;> rfl) (ix2 j q) 0)
    (idx_unit_zero (s := S128x4) ![0, 0] inb_S128x4_S128x4_0_0 (fun a => by fin_cases a <;> rfl) (ix2 j q) 1)

/-- ONE BLOCK OF THE OUTPUT, object by object: the specification's loss of the gathered row, the true box and the mask
    weight of the object. The block is the run's one whole piece; its payload is the kernel's arithmetic on the scratch
    as read, the true boxes' block and the mask's block. -/
theorem out0_2_apply (c : Dev nD) (i : grid0.Coords)
    (arg3 : Memref sig .tc .vmem S1x128x4 .f32) (harg3 : arg3.IsWhole) (arg4 : Memref sig .tc .vmem S1x128x1 .f32) (harg4 : arg4.IsWhole)
    (arg5 : Memref sig .tc .vmem S1x128x1 .f32) (harg5 : arg5.IsWhole)
    (x3 : Vec Ideal S1x128x4 .f32) (x4 : Vec Ideal S1x128x1 .f32)
    (T : Buf (Elt Ideal) (tbM.view.loc (c : Thread nD τ))) (hT : ∀ j, (T j).toNat < 8388608)
    (fh : Buf (Elt Ideal) (hbM.view.loc (c : Thread nD τ))) (j : Fin 128) :
    out0_2 (F := Ideal) c i arg3 harg3 arg4 harg4 arg5 harg5 x3 x4 T hT fh (ix3 (0 : Fin 1) j (0 : Fin 1))
      = lossAt fh T hT x3 x4 (⟨(i 0).val, (i 0).isLt⟩ : Fin 128) j := by
  unfold out0_2 lossAt
  rw [View.read_writes_eq_canon VO0_2 _ _ (cover0_2 c i arg3 harg3 arg4 harg4 arg5 harg5 x3 x4 T hT fh)]
  show View.canon [(⟨Rect.unit (s := S1x128x1) ![0, 0, 0] S1x128x1.size inb_S1x128x1_S1x128x1_0_0_0, _⟩ : View.Piece (Elt Ideal) S1x128x1 .f32)] _ = _
  rw [View.canon_unit_zero (show (![0, 0, 0] : Fin 3 → Nat) = fun _ => 0 from by funext a; fin_cases a <;> rfl)]
  simp only [kernelRun0.sl.r_256, kernelRun0.sl.r_257, kernelRun0.sl.r_258, kernelRun0.sl.r_259, kernelRun0.sl.r_260, kernelRun0.sl.r_261,
    kernelRun0.sl.r_262, kernelRun0.sl.r_263, kernelRun0.sl.r_264, kernelRun0.sl.r_265, kernelRun0.sl.r_266]
  rw [Cert.KPayload.pay_apply]
  rw [gathered_apply c i T hT fh j 0, gathered_apply c i T hT fh j 1, gathered_apply c i T hT fh j 2, gathered_apply c i T hT fh j 3]
  simp only [readAt_whole_unread arg3 harg3 x3 ![0, 0, 0] inb_S1x128x4_S1x128x4_0_0_0 (fun a => by fin_cases a <;> rfl),
    readAt_whole_unread arg4 harg4 x4 ![0, 0, 0] inb_S1x128x1_S1x128x1_0_0_0 (fun a => by fin_cases a <;> rfl)]

/-- A grid point's one coordinate is its number. -/
theorem coords_val : ∀ t : Fin grid0.N, ((grid0.coords t) 0).val = t.val := by decide +kernel

/-- WHAT THE KERNEL WRITES at point t, object j: the loss of row  table[t, j]  of the predictions as the region finds
    them, the block of true boxes and the block of mask weights of the point. -/
theorem out_apply (m : (ℓ : Loc nD τ sig) → Buf (Elt Ideal) ℓ) (hT : TblOk m) (c : Dev nD) (t : Fin (cfgM m).N) (j : Fin 128) :
    outsAt0 m hT c t (ix3 (0 : Fin 1) j (0 : Fin 1))
      = lossAt (V m c main_v0) (tbl m 0) hT (iblk m c 0 t) (iblk m c 1 t) (⟨t.val, t.isLt⟩ : Fin 128) j :=
  (out0_2_apply c (grid0.coords t) (ms0_0 m t) (hs0_0 m t) (ms0_1 m t) (hs0_1 m t) (ms0_2 m t) (hs0_2 m t) (iblk m c 0 t) (iblk m c 1 t)
      (tbl m 0) hT (V m c main_v0) j).trans
    (congrArg (fun A : Fin 128 => lossAt (V m c main_v0) (tbl m 0) hT (iblk m c 0 t) (iblk m c 1 t) A j) (Fin.ext (coords_val t)))

end Cert.KernelIdeal.Hand

end
-- ==== Proof.SpecTotal.lean ====
/-
  The whole result: the masked losses of all 128 × 128 objects summed, over the sum of the mask.

  Object (b, j) reads row  row b j  of the predictions laid out as 8388608 rows of 4, the true box (b, j) and the
  mask weight (b, j).  Both sums start from the printed zero; they range over pairs (b, j).
-/
import proofs.«412085_j52218212385067_2_alg».proof.Proof.Spec

noncomputable section

namespace Cert.Spec

open Idealize.ShloMosaic Idealize.ShloMosaic.ValueIdx

abbrev SFlat : Shape := ⟨2, ![8388608, 4]⟩
abbrev STrue : Shape := ⟨3, ![128, 128, 4]⟩
abbrev SMask : Shape := ⟨2, ![128, 128]⟩

/-- Object (b, j)'s masked loss. -/
def elem (lpf : SFlat.Idx → EReal) (lt : STrue.Idx → EReal) (mk : SMask.Idx → EReal)
    (row : Fin 128 → Fin 128 → Fin 8388608) (b j : Fin 128) : EReal :=
  loss (lpf (ix2 (row b j) (0 : Fin 4))) (lpf (ix2 (row b j) (1 : Fin 4))) (lpf (ix2 (row b j) (2 : Fin 4))) (lpf (ix2 (row b j) (3 : Fin 4)))
    (lt (ix3 b j (0 : Fin 4))) (lt (ix3 b j (1 : Fin 4))) (lt (ix3 b j (2 : Fin 4))) (lt (ix3 b j (3 : Fin 4)))
    (mk (ix2 b j))

/-- The result: the summed masked losses over the summed mask. -/
def result (lpf : SFlat.Idx → EReal) (lt : STrue.Idx → EReal) (mk : SMask.Idx → EReal)
    (row : Fin 128 → Fin 128 → Fin 8388608) : EReal :=
  Ideal.div (zero + ∑ p : Fin 128 × Fin 128, elem lpf lt mk row p.1 p.2) (zero + ∑ p : Fin 128 × Fin 128, mk (ix2 p.1 p.2))

end Cert.Spec

end
-- ==== Proof.KIValue.lean ====
/-
  The kernel program's value.

  The program computes, on the host, the flat row of every object, lays the predictions out as rows of four and gives the
  mask a trailing unit axis; the region then visits the 128 batches in turn; after it the host divides the sum of the
  output array by the sum of the mask, both from the printed zero.  Here the pieces are joined.  Point t's three blocks
  are row t of their arrays (a block's coordinate is index × size + the coordinate inside, and the index maps are
  (t, 0, 0)); every point writes its block back and the 128 blocks cover the output array, so the array after the run is
  one function of the arguments: at (b, j, 0) the specification's element of object (b, j).  The host's two sums are
  the initial value plus the sum over every index, a sum over the index set of a 128 × 128 (× 1) array is a sum over
  pairs, and the quotient is the specification's result.  The four arguments are never written.
-/
import proofs.«412085_j52218212385067_2_alg».proof.Proof.KIFrame
import proofs.«412085_j52218212385067_2_alg».proof.Proof.KITbl
import proofs.«412085_j52218212385067_2_alg».proof.Proof.SpecTotal
import proofs.«412085_j52218212385067_2_alg».proof.Proof.IndexFacts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

/-! ## Sums over the objects -/

/-- The index set of a 128 × 128 × 1 array is the set of pairs: the last coordinate is 0. -/
def pairEquiv3 : Fin 128 × Fin 128 ≃ (⟨3, ![128, 128, 1]⟩ : Shape).Idx where
  toFun p := ix3 p.1 p.2 (0 : Fin 1)
  invFun i := (i 0, i 1)
  left_inv _ := rfl
  right_inv i := funext fun a => by
    match a with
    | ⟨0, _⟩ => rfl
    | ⟨1, _⟩ => rfl
    | ⟨2, _⟩ => exact Fin.ext (by have h : (i 2).val < 1 := (i 2).isLt; show 0 = (i 2).val; omega)

/-- A sum over the index set of a 128 × 128 × 1 array is the sum over pairs. -/
theorem sum_pairs3 (f : (⟨3, ![128, 128, 1]⟩ : Shape).Idx → EReal) :
    ∑ i, f i = ∑ p : Fin 128 × Fin 128, f (ix3 p.1 p.2 (0 : Fin 1)) :=
  (Equiv.sum_comp pairEquiv3 f).symm

/-- A sum over the index set of a 128 × 128 array is the sum over pairs. -/
theorem sum_pairs2 (f : (⟨2, ![128, 128]⟩ : Shape).Idx → EReal) :
    ∑ q, f q = ∑ p : Fin 128 × Fin 128, f (ix2 p.1 p.2) :=
  (sum_idx2 f).trans (Fintype.sum_prod_type fun p : Fin 128 × Fin 128 => f (ix2 p.1 p.2)).symm

/-- The quotient of the two sums, from an array of elements: when the 128 × 128 × 1 array holds the specification's
    element at every (b, j, 0), its sum over the mask's sum, both from the printed zero, is the specification's result. -/
theorem quotient_eq_result (O : (⟨3, ![128, 128, 1]⟩ : Shape).Idx → EReal) (mk : Spec.SMask.Idx → EReal)
    (lpf : Spec.SFlat.Idx → EReal) (lt : Spec.STrue.Idx → EReal) (row : Fin 128 → Fin 128 → Fin 8388608)
    (hO : ∀ b j : Fin 128, O (ix3 b j (0 : Fin 1)) = Spec.elem lpf lt mk row b j) :
    Ideal.div (Spec.zero + ∑ i, O i) (Spec.zero + ∑ q, mk q) = Spec.result lpf lt mk row := by
  unfold Spec.result
  rw [sum_pairs3 O, sum_pairs2 mk]
  exact congrArg (fun s : EReal => Ideal.div (Spec.zero + s) _) (Finset.sum_congr rfl fun p _ => hO p.1 p.2)

section Generic
variable {F : FTy → Type} [FloatOps F]
variable (m : (ℓ : Loc nD τ sig) → Buf (Elt F) ℓ)

/-! ## The arrays as the region finds them -/

/-- The operand left in HBM is the prediction argument laid out as 8388608 rows of 4. -/
theorem V_main_v0 (c : Dev nD) (hflat : S128x256x256x4.ShapeCasts Cert.Spec.SFlat) :
    V m c main_v0 = shapeCast Cert.Spec.SFlat (m ((c : Thread nD τ).loc main_arg0)) hflat := by
  dsimp only [V, V0]
  simp only [hostOps0, hostOps0_1, hostOps0_2, List.flatten_cons, List.flatten_nil, List.append_nil, List.cons_append, List.nil_append]
  after_results
  try rfl

/-- The mask window's array is the mask argument with a trailing unit axis. -/
theorem V_main_v9 (c : Dev nD) :
    V m c main_v9 = broadcastInDim S128x128x1 ![0, 1] bcast_S128x128_S128x128x1_0_1 (m ((c : Thread nD τ).loc main_arg2)) := by
  dsimp only [V, V0]
  simp only [hostOps0, hostOps0_1, hostOps0_2, List.flatten_cons, List.flatten_nil, List.append_nil, List.cons_append, List.nil_append]
  after_results
  try rfl

end Generic

section Value
variable (m : (ℓ : Loc nD τ sig) → Buf (Elt Ideal) ℓ)

/-! ## The windows' blocks -/

/-- The three index maps over the grid: point t's block is row t of each array. -/
theorem idx_facts : ∀ t : Fin grid0.N,
    (cc0_transform_1 (grid0.coords t) (0 : Fin 3) = t.val ∧ cc0_transform_1 (grid0.coords t) (1 : Fin 3) = 0
      ∧ cc0_transform_1 (grid0.coords t) (2 : Fin 3) = 0)
    ∧ (cc0_transform_2 (grid0.coords t) (0 : Fin 3) = t.val ∧ cc0_transform_2 (grid0.coords t) (1 : Fin 3) = 0
      ∧ cc0_transform_2 (grid0.coords t) (2 : Fin 3) = 0)
    ∧ (cc0_transform_3 (grid0.coords t) (0 : Fin 3) = t.val ∧ cc0_transform_3 (grid0.coords t) (1 : Fin 3) = 0
      ∧ cc0_transform_3 (grid0.coords t) (2 : Fin 3) = 0) := by
  decide +kernel

/-- Window 0's block at point t, read at (0, j, k), is its array at (t, j, k). -/
theorem blk0_read (a : (pcfg0 (F := Ideal)).Adm) (t : Fin (cfg0 a).N) (X : S128x128x4.Idx → EReal)
    (b j : Fin 128) (k : Fin 4) (hb : b.val = t.val) :
    (((cfg0 a).win 0).blk t).view.read (Elt Ideal) X (ix3 (0 : Fin 1) j k) = X (ix3 b j k) := by
  obtain ⟨⟨e0, e1, e2⟩, -, -⟩ := idx_facts t
  show X ((((cfg0 a).win 0).blk t).view.emb (ix3 (0 : Fin 1) j k)) = X (ix3 b j k)
  refine congrArg X (funext fun a' => Fin.ext ?_)
  match a' with
  | ⟨0, _⟩ => show cc0_transform_1 (grid0.coords t) (0 : Fin 3) * 1 + 1 * 0 = b.val; rw [e0, hb]; omega
  | ⟨1, _⟩ => show cc0_transform_1 (grid0.coords t) (1 : Fin 3) * 128 + 1 * j.val = j.val; rw [e1]; omega
  | ⟨2, _⟩ => show cc0_transform_1 (grid0.coords t) (2 : Fin 3) * 4 + 1 * k.val = k.val; rw [e2]; omega

/-- Window 1's block at point t, read at (0, j, 0), is its array at (t, j, 0). -/
theorem blk1_read (a : (pcfg0 (F := Ideal)).Adm) (t : Fin (cfg0 a).N) (X : S128x128x1.Idx → EReal)
    (b j : Fin 128) (hb : b.val = t.val) :
    (((cfg0 a).win 1).blk t).view.read (Elt Ideal) X (ix3 (0 : Fin 1) j (0 : Fin 1)) = X (ix3 b j (0 : Fin 1)) := by
  obtain ⟨-, ⟨e0, e1, e2⟩, -⟩ := idx_facts t
  show X ((((cfg0 a).win 1).blk t).view.emb (ix3 (0 : Fin 1) j (0 : Fin 1))) = X (ix3 b j (0 : Fin 1))
  refine congrArg X (funext fun a' => Fin.ext ?_)
  match a' with
  | ⟨0, _⟩ => show cc0_transform_2 (grid0.coords t) (0 : Fin 3) * 1 + 1 * 0 = b.val; rw [e0, hb]; omega
  | ⟨1, _⟩ => show cc0_transform_2 (grid0.coords t) (1 : Fin 3) * 128 + 1 * j.val = j.val; rw [e1]; omega
  | ⟨2, _⟩ => show cc0_transform_2 (grid0.coords t) (2 : Fin 3) * 1 + 1 * 0 = 0; rw [e2]

/-- Window 2's block at point t, read at (0, j, 0), is its array at (t, j, 0). -/
theorem blk2_read (a : (pcfg0 (F := Ideal)).Adm) (t : Fin (cfg0 a).N) (X : S128x128x1.Idx → EReal)
    (b j : Fin 128) (hb : b.val = t.val) :
    (((cfg0 a).win 2).blk t).view.read (Elt Ideal) X (ix3 (0 : Fin 1) j (0 : Fin 1)) = X (ix3 b j (0 : Fin 1)) := by
  obtain ⟨-, -, ⟨e0, e1, e2⟩⟩ := idx_facts t
  show X ((((cfg0 a).win 2).blk t).view.emb (ix3 (0 : Fin 1) j (0 : Fin 1))) = X (ix3 b j (0 : Fin 1))
  refine congrArg X (funext fun a' => Fin.ext ?_)
  match a' with
  | ⟨0, _⟩ => show cc0_transform_3 (grid0.coords t) (0 : Fin 3) * 1 + 1 * 0 = b.val; rw [e0, hb]; omega
  | ⟨1, _⟩ => show cc0_transform_3 (grid0.coords t) (1 : Fin 3) * 128 + 1 * j.val = j.val; rw [e1]; omega
  | ⟨2, _⟩ => show cc0_transform_3 (grid0.coords t) (2 : Fin 3) * 1 + 1 * 0 = 0; rw [e2]

/-- The true boxes' block at point t, at (0, j, k), is the true boxes at (t, j, k). -/
theorem iblk0_apply (c : Dev nD) (t : Fin (cfgM m).N) (b j : Fin 128) (k : Fin 4) (hb : b.val = t.val) :
    (iblk m c 0 t : Vec Ideal S1x128x4 .f32) (ix3 (0 : Fin 1) j k)
      = (m ((c : Thread nD τ).loc main_arg1) : S128x128x4.Idx → EReal) (ix3 b j k) := by
  unfold iblk
  refine (blk0_read (adm m) t (V m c main_arg1) b j k hb).trans ?_
  rw [V_main_arg1 m c]

/-- The mask window's array at (b, j, 0) is the mask argument at (b, j). -/
theorem mask_apply (c : Dev nD) (b j : Fin 128) :
    (V m c main_v9 : S128x128x1.Idx → EReal) (ix3 b j (0 : Fin 1))
      = (m ((c : Thread nD τ).loc main_arg2) : S128x128.Idx → EReal) (ix2 b j) := by
  rw [V_main_v9 m c]
  exact broadcastInDim_apply _ bcast_S128x128_S128x128x1_0_1 _ _ _ (fun a => by
    match a with
    | ⟨0, _⟩ => show b.val = if (128 : Nat) = 1 then 0 else b.val; rw [if_neg (by decide)]
    | ⟨1, _⟩ => show j.val = if (128 : Nat) = 1 then 0 else j.val; rw [if_neg (by decide)])

/-- The mask's block at point t, at (0, j, 0), is the mask argument at (t, j). -/
theorem iblk1_apply (c : Dev nD) (t : Fin (cfgM m).N) (b j : Fin 128) (hb : b.val = t.val) :
    (iblk m c 1 t : Vec Ideal S1x128x1 .f32) (ix3 (0 : Fin 1) j (0 : Fin 1))
      = (m ((c : Thread nD τ).loc main_arg2) : S128x128.Idx → EReal) (ix2 b j) := by
  unfold iblk
  exact (blk1_read (adm m) t (V m c main_v9) b j hb).trans (mask_apply m c b j)

end Value

section Array
/-! ## The output array after the run -/

/-- Every point writes its block back: the next point's block is another row. -/
theorem flush2 (a : (pcfg0 (F := Ideal)).Adm) (t : Fin (cfg0 a).N) : ((cfg0 a).win 2).flush t = true := by
  unfold Pipeline.Window.flush
  rw [Bool.and_eq_true, Bool.or_eq_true, decide_eq_true_eq, decide_eq_true_eq]
  refine ⟨rfl, ?_⟩
  have hN : (cfg0 a).grid.N = 128 := rfl
  have hN2 : (cfg0 a).N = 128 := rfl
  have hg : grid0.N = 128 := rfl
  have ht : t.val < 128 := t.isLt
  by_cases h : t.val + 1 = (cfg0 a).grid.N
  · exact Or.inl h
  ·
    refine Or.inr ⟨by omega, fun e => ?_⟩
    have e0 := congrFun e (0 : Fin 3)
    have f1 := (idx_facts ⟨t.val + 1, by omega⟩).2.2.1
    have f0 := (idx_facts t).2.2.1
    have f1' : cc0_transform_3 (grid0.coords ⟨t.val + 1, by omega⟩) (0 : Fin 3) = t.val + 1 := f1
    have e0' : cc0_transform_3 (grid0.coords ⟨t.val + 1, by omega⟩) (0 : Fin 3) = cc0_transform_3 (grid0.coords t) (0 : Fin 3) := e0
    rw [f1', f0] at e0'
    omega

/-- Every index of the output array is in the block of the point of its row. -/
theorem cover2 (a : (pcfg0 (F := Ideal)).Adm) (i : S128x128x1.Idx) :
    ∃ t : Fin (cfg0 a).N, ((cfg0 a).win 2).flush t = true ∧ i ∈ (((cfg0 a).win 2).blk t).view.set := by
  obtain ⟨b, j, z, rfl⟩ : ∃ (b : Fin 128) (j : Fin 128) (z : Fin 1), i = ix3 b j z := ⟨i 0, i 1, i 2, eq_ix3 i⟩
  obtain rfl : z = 0 := Subsingleton.elim _ _
  refine ⟨⟨b.val, b.isLt⟩, flush2 a _, ?_⟩
  obtain ⟨-, -, ⟨e0', e1, e2⟩⟩ := idx_facts ⟨b.val, b.isLt⟩
  have e0 : cc0_transform_3 (grid0.coords ⟨b.val, b.isLt⟩) (0 : Fin 3) = b.val := e0'
  have e : (((cfg0 a).win 2).blk ⟨b.val, b.isLt⟩).view.emb (ix3 (0 : Fin 1) j (0 : Fin 1)) = ix3 b j (0 : Fin 1) :=
    funext fun a' => Fin.ext (by
      match a' with
      | ⟨0, _⟩ => show cc0_transform_3 (grid0.coords ⟨b.val, b.isLt⟩) (0 : Fin 3) * 1 + 1 * 0 = b.val; rw [e0]; omega
      | ⟨1, _⟩ => show cc0_transform_3 (grid0.coords ⟨b.val, b.isLt⟩) (1 : Fin 3) * 128 + 1 * j.val = j.val; rw [e1]; omega
      | ⟨2, _⟩ => show cc0_transform_3 (grid0.coords ⟨b.val, b.isLt⟩) (2 : Fin 3) * 1 + 1 * 0 = 0; rw [e2])
  exact e ▸ View.emb_mem_set _ _

/-- What point t writes back is block t of G, when the body leaves G's row t. -/
theorem flushed2_eq (a : (pcfg0 (F := Ideal)).Adm) (c : Dev nD)
    (dat : Dat τ (Elt Ideal) Unit ℕ (Pipeline.UD sig nD τ) ℕ (cfg0 a) c) (G : S128x128x1.Idx → EReal)
    (hout : ∀ (t : Fin (cfg0 a).N) (j : Fin 128),
      (dat.after 2 t : Vec Ideal S1x128x1 .f32) (ix3 (0 : Fin 1) j (0 : Fin 1)) = G (ix3 (⟨t.val, t.isLt⟩ : Fin 128) j (0 : Fin 1)))
    (t : Fin (cfg0 a).N) :
    dat.flushed 2 t = (((cfg0 a).win 2).blk t).view.read (Elt Ideal) G := by
  refine funext (fun (y : S1x128x1.Idx) => ?_)
  obtain ⟨z0, j, z2, rfl⟩ : ∃ (z0 : Fin 1) (j : Fin 128) (z2 : Fin 1), y = ix3 z0 j z2 := ⟨y 0, y 1, y 2, eq_ix3 y⟩
  obtain rfl : z0 = 0 := Subsingleton.elim _ _
  obtain rfl : z2 = 0 := Subsingleton.elim _ _
  refine Eq.trans ?_ (blk2_read a t G ⟨t.val, t.isLt⟩ j rfl).symm
  refine Eq.trans ?_ (hout t j)
  show (dat.after 2 t : Vec Ideal S1x128x1 .f32) _ = (dat.after 2 t : Vec Ideal S1x128x1 .f32) _
  refine congrArg (dat.after 2 t : Vec Ideal S1x128x1 .f32) (funext fun a' => Fin.ext ?_)
  match a' with
  | ⟨0, _⟩ => rfl
  | ⟨1, _⟩ => rfl
  | ⟨2, _⟩ => rfl

/-- The output array after the run is G. -/
theorem final2 (a : (pcfg0 (F := Ideal)).Adm) (c : Dev nD)
    (dat : Dat τ (Elt Ideal) Unit ℕ (Pipeline.UD sig nD τ) ℕ (cfg0 a) c) (G : S128x128x1.Idx → EReal)
    (hout : ∀ (t : Fin (cfg0 a).N) (j : Fin 128),
      (dat.after 2 t : Vec Ideal S1x128x1 .f32) (ix3 (0 : Fin 1) j (0 : Fin 1)) = G (ix3 (⟨t.val, t.isLt⟩ : Fin 128) j (0 : Fin 1))) :
    dat.arrAt 2 (cfg0 a).N = G :=
  dat.arrAt_eq_of_cover 2 G (fun t _ => flushed2_eq a c dat G hout t) (cover2 a)

end Array

section Tail
variable (m : (ℓ : Loc nD τ sig) → Buf (Elt Ideal) ℓ)

/-! ## The host operations after the region -/

/-- The host's sum of a 128 × 128 × 1 array from the printed zero. -/
theorem reduce3 (O : S128x128x1.Idx → EReal) (i : S_.Idx) :
    Host.reduceAdd (F := Ideal) (φ := .f32) O (constant S_ .f32 0x00000000#32) reducesTo_S128x128x1_S_d0_1_2 h_S_ i
      = Spec.zero + ∑ q, O q := by
  simp only [Host.reduceAdd, Ideal.hostReduceAdd_def]
  exact Ideal.hostReduceAdd_total reducesTo_S128x128x1_S_d0_1_2 (fun b => b.elim0) O _ i

/-- The host's sum of a 128 × 128 array from the printed zero. -/
theorem reduce2 (X : S128x128.Idx → EReal) (i : S_.Idx) :
    Host.reduceAdd (F := Ideal) (φ := .f32) X (constant S_ .f32 0x00000000#32) reducesTo_S128x128_S_d0_1 h_S_ i
      = Spec.zero + ∑ q, X q := by
  simp only [Host.reduceAdd, Ideal.hostReduceAdd_def]
  exact Ideal.hostReduceAdd_total reducesTo_S128x128_S_d0_1 (fun b => b.elim0) X _ i

/-- The result buffer after the later host operations: the output array's sum over the mask's sum, both from the
    printed zero. -/
theorem tail_v13 (dats : (p : Fin 1) → (c : Dev nD) → Dat τ (Elt Ideal) Unit ℕ (Pipeline.UD sig nD τ) ℕ ((Pipeline.pin pcfgs fun _ => adm m) p) c)
    (c : Dev nD) (O : S128x128x1.Idx → EReal) (hO : (dats 0 c).arrAt 2 (cfgM m).N = O)
    (X : S128x128.Idx → EReal) (hX : m ((c : Thread nD τ).loc main_arg2) = X) (i : S_.Idx) :
    Pipeline.afterTail pcfgs (fun _ => adm m) dats 0 (V0 m) [hostOps1] c main_v13 i
      = Ideal.div (Spec.zero + ∑ q, O q) (Spec.zero + ∑ q, X q) := by
  unfold Pipeline.afterTail
  show StableHlo.after hostOps1 _ (Proc.devRef .tc main_v13) i = _
  after_results
  have hW10 : Pipeline.withArrays (Pipeline.pin pcfgs (fun _ => adm m) 0).spec c (V0 m c)
      (fun w => (dats 0 c).arrAt w (Pipeline.pin pcfgs (fun _ => adm m) 0).N) (Proc.devRef .tc main_v10) = O :=
    (Pipeline.withArrays_arr spec0 (launch0 (F := Ideal)).win.arr_inj c _ _ 2).trans hO
  have hW2 : Pipeline.withArrays (Pipeline.pin pcfgs (fun _ => adm m) 0).spec c (V0 m c)
      (fun w => (dats 0 c).arrAt w (Pipeline.pin pcfgs (fun _ => adm m) 0).N) (Proc.devRef .tc main_arg2) = X :=
    (Pipeline.withArrays_of_ne spec0 c _ _ main_arg2 (by decide)).trans ((V_main_arg2 m c).trans hX)
  rw [hW10, hW2]
  show Ideal.div (Host.reduceAdd (F := Ideal) (φ := .f32) O (constant S_ .f32 0x00000000#32) reducesTo_S128x128x1_S_d0_1_2 h_S_ i)
      (Host.reduceAdd (F := Ideal) (φ := .f32) X (constant S_ .f32 0x00000000#32) reducesTo_S128x128_S_d0_1 h_S_ i) = _
  rw [reduce3, reduce2]

end Tail

section Assembly
variable (m : (ℓ : Loc nD τ sig) → Buf (Elt Ideal) ℓ) (ρ : Dev nD → PrngReg)

/-! ## The run, read -/

/-- The loss is a function of its nine arguments. -/
theorem loss_congr {a0 a1 a2 a3 a4 a5 a6 a7 a8 b0 b1 b2 b3 b4 b5 b6 b7 b8 : EReal}
    (h0 : a0 = b0) (h1 : a1 = b1) (h2 : a2 = b2) (h3 : a3 = b3) (h4 : a4 = b4) (h5 : a5 = b5) (h6 : a6 = b6)
    (h7 : a7 = b7) (h8 : a8 = b8) :
    Cert.Spec.loss a0 a1 a2 a3 a4 a5 a6 a7 a8 = Cert.Spec.loss b0 b1 b2 b3 b4 b5 b6 b7 b8 := by
  rw [h0, h1, h2, h3, h4, h5, h6, h7, h8]

/-- The operand left in HBM at the table's row for (b, j) is the flat predictions at the flat row of (b, j). -/
theorem flat_apply (c : Dev nD) (hflat : S128x256x256x4.ShapeCasts Cert.Spec.SFlat)
    (hT : ∀ j, (tbl m 0 j).toNat < 8388608) (b j : Fin 128) (k : Fin 4) :
    (V m c main_v0 : Cert.Spec.SFlat.Idx → EReal) (ix2 (⟨(tbl m 0 (ix2 b j)).toNat, hT _⟩ : Fin 8388608) k)
      = shapeCast Cert.Spec.SFlat (m ((c : Thread nD τ).loc main_arg0)) hflat
          (ix2 (⟨(Cert.IndexFacts.tblOf (m ((c : Thread nD τ).loc main_arg3)) (ix2 b j)).toNat, Cert.IndexFacts.tblOf_lt _ b j⟩ : Fin 8388608) k) := by
  have hrow : (⟨(tbl m 0 (ix2 b j)).toNat, hT _⟩ : Fin 8388608)
      = ⟨(Cert.IndexFacts.tblOf (m ((c : Thread nD τ).loc main_arg3)) (ix2 b j)).toNat, Cert.IndexFacts.tblOf_lt _ b j⟩ :=
    Fin.ext (congrArg (fun T : Cert.IndexFacts.STab.Idx → BitVec 32 => (T (ix2 b j)).toNat) (tbl_eq m c))
  rw [hrow]
  exact congrFun (V_main_v0 m c hflat) _

/-- The specification's element function of the arguments on core c, at an index of the output array. -/
abbrev Gout (c : Dev nD) (hflat : S128x256x256x4.ShapeCasts Cert.Spec.SFlat) : S128x128x1.Idx → EReal := fun i =>
  Cert.Spec.elem (shapeCast Cert.Spec.SFlat (m ((c : Thread nD τ).loc main_arg0)) hflat) (m ((c : Thread nD τ).loc main_arg1))
    (m ((c : Thread nD τ).loc main_arg2))
    (fun b j => ⟨(Cert.IndexFacts.tblOf (m ((c : Thread nD τ).loc main_arg3)) (ix2 b j)).toNat, Cert.IndexFacts.tblOf_lt _ b j⟩)
    (i 0) (i 1)

/-- The four arguments are unchanged by the run: the staged input by its window's array being kept, the three
    bypassing arguments by no later operation writing them. -/
theorem post_args (dats : (p : Fin 1) → (c : Dev nD) → Dat τ (Elt Ideal) Unit ℕ (Pipeline.UD sig nD τ) ℕ ((Pipeline.pin pcfgs fun _ => adm m) p) c)
    (hA : ∀ c w, (dats 0 c).A w = V m c (Pipeline.arrRef spec0 w))
    (r : PUnit × MemSt nD τ sig (Elt Ideal))
    (h : Pipeline.FramePost (Pipeline.pin pcfgs fun _ => adm m) dats 0 (Pipeline.afterTail pcfgs (fun _ => adm m) dats 0 (V0 m) [hostOps1]) r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (show main_arg0 ∈ Pipeline.restRefs sig spec0 from Pipeline.mem_restRefs_of main_arg0 (by decide) (by decide))).trans
      ((afterTail_keeps m dats c main_arg0 (by decide)
        (hostOps1_keeps main_arg0 (by decide) (by decide) (by decide) (by decide) (by decide))).trans (V_main_arg0 m c)),
    ((h c).1 0).trans (((dats 0 c).arrAt_in 0 rfl _).trans ((hA c 0).trans (V_main_arg1 m c))),
    ((h c).2 main_arg2 (show main_arg2 ∈ Pipeline.restRefs sig spec0 from Pipeline.mem_restRefs_of main_arg2 (by decide) (by decide))).trans
      ((afterTail_keeps m dats c main_arg2 (by decide)
        (hostOps1_keeps main_arg2 (by decide) (by decide) (by decide) (by decide) (by decide))).trans (V_main_arg2 m c)),
    ((h c).2 main_arg3 (show main_arg3 ∈ Pipeline.restRefs sig spec0 from Pipeline.mem_restRefs_of main_arg3 (by decide) (by decide))).trans
      ((afterTail_keeps m dats c main_arg3 (by decide)
        (hostOps1_keeps main_arg3 (by decide) (by decide) (by decide) (by decide) (by decide))).trans (V_main_arg3 m c))⟩

/-- The kernel program's result from a frame run: for proof data whose arrays are the region-entry contents and whose
    output block after the body at point t holds the loss of each object of row t, the result buffer ends at the
    specification's result of the arguments, and the four arguments are unchanged. -/
theorem kernel_value_of (dats : (p : Fin 1) → (c : Dev nD) → Dat τ (Elt Ideal) Unit ℕ (Pipeline.UD sig nD τ) ℕ ((Pipeline.pin pcfgs fun _ => adm m) p) c)
    (hA : ∀ c w, (dats 0 c).A w = V m c (Pipeline.arrRef spec0 w))
    (hT : ∀ j, (tbl m 0 j).toNat < 8388608)
    (hout : ∀ (c : Dev nD) (t : Fin (cfgM m).N) (j : Fin 128),
      ((dats 0 c).after 2 t : Vec Ideal S1x128x1 .f32) (ix3 (0 : Fin 1) j (0 : Fin 1))
        = Cert.Spec.loss
            (V m c main_v0 (ix2 (⟨(tbl m 0 (ix2 (⟨t.val, t.isLt⟩ : Fin 128) j)).toNat, hT _⟩ : Fin 8388608) (0 : Fin 4))) (V m c main_v0 (ix2 (⟨(tbl m 0 (ix2 (⟨t.val, t.isLt⟩ : Fin 128) j)).toNat, hT _⟩ : Fin 8388608) (1 : Fin 4))) (V m c main_v0 (ix2 (⟨(tbl m 0 (ix2 (⟨t.val, t.isLt⟩ : Fin 128) j)).toNat, hT _⟩ : Fin 8388608) (2 : Fin 4))) (V m c main_v0 (ix2 (⟨(tbl m 0 (ix2 (⟨t.val, t.isLt⟩ : Fin 128) j)).toNat, hT _⟩ : Fin 8388608) (3 : Fin 4)))
            (iblk m c 0 t (ix3 (0 : Fin 1) j (0 : Fin 4))) (iblk m c 0 t (ix3 (0 : Fin 1) j (1 : Fin 4))) (iblk m c 0 t (ix3 (0 : Fin 1) j (2 : Fin 4))) (iblk m c 0 t (ix3 (0 : Fin 1) j (3 : Fin 4)))
            (iblk m c 1 t (ix3 (0 : Fin 1) j (0 : Fin 1))))
    (hflat : S128x256x256x4.ShapeCasts Cert.Spec.SFlat)
    (h : θ_run defs (onTc (τ := τ) (main (F := Ideal))) (s₀ m ρ)
      (Pipeline.FramePost (Pipeline.pin pcfgs fun _ => adm m) dats 0 (Pipeline.afterTail pcfgs (fun _ => adm m) dats 0 (V0 m) [hostOps1]))) :
    θ_run defs (onTc (τ := τ) (main (F := Ideal))) ⟨m, fun _ => 0, ρ⟩ (fun r => ∀ c : Dev nD,
      r.2.mem ((c.tc : Thread nD τ).loc main_v13)
          = (fun _ => Cert.Spec.result (shapeCast Cert.Spec.SFlat (m ((c.tc : Thread nD τ).loc main_arg0)) hflat)
              (m ((c.tc : Thread nD τ).loc main_arg1)) (m ((c.tc : Thread nD τ).loc main_arg2))
              (fun b j => ⟨(Cert.IndexFacts.tblOf (m ((c.tc : Thread nD τ).loc main_arg3)) (ix2 b j)).toNat, Cert.IndexFacts.tblOf_lt _ b j⟩))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) := by
  refine (θ_run defs _ _).mono (fun r hr c => ⟨?_, post_args m dats hA r hr c⟩) h
  -- the output array after the run holds the element of every object
  have hO : (dats 0 c).arrAt 2 (cfgM m).N = Gout m c hflat :=
    final2 (adm m) c (dats 0 c) (Gout m c hflat) (fun t j => (hout c t j).trans (loss_congr
      (flat_apply m c hflat hT ⟨t.val, t.isLt⟩ j 0) (flat_apply m c hflat hT ⟨t.val, t.isLt⟩ j 1)
      (flat_apply m c hflat hT ⟨t.val, t.isLt⟩ j 2) (flat_apply m c hflat hT ⟨t.val, t.isLt⟩ j 3)
      (iblk0_apply m c t ⟨t.val, t.isLt⟩ j 0 rfl) (iblk0_apply m c t ⟨t.val, t.isLt⟩ j 1 rfl)
      (iblk0_apply m c t ⟨t.val, t.isLt⟩ j 2 rfl) (iblk0_apply m c t ⟨t.val, t.isLt⟩ j 3 rfl)
      (iblk1_apply m c t ⟨t.val, t.isLt⟩ j rfl)))
  refine ((hr c).2 main_v13 (show main_v13 ∈ Pipeline.restRefs sig spec0 from Pipeline.mem_restRefs_of main_v13 (by decide) (by decide))).trans ?_
  funext i
  refine (tail_v13 m dats c (Gout m c hflat) hO (m ((c.tc : Thread nD τ).loc main_arg2)) rfl i).trans ?_
  exact quotient_eq_result (Gout m c hflat) (m ((c.tc : Thread nD τ).loc main_arg2)) _ (m ((c.tc : Thread nD τ).loc main_arg1)) _ (fun b j => rfl)

end Assembly

section Final
/-! ## The kernel program's value -/

variable (m : (ℓ : Loc nD τ sig) → Buf (Elt Ideal) ℓ) (ρ : Dev nD → PrngReg)

/-- The kernel program runs, its result buffer ends at the specification's result of the four arguments, and the
    arguments end unchanged, given that the body at each point leaves in the output block the loss of each object
    of the point's row. -/
theorem kernel_value (hT : TblOk m)
    (hout : ∀ (c : Dev nD) (t : Fin (cfgM m).N) (j : Fin 128),
      outsAt0 m hT c t (ix3 (0 : Fin 1) j (0 : Fin 1))
        = Cert.Spec.loss
            (V m c main_v0 (ix2 (⟨(tbl m 0 (ix2 (⟨t.val, t.isLt⟩ : Fin 128) j)).toNat, hT _⟩ : Fin 8388608) (0 : Fin 4))) (V m c main_v0 (ix2 (⟨(tbl m 0 (ix2 (⟨t.val, t.isLt⟩ : Fin 128) j)).toNat, hT _⟩ : Fin 8388608) (1 : Fin 4))) (V m c main_v0 (ix2 (⟨(tbl m 0 (ix2 (⟨t.val, t.isLt⟩ : Fin 128) j)).toNat, hT _⟩ : Fin 8388608) (2 : Fin 4))) (V m c main_v0 (ix2 (⟨(tbl m 0 (ix2 (⟨t.val, t.isLt⟩ : Fin 128) j)).toNat, hT _⟩ : Fin 8388608) (3 : Fin 4)))
            (iblk m c 0 t (ix3 (0 : Fin 1) j (0 : Fin 4))) (iblk m c 0 t (ix3 (0 : Fin 1) j (1 : Fin 4))) (iblk m c 0 t (ix3 (0 : Fin 1) j (2 : Fin 4))) (iblk m c 0 t (ix3 (0 : Fin 1) j (3 : Fin 4)))
            (iblk m c 1 t (ix3 (0 : Fin 1) j (0 : Fin 1))))
    (hflat : S128x256x256x4.ShapeCasts Cert.Spec.SFlat) :
    θ_run defs (onTc (τ := τ) (main (F := Ideal))) ⟨m, fun _ => 0, ρ⟩ (fun r => ∀ c : Dev nD,
      r.2.mem ((c.tc : Thread nD τ).loc main_v13)
          = (fun _ => Cert.Spec.result (shapeCast Cert.Spec.SFlat (m ((c.tc : Thread nD τ).loc main_arg0)) hflat)
              (m ((c.tc : Thread nD τ).loc main_arg1)) (m ((c.tc : Thread nD τ).loc main_arg2))
              (fun b j => ⟨(Cert.IndexFacts.tblOf (m ((c.tc : Thread nD τ).loc main_arg3)) (ix2 b j)).toNat, Cert.IndexFacts.tblOf_lt _ b j⟩))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  kernel_value_of m ρ (dats m hT) (A_eq m hT) hT
    (fun c t j => (congrFun (after0_2 m hT c t) (ix3 (0 : Fin 1) j (0 : Fin 1))).trans (hout c t j)) hflat (run_main m ρ hT)

end Final

end Cert.KernelIdeal.Hand

end
-- ==== Proof.RefStages.lean ====
/- THE RUN, STRETCH BY STRETCH. The reference program is a straight line of 117 operations, each writing one buffer that no
   other operation writes. The line is cut into stretches. For a stretch and ANY valuation W of the buffers at its start:
   if every buffer written before the stretch and read in it or after it holds, in W, its stage (the function val_<buffer> of the
   four arguments), then after the stretch every buffer read after it holds its stage (stage_k). A buffer the stretch
   writes is read back operation by operation, from the last inwards: an operation's own result is its function of what it
   reads, any other buffer is what it was; what is left reads W, where the hypotheses give stages, and the stage's
   definition is that same function of those stages. A buffer the stretch does not write is kept (keep_k: it is not in the list
   of the buffers the stretch writes). Chaining the stretches from the launch contents gives the result buffer's stage
   (after_all_result); no stretch writes an argument (after_all_args). -/
import proofs.«412085_j52218212385067_2_alg».proof.Proof.RefReadP
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ### What an operation writes, inside a list of buffers -/

/-- A buffer in a list is, as a one-element set, inside the list's set of device buffers. -/
theorem sub_of_mem {Wl : List (Ref sig .tc)} {y : Ref sig .tc} (hy : y ∈ Wl) :
    ({Proc.devRef (τ := τ) .tc y} : Finset (DevRef τ sig)) ⊆ (Wl.map (Proc.devRef (τ := τ) .tc)).toFinset :=
  Finset.singleton_subset_iff.2 (List.mem_toFinset.2 (List.mem_map_of_mem hy))

theorem nullary_sub {y : Ref sig .tc} (v : y.ty.Contents (Elt F)) (hy) {Wl : List (Ref sig .tc)} (h : y ∈ Wl) :
    (nullary (τ := τ) y v hy).writes ⊆ (Wl.map (Proc.devRef (τ := τ) .tc)).toFinset := by
  rw [nullary_writes]; exact sub_of_mem h
theorem unary_sub {x y : Ref sig .tc} (f : x.ty.Contents (Elt F) → y.ty.Contents (Elt F)) (hx hy) {Wl : List (Ref sig .tc)} (h : y ∈ Wl) :
    (unary (τ := τ) x y f hx hy).writes ⊆ (Wl.map (Proc.devRef (τ := τ) .tc)).toFinset := by
  rw [unary_writes]; exact sub_of_mem h
theorem binary_sub {a b y : Ref sig .tc} (f : a.ty.Contents (Elt F) → b.ty.Contents (Elt F) → y.ty.Contents (Elt F)) (ha hb hy)
    {Wl : List (Ref sig .tc)} (h : y ∈ Wl) :
    (binary (τ := τ) a b y f ha hb hy).writes ⊆ (Wl.map (Proc.devRef (τ := τ) .tc)).toFinset := by
  rw [binary_writes]; exact sub_of_mem h
theorem ternary_sub {c a b y : Ref sig .tc}
    (f : c.ty.Contents (Elt F) → a.ty.Contents (Elt F) → b.ty.Contents (Elt F) → y.ty.Contents (Elt F)) (hc ha hb hy)
    {Wl : List (Ref sig .tc)} (h : y ∈ Wl) :
    (ternary (τ := τ) c a b y f hc ha hb hy).writes ⊆ (Wl.map (Proc.devRef (τ := τ) .tc)).toFinset := by
  rw [ternary_writes]; exact sub_of_mem h
theorem reshape_sub {x y : Ref sig .tc} (he hn hx hy) {Wl : List (Ref sig .tc)} (h : y ∈ Wl) :
    (reshape (τ := τ) (Val := Elt F) x y he hn hx hy).writes ⊆ (Wl.map (Proc.devRef (τ := τ) .tc)).toFinset := by
  rw [reshape_writes]; exact sub_of_mem h

/-! ### Operations 0 to 7 -/

abbrev ops_1 : List (HloOp τ sig (Elt F)) :=
  [ nullary main_cst (constant S4 .f32 0x43800000#32),
    reshape main_arg0 main_v0 rfl shapeCasts_S128x256x256x4_S128x65536x4,
    unary main_cst main_v1 (broadcastInDim S1x1x4 ![2] bcast_S4_S1x1x4_2 : (⟨S4, .f32⟩ : BufTy).Contents (Elt F) → (⟨S1x1x4, .f32⟩ : BufTy).Contents (Elt F)),
    unary main_v1 main_v2 (broadcastInDim S128x65536x4 ![0, 1, 2] bcast_S1x1x4_S128x65536x4_0_1_2 : (⟨S1x1x4, .f32⟩ : BufTy).Contents (Elt F) → (⟨S128x65536x4, .f32⟩ : BufTy).Contents (Elt F)),
    binary main_v0 main_v2 main_v3 (Host.divf : (⟨S128x65536x4, .f32⟩ : BufTy).Contents (Elt F) → (⟨S128x65536x4, .f32⟩ : BufTy).Contents (Elt F) → (⟨S128x65536x4, .f32⟩ : BufTy).Contents (Elt F)),
    nullary main_cst_0 (constant S_ .f32 0x00000000#32),
    binary main_arg2 main_cst_0 main_v4 ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)),
    unary main_arg3 main_v5 ((extractStridedSlice S128x128x1 ![0, 0, 0] · slices_S128x128x3_S128x128x1_0_0_0) : (⟨S128x128x3, .i32⟩ : BufTy).Contents (Elt F) → (⟨S128x128x1, .i32⟩ : BufTy).Contents (Elt F)) ]

/-- The buffers they write. -/
abbrev outs_1 : List (Ref sig .tc) := [main_cst, main_v0, main_v1, main_v2, main_v3, main_cst_0, main_v4, main_v5]

set_option maxRecDepth 8192 in
theorem writes_1 : (ops_1 (F := F)).Forall fun op => op.writes ⊆ ((outs_1).map (Proc.devRef (τ := τ) .tc)).toFinset :=
  ⟨nullary_sub _ _ (by decide),
   reshape_sub _ _ _ _ (by decide),
   unary_sub _ _ _ (by decide),
   unary_sub _ _ _ (by decide),
   binary_sub _ _ _ _ (by decide),
   nullary_sub _ _ (by decide),
   binary_sub _ _ _ _ (by decide),
   unary_sub _ _ _ (by decide)⟩

/-- A buffer they do not write keeps its contents. -/
theorem keep_1 (W : Valuation τ sig (Elt F)) {r : Ref sig .tc} (hr : r ∉ outs_1) :
    after (ops_1 (F := F)) W (Proc.devRef .tc r) = W (Proc.devRef .tc r) :=
  after_of_writes_sub _ W writes_1 hr

set_option maxRecDepth 8192 in
/-- After them, each buffer still read later holds its stage. -/
theorem stage_1 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    :
    after (ops_1 (F := F)) W (Proc.devRef .tc main_arg1) = x1 ∧
    after (ops_1 (F := F)) W (Proc.devRef .tc main_arg2) = x2 ∧
    after (ops_1 (F := F)) W (Proc.devRef .tc main_arg3) = x3 ∧
    after (ops_1 (F := F)) W (Proc.devRef .tc main_v3) = ReadP.val_main_v3 (F := F) x0 ∧
    after (ops_1 (F := F)) W (Proc.devRef .tc main_v4) = ReadP.val_main_v4 (F := F) x2 ∧
    after (ops_1 (F := F)) W (Proc.devRef .tc main_v5) = ReadP.val_main_v5 (F := F) x3 := by
  refine ⟨?_, ?_, ?_, ?_, ?_, ?_⟩
  · exact (keep_1 W (by decide)).trans h_main_arg1
  · exact (keep_1 W (by decide)).trans h_main_arg2
  · exact (keep_1 W (by decide)).trans h_main_arg3
  · simp only [after_cons, after_nil]
    rw [unary_result_ne (y := main_v5) (r := main_v3) (h := by decide),
      binary_result_ne (y := main_v4) (r := main_v3) (h := by decide),
      nullary_result_ne (y := main_cst_0) (r := main_v3) (h := by decide),
      binary_result main_v0 main_v2 main_v3,
      unary_result_ne (y := main_v2) (r := main_v0) (h := by decide),
      unary_result main_v1 main_v2,
      unary_result_ne (y := main_v1) (r := main_v0) (h := by decide),
      unary_result main_cst main_v1,
      reshape_result main_arg0 main_v0,
      reshape_result_ne (y := main_v0) (r := main_cst) (h := by decide),
      nullary_result_ne (y := main_cst) (r := main_arg0) (h := by decide),
      nullary_result main_cst,
      h_main_arg0]
    rfl
  · simp only [after_cons, after_nil]
    rw [unary_result_ne (y := main_v5) (r := main_v4) (h := by decide),
      binary_result main_arg2 main_cst_0 main_v4,
      nullary_result_ne (y := main_cst_0) (r := main_arg2) (h := by decide),
      nullary_result main_cst_0,
      binary_result_ne (y := main_v3) (r := main_arg2) (h := by decide),
      unary_result_ne (y := main_v2) (r := main_arg2) (h := by decide),
      unary_result_ne (y := main_v1) (r := main_arg2) (h := by decide),
      reshape_result_ne (y := main_v0) (r := main_arg2) (h := by decide),
      nullary_result_ne (y := main_cst) (r := main_arg2) (h := by decide),
      h_main_arg2]
    rfl
  · simp only [after_cons, after_nil]
    rw [unary_result main_arg3 main_v5,
      binary_result_ne (y := main_v4) (r := main_arg3) (h := by decide),
      nullary_result_ne (y := main_cst_0) (r := main_arg3) (h := by decide),
      binary_result_ne (y := main_v3) (r := main_arg3) (h := by decide),
      unary_result_ne (y := main_v2) (r := main_arg3) (h := by decide),
      unary_result_ne (y := main_v1) (r := main_arg3) (h := by decide),
      reshape_result_ne (y := main_v0) (r := main_arg3) (h := by decide),
      nullary_result_ne (y := main_cst) (r := main_arg3) (h := by decide),
      h_main_arg3]
    rfl

/-! ### Operations 8 to 16 -/

abbrev ops_2 : List (HloOp τ sig (Elt F)) :=
  [ reshape main_v5 main_v6 rfl shapeCasts_S128x128x1_S128x128,
    unary main_arg3 main_v7 ((extractStridedSlice S128x128x1 ![0, 0, 1] · slices_S128x128x3_S128x128x1_0_0_1) : (⟨S128x128x3, .i32⟩ : BufTy).Contents (Elt F) → (⟨S128x128x1, .i32⟩ : BufTy).Contents (Elt F)),
    reshape main_v7 main_v8 rfl shapeCasts_S128x128x1_S128x128,
    nullary main_c (constantI S_ 32 0#32),
    unary main_c main_v9 (broadcastInDim S128x128 ![] bcast_S_S128x128 : (⟨S_, .i32⟩ : BufTy).Contents (Elt F) → (⟨S128x128, .i32⟩ : BufTy).Contents (Elt F)),
    binary main_v6 main_v9 main_v10 (cmpi .slt : (⟨S128x128, .i32⟩ : BufTy).Contents (Elt F) → (⟨S128x128, .i32⟩ : BufTy).Contents (Elt F) → (⟨S128x128, .i1⟩ : BufTy).Contents (Elt F)),
    nullary main_c_1 (constantI S_ 32 128#32),
    unary main_c_1 main_v11 (broadcastInDim S128x128 ![] bcast_S_S128x128 : (⟨S_, .i32⟩ : BufTy).Contents (Elt F) → (⟨S128x128, .i32⟩ : BufTy).Contents (Elt F)),
    binary main_v6 main_v11 main_v12 (addi : (⟨S128x128, .i32⟩ : BufTy).Contents (Elt F) → (⟨S128x128, .i32⟩ : BufTy).Contents (Elt F) → (⟨S128x128, .i32⟩ : BufTy).Contents (Elt F)) ]

/-- The buffers they write. -/
abbrev outs_2 : List (Ref sig .tc) := [main_v6, main_v7, main_v8, main_c, main_v9, main_v10, main_c_1, main_v11, main_v12]

set_option maxRecDepth 8192 in
theorem writes_2 : (ops_2 (F := F)).Forall fun op => op.writes ⊆ ((outs_2).map (Proc.devRef (τ := τ) .tc)).toFinset :=
  ⟨reshape_sub _ _ _ _ (by decide),
   unary_sub _ _ _ (by decide),
   reshape_sub _ _ _ _ (by decide),
   nullary_sub _ _ (by decide),
   unary_sub _ _ _ (by decide),
   binary_sub _ _ _ _ (by decide),
   nullary_sub _ _ (by decide),
   unary_sub _ _ _ (by decide),
   binary_sub _ _ _ _ (by decide)⟩

/-- A buffer they do not write keeps its contents. -/
theorem keep_2 (W : Valuation τ sig (Elt F)) {r : Ref sig .tc} (hr : r ∉ outs_2) :
    after (ops_2 (F := F)) W (Proc.devRef .tc r) = W (Proc.devRef .tc r) :=
  after_of_writes_sub _ W writes_2 hr

set_option maxRecDepth 8192 in
/-- After them, each buffer still read later holds its stage. -/
theorem stage_2 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg1 : W (Proc.devRef .tc main_arg1) = x1)
    (h_main_arg2 : W (Proc.devRef .tc main_arg2) = x2)
    (h_main_arg3 : W (Proc.devRef .tc main_arg3) = x3)
    (h_main_v3 : W (Proc.devRef .tc main_v3) = ReadP.val_main_v3 (F := F) x0)
    (h_main_v4 : W (Proc.devRef .tc main_v4) = ReadP.val_main_v4 (F := F) x2)
    (h_main_v5 : W (Proc.devRef .tc main_v5) = ReadP.val_main_v5 (F := F) x3)
    :
    after (ops_2 (F := F)) W (Proc.devRef .tc main_arg1) = x1 ∧
    after (ops_2 (F := F)) W (Proc.devRef .tc main_arg2) = x2 ∧
    after (ops_2 (F := F)) W (Proc.devRef .tc main_v3) = ReadP.val_main_v3 (F := F) x0 ∧
    after (ops_2 (F := F)) W (Proc.devRef .tc main_v4) = ReadP.val_main_v4 (F := F) x2 ∧
    after (ops_2 (F := F)) W (Proc.devRef .tc main_v6) = ReadP.val_main_v6 (F := F) x3 ∧
    after (ops_2 (F := F)) W (Proc.devRef .tc main_v8) = ReadP.val_main_v8 (F := F) x3 ∧
    after (ops_2 (F := F)) W (Proc.devRef .tc main_v10) = ReadP.val_main_v10 (F := F) x3 ∧
    after (ops_2 (F := F)) W (Proc.devRef .tc main_v12) = ReadP.val_main_v12 (F := F) x3 := by
  refine ⟨?_, ?_, ?_, ?_, ?_, ?_, ?_, ?_⟩
  · exact (keep_2 W (by decide)).trans h_main_arg1
  · exact (keep_2 W (by decide)).trans h_main_arg2
  · exact (keep_2 W (by decide)).trans h_main_v3
  · exact (keep_2 W (by decide)).trans h_main_v4
  · simp only [after_cons, after_nil]
    rw [binary_result_ne (y := main_v12) (r := main_v6) (h := by decide),
      unary_result_ne (y := main_v11) (r := main_v6) (h := by decide),
      nullary_result_ne (y := main_c_1) (r := main_v6) (h := by decide),
      binary_result_ne (y := main_v10) (r := main_v6) (h := by decide),
      unary_result_ne (y := main_v9) (r := main_v6) (h := by decide),
      nullary_result_ne (y := main_c) (r := main_v6) (h := by decide),
      reshape_result_ne (y := main_v8) (r := main_v6) (h := by decide),
      unary_result_ne (y := main_v7) (r := main_v6) (h := by decide),
      reshape_result main_v5 main_v6,
      h_main_v5]
    rfl
  · simp only [after_cons, after_nil]
    rw [binary_result_ne (y := main_v12) (r := main_v8) (h := by decide),
      unary_result_ne (y := main_v11) (r := main_v8) (h := by decide),
      nullary_result_ne (y := main_c_1) (r := main_v8) (h := by decide),
      binary_result_ne (y := main_v10) (r := main_v8) (h := by decide),
      unary_result_ne (y := main_v9) (r := main_v8) (h := by decide),
      nullary_result_ne (y := main_c) (r := main_v8) (h := by decide),
      reshape_result main_v7 main_v8,
      unary_result main_arg3 main_v7,
      reshape_result_ne (y := main_v6) (r := main_arg3) (h := by decide),
      h_main_arg3]
    rfl
  · simp only [after_cons, after_nil]
    rw [binary_result_ne (y := main_v12) (r := main_v10) (h := by decide),
      unary_result_ne (y := main_v11) (r := main_v10) (h := by decide),
      nullary_result_ne (y := main_c_1) (r := main_v10) (h := by decide),
      binary_result main_v6 main_v9 main_v10,
      unary_result_ne (y := main_v9) (r := main_v6) (h := by decide),
      unary_result main_c main_v9,
      nullary_result_ne (y := main_c) (r := main_v6) (h := by decide),
      nullary_result main_c,
      reshape_result_ne (y := main_v8) (r := main_v6) (h := by decide),
      unary_result_ne (y := main_v7) (r := main_v6) (h := by decide),
      reshape_result main_v5 main_v6,
      h_main_v5]
    rfl
  · simp only [after_cons, after_nil]
    rw [binary_result main_v6 main_v11 main_v12,
      unary_result_ne (y := main_v11) (r := main_v6) (h := by decide),
      unary_result main_c_1 main_v11,
      nullary_result_ne (y := main_c_1) (r := main_v6) (h := by decide),
      nullary_result main_c_1,
      binary_result_ne (y := main_v10) (r := main_v6) (h := by decide),
      unary_result_ne (y := main_v9) (r := main_v6) (h := by decide),
      nullary_result_ne (y := main_c) (r := main_v6) (h := by decide),
      reshape_result_ne (y := main_v8) (r := main_v6) (h := by decide),
      unary_result_ne (y := main_v7) (r := main_v6) (h := by decide),
      reshape_result main_v5 main_v6,
      h_main_v5]
    rfl

/-! ### Operations 17 to 26 -/

abbrev ops_3 : List (HloOp τ sig (Elt F)) :=
  [ ternary main_v10 main_v12 main_v6 main_v13 (select : (⟨S128x128, .i1⟩ : BufTy).Contents (Elt F) → (⟨S128x128, .i32⟩ : BufTy).Contents (Elt F) → (⟨S128x128, .i32⟩ : BufTy).Contents (Elt F) → (⟨S128x128, .i32⟩ : BufTy).Contents (Elt F)),
    nullary main_c_2 (constantI S_ 32 0#32),
    unary main_c_2 main_v14 (broadcastInDim S128x128 ![] bcast_S_S128x128 : (⟨S_, .i32⟩ : BufTy).Contents (Elt F) → (⟨S128x128, .i32⟩ : BufTy).Contents (Elt F)),
    binary main_v8 main_v14 main_v15 (cmpi .slt : (⟨S128x128, .i32⟩ : BufTy).Contents (Elt F) → (⟨S128x128, .i32⟩ : BufTy).Contents (Elt F) → (⟨S128x128, .i1⟩ : BufTy).Contents (Elt F)),
    nullary main_c_3 (constantI S_ 32 65536#32),
    unary main_c_3 main_v16 (broadcastInDim S128x128 ![] bcast_S_S128x128 : (⟨S_, .i32⟩ : BufTy).Contents (Elt F) → (⟨S128x128, .i32⟩ : BufTy).Contents (Elt F)),
    binary main_v8 main_v16 main_v17 (addi : (⟨S128x128, .i32⟩ : BufTy).Contents (Elt F) → (⟨S128x128, .i32⟩ : BufTy).Contents (Elt F) → (⟨S128x128, .i32⟩ : BufTy).Contents (Elt F)),
    ternary main_v15 main_v17 main_v8 main_v18 (select : (⟨S128x128, .i1⟩ : BufTy).Contents (Elt F) → (⟨S128x128, .i32⟩ : BufTy).Contents (Elt F) → (⟨S128x128, .i32⟩ : BufTy).Contents (Elt F) → (⟨S128x128, .i32⟩ : BufTy).Contents (Elt F)),
    unary main_v13 main_v19 (broadcastInDim S128x128x1 ![0, 1] bcast_S128x128_S128x128x1_0_1 : (⟨S128x128, .i32⟩ : BufTy).Contents (Elt F) → (⟨S128x128x1, .i32⟩ : BufTy).Contents (Elt F)),
    unary main_v18 main_v20 (broadcastInDim S128x128x1 ![0, 1] bcast_S128x128_S128x128x1_0_1 : (⟨S128x128, .i32⟩ : BufTy).Contents (Elt F) → (⟨S128x128x1, .i32⟩ : BufTy).Contents (Elt F)) ]

/-- The buffers they write. -/
abbrev outs_3 : List (Ref sig .tc) := [main_v13, main_c_2, main_v14, main_v15, main_c_3, main_v16, main_v17, main_v18, main_v19, main_v20]

set_option maxRecDepth 8192 in
theorem writes_3 : (ops_3 (F := F)).Forall fun op => op.writes ⊆ ((outs_3).map (Proc.devRef (τ := τ) .tc)).toFinset :=
  ⟨ternary_sub _ _ _ _ _ (by decide),
   nullary_sub _ _ (by decide),
   unary_sub _ _ _ (by decide),
   binary_sub _ _ _ _ (by decide),
   nullary_sub _ _ (by decide),
   unary_sub _ _ _ (by decide),
   binary_sub _ _ _ _ (by decide),
   ternary_sub _ _ _ _ _ (by decide),
   unary_sub _ _ _ (by decide),
   unary_sub _ _ _ (by decide)⟩

/-- A buffer they do not write keeps its contents. -/
theorem keep_3 (W : Valuation τ sig (Elt F)) {r : Ref sig .tc} (hr : r ∉ outs_3) :
    after (ops_3 (F := F)) W (Proc.devRef .tc r) = W (Proc.devRef .tc r) :=
  after_of_writes_sub _ W writes_3 hr

set_option maxRecDepth 8192 in
/-- After them, each buffer still read later holds its stage. -/
theorem stage_3 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg1 : W (Proc.devRef .tc main_arg1) = x1)
    (h_main_arg2 : W (Proc.devRef .tc main_arg2) = x2)
    (h_main_v3 : W (Proc.devRef .tc main_v3) = ReadP.val_main_v3 (F := F) x0)
    (h_main_v4 : W (Proc.devRef .tc main_v4) = ReadP.val_main_v4 (F := F) x2)
    (h_main_v6 : W (Proc.devRef .tc main_v6) = ReadP.val_main_v6 (F := F) x3)
    (h_main_v8 : W (Proc.devRef .tc main_v8) = ReadP.val_main_v8 (F := F) x3)
    (h_main_v10 : W (Proc.devRef .tc main_v10) = ReadP.val_main_v10 (F := F) x3)
    (h_main_v12 : W (Proc.devRef .tc main_v12) = ReadP.val_main_v12 (F := F) x3)
    :
    after (ops_3 (F := F)) W (Proc.devRef .tc main_arg1) = x1 ∧
    after (ops_3 (F := F)) W (Proc.devRef .tc main_arg2) = x2 ∧
    after (ops_3 (F := F)) W (Proc.devRef .tc main_v3) = ReadP.val_main_v3 (F := F) x0 ∧
    after (ops_3 (F := F)) W (Proc.devRef .tc main_v4) = ReadP.val_main_v4 (F := F) x2 ∧
    after (ops_3 (F := F)) W (Proc.devRef .tc main_v19) = ReadP.val_main_v19 (F := F) x3 ∧
    after (ops_3 (F := F)) W (Proc.devRef .tc main_v20) = ReadP.val_main_v20 (F := F) x3 := by
  refine ⟨?_, ?_, ?_, ?_, ?_, ?_⟩
  · exact (keep_3 W (by decide)).trans h_main_arg1
  · exact (keep_3 W (by decide)).trans h_main_arg2
  · exact (keep_3 W (by decide)).trans h_main_v3
  · exact (keep_3 W (by decide)).trans h_main_v4
  · simp only [after_cons, after_nil]
    rw [unary_result_ne (y := main_v20) (r := main_v19) (h := by decide),
      unary_result main_v13 main_v19,
      ternary_result_ne (y := main_v18) (r := main_v13) (h := by decide),
      binary_result_ne (y := main_v17) (r := main_v13) (h := by decide),
      unary_result_ne (y := main_v16) (r := main_v13) (h := by decide),
      nullary_result_ne (y := main_c_3) (r := main_v13) (h := by decide),
      binary_result_ne (y := main_v15) (r := main_v13) (h := by decide),
      unary_result_ne (y := main_v14) (r := main_v13) (h := by decide),
      nullary_result_ne (y := main_c_2) (r := main_v13) (h := by decide),
      ternary_result main_v10 main_v12 main_v6 main_v13,
      h_main_v6,
      h_main_v10,
      h_main_v12]
    rfl
  · simp only [after_cons, after_nil]
    rw [unary_result main_v18 main_v20,
      unary_result_ne (y := main_v19) (r := main_v18) (h := by decide),
      ternary_result main_v15 main_v17 main_v8 main_v18,
      binary_result_ne (y := main_v17) (r := main_v15) (h := by decide),
      binary_result main_v8 main_v16 main_v17,
      binary_result_ne (y := main_v17) (r := main_v8) (h := by decide),
      unary_result_ne (y := main_v16) (r := main_v15) (h := by decide),
      unary_result_ne (y := main_v16) (r := main_v8) (h := by decide),
      unary_result main_c_3 main_v16,
      nullary_result_ne (y := main_c_3) (r := main_v15) (h := by decide),
      nullary_result_ne (y := main_c_3) (r := main_v8) (h := by decide),
      nullary_result main_c_3,
      binary_result main_v8 main_v14 main_v15,
      binary_result_ne (y := main_v15) (r := main_v8) (h := by decide),
      unary_result_ne (y := main_v14) (r := main_v8) (h := by decide),
      unary_result main_c_2 main_v14,
      nullary_result_ne (y := main_c_2) (r := main_v8) (h := by decide),
      nullary_result main_c_2,
      ternary_result_ne (y := main_v13) (r := main_v8) (h := by decide),
      h_main_v8]
    rfl

/-! ### Operations 27 to 27 -/

abbrev ops_4 : List (HloOp τ sig (Elt F)) :=
  [ binary main_v19 main_v20 main_v21 ((fun a b => concatenate S128x128x2 2 [⟨S128x128x1, a⟩, ⟨S128x128x1, b⟩] concatenates_S128x128x1_S128x128x1_S128x128x2_d2) : (⟨S128x128x1, .i32⟩ : BufTy).Contents (Elt F) → (⟨S128x128x1, .i32⟩ : BufTy).Contents (Elt F) → (⟨S128x128x2, .i32⟩ : BufTy).Contents (Elt F)) ]

/-- The buffers they write. -/
abbrev outs_4 : List (Ref sig .tc) := [main_v21]

set_option maxRecDepth 8192 in
theorem writes_4 : (ops_4 (F := F)).Forall fun op => op.writes ⊆ ((outs_4).map (Proc.devRef (τ := τ) .tc)).toFinset :=
  binary_sub _ _ _ _ (by decide)

/-- A buffer they do not write keeps its contents. -/
theorem keep_4 (W : Valuation τ sig (Elt F)) {r : Ref sig .tc} (hr : r ∉ outs_4) :
    after (ops_4 (F := F)) W (Proc.devRef .tc r) = W (Proc.devRef .tc r) :=
  after_of_writes_sub _ W writes_4 hr

set_option maxRecDepth 8192 in
/-- After them, each buffer still read later holds its stage. -/
theorem stage_4 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg1 : W (Proc.devRef .tc main_arg1) = x1)
    (h_main_arg2 : W (Proc.devRef .tc main_arg2) = x2)
    (h_main_v3 : W (Proc.devRef .tc main_v3) = ReadP.val_main_v3 (F := F) x0)
    (h_main_v4 : W (Proc.devRef .tc main_v4) = ReadP.val_main_v4 (F := F) x2)
    (h_main_v19 : W (Proc.devRef .tc main_v19) = ReadP.val_main_v19 (F := F) x3)
    (h_main_v20 : W (Proc.devRef .tc main_v20) = ReadP.val_main_v20 (F := F) x3)
    :
    after (ops_4 (F := F)) W (Proc.devRef .tc main_arg1) = x1 ∧
    after (ops_4 (F := F)) W (Proc.devRef .tc main_arg2) = x2 ∧
    after (ops_4 (F := F)) W (Proc.devRef .tc main_v3) = ReadP.val_main_v3 (F := F) x0 ∧
    after (ops_4 (F := F)) W (Proc.devRef .tc main_v4) = ReadP.val_main_v4 (F := F) x2 ∧
    after (ops_4 (F := F)) W (Proc.devRef .tc main_v21) = ReadP.val_main_v21 (F := F) x3 := by
  refine ⟨?_, ?_, ?_, ?_, ?_⟩
  · exact (keep_4 W (by decide)).trans h_main_arg1
  · exact (keep_4 W (by decide)).trans h_main_arg2
  · exact (keep_4 W (by decide)).trans h_main_v3
  · exact (keep_4 W (by decide)).trans h_main_v4
  · simp only [after_cons, after_nil]
    rw [binary_result main_v19 main_v20 main_v21,
      h_main_v19,
      h_main_v20]
    rfl

/-! ### Operations 28 to 36 -/

abbrev ops_5 : List (HloOp τ sig (Elt F)) :=
  [ binary main_v3 main_v21 main_v22 ((fun x i => Host.gather gather_S128x65536x4_S128x128x2_S128x128x4_2_01_n_n_01_2_114 x i) : (⟨S128x65536x4, .f32⟩ : BufTy).Contents (Elt F) → (⟨S128x128x2, .i32⟩ : BufTy).Contents (Elt F) → (⟨S128x128x4, .f32⟩ : BufTy).Contents (Elt F)),
    unary main_v22 main_v23 ((extractStridedSlice S128x128x1 ![0, 0, 0] · slices_S128x128x4_S128x128x1_0_0_0) : (⟨S128x128x4, .f32⟩ : BufTy).Contents (Elt F) → (⟨S128x128x1, .f32⟩ : BufTy).Contents (Elt F)),
    unary main_v22 main_v24 ((extractStridedSlice S128x128x1 ![0, 0, 1] · slices_S128x128x4_S128x128x1_0_0_1) : (⟨S128x128x4, .f32⟩ : BufTy).Contents (Elt F) → (⟨S128x128x1, .f32⟩ : BufTy).Contents (Elt F)),
    unary main_v22 main_v25 ((extractStridedSlice S128x128x1 ![0, 0, 2] · slices_S128x128x4_S128x128x1_0_0_2) : (⟨S128x128x4, .f32⟩ : BufTy).Contents (Elt F) → (⟨S128x128x1, .f32⟩ : BufTy).Contents (Elt F)),
    unary main_v22 main_v26 ((extractStridedSlice S128x128x1 ![0, 0, 3] · slices_S128x128x4_S128x128x1_0_0_3) : (⟨S128x128x4, .f32⟩ : BufTy).Contents (Elt F) → (⟨S128x128x1, .f32⟩ : BufTy).Contents (Elt F)),
    unary main_arg1 main_v27 ((extractStridedSlice S128x128x1 ![0, 0, 0] · slices_S128x128x4_S128x128x1_0_0_0) : (⟨S128x128x4, .f32⟩ : BufTy).Contents (Elt F) → (⟨S128x128x1, .f32⟩ : BufTy).Contents (Elt F)),
    unary main_arg1 main_v28 ((extractStridedSlice S128x128x1 ![0, 0, 1] · slices_S128x128x4_S128x128x1_0_0_1) : (⟨S128x128x4, .f32⟩ : BufTy).Contents (Elt F) → (⟨S128x128x1, .f32⟩ : BufTy).Contents (Elt F)),
    unary main_arg1 main_v29 ((extractStridedSlice S128x128x1 ![0, 0, 2] · slices_S128x128x4_S128x128x1_0_0_2) : (⟨S128x128x4, .f32⟩ : BufTy).Contents (Elt F) → (⟨S128x128x1, .f32⟩ : BufTy).Contents (Elt F)),
    unary main_arg1 main_v30 ((extractStridedSlice S128x128x1 ![0, 0, 3] · slices_S128x128x4_S128x128x1_0_0_3) : (⟨S128x128x4, .f32⟩ : BufTy).Contents (Elt F) → (⟨S128x128x1, .f32⟩ : BufTy).Contents (Elt F)) ]

/-- The buffers they write. -/
abbrev outs_5 : List (Ref sig .tc) := [main_v22, main_v23, main_v24, main_v25, main_v26, main_v27, main_v28, main_v29, main_v30]

set_option maxRecDepth 8192 in
theorem writes_5 : (ops_5 (F := F)).Forall fun op => op.writes ⊆ ((outs_5).map (Proc.devRef (τ := τ) .tc)).toFinset :=
  ⟨binary_sub _ _ _ _ (by decide),
   unary_sub _ _ _ (by decide),
   unary_sub _ _ _ (by decide),
   unary_sub _ _ _ (by decide),
   unary_sub _ _ _ (by decide),
   unary_sub _ _ _ (by decide),
   unary_sub _ _ _ (by decide),
   unary_sub _ _ _ (by decide),
   unary_sub _ _ _ (by decide)⟩

/-- A buffer they do not write keeps its contents. -/
theorem keep_5 (W : Valuation τ sig (Elt F)) {r : Ref sig .tc} (hr : r ∉ outs_5) :
    after (ops_5 (F := F)) W (Proc.devRef .tc r) = W (Proc.devRef .tc r) :=
  after_of_writes_sub _ W writes_5 hr

set_option maxRecDepth 8192 in
/-- After them, each buffer still read later holds its stage. -/
theorem stage_5 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg1 : W (Proc.devRef .tc main_arg1) = x1)
    (h_main_arg2 : W (Proc.devRef .tc main_arg2) = x2)
    (h_main_v3 : W (Proc.devRef .tc main_v3) = ReadP.val_main_v3 (F := F) x0)
    (h_main_v4 : W (Proc.devRef .tc main_v4) = ReadP.val_main_v4 (F := F) x2)
    (h_main_v21 : W (Proc.devRef .tc main_v21) = ReadP.val_main_v21 (F := F) x3)
    :
    after (ops_5 (F := F)) W (Proc.devRef .tc main_arg2) = x2 ∧
    after (ops_5 (F := F)) W (Proc.devRef .tc main_v4) = ReadP.val_main_v4 (F := F) x2 ∧
    after (ops_5 (F := F)) W (Proc.devRef .tc main_v23) = ReadP.val_main_v23 (F := F) x0 x3 ∧
    after (ops_5 (F := F)) W (Proc.devRef .tc main_v24) = ReadP.val_main_v24 (F := F) x0 x3 ∧
    after (ops_5 (F := F)) W (Proc.devRef .tc main_v25) = ReadP.val_main_v25 (F := F) x0 x3 ∧
    after (ops_5 (F := F)) W (Proc.devRef .tc main_v26) = ReadP.val_main_v26 (F := F) x0 x3 ∧
    after (ops_5 (F := F)) W (Proc.devRef .tc main_v27) = ReadP.val_main_v27 (F := F) x1 ∧
    after (ops_5 (F := F)) W (Proc.devRef .tc main_v28) = ReadP.val_main_v28 (F := F) x1 ∧
    after (ops_5 (F := F)) W (Proc.devRef .tc main_v29) = ReadP.val_main_v29 (F := F) x1 ∧
    after (ops_5 (F := F)) W (Proc.devRef .tc main_v30) = ReadP.val_main_v30 (F := F) x1 := by
  refine ⟨?_, ?_, ?_, ?_, ?_, ?_, ?_, ?_, ?_, ?_⟩
  · exact (keep_5 W (by decide)).trans h_main_arg2
  · exact (keep_5 W (by decide)).trans h_main_v4
  · simp only [after_cons, after_nil]
    rw [unary_result_ne (y := main_v30) (r := main_v23) (h := by decide),
      unary_result_ne (y := main_v29) (r := main_v23) (h := by decide),
      unary_result_ne (y := main_v28) (r := main_v23) (h := by decide),
      unary_result_ne (y := main_v27) (r := main_v23) (h := by decide),
      unary_result_ne (y := main_v26) (r := main_v23) (h := by decide),
      unary_result_ne (y := main_v25) (r := main_v23) (h := by decide),
      unary_result_ne (y := main_v24) (r := main_v23) (h := by decide),
      unary_result main_v22 main_v23,
      binary_result main_v3 main_v21 main_v22,
      h_main_v3,
      h_main_v21]
    rfl
  · simp only [after_cons, after_nil]
    rw [unary_result_ne (y := main_v30) (r := main_v24) (h := by decide),
      unary_result_ne (y := main_v29) (r := main_v24) (h := by decide),
      unary_result_ne (y := main_v28) (r := main_v24) (h := by decide),
      unary_result_ne (y := main_v27) (r := main_v24) (h := by decide),
      unary_result_ne (y := main_v26) (r := main_v24) (h := by decide),
      unary_result_ne (y := main_v25) (r := main_v24) (h := by decide),
      unary_result main_v22 main_v24,
      unary_result_ne (y := main_v23) (r := main_v22) (h := by decide),
      binary_result main_v3 main_v21 main_v22,
      h_main_v3,
      h_main_v21]
    rfl
  · simp only [after_cons, after_nil]
    rw [unary_result_ne (y := main_v30) (r := main_v25) (h := by decide),
      unary_result_ne (y := main_v29) (r := main_v25) (h := by decide),
      unary_result_ne (y := main_v28) (r := main_v25) (h := by decide),
      unary_result_ne (y := main_v27) (r := main_v25) (h := by decide),
      unary_result_ne (y := main_v26) (r := main_v25) (h := by decide),
      unary_result main_v22 main_v25,
      unary_result_ne (y := main_v24) (r := main_v22) (h := by decide),
      unary_result_ne (y := main_v23) (r := main_v22) (h := by decide),
      binary_result main_v3 main_v21 main_v22,
      h_main_v3,
      h_main_v21]
    rfl
  · simp only [after_cons, after_nil]
    rw [unary_result_ne (y := main_v30) (r := main_v26) (h := by decide),
      unary_result_ne (y := main_v29) (r := main_v26) (h := by decide),
      unary_result_ne (y := main_v28) (r := main_v26) (h := by decide),
      unary_result_ne (y := main_v27) (r := main_v26) (h := by decide),
      unary_result main_v22 main_v26,
      unary_result_ne (y := main_v25) (r := main_v22) (h := by decide),
      unary_result_ne (y := main_v24) (r := main_v22) (h := by decide),
      unary_result_ne (y := main_v23) (r := main_v22) (h := by decide),
      binary_result main_v3 main_v21 main_v22,
      h_main_v3,
      h_main_v21]
    rfl
  · simp only [after_cons, after_nil]
    rw [unary_result_ne (y := main_v30) (r := main_v27) (h := by decide),
      unary_result_ne (y := main_v29) (r := main_v27) (h := by decide),
      unary_result_ne (y := main_v28) (r := main_v27) (h := by decide),
      unary_result main_arg1 main_v27,
      unary_result_ne (y := main_v26) (r := main_arg1) (h := by decide),
      unary_result_ne (y := main_v25) (r := main_arg1) (h := by decide),
      unary_result_ne (y := main_v24) (r := main_arg1) (h := by decide),
      unary_result_ne (y := main_v23) (r := main_arg1) (h := by decide),
      binary_result_ne (y := main_v22) (r := main_arg1) (h := by decide),
      h_main_arg1]
    rfl
  · simp only [after_cons, after_nil]
    rw [unary_result_ne (y := main_v30) (r := main_v28) (h := by decide),
      unary_result_ne (y := main_v29) (r := main_v28) (h := by decide),
      unary_result main_arg1 main_v28,
      unary_result_ne (y := main_v27) (r := main_arg1) (h := by decide),
      unary_result_ne (y := main_v26) (r := main_arg1) (h := by decide),
      unary_result_ne (y := main_v25) (r := main_arg1) (h := by decide),
      unary_result_ne (y := main_v24) (r := main_arg1) (h := by decide),
      unary_result_ne (y := main_v23) (r := main_arg1) (h := by decide),
      binary_result_ne (y := main_v22) (r := main_arg1) (h := by decide),
      h_main_arg1]
    rfl
  · simp only [after_cons, after_nil]
    rw [unary_result_ne (y := main_v30) (r := main_v29) (h := by decide),
      unary_result main_arg1 main_v29,
      unary_result_ne (y := main_v28) (r := main_arg1) (h := by decide),
      unary_result_ne (y := main_v27) (r := main_arg1) (h := by decide),
      unary_result_ne (y := main_v26) (r := main_arg1) (h := by decide),
      unary_result_ne (y := main_v25) (r := main_arg1) (h := by decide),
      unary_result_ne (y := main_v24) (r := main_arg1) (h := by decide),
      unary_result_ne (y := main_v23) (r := main_arg1) (h := by decide),
      binary_result_ne (y := main_v22) (r := main_arg1) (h := by decide),
      h_main_arg1]
    rfl
  · simp only [after_cons, after_nil]
    rw [unary_result main_arg1 main_v30,
      unary_result_ne (y := main_v29) (r := main_arg1) (h := by decide),
      unary_result_ne (y := main_v28) (r := main_arg1) (h := by decide),
      unary_result_ne (y := main_v27) (r := main_arg1) (h := by decide),
      unary_result_ne (y := main_v26) (r := main_arg1) (h := by decide),
      unary_result_ne (y := main_v25) (r := main_arg1) (h := by decide),
      unary_result_ne (y := main_v24) (r := main_arg1) (h := by decide),
      unary_result_ne (y := main_v23) (r := main_arg1) (h := by decide),
      binary_result_ne (y := main_v22) (r := main_arg1) (h := by decide),
      h_main_arg1]
    rfl

/-! ### Operations 37 to 45 -/

abbrev ops_6 : List (HloOp τ sig (Elt F)) :=
  [ binary main_v25 main_v23 main_v31 (subf : (⟨S128x128x1, .f32⟩ : BufTy).Contents (Elt F) → (⟨S128x128x1, .f32⟩ : BufTy).Contents (Elt F) → (⟨S128x128x1, .f32⟩ : BufTy).Contents (Elt F)),
    nullary main_cst_4 (constant S_ .f32 0x00000000#32),
    unary main_cst_4 main_v32 (broadcastInDim S128x128x1 ![] bcast_S_S128x128x1 : (⟨S_, .f32⟩ : BufTy).Contents (Elt F) → (⟨S128x128x1, .f32⟩ : BufTy).Contents (Elt F)),
    binary main_v31 main_v32 main_v33 (maximumf : (⟨S128x128x1, .f32⟩ : BufTy).Contents (Elt F) → (⟨S128x128x1, .f32⟩ : BufTy).Contents (Elt F) → (⟨S128x128x1, .f32⟩ : BufTy).Contents (Elt F)),
    binary main_v26 main_v24 main_v34 (subf : (⟨S128x128x1, .f32⟩ : BufTy).Contents (Elt F) → (⟨S128x128x1, .f32⟩ : BufTy).Contents (Elt F) → (⟨S128x128x1, .f32⟩ : BufTy).Contents (Elt F)),
    nullary main_cst_5 (constant S_ .f32 0x00000000#32),
    unary main_cst_5 main_v35 (broadcastInDim S128x128x1 ![] bcast_S_S128x128x1 : (⟨S_, .f32⟩ : BufTy).Contents (Elt F) → (⟨S128x128x1, .f32⟩ : BufTy).Contents (Elt F)),
    binary main_v34 main_v35 main_v36 (maximumf : (⟨S128x128x1, .f32⟩ : BufTy).Contents (Elt F) → (⟨S128x128x1, .f32⟩ : BufTy).Contents (Elt F) → (⟨S128x128x1, .f32⟩ : BufTy).Contents (Elt F)),
    binary main_v33 main_v36 main_v37 (mulf : (⟨S128x128x1, .f32⟩ : BufTy).Contents (Elt F) → (⟨S128x128x1, .f32⟩ : BufTy).Contents (Elt F) → (⟨S128x128x1, .f32⟩ : BufTy).Contents (Elt F)) ]

/-- The buffers they write. -/
abbrev outs_6 : List (Ref sig .tc) := [main_v31, main_cst_4, main_v32, main_v33, main_v34, main_cst_5, main_v35, main_v36, main_v37]

set_option maxRecDepth 8192 in
theorem writes_6 : (ops_6 (F := F)).Forall fun op => op.writes ⊆ ((outs_6).map (Proc.devRef (τ := τ) .tc)).toFinset :=
  ⟨binary_sub _ _ _ _ (by decide),
   nullary_sub _ _ (by decide),
   unary_sub _ _ _ (by decide),
   binary_sub _ _ _ _ (by decide),
   binary_sub _ _ _ _ (by decide),
   nullary_sub _ _ (by decide),
   unary_sub _ _ _ (by decide),
   binary_sub _ _ _ _ (by decide),
   binary_sub _ _ _ _ (by decide)⟩

/-- A buffer they do not write keeps its contents. -/
theorem keep_6 (W : Valuation τ sig (Elt F)) {r : Ref sig .tc} (hr : r ∉ outs_6) :
    after (ops_6 (F := F)) W (Proc.devRef .tc r) = W (Proc.devRef .tc r) :=
  after_of_writes_sub _ W writes_6 hr

set_option maxRecDepth 8192 in
/-- After them, each buffer still read later holds its stage. -/
theorem stage_6 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg2 : W (Proc.devRef .tc main_arg2) = x2)
    (h_main_v4 : W (Proc.devRef .tc main_v4) = ReadP.val_main_v4 (F := F) x2)
    (h_main_v23 : W (Proc.devRef .tc main_v23) = ReadP.val_main_v23 (F := F) x0 x3)
    (h_main_v24 : W (Proc.devRef .tc main_v24) = ReadP.val_main_v24 (F := F) x0 x3)
    (h_main_v25 : W (Proc.devRef .tc main_v25) = ReadP.val_main_v25 (F := F) x0 x3)
    (h_main_v26 : W (Proc.devRef .tc main_v26) = ReadP.val_main_v26 (F := F) x0 x3)
    (h_main_v27 : W (Proc.devRef .tc main_v27) = ReadP.val_main_v27 (F := F) x1)
    (h_main_v28 : W (Proc.devRef .tc main_v28) = ReadP.val_main_v28 (F := F) x1)
    (h_main_v29 : W (Proc.devRef .tc main_v29) = ReadP.val_main_v29 (F := F) x1)
    (h_main_v30 : W (Proc.devRef .tc main_v30) = ReadP.val_main_v30 (F := F) x1)
    :
    after (ops_6 (F := F)) W (Proc.devRef .tc main_arg2) = x2 ∧
    after (ops_6 (F := F)) W (Proc.devRef .tc main_v4) = ReadP.val_main_v4 (F := F) x2 ∧
    after (ops_6 (F := F)) W (Proc.devRef .tc main_v23) = ReadP.val_main_v23 (F := F) x0 x3 ∧
    after (ops_6 (F := F)) W (Proc.devRef .tc main_v24) = ReadP.val_main_v24 (F := F) x0 x3 ∧
    after (ops_6 (F := F)) W (Proc.devRef .tc main_v25) = ReadP.val_main_v25 (F := F) x0 x3 ∧
    after (ops_6 (F := F)) W (Proc.devRef .tc main_v26) = ReadP.val_main_v26 (F := F) x0 x3 ∧
    after (ops_6 (F := F)) W (Proc.devRef .tc main_v27) = ReadP.val_main_v27 (F := F) x1 ∧
    after (ops_6 (F := F)) W (Proc.devRef .tc main_v28) = ReadP.val_main_v28 (F := F) x1 ∧
    after (ops_6 (F := F)) W (Proc.devRef .tc main_v29) = ReadP.val_main_v29 (F := F) x1 ∧
    after (ops_6 (F := F)) W (Proc.devRef .tc main_v30) = ReadP.val_main_v30 (F := F) x1 ∧
    after (ops_6 (F := F)) W (Proc.devRef .tc main_v37) = ReadP.val_main_v37 (F := F) x0 x3 := by
  refine ⟨?_, ?_, ?_, ?_, ?_, ?_, ?_, ?_, ?_, ?_, ?_⟩
  · exact (keep_6 W (by decide)).trans h_main_arg2
  · exact (keep_6 W (by decide)).trans h_main_v4
  · exact (keep_6 W (by decide)).trans h_main_v23
  · exact (keep_6 W (by decide)).trans h_main_v24
  · exact (keep_6 W (by decide)).trans h_main_v25
  · exact (keep_6 W (by decide)).trans h_main_v26
  · exact (keep_6 W (by decide)).trans h_main_v27
  · exact (keep_6 W (by decide)).trans h_main_v28
  · exact (keep_6 W (by decide)).trans h_main_v29
  · exact (keep_6 W (by decide)).trans h_main_v30
  · simp only [after_cons, after_nil]
    rw [binary_result main_v33 main_v36 main_v37,
      binary_result_ne (y := main_v36) (r := main_v33) (h := by decide),
      binary_result main_v34 main_v35 main_v36,
      unary_result_ne (y := main_v35) (r := main_v33) (h := by decide),
      unary_result_ne (y := main_v35) (r := main_v34) (h := by decide),
      unary_result main_cst_5 main_v35,
      nullary_result_ne (y := main_cst_5) (r := main_v33) (h := by decide),
      nullary_result_ne (y := main_cst_5) (r := main_v34) (h := by decide),
      nullary_result main_cst_5,
      binary_result_ne (y := main_v34) (r := main_v33) (h := by decide),
      binary_result main_v26 main_v24 main_v34,
      binary_result main_v31 main_v32 main_v33,
      binary_result_ne (y := main_v33) (r := main_v26) (h := by decide),
      binary_result_ne (y := main_v33) (r := main_v24) (h := by decide),
      unary_result_ne (y := main_v32) (r := main_v31) (h := by decide),
      unary_result main_cst_4 main_v32,
      unary_result_ne (y := main_v32) (r := main_v26) (h := by decide),
      unary_result_ne (y := main_v32) (r := main_v24) (h := by decide),
      nullary_result_ne (y := main_cst_4) (r := main_v31) (h := by decide),
      nullary_result main_cst_4,
      nullary_result_ne (y := main_cst_4) (r := main_v26) (h := by decide),
      nullary_result_ne (y := main_cst_4) (r := main_v24) (h := by decide),
      binary_result main_v25 main_v23 main_v31,
      binary_result_ne (y := main_v31) (r := main_v26) (h := by decide),
      binary_result_ne (y := main_v31) (r := main_v24) (h := by decide),
      h_main_v23,
      h_main_v24,
      h_main_v25,
      h_main_v26]
    rfl

/-! ### Operations 46 to 54 -/

abbrev ops_7 : List (HloOp τ sig (Elt F)) :=
  [ binary main_v29 main_v27 main_v38 (subf : (⟨S128x128x1, .f32⟩ : BufTy).Contents (Elt F) → (⟨S128x128x1, .f32⟩ : BufTy).Contents (Elt F) → (⟨S128x128x1, .f32⟩ : BufTy).Contents (Elt F)),
    nullary main_cst_6 (constant S_ .f32 0x00000000#32),
    unary main_cst_6 main_v39 (broadcastInDim S128x128x1 ![] bcast_S_S128x128x1 : (⟨S_, .f32⟩ : BufTy).Contents (Elt F) → (⟨S128x128x1, .f32⟩ : BufTy).Contents (Elt F)),
    binary main_v38 main_v39 main_v40 (maximumf : (⟨S128x128x1, .f32⟩ : BufTy).Contents (Elt F) → (⟨S128x128x1, .f32⟩ : BufTy).Contents (Elt F) → (⟨S128x128x1, .f32⟩ : BufTy).Contents (Elt F)),
    binary main_v30 main_v28 main_v41 (subf : (⟨S128x128x1, .f32⟩ : BufTy).Contents (Elt F) → (⟨S128x128x1, .f32⟩ : BufTy).Contents (Elt F) → (⟨S128x128x1, .f32⟩ : BufTy).Contents (Elt F)),
    nullary main_cst_7 (constant S_ .f32 0x00000000#32),
    unary main_cst_7 main_v42 (broadcastInDim S128x128x1 ![] bcast_S_S128x128x1 : (⟨S_, .f32⟩ : BufTy).Contents (Elt F) → (⟨S128x128x1, .f32⟩ : BufTy).Contents (Elt F)),
    binary main_v41 main_v42 main_v43 (maximumf : (⟨S128x128x1, .f32⟩ : BufTy).Contents (Elt F) → (⟨S128x128x1, .f32⟩ : BufTy).Contents (Elt F) → (⟨S128x128x1, .f32⟩ : BufTy).Contents (Elt F)),
    binary main_v40 main_v43 main_v44 (mulf : (⟨S128x128x1, .f32⟩ : BufTy).Contents (Elt F) → (⟨S128x128x1, .f32⟩ : BufTy).Contents (Elt F) → (⟨S128x128x1, .f32⟩ : BufTy).Contents (Elt F)) ]

/-- The buffers they write. -/
abbrev outs_7 : List (Ref sig .tc) := [main_v38, main_cst_6, main_v39, main_v40, main_v41, main_cst_7, main_v42, main_v43, main_v44]

set_option maxRecDepth 8192 in
theorem writes_7 : (ops_7 (F := F)).Forall fun op => op.writes ⊆ ((outs_7).map (Proc.devRef (τ := τ) .tc)).toFinset :=
  ⟨binary_sub _ _ _ _ (by decide),
   nullary_sub _ _ (by decide),
   unary_sub _ _ _ (by decide),
   binary_sub _ _ _ _ (by decide),
   binary_sub _ _ _ _ (by decide),
   nullary_sub _ _ (by decide),
   unary_sub _ _ _ (by decide),
   binary_sub _ _ _ _ (by decide),
   binary_sub _ _ _ _ (by decide)⟩

/-- A buffer they do not write keeps its contents. -/
theorem keep_7 (W : Valuation τ sig (Elt F)) {r : Ref sig .tc} (hr : r ∉ outs_7) :
    after (ops_7 (F := F)) W (Proc.devRef .tc r) = W (Proc.devRef .tc r) :=
  after_of_writes_sub _ W writes_7 hr

set_option maxRecDepth 8192 in
/-- After them, each buffer still read later holds its stage. -/
theorem stage_7 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg2 : W (Proc.devRef .tc main_arg2) = x2)
    (h_main_v4 : W (Proc.devRef .tc main_v4) = ReadP.val_main_v4 (F := F) x2)
    (h_main_v23 : W (Proc.devRef .tc main_v23) = ReadP.val_main_v23 (F := F) x0 x3)
    (h_main_v24 : W (Proc.devRef .tc main_v24) = ReadP.val_main_v24 (F := F) x0 x3)
    (h_main_v25 : W (Proc.devRef .tc main_v25) = ReadP.val_main_v25 (F := F) x0 x3)
    (h_main_v26 : W (Proc.devRef .tc main_v26) = ReadP.val_main_v26 (F := F) x0 x3)
    (h_main_v27 : W (Proc.devRef .tc main_v27) = ReadP.val_main_v27 (F := F) x1)
    (h_main_v28 : W (Proc.devRef .tc main_v28) = ReadP.val_main_v28 (F := F) x1)
    (h_main_v29 : W (Proc.devRef .tc main_v29) = ReadP.val_main_v29 (F := F) x1)
    (h_main_v30 : W (Proc.devRef .tc main_v30) = ReadP.val_main_v30 (F := F) x1)
    (h_main_v37 : W (Proc.devRef .tc main_v37) = ReadP.val_main_v37 (F := F) x0 x3)
    :
    after (ops_7 (F := F)) W (Proc.devRef .tc main_arg2) = x2 ∧
    after (ops_7 (F := F)) W (Proc.devRef .tc main_v4) = ReadP.val_main_v4 (F := F) x2 ∧
    after (ops_7 (F := F)) W (Proc.devRef .tc main_v23) = ReadP.val_main_v23 (F := F) x0 x3 ∧
    after (ops_7 (F := F)) W (Proc.devRef .tc main_v24) = ReadP.val_main_v24 (F := F) x0 x3 ∧
    after (ops_7 (F := F)) W (Proc.devRef .tc main_v25) = ReadP.val_main_v25 (F := F) x0 x3 ∧
    after (ops_7 (F := F)) W (Proc.devRef .tc main_v26) = ReadP.val_main_v26 (F := F) x0 x3 ∧
    after (ops_7 (F := F)) W (Proc.devRef .tc main_v27) = ReadP.val_main_v27 (F := F) x1 ∧
    after (ops_7 (F := F)) W (Proc.devRef .tc main_v28) = ReadP.val_main_v28 (F := F) x1 ∧
    after (ops_7 (F := F)) W (Proc.devRef .tc main_v29) = ReadP.val_main_v29 (F := F) x1 ∧
    after (ops_7 (F := F)) W (Proc.devRef .tc main_v30) = ReadP.val_main_v30 (F := F) x1 ∧
    after (ops_7 (F := F)) W (Proc.devRef .tc main_v37) = ReadP.val_main_v37 (F := F) x0 x3 ∧
    after (ops_7 (F := F)) W (Proc.devRef .tc main_v44) = ReadP.val_main_v44 (F := F) x1 := by
  refine ⟨?_, ?_, ?_, ?_, ?_, ?_, ?_, ?_, ?_, ?_, ?_, ?_⟩
  · exact (keep_7 W (by decide)).trans h_main_arg2
  · exact (keep_7 W (by decide)).trans h_main_v4
  · exact (keep_7 W (by decide)).trans h_main_v23
  · exact (keep_7 W (by decide)).trans h_main_v24
  · exact (keep_7 W (by decide)).trans h_main_v25
  · exact (keep_7 W (by decide)).trans h_main_v26
  · exact (keep_7 W (by decide)).trans h_main_v27
  · exact (keep_7 W (by decide)).trans h_main_v28
  · exact (keep_7 W (by decide)).trans h_main_v29
  · exact (keep_7 W (by decide)).trans h_main_v30
  · exact (keep_7 W (by decide)).trans h_main_v37
  · simp only [after_cons, after_nil]
    rw [binary_result main_v40 main_v43 main_v44,
      binary_result_ne (y := main_v43) (r := main_v40) (h := by decide),
      binary_result main_v41 main_v42 main_v43,
      unary_result_ne (y := main_v42) (r := main_v40) (h := by decide),
      unary_result_ne (y := main_v42) (r := main_v41) (h := by decide),
      unary_result main_cst_7 main_v42,
      nullary_result_ne (y := main_cst_7) (r := main_v40) (h := by decide),
      nullary_result_ne (y := main_cst_7) (r := main_v41) (h := by decide),
      nullary_result main_cst_7,
      binary_result_ne (y := main_v41) (r := main_v40) (h := by decide),
      binary_result main_v30 main_v28 main_v41,
      binary_result main_v38 main_v39 main_v40,
      binary_result_ne (y := main_v40) (r := main_v30) (h := by decide),
      binary_result_ne (y := main_v40) (r := main_v28) (h := by decide),
      unary_result_ne (y := main_v39) (r := main_v38) (h := by decide),
      unary_result main_cst_6 main_v39,
      unary_result_ne (y := main_v39) (r := main_v30) (h := by decide),
      unary_result_ne (y := main_v39) (r := main_v28) (h := by decide),
      nullary_result_ne (y := main_cst_6) (r := main_v38) (h := by decide),
      nullary_result main_cst_6,
      nullary_result_ne (y := main_cst_6) (r := main_v30) (h := by decide),
      nullary_result_ne (y := main_cst_6) (r := main_v28) (h := by decide),
      binary_result main_v29 main_v27 main_v38,
      binary_result_ne (y := main_v38) (r := main_v30) (h := by decide),
      binary_result_ne (y := main_v38) (r := main_v28) (h := by decide),
      h_main_v27,
      h_main_v28,
      h_main_v29,
      h_main_v30]
    rfl

/-! ### Operations 55 to 63 -/

abbrev ops_8 : List (HloOp τ sig (Elt F)) :=
  [ binary main_v23 main_v27 main_v45 (maximumf : (⟨S128x128x1, .f32⟩ : BufTy).Contents (Elt F) → (⟨S128x128x1, .f32⟩ : BufTy).Contents (Elt F) → (⟨S128x128x1, .f32⟩ : BufTy).Contents (Elt F)),
    binary main_v24 main_v28 main_v46 (maximumf : (⟨S128x128x1, .f32⟩ : BufTy).Contents (Elt F) → (⟨S128x128x1, .f32⟩ : BufTy).Contents (Elt F) → (⟨S128x128x1, .f32⟩ : BufTy).Contents (Elt F)),
    binary main_v25 main_v29 main_v47 (minimumf : (⟨S128x128x1, .f32⟩ : BufTy).Contents (Elt F) → (⟨S128x128x1, .f32⟩ : BufTy).Contents (Elt F) → (⟨S128x128x1, .f32⟩ : BufTy).Contents (Elt F)),
    binary main_v26 main_v30 main_v48 (minimumf : (⟨S128x128x1, .f32⟩ : BufTy).Contents (Elt F) → (⟨S128x128x1, .f32⟩ : BufTy).Contents (Elt F) → (⟨S128x128x1, .f32⟩ : BufTy).Contents (Elt F)),
    binary main_v47 main_v45 main_v49 (subf : (⟨S128x128x1, .f32⟩ : BufTy).Contents (Elt F) → (⟨S128x128x1, .f32⟩ : BufTy).Contents (Elt F) → (⟨S128x128x1, .f32⟩ : BufTy).Contents (Elt F)),
    nullary main_cst_8 (constant S_ .f32 0x00000000#32),
    unary main_cst_8 main_v50 (broadcastInDim S128x128x1 ![] bcast_S_S128x128x1 : (⟨S_, .f32⟩ : BufTy).Contents (Elt F) → (⟨S128x128x1, .f32⟩ : BufTy).Contents (Elt F)),
    binary main_v49 main_v50 main_v51 (maximumf : (⟨S128x128x1, .f32⟩ : BufTy).Contents (Elt F) → (⟨S128x128x1, .f32⟩ : BufTy).Contents (Elt F) → (⟨S128x128x1, .f32⟩ : BufTy).Contents (Elt F)),
    binary main_v48 main_v46 main_v52 (subf : (⟨S128x128x1, .f32⟩ : BufTy).Contents (Elt F) → (⟨S128x128x1, .f32⟩ : BufTy).Contents (Elt F) → (⟨S128x128x1, .f32⟩ : BufTy).Contents (Elt F)) ]

/-- The buffers they write. -/
abbrev outs_8 : List (Ref sig .tc) := [main_v45, main_v46, main_v47, main_v48, main_v49, main_cst_8, main_v50, main_v51, main_v52]

set_option maxRecDepth 8192 in
theorem writes_8 : (ops_8 (F := F)).Forall fun op => op.writes ⊆ ((outs_8).map (Proc.devRef (τ := τ) .tc)).toFinset :=
  ⟨binary_sub _ _ _ _ (by decide),
   binary_sub _ _ _ _ (by decide),
   binary_sub _ _ _ _ (by decide),
   binary_sub _ _ _ _ (by decide),
   binary_sub _ _ _ _ (by decide),
   nullary_sub _ _ (by decide),
   unary_sub _ _ _ (by decide),
   binary_sub _ _ _ _ (by decide),
   binary_sub _ _ _ _ (by decide)⟩

/-- A buffer they do not write keeps its contents. -/
theorem keep_8 (W : Valuation τ sig (Elt F)) {r : Ref sig .tc} (hr : r ∉ outs_8) :
    after (ops_8 (F := F)) W (Proc.devRef .tc r) = W (Proc.devRef .tc r) :=
  after_of_writes_sub _ W writes_8 hr

set_option maxRecDepth 8192 in
/-- After them, each buffer still read later holds its stage. -/
theorem stage_8 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg2 : W (Proc.devRef .tc main_arg2) = x2)
    (h_main_v4 : W (Proc.devRef .tc main_v4) = ReadP.val_main_v4 (F := F) x2)
    (h_main_v23 : W (Proc.devRef .tc main_v23) = ReadP.val_main_v23 (F := F) x0 x3)
    (h_main_v24 : W (Proc.devRef .tc main_v24) = ReadP.val_main_v24 (F := F) x0 x3)
    (h_main_v25 : W (Proc.devRef .tc main_v25) = ReadP.val_main_v25 (F := F) x0 x3)
    (h_main_v26 : W (Proc.devRef .tc main_v26) = ReadP.val_main_v26 (F := F) x0 x3)
    (h_main_v27 : W (Proc.devRef .tc main_v27) = ReadP.val_main_v27 (F := F) x1)
    (h_main_v28 : W (Proc.devRef .tc main_v28) = ReadP.val_main_v28 (F := F) x1)
    (h_main_v29 : W (Proc.devRef .tc main_v29) = ReadP.val_main_v29 (F := F) x1)
    (h_main_v30 : W (Proc.devRef .tc main_v30) = ReadP.val_main_v30 (F := F) x1)
    (h_main_v37 : W (Proc.devRef .tc main_v37) = ReadP.val_main_v37 (F := F) x0 x3)
    (h_main_v44 : W (Proc.devRef .tc main_v44) = ReadP.val_main_v44 (F := F) x1)
    :
    after (ops_8 (F := F)) W (Proc.devRef .tc main_arg2) = x2 ∧
    after (ops_8 (F := F)) W (Proc.devRef .tc main_v4) = ReadP.val_main_v4 (F := F) x2 ∧
    after (ops_8 (F := F)) W (Proc.devRef .tc main_v23) = ReadP.val_main_v23 (F := F) x0 x3 ∧
    after (ops_8 (F := F)) W (Proc.devRef .tc main_v24) = ReadP.val_main_v24 (F := F) x0 x3 ∧
    after (ops_8 (F := F)) W (Proc.devRef .tc main_v25) = ReadP.val_main_v25 (F := F) x0 x3 ∧
    after (ops_8 (F := F)) W (Proc.devRef .tc main_v26) = ReadP.val_main_v26 (F := F) x0 x3 ∧
    after (ops_8 (F := F)) W (Proc.devRef .tc main_v27) = ReadP.val_main_v27 (F := F) x1 ∧
    after (ops_8 (F := F)) W (Proc.devRef .tc main_v28) = ReadP.val_main_v28 (F := F) x1 ∧
    after (ops_8 (F := F)) W (Proc.devRef .tc main_v29) = ReadP.val_main_v29 (F := F) x1 ∧
    after (ops_8 (F := F)) W (Proc.devRef .tc main_v30) = ReadP.val_main_v30 (F := F) x1 ∧
    after (ops_8 (F := F)) W (Proc.devRef .tc main_v37) = ReadP.val_main_v37 (F := F) x0 x3 ∧
    after (ops_8 (F := F)) W (Proc.devRef .tc main_v44) = ReadP.val_main_v44 (F := F) x1 ∧
    after (ops_8 (F := F)) W (Proc.devRef .tc main_v51) = ReadP.val_main_v51 (F := F) x0 x1 x3 ∧
    after (ops_8 (F := F)) W (Proc.devRef .tc main_v52) = ReadP.val_main_v52 (F := F) x0 x1 x3 := by
  refine ⟨?_, ?_, ?_, ?_, ?_, ?_, ?_, ?_, ?_, ?_, ?_, ?_, ?_, ?_⟩
  · exact (keep_8 W (by decide)).trans h_main_arg2
  · exact (keep_8 W (by decide)).trans h_main_v4
  · exact (keep_8 W (by decide)).trans h_main_v23
  · exact (keep_8 W (by decide)).trans h_main_v24
  · exact (keep_8 W (by decide)).trans h_main_v25
  · exact (keep_8 W (by decide)).trans h_main_v26
  · exact (keep_8 W (by decide)).trans h_main_v27
  · exact (keep_8 W (by decide)).trans h_main_v28
  · exact (keep_8 W (by decide)).trans h_main_v29
  · exact (keep_8 W (by decide)).trans h_main_v30
  · exact (keep_8 W (by decide)).trans h_main_v37
  · exact (keep_8 W (by decide)).trans h_main_v44
  · simp only [after_cons, after_nil]
    rw [binary_result_ne (y := main_v52) (r := main_v51) (h := by decide),
      binary_result main_v49 main_v50 main_v51,
      unary_result_ne (y := main_v50) (r := main_v49) (h := by decide),
      unary_result main_cst_8 main_v50,
      nullary_result_ne (y := main_cst_8) (r := main_v49) (h := by decide),
      nullary_result main_cst_8,
      binary_result main_v47 main_v45 main_v49,
      binary_result_ne (y := main_v48) (r := main_v47) (h := by decide),
      binary_result_ne (y := main_v48) (r := main_v45) (h := by decide),
      binary_result main_v25 main_v29 main_v47,
      binary_result_ne (y := main_v47) (r := main_v45) (h := by decide),
      binary_result_ne (y := main_v46) (r := main_v25) (h := by decide),
      binary_result_ne (y := main_v46) (r := main_v29) (h := by decide),
      binary_result_ne (y := main_v46) (r := main_v45) (h := by decide),
      binary_result_ne (y := main_v45) (r := main_v25) (h := by decide),
      binary_result_ne (y := main_v45) (r := main_v29) (h := by decide),
      binary_result main_v23 main_v27 main_v45,
      h_main_v23,
      h_main_v25,
      h_main_v27,
      h_main_v29]
    rfl
  · simp only [after_cons, after_nil]
    rw [binary_result main_v48 main_v46 main_v52,
      binary_result_ne (y := main_v51) (r := main_v48) (h := by decide),
      binary_result_ne (y := main_v51) (r := main_v46) (h := by decide),
      unary_result_ne (y := main_v50) (r := main_v48) (h := by decide),
      unary_result_ne (y := main_v50) (r := main_v46) (h := by decide),
      nullary_result_ne (y := main_cst_8) (r := main_v48) (h := by decide),
      nullary_result_ne (y := main_cst_8) (r := main_v46) (h := by decide),
      binary_result_ne (y := main_v49) (r := main_v48) (h := by decide),
      binary_result_ne (y := main_v49) (r := main_v46) (h := by decide),
      binary_result main_v26 main_v30 main_v48,
      binary_result_ne (y := main_v48) (r := main_v46) (h := by decide),
      binary_result_ne (y := main_v47) (r := main_v26) (h := by decide),
      binary_result_ne (y := main_v47) (r := main_v30) (h := by decide),
      binary_result_ne (y := main_v47) (r := main_v46) (h := by decide),
      binary_result_ne (y := main_v46) (r := main_v26) (h := by decide),
      binary_result_ne (y := main_v46) (r := main_v30) (h := by decide),
      binary_result main_v24 main_v28 main_v46,
      binary_result_ne (y := main_v45) (r := main_v26) (h := by decide),
      binary_result_ne (y := main_v45) (r := main_v30) (h := by decide),
      binary_result_ne (y := main_v45) (r := main_v24) (h := by decide),
      binary_result_ne (y := main_v45) (r := main_v28) (h := by decide),
      h_main_v24,
      h_main_v26,
      h_main_v28,
      h_main_v30]
    rfl

/-! ### Operations 64 to 72 -/

abbrev ops_9 : List (HloOp τ sig (Elt F)) :=
  [ nullary main_cst_9 (constant S_ .f32 0x00000000#32),
    unary main_cst_9 main_v53 (broadcastInDim S128x128x1 ![] bcast_S_S128x128x1 : (⟨S_, .f32⟩ : BufTy).Contents (Elt F) → (⟨S128x128x1, .f32⟩ : BufTy).Contents (Elt F)),
    binary main_v52 main_v53 main_v54 (maximumf : (⟨S128x128x1, .f32⟩ : BufTy).Contents (Elt F) → (⟨S128x128x1, .f32⟩ : BufTy).Contents (Elt F) → (⟨S128x128x1, .f32⟩ : BufTy).Contents (Elt F)),
    binary main_v51 main_v54 main_v55 (mulf : (⟨S128x128x1, .f32⟩ : BufTy).Contents (Elt F) → (⟨S128x128x1, .f32⟩ : BufTy).Contents (Elt F) → (⟨S128x128x1, .f32⟩ : BufTy).Contents (Elt F)),
    binary main_v37 main_v44 main_v56 (addf : (⟨S128x128x1, .f32⟩ : BufTy).Contents (Elt F) → (⟨S128x128x1, .f32⟩ : BufTy).Contents (Elt F) → (⟨S128x128x1, .f32⟩ : BufTy).Contents (Elt F)),
    binary main_v56 main_v55 main_v57 (subf : (⟨S128x128x1, .f32⟩ : BufTy).Contents (Elt F) → (⟨S128x128x1, .f32⟩ : BufTy).Contents (Elt F) → (⟨S128x128x1, .f32⟩ : BufTy).Contents (Elt F)),
    nullary main_cst_10 (constant S_ .f32 0x00000000#32),
    unary main_cst_10 main_v58 (broadcastInDim S128x128x1 ![] bcast_S_S128x128x1 : (⟨S_, .f32⟩ : BufTy).Contents (Elt F) → (⟨S128x128x1, .f32⟩ : BufTy).Contents (Elt F)),
    binary main_v57 main_v58 main_v59 (cmpf .une : (⟨S128x128x1, .f32⟩ : BufTy).Contents (Elt F) → (⟨S128x128x1, .f32⟩ : BufTy).Contents (Elt F) → (⟨S128x128x1, .i1⟩ : BufTy).Contents (Elt F)) ]

/-- The buffers they write. -/
abbrev outs_9 : List (Ref sig .tc) := [main_cst_9, main_v53, main_v54, main_v55, main_v56, main_v57, main_cst_10, main_v58, main_v59]

set_option maxRecDepth 8192 in
theorem writes_9 : (ops_9 (F := F)).Forall fun op => op.writes ⊆ ((outs_9).map (Proc.devRef (τ := τ) .tc)).toFinset :=
  ⟨nullary_sub _ _ (by decide),
   unary_sub _ _ _ (by decide),
   binary_sub _ _ _ _ (by decide),
   binary_sub _ _ _ _ (by decide),
   binary_sub _ _ _ _ (by decide),
   binary_sub _ _ _ _ (by decide),
   nullary_sub _ _ (by decide),
   unary_sub _ _ _ (by decide),
   binary_sub _ _ _ _ (by decide)⟩

/-- A buffer they do not write keeps its contents. -/
theorem keep_9 (W : Valuation τ sig (Elt F)) {r : Ref sig .tc} (hr : r ∉ outs_9) :
    after (ops_9 (F := F)) W (Proc.devRef .tc r) = W (Proc.devRef .tc r) :=
  after_of_writes_sub _ W writes_9 hr

set_option maxRecDepth 8192 in
/-- After them, each buffer still read later holds its stage. -/
theorem stage_9 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg2 : W (Proc.devRef .tc main_arg2) = x2)
    (h_main_v4 : W (Proc.devRef .tc main_v4) = ReadP.val_main_v4 (F := F) x2)
    (h_main_v23 : W (Proc.devRef .tc main_v23) = ReadP.val_main_v23 (F := F) x0 x3)
    (h_main_v24 : W (Proc.devRef .tc main_v24) = ReadP.val_main_v24 (F := F) x0 x3)
    (h_main_v25 : W (Proc.devRef .tc main_v25) = ReadP.val_main_v25 (F := F) x0 x3)
    (h_main_v26 : W (Proc.devRef .tc main_v26) = ReadP.val_main_v26 (F := F) x0 x3)
    (h_main_v27 : W (Proc.devRef .tc main_v27) = ReadP.val_main_v27 (F := F) x1)
    (h_main_v28 : W (Proc.devRef .tc main_v28) = ReadP.val_main_v28 (F := F) x1)
    (h_main_v29 : W (Proc.devRef .tc main_v29) = ReadP.val_main_v29 (F := F) x1)
    (h_main_v30 : W (Proc.devRef .tc main_v30) = ReadP.val_main_v30 (F := F) x1)
    (h_main_v37 : W (Proc.devRef .tc main_v37) = ReadP.val_main_v37 (F := F) x0 x3)
    (h_main_v44 : W (Proc.devRef .tc main_v44) = ReadP.val_main_v44 (F := F) x1)
    (h_main_v51 : W (Proc.devRef .tc main_v51) = ReadP.val_main_v51 (F := F) x0 x1 x3)
    (h_main_v52 : W (Proc.devRef .tc main_v52) = ReadP.val_main_v52 (F := F) x0 x1 x3)
    :
    after (ops_9 (F := F)) W (Proc.devRef .tc main_arg2) = x2 ∧
    after (ops_9 (F := F)) W (Proc.devRef .tc main_v4) = ReadP.val_main_v4 (F := F) x2 ∧
    after (ops_9 (F := F)) W (Proc.devRef .tc main_v23) = ReadP.val_main_v23 (F := F) x0 x3 ∧
    after (ops_9 (F := F)) W (Proc.devRef .tc main_v24) = ReadP.val_main_v24 (F := F) x0 x3 ∧
    after (ops_9 (F := F)) W (Proc.devRef .tc main_v25) = ReadP.val_main_v25 (F := F) x0 x3 ∧
    after (ops_9 (F := F)) W (Proc.devRef .tc main_v26) = ReadP.val_main_v26 (F := F) x0 x3 ∧
    after (ops_9 (F := F)) W (Proc.devRef .tc main_v27) = ReadP.val_main_v27 (F := F) x1 ∧
    after (ops_9 (F := F)) W (Proc.devRef .tc main_v28) = ReadP.val_main_v28 (F := F) x1 ∧
    after (ops_9 (F := F)) W (Proc.devRef .tc main_v29) = ReadP.val_main_v29 (F := F) x1 ∧
    after (ops_9 (F := F)) W (Proc.devRef .tc main_v30) = ReadP.val_main_v30 (F := F) x1 ∧
    after (ops_9 (F := F)) W (Proc.devRef .tc main_v55) = ReadP.val_main_v55 (F := F) x0 x1 x3 ∧
    after (ops_9 (F := F)) W (Proc.devRef .tc main_v57) = ReadP.val_main_v57 (F := F) x0 x1 x3 ∧
    after (ops_9 (F := F)) W (Proc.devRef .tc main_v59) = ReadP.val_main_v59 (F := F) x0 x1 x3 := by
  refine ⟨?_, ?_, ?_, ?_, ?_, ?_, ?_, ?_, ?_, ?_, ?_, ?_, ?_⟩
  · exact (keep_9 W (by decide)).trans h_main_arg2
  · exact (keep_9 W (by decide)).trans h_main_v4
  · exact (keep_9 W (by decide)).trans h_main_v23
  · exact (keep_9 W (by decide)).trans h_main_v24
  · exact (keep_9 W (by decide)).trans h_main_v25
  · exact (keep_9 W (by decide)).trans h_main_v26
  · exact (keep_9 W (by decide)).trans h_main_v27
  · exact (keep_9 W (by decide)).trans h_main_v28
  · exact (keep_9 W (by decide)).trans h_main_v29
  · exact (keep_9 W (by decide)).trans h_main_v30
  · simp only [after_cons, after_nil]
    rw [binary_result_ne (y := main_v59) (r := main_v55) (h := by decide),
      unary_result_ne (y := main_v58) (r := main_v55) (h := by decide),
      nullary_result_ne (y := main_cst_10) (r := main_v55) (h := by decide),
      binary_result_ne (y := main_v57) (r := main_v55) (h := by decide),
      binary_result_ne (y := main_v56) (r := main_v55) (h := by decide),
      binary_result main_v51 main_v54 main_v55,
      binary_result_ne (y := main_v54) (r := main_v51) (h := by decide),
      binary_result main_v52 main_v53 main_v54,
      unary_result_ne (y := main_v53) (r := main_v51) (h := by decide),
      unary_result_ne (y := main_v53) (r := main_v52) (h := by decide),
      unary_result main_cst_9 main_v53,
      nullary_result_ne (y := main_cst_9) (r := main_v51) (h := by decide),
      nullary_result_ne (y := main_cst_9) (r := main_v52) (h := by decide),
      nullary_result main_cst_9,
      h_main_v51,
      h_main_v52]
    rfl
  · simp only [after_cons, after_nil]
    rw [binary_result_ne (y := main_v59) (r := main_v57) (h := by decide),
      unary_result_ne (y := main_v58) (r := main_v57) (h := by decide),
      nullary_result_ne (y := main_cst_10) (r := main_v57) (h := by decide),
      binary_result main_v56 main_v55 main_v57,
      binary_result main_v37 main_v44 main_v56,
      binary_result_ne (y := main_v56) (r := main_v55) (h := by decide),
      binary_result_ne (y := main_v55) (r := main_v37) (h := by decide),
      binary_result_ne (y := main_v55) (r := main_v44) (h := by decide),
      binary_result main_v51 main_v54 main_v55,
      binary_result_ne (y := main_v54) (r := main_v37) (h := by decide),
      binary_result_ne (y := main_v54) (r := main_v44) (h := by decide),
      binary_result_ne (y := main_v54) (r := main_v51) (h := by decide),
      binary_result main_v52 main_v53 main_v54,
      unary_result_ne (y := main_v53) (r := main_v37) (h := by decide),
      unary_result_ne (y := main_v53) (r := main_v44) (h := by decide),
      unary_result_ne (y := main_v53) (r := main_v51) (h := by decide),
      unary_result_ne (y := main_v53) (r := main_v52) (h := by decide),
      unary_result main_cst_9 main_v53,
      nullary_result_ne (y := main_cst_9) (r := main_v37) (h := by decide),
      nullary_result_ne (y := main_cst_9) (r := main_v44) (h := by decide),
      nullary_result_ne (y := main_cst_9) (r := main_v51) (h := by decide),
      nullary_result_ne (y := main_cst_9) (r := main_v52) (h := by decide),
      nullary_result main_cst_9,
      h_main_v37,
      h_main_v44,
      h_main_v51,
      h_main_v52]
    rfl
  · simp only [after_cons, after_nil]
    rw [binary_result main_v57 main_v58 main_v59,
      unary_result_ne (y := main_v58) (r := main_v57) (h := by decide),
      unary_result main_cst_10 main_v58,
      nullary_result_ne (y := main_cst_10) (r := main_v57) (h := by decide),
      nullary_result main_cst_10,
      binary_result main_v56 main_v55 main_v57,
      binary_result main_v37 main_v44 main_v56,
      binary_result_ne (y := main_v56) (r := main_v55) (h := by decide),
      binary_result_ne (y := main_v55) (r := main_v37) (h := by decide),
      binary_result_ne (y := main_v55) (r := main_v44) (h := by decide),
      binary_result main_v51 main_v54 main_v55,
      binary_result_ne (y := main_v54) (r := main_v37) (h := by decide),
      binary_result_ne (y := main_v54) (r := main_v44) (h := by decide),
      binary_result_ne (y := main_v54) (r := main_v51) (h := by decide),
      binary_result main_v52 main_v53 main_v54,
      unary_result_ne (y := main_v53) (r := main_v37) (h := by decide),
      unary_result_ne (y := main_v53) (r := main_v44) (h := by decide),
      unary_result_ne (y := main_v53) (r := main_v51) (h := by decide),
      unary_result_ne (y := main_v53) (r := main_v52) (h := by decide),
      unary_result main_cst_9 main_v53,
      nullary_result_ne (y := main_cst_9) (r := main_v37) (h := by decide),
      nullary_result_ne (y := main_cst_9) (r := main_v44) (h := by decide),
      nullary_result_ne (y := main_cst_9) (r := main_v51) (h := by decide),
      nullary_result_ne (y := main_cst_9) (r := main_v52) (h := by decide),
      nullary_result main_cst_9,
      h_main_v37,
      h_main_v44,
      h_main_v51,
      h_main_v52]
    rfl

/-! ### Operations 73 to 81 -/

abbrev ops_10 : List (HloOp τ sig (Elt F)) :=
  [ nullary main_cst_11 (constant S_ .f32 0x3F800000#32),
    TRef.unary (TRef.of (T := ⟨S_, .f32⟩) main_cst_11) (TRef.of (T := ⟨S_, .f32⟩) main_call0_v0) id,
    TRef.unary (TRef.of (T := ⟨S_, .f32⟩) main_call0_v0) (TRef.of (T := ⟨S128x128x1, .f32⟩) main_call0_v1) (broadcastInDim S128x128x1 ![] bcast_S_S128x128x1),
    TRef.ternary (TRef.of (T := ⟨S128x128x1, .i1⟩) main_v59) (TRef.of (T := ⟨S128x128x1, .f32⟩) main_v57) (TRef.of (T := ⟨S128x128x1, .f32⟩) main_call0_v1) (TRef.of (T := ⟨S128x128x1, .f32⟩) main_v60) select,
    binary main_v55 main_v60 main_v61 (Host.divf : (⟨S128x128x1, .f32⟩ : BufTy).Contents (Elt F) → (⟨S128x128x1, .f32⟩ : BufTy).Contents (Elt F) → (⟨S128x128x1, .f32⟩ : BufTy).Contents (Elt F)),
    nullary main_cst_12 (constant S_ .f32 0x00000000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S128x128x1, .f32⟩) main_call1_v1) (broadcastInDim S128x128x1 ![] bcast_S_S128x128x1),
    TRef.ternary (TRef.of (T := ⟨S128x128x1, .i1⟩) main_v59) (TRef.of (T := ⟨S128x128x1, .f32⟩) main_v61) (TRef.of (T := ⟨S128x128x1, .f32⟩) main_call1_v1) (TRef.of (T := ⟨S128x128x1, .f32⟩) main_v62) select ]

/-- The buffers they write. -/
abbrev outs_10 : List (Ref sig .tc) := [main_cst_11, main_call0_v0, main_call0_v1, main_v60, main_v61, main_cst_12, main_call1_v0, main_call1_v1, main_v62]

set_option maxRecDepth 8192 in
theorem writes_10 : (ops_10 (F := F)).Forall fun op => op.writes ⊆ ((outs_10).map (Proc.devRef (τ := τ) .tc)).toFinset :=
  ⟨nullary_sub _ _ (by decide),
   unary_sub _ _ _ (by decide),
   unary_sub _ _ _ (by decide),
   ternary_sub _ _ _ _ _ (by decide),
   binary_sub _ _ _ _ (by decide),
   nullary_sub _ _ (by decide),
   unary_sub _ _ _ (by decide),
   unary_sub _ _ _ (by decide),
   ternary_sub _ _ _ _ _ (by decide)⟩

/-- A buffer they do not write keeps its contents. -/
theorem keep_10 (W : Valuation τ sig (Elt F)) {r : Ref sig .tc} (hr : r ∉ outs_10) :
    after (ops_10 (F := F)) W (Proc.devRef .tc r) = W (Proc.devRef .tc r) :=
  after_of_writes_sub _ W writes_10 hr

set_option maxRecDepth 8192 in
/-- After them, each buffer still read later holds its stage. -/
theorem stage_10 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg2 : W (Proc.devRef .tc main_arg2) = x2)
    (h_main_v4 : W (Proc.devRef .tc main_v4) = ReadP.val_main_v4 (F := F) x2)
    (h_main_v23 : W (Proc.devRef .tc main_v23) = ReadP.val_main_v23 (F := F) x0 x3)
    (h_main_v24 : W (Proc.devRef .tc main_v24) = ReadP.val_main_v24 (F := F) x0 x3)
    (h_main_v25 : W (Proc.devRef .tc main_v25) = ReadP.val_main_v25 (F := F) x0 x3)
    (h_main_v26 : W (Proc.devRef .tc main_v26) = ReadP.val_main_v26 (F := F) x0 x3)
    (h_main_v27 : W (Proc.devRef .tc main_v27) = ReadP.val_main_v27 (F := F) x1)
    (h_main_v28 : W (Proc.devRef .tc main_v28) = ReadP.val_main_v28 (F := F) x1)
    (h_main_v29 : W (Proc.devRef .tc main_v29) = ReadP.val_main_v29 (F := F) x1)
    (h_main_v30 : W (Proc.devRef .tc main_v30) = ReadP.val_main_v30 (F := F) x1)
    (h_main_v55 : W (Proc.devRef .tc main_v55) = ReadP.val_main_v55 (F := F) x0 x1 x3)
    (h_main_v57 : W (Proc.devRef .tc main_v57) = ReadP.val_main_v57 (F := F) x0 x1 x3)
    (h_main_v59 : W (Proc.devRef .tc main_v59) = ReadP.val_main_v59 (F := F) x0 x1 x3)
    :
    after (ops_10 (F := F)) W (Proc.devRef .tc main_arg2) = x2 ∧
    after (ops_10 (F := F)) W (Proc.devRef .tc main_v4) = ReadP.val_main_v4 (F := F) x2 ∧
    after (ops_10 (F := F)) W (Proc.devRef .tc main_v23) = ReadP.val_main_v23 (F := F) x0 x3 ∧
    after (ops_10 (F := F)) W (Proc.devRef .tc main_v24) = ReadP.val_main_v24 (F := F) x0 x3 ∧
    after (ops_10 (F := F)) W (Proc.devRef .tc main_v25) = ReadP.val_main_v25 (F := F) x0 x3 ∧
    after (ops_10 (F := F)) W (Proc.devRef .tc main_v26) = ReadP.val_main_v26 (F := F) x0 x3 ∧
    after (ops_10 (F := F)) W (Proc.devRef .tc main_v27) = ReadP.val_main_v27 (F := F) x1 ∧
    after (ops_10 (F := F)) W (Proc.devRef .tc main_v28) = ReadP.val_main_v28 (F := F) x1 ∧
    after (ops_10 (F := F)) W (Proc.devRef .tc main_v29) = ReadP.val_main_v29 (F := F) x1 ∧
    after (ops_10 (F := F)) W (Proc.devRef .tc main_v30) = ReadP.val_main_v30 (F := F) x1 ∧
    after (ops_10 (F := F)) W (Proc.devRef .tc main_v57) = ReadP.val_main_v57 (F := F) x0 x1 x3 ∧
    after (ops_10 (F := F)) W (Proc.devRef .tc main_v62) = ReadP.val_main_v62 (F := F) x0 x1 x3 := by
  refine ⟨?_, ?_, ?_, ?_, ?_, ?_, ?_, ?_, ?_, ?_, ?_, ?_⟩
  · exact (keep_10 W (by decide)).trans h_main_arg2
  · exact (keep_10 W (by decide)).trans h_main_v4
  · exact (keep_10 W (by decide)).trans h_main_v23
  · exact (keep_10 W (by decide)).trans h_main_v24
  · exact (keep_10 W (by decide)).trans h_main_v25
  · exact (keep_10 W (by decide)).trans h_main_v26
  · exact (keep_10 W (by decide)).trans h_main_v27
  · exact (keep_10 W (by decide)).trans h_main_v28
  · exact (keep_10 W (by decide)).trans h_main_v29
  · exact (keep_10 W (by decide)).trans h_main_v30
  · exact (keep_10 W (by decide)).trans h_main_v57
  · simp only [after_cons, after_nil]
    rw [ternary_result main_v59 main_v61 main_call1_v1 main_v62,
      unary_result_ne (y := main_call1_v1) (r := main_v59) (h := by decide),
      unary_result_ne (y := main_call1_v1) (r := main_v61) (h := by decide),
      unary_result main_call1_v0 main_call1_v1,
      unary_result_ne (y := main_call1_v0) (r := main_v59) (h := by decide),
      unary_result_ne (y := main_call1_v0) (r := main_v61) (h := by decide),
      unary_result main_cst_12 main_call1_v0,
      nullary_result_ne (y := main_cst_12) (r := main_v59) (h := by decide),
      nullary_result_ne (y := main_cst_12) (r := main_v61) (h := by decide),
      nullary_result main_cst_12,
      binary_result_ne (y := main_v61) (r := main_v59) (h := by decide),
      binary_result main_v55 main_v60 main_v61,
      ternary_result_ne (y := main_v60) (r := main_v59) (h := by decide),
      ternary_result_ne (y := main_v60) (r := main_v55) (h := by decide),
      ternary_result main_v59 main_v57 main_call0_v1 main_v60,
      unary_result_ne (y := main_call0_v1) (r := main_v59) (h := by decide),
      unary_result_ne (y := main_call0_v1) (r := main_v55) (h := by decide),
      unary_result_ne (y := main_call0_v1) (r := main_v57) (h := by decide),
      unary_result main_call0_v0 main_call0_v1,
      unary_result_ne (y := main_call0_v0) (r := main_v59) (h := by decide),
      unary_result_ne (y := main_call0_v0) (r := main_v55) (h := by decide),
      unary_result_ne (y := main_call0_v0) (r := main_v57) (h := by decide),
      unary_result main_cst_11 main_call0_v0,
      nullary_result_ne (y := main_cst_11) (r := main_v59) (h := by decide),
      nullary_result_ne (y := main_cst_11) (r := main_v55) (h := by decide),
      nullary_result_ne (y := main_cst_11) (r := main_v57) (h := by decide),
      nullary_result main_cst_11,
      h_main_v55,
      h_main_v57,
      h_main_v59]
    rfl

/-! ### Operations 82 to 90 -/

abbrev ops_11 : List (HloOp τ sig (Elt F)) :=
  [ binary main_v23 main_v27 main_v63 (minimumf : (⟨S128x128x1, .f32⟩ : BufTy).Contents (Elt F) → (⟨S128x128x1, .f32⟩ : BufTy).Contents (Elt F) → (⟨S128x128x1, .f32⟩ : BufTy).Contents (Elt F)),
    binary main_v24 main_v28 main_v64 (minimumf : (⟨S128x128x1, .f32⟩ : BufTy).Contents (Elt F) → (⟨S128x128x1, .f32⟩ : BufTy).Contents (Elt F) → (⟨S128x128x1, .f32⟩ : BufTy).Contents (Elt F)),
    binary main_v25 main_v29 main_v65 (maximumf : (⟨S128x128x1, .f32⟩ : BufTy).Contents (Elt F) → (⟨S128x128x1, .f32⟩ : BufTy).Contents (Elt F) → (⟨S128x128x1, .f32⟩ : BufTy).Contents (Elt F)),
    binary main_v26 main_v30 main_v66 (maximumf : (⟨S128x128x1, .f32⟩ : BufTy).Contents (Elt F) → (⟨S128x128x1, .f32⟩ : BufTy).Contents (Elt F) → (⟨S128x128x1, .f32⟩ : BufTy).Contents (Elt F)),
    binary main_v65 main_v63 main_v67 (subf : (⟨S128x128x1, .f32⟩ : BufTy).Contents (Elt F) → (⟨S128x128x1, .f32⟩ : BufTy).Contents (Elt F) → (⟨S128x128x1, .f32⟩ : BufTy).Contents (Elt F)),
    nullary main_cst_13 (constant S_ .f32 0x00000000#32),
    unary main_cst_13 main_v68 (broadcastInDim S128x128x1 ![] bcast_S_S128x128x1 : (⟨S_, .f32⟩ : BufTy).Contents (Elt F) → (⟨S128x128x1, .f32⟩ : BufTy).Contents (Elt F)),
    binary main_v67 main_v68 main_v69 (maximumf : (⟨S128x128x1, .f32⟩ : BufTy).Contents (Elt F) → (⟨S128x128x1, .f32⟩ : BufTy).Contents (Elt F) → (⟨S128x128x1, .f32⟩ : BufTy).Contents (Elt F)),
    binary main_v66 main_v64 main_v70 (subf : (⟨S128x128x1, .f32⟩ : BufTy).Contents (Elt F) → (⟨S128x128x1, .f32⟩ : BufTy).Contents (Elt F) → (⟨S128x128x1, .f32⟩ : BufTy).Contents (Elt F)) ]

/-- The buffers they write. -/
abbrev outs_11 : List (Ref sig .tc) := [main_v63, main_v64, main_v65, main_v66, main_v67, main_cst_13, main_v68, main_v69, main_v70]

set_option maxRecDepth 8192 in
theorem writes_11 : (ops_11 (F := F)).Forall fun op => op.writes ⊆ ((outs_11).map (Proc.devRef (τ := τ) .tc)).toFinset :=
  ⟨binary_sub _ _ _ _ (by decide),
   binary_sub _ _ _ _ (by decide),
   binary_sub _ _ _ _ (by decide),
   binary_sub _ _ _ _ (by decide),
   binary_sub _ _ _ _ (by decide),
   nullary_sub _ _ (by decide),
   unary_sub _ _ _ (by decide),
   binary_sub _ _ _ _ (by decide),
   binary_sub _ _ _ _ (by decide)⟩

/-- A buffer they do not write keeps its contents. -/
theorem keep_11 (W : Valuation τ sig (Elt F)) {r : Ref sig .tc} (hr : r ∉ outs_11) :
    after (ops_11 (F := F)) W (Proc.devRef .tc r) = W (Proc.devRef .tc r) :=
  after_of_writes_sub _ W writes_11 hr

set_option maxRecDepth 8192 in
/-- After them, each buffer still read later holds its stage. -/
theorem stage_11 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg2 : W (Proc.devRef .tc main_arg2) = x2)
    (h_main_v4 : W (Proc.devRef .tc main_v4) = ReadP.val_main_v4 (F := F) x2)
    (h_main_v23 : W (Proc.devRef .tc main_v23) = ReadP.val_main_v23 (F := F) x0 x3)
    (h_main_v24 : W (Proc.devRef .tc main_v24) = ReadP.val_main_v24 (F := F) x0 x3)
    (h_main_v25 : W (Proc.devRef .tc main_v25) = ReadP.val_main_v25 (F := F) x0 x3)
    (h_main_v26 : W (Proc.devRef .tc main_v26) = ReadP.val_main_v26 (F := F) x0 x3)
    (h_main_v27 : W (Proc.devRef .tc main_v27) = ReadP.val_main_v27 (F := F) x1)
    (h_main_v28 : W (Proc.devRef .tc main_v28) = ReadP.val_main_v28 (F := F) x1)
    (h_main_v29 : W (Proc.devRef .tc main_v29) = ReadP.val_main_v29 (F := F) x1)
    (h_main_v30 : W (Proc.devRef .tc main_v30) = ReadP.val_main_v30 (F := F) x1)
    (h_main_v57 : W (Proc.devRef .tc main_v57) = ReadP.val_main_v57 (F := F) x0 x1 x3)
    (h_main_v62 : W (Proc.devRef .tc main_v62) = ReadP.val_main_v62 (F := F) x0 x1 x3)
    :
    after (ops_11 (F := F)) W (Proc.devRef .tc main_arg2) = x2 ∧
    after (ops_11 (F := F)) W (Proc.devRef .tc main_v4) = ReadP.val_main_v4 (F := F) x2 ∧
    after (ops_11 (F := F)) W (Proc.devRef .tc main_v57) = ReadP.val_main_v57 (F := F) x0 x1 x3 ∧
    after (ops_11 (F := F)) W (Proc.devRef .tc main_v62) = ReadP.val_main_v62 (F := F) x0 x1 x3 ∧
    after (ops_11 (F := F)) W (Proc.devRef .tc main_v69) = ReadP.val_main_v69 (F := F) x0 x1 x3 ∧
    after (ops_11 (F := F)) W (Proc.devRef .tc main_v70) = ReadP.val_main_v70 (F := F) x0 x1 x3 := by
  refine ⟨?_, ?_, ?_, ?_, ?_, ?_⟩
  · exact (keep_11 W (by decide)).trans h_main_arg2
  · exact (keep_11 W (by decide)).trans h_main_v4
  · exact (keep_11 W (by decide)).trans h_main_v57
  · exact (keep_11 W (by decide)).trans h_main_v62
  · simp only [after_cons, after_nil]
    rw [binary_result_ne (y := main_v70) (r := main_v69) (h := by decide),
      binary_result main_v67 main_v68 main_v69,
      unary_result_ne (y := main_v68) (r := main_v67) (h := by decide),
      unary_result main_cst_13 main_v68,
      nullary_result_ne (y := main_cst_13) (r := main_v67) (h := by decide),
      nullary_result main_cst_13,
      binary_result main_v65 main_v63 main_v67,
      binary_result_ne (y := main_v66) (r := main_v65) (h := by decide),
      binary_result_ne (y := main_v66) (r := main_v63) (h := by decide),
      binary_result main_v25 main_v29 main_v65,
      binary_result_ne (y := main_v65) (r := main_v63) (h := by decide),
      binary_result_ne (y := main_v64) (r := main_v25) (h := by decide),
      binary_result_ne (y := main_v64) (r := main_v29) (h := by decide),
      binary_result_ne (y := main_v64) (r := main_v63) (h := by decide),
      binary_result_ne (y := main_v63) (r := main_v25) (h := by decide),
      binary_result_ne (y := main_v63) (r := main_v29) (h := by decide),
      binary_result main_v23 main_v27 main_v63,
      h_main_v23,
      h_main_v25,
      h_main_v27,
      h_main_v29]
    rfl
  · simp only [after_cons, after_nil]
    rw [binary_result main_v66 main_v64 main_v70,
      binary_result_ne (y := main_v69) (r := main_v66) (h := by decide),
      binary_result_ne (y := main_v69) (r := main_v64) (h := by decide),
      unary_result_ne (y := main_v68) (r := main_v66) (h := by decide),
      unary_result_ne (y := main_v68) (r := main_v64) (h := by decide),
      nullary_result_ne (y := main_cst_13) (r := main_v66) (h := by decide),
      nullary_result_ne (y := main_cst_13) (r := main_v64) (h := by decide),
      binary_result_ne (y := main_v67) (r := main_v66) (h := by decide),
      binary_result_ne (y := main_v67) (r := main_v64) (h := by decide),
      binary_result main_v26 main_v30 main_v66,
      binary_result_ne (y := main_v66) (r := main_v64) (h := by decide),
      binary_result_ne (y := main_v65) (r := main_v26) (h := by decide),
      binary_result_ne (y := main_v65) (r := main_v30) (h := by decide),
      binary_result_ne (y := main_v65) (r := main_v64) (h := by decide),
      binary_result_ne (y := main_v64) (r := main_v26) (h := by decide),
      binary_result_ne (y := main_v64) (r := main_v30) (h := by decide),
      binary_result main_v24 main_v28 main_v64,
      binary_result_ne (y := main_v63) (r := main_v26) (h := by decide),
      binary_result_ne (y := main_v63) (r := main_v30) (h := by decide),
      binary_result_ne (y := main_v63) (r := main_v24) (h := by decide),
      binary_result_ne (y := main_v63) (r := main_v28) (h := by decide),
      h_main_v24,
      h_main_v26,
      h_main_v28,
      h_main_v30]
    rfl

/-! ### Operations 91 to 98 -/

abbrev ops_12 : List (HloOp τ sig (Elt F)) :=
  [ nullary main_cst_14 (constant S_ .f32 0x00000000#32),
    unary main_cst_14 main_v71 (broadcastInDim S128x128x1 ![] bcast_S_S128x128x1 : (⟨S_, .f32⟩ : BufTy).Contents (Elt F) → (⟨S128x128x1, .f32⟩ : BufTy).Contents (Elt F)),
    binary main_v70 main_v71 main_v72 (maximumf : (⟨S128x128x1, .f32⟩ : BufTy).Contents (Elt F) → (⟨S128x128x1, .f32⟩ : BufTy).Contents (Elt F) → (⟨S128x128x1, .f32⟩ : BufTy).Contents (Elt F)),
    binary main_v69 main_v72 main_v73 (mulf : (⟨S128x128x1, .f32⟩ : BufTy).Contents (Elt F) → (⟨S128x128x1, .f32⟩ : BufTy).Contents (Elt F) → (⟨S128x128x1, .f32⟩ : BufTy).Contents (Elt F)),
    binary main_v73 main_v57 main_v74 (subf : (⟨S128x128x1, .f32⟩ : BufTy).Contents (Elt F) → (⟨S128x128x1, .f32⟩ : BufTy).Contents (Elt F) → (⟨S128x128x1, .f32⟩ : BufTy).Contents (Elt F)),
    nullary main_cst_15 (constant S_ .f32 0x00000000#32),
    unary main_cst_15 main_v75 (broadcastInDim S128x128x1 ![] bcast_S_S128x128x1 : (⟨S_, .f32⟩ : BufTy).Contents (Elt F) → (⟨S128x128x1, .f32⟩ : BufTy).Contents (Elt F)),
    binary main_v73 main_v75 main_v76 (cmpf .une : (⟨S128x128x1, .f32⟩ : BufTy).Contents (Elt F) → (⟨S128x128x1, .f32⟩ : BufTy).Contents (Elt F) → (⟨S128x128x1, .i1⟩ : BufTy).Contents (Elt F)) ]

/-- The buffers they write. -/
abbrev outs_12 : List (Ref sig .tc) := [main_cst_14, main_v71, main_v72, main_v73, main_v74, main_cst_15, main_v75, main_v76]

set_option maxRecDepth 8192 in
theorem writes_12 : (ops_12 (F := F)).Forall fun op => op.writes ⊆ ((outs_12).map (Proc.devRef (τ := τ) .tc)).toFinset :=
  ⟨nullary_sub _ _ (by decide),
   unary_sub _ _ _ (by decide),
   binary_sub _ _ _ _ (by decide),
   binary_sub _ _ _ _ (by decide),
   binary_sub _ _ _ _ (by decide),
   nullary_sub _ _ (by decide),
   unary_sub _ _ _ (by decide),
   binary_sub _ _ _ _ (by decide)⟩

/-- A buffer they do not write keeps its contents. -/
theorem keep_12 (W : Valuation τ sig (Elt F)) {r : Ref sig .tc} (hr : r ∉ outs_12) :
    after (ops_12 (F := F)) W (Proc.devRef .tc r) = W (Proc.devRef .tc r) :=
  after_of_writes_sub _ W writes_12 hr

set_option maxRecDepth 8192 in
/-- After them, each buffer still read later holds its stage. -/
theorem stage_12 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg2 : W (Proc.devRef .tc main_arg2) = x2)
    (h_main_v4 : W (Proc.devRef .tc main_v4) = ReadP.val_main_v4 (F := F) x2)
    (h_main_v57 : W (Proc.devRef .tc main_v57) = ReadP.val_main_v57 (F := F) x0 x1 x3)
    (h_main_v62 : W (Proc.devRef .tc main_v62) = ReadP.val_main_v62 (F := F) x0 x1 x3)
    (h_main_v69 : W (Proc.devRef .tc main_v69) = ReadP.val_main_v69 (F := F) x0 x1 x3)
    (h_main_v70 : W (Proc.devRef .tc main_v70) = ReadP.val_main_v70 (F := F) x0 x1 x3)
    :
    after (ops_12 (F := F)) W (Proc.devRef .tc main_arg2) = x2 ∧
    after (ops_12 (F := F)) W (Proc.devRef .tc main_v4) = ReadP.val_main_v4 (F := F) x2 ∧
    after (ops_12 (F := F)) W (Proc.devRef .tc main_v62) = ReadP.val_main_v62 (F := F) x0 x1 x3 ∧
    after (ops_12 (F := F)) W (Proc.devRef .tc main_v73) = ReadP.val_main_v73 (F := F) x0 x1 x3 ∧
    after (ops_12 (F := F)) W (Proc.devRef .tc main_v74) = ReadP.val_main_v74 (F := F) x0 x1 x3 ∧
    after (ops_12 (F := F)) W (Proc.devRef .tc main_v76) = ReadP.val_main_v76 (F := F) x0 x1 x3 := by
  refine ⟨?_, ?_, ?_, ?_, ?_, ?_⟩
  · exact (keep_12 W (by decide)).trans h_main_arg2
  · exact (keep_12 W (by decide)).trans h_main_v4
  · exact (keep_12 W (by decide)).trans h_main_v62
  · simp only [after_cons, after_nil]
    rw [binary_result_ne (y := main_v76) (r := main_v73) (h := by decide),
      unary_result_ne (y := main_v75) (r := main_v73) (h := by decide),
      nullary_result_ne (y := main_cst_15) (r := main_v73) (h := by decide),
      binary_result_ne (y := main_v74) (r := main_v73) (h := by decide),
      binary_result main_v69 main_v72 main_v73,
      binary_result_ne (y := main_v72) (r := main_v69) (h := by decide),
      binary_result main_v70 main_v71 main_v72,
      unary_result_ne (y := main_v71) (r := main_v69) (h := by decide),
      unary_result_ne (y := main_v71) (r := main_v70) (h := by decide),
      unary_result main_cst_14 main_v71,
      nullary_result_ne (y := main_cst_14) (r := main_v69) (h := by decide),
      nullary_result_ne (y := main_cst_14) (r := main_v70) (h := by decide),
      nullary_result main_cst_14,
      h_main_v69,
      h_main_v70]
    rfl
  · simp only [after_cons, after_nil]
    rw [binary_result_ne (y := main_v76) (r := main_v74) (h := by decide),
      unary_result_ne (y := main_v75) (r := main_v74) (h := by decide),
      nullary_result_ne (y := main_cst_15) (r := main_v74) (h := by decide),
      binary_result main_v73 main_v57 main_v74,
      binary_result main_v69 main_v72 main_v73,
      binary_result_ne (y := main_v73) (r := main_v57) (h := by decide),
      binary_result_ne (y := main_v72) (r := main_v69) (h := by decide),
      binary_result main_v70 main_v71 main_v72,
      binary_result_ne (y := main_v72) (r := main_v57) (h := by decide),
      unary_result_ne (y := main_v71) (r := main_v69) (h := by decide),
      unary_result_ne (y := main_v71) (r := main_v70) (h := by decide),
      unary_result main_cst_14 main_v71,
      unary_result_ne (y := main_v71) (r := main_v57) (h := by decide),
      nullary_result_ne (y := main_cst_14) (r := main_v69) (h := by decide),
      nullary_result_ne (y := main_cst_14) (r := main_v70) (h := by decide),
      nullary_result main_cst_14,
      nullary_result_ne (y := main_cst_14) (r := main_v57) (h := by decide),
      h_main_v57,
      h_main_v69,
      h_main_v70]
    rfl
  · simp only [after_cons, after_nil]
    rw [binary_result main_v73 main_v75 main_v76,
      unary_result_ne (y := main_v75) (r := main_v73) (h := by decide),
      unary_result main_cst_15 main_v75,
      nullary_result_ne (y := main_cst_15) (r := main_v73) (h := by decide),
      nullary_result main_cst_15,
      binary_result_ne (y := main_v74) (r := main_v73) (h := by decide),
      binary_result main_v69 main_v72 main_v73,
      binary_result_ne (y := main_v72) (r := main_v69) (h := by decide),
      binary_result main_v70 main_v71 main_v72,
      unary_result_ne (y := main_v71) (r := main_v69) (h := by decide),
      unary_result_ne (y := main_v71) (r := main_v70) (h := by decide),
      unary_result main_cst_14 main_v71,
      nullary_result_ne (y := main_cst_14) (r := main_v69) (h := by decide),
      nullary_result_ne (y := main_cst_14) (r := main_v70) (h := by decide),
      nullary_result main_cst_14,
      h_main_v69,
      h_main_v70]
    rfl

/-! ### Operations 99 to 107 -/

abbrev ops_13 : List (HloOp τ sig (Elt F)) :=
  [ nullary main_cst_16 (constant S_ .f32 0x3F800000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S128x128x1, .f32⟩) main_call2_v1) (broadcastInDim S128x128x1 ![] bcast_S_S128x128x1),
    TRef.ternary (TRef.of (T := ⟨S128x128x1, .i1⟩) main_v76) (TRef.of (T := ⟨S128x128x1, .f32⟩) main_v73) (TRef.of (T := ⟨S128x128x1, .f32⟩) main_call2_v1) (TRef.of (T := ⟨S128x128x1, .f32⟩) main_v77) select,
    binary main_v74 main_v77 main_v78 (Host.divf : (⟨S128x128x1, .f32⟩ : BufTy).Contents (Elt F) → (⟨S128x128x1, .f32⟩ : BufTy).Contents (Elt F) → (⟨S128x128x1, .f32⟩ : BufTy).Contents (Elt F)),
    nullary main_cst_17 (constant S_ .f32 0x00000000#32),
    TRef.unary (TRef.of (T := ⟨S_, .f32⟩) main_cst_17) (TRef.of (T := ⟨S_, .f32⟩) main_call3_v0) id,
    TRef.unary (TRef.of (T := ⟨S_, .f32⟩) main_call3_v0) (TRef.of (T := ⟨S128x128x1, .f32⟩) main_call3_v1) (broadcastInDim S128x128x1 ![] bcast_S_S128x128x1),
    TRef.ternary (TRef.of (T := ⟨S128x128x1, .i1⟩) main_v76) (TRef.of (T := ⟨S128x128x1, .f32⟩) main_v78) (TRef.of (T := ⟨S128x128x1, .f32⟩) main_call3_v1) (TRef.of (T := ⟨S128x128x1, .f32⟩) main_v79) select ]

/-- The buffers they write. -/
abbrev outs_13 : List (Ref sig .tc) := [main_cst_16, main_call2_v0, main_call2_v1, main_v77, main_v78, main_cst_17, main_call3_v0, main_call3_v1, main_v79]

set_option maxRecDepth 8192 in
theorem writes_13 : (ops_13 (F := F)).Forall fun op => op.writes ⊆ ((outs_13).map (Proc.devRef (τ := τ) .tc)).toFinset :=
  ⟨nullary_sub _ _ (by decide),
   unary_sub _ _ _ (by decide),
   unary_sub _ _ _ (by decide),
   ternary_sub _ _ _ _ _ (by decide),
   binary_sub _ _ _ _ (by decide),
   nullary_sub _ _ (by decide),
   unary_sub _ _ _ (by decide),
   unary_sub _ _ _ (by decide),
   ternary_sub _ _ _ _ _ (by decide)⟩

/-- A buffer they do not write keeps its contents. -/
theorem keep_13 (W : Valuation τ sig (Elt F)) {r : Ref sig .tc} (hr : r ∉ outs_13) :
    after (ops_13 (F := F)) W (Proc.devRef .tc r) = W (Proc.devRef .tc r) :=
  after_of_writes_sub _ W writes_13 hr

set_option maxRecDepth 8192 in
/-- After them, each buffer still read later holds its stage. -/
theorem stage_13 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg2 : W (Proc.devRef .tc main_arg2) = x2)
    (h_main_v4 : W (Proc.devRef .tc main_v4) = ReadP.val_main_v4 (F := F) x2)
    (h_main_v62 : W (Proc.devRef .tc main_v62) = ReadP.val_main_v62 (F := F) x0 x1 x3)
    (h_main_v73 : W (Proc.devRef .tc main_v73) = ReadP.val_main_v73 (F := F) x0 x1 x3)
    (h_main_v74 : W (Proc.devRef .tc main_v74) = ReadP.val_main_v74 (F := F) x0 x1 x3)
    (h_main_v76 : W (Proc.devRef .tc main_v76) = ReadP.val_main_v76 (F := F) x0 x1 x3)
    :
    after (ops_13 (F := F)) W (Proc.devRef .tc main_arg2) = x2 ∧
    after (ops_13 (F := F)) W (Proc.devRef .tc main_v4) = ReadP.val_main_v4 (F := F) x2 ∧
    after (ops_13 (F := F)) W (Proc.devRef .tc main_v62) = ReadP.val_main_v62 (F := F) x0 x1 x3 ∧
    after (ops_13 (F := F)) W (Proc.devRef .tc main_v79) = ReadP.val_main_v79 (F := F) x0 x1 x3 := by
  refine ⟨?_, ?_, ?_, ?_⟩
  · exact (keep_13 W (by decide)).trans h_main_arg2
  · exact (keep_13 W (by decide)).trans h_main_v4
  · exact (keep_13 W (by decide)).trans h_main_v62
  · simp only [after_cons, after_nil]
    rw [ternary_result main_v76 main_v78 main_call3_v1 main_v79,
      unary_result_ne (y := main_call3_v1) (r := main_v76) (h := by decide),
      unary_result_ne (y := main_call3_v1) (r := main_v78) (h := by decide),
      unary_result main_call3_v0 main_call3_v1,
      unary_result_ne (y := main_call3_v0) (r := main_v76) (h := by decide),
      unary_result_ne (y := main_call3_v0) (r := main_v78) (h := by decide),
      unary_result main_cst_17 main_call3_v0,
      nullary_result_ne (y := main_cst_17) (r := main_v76) (h := by decide),
      nullary_result_ne (y := main_cst_17) (r := main_v78) (h := by decide),
      nullary_result main_cst_17,
      binary_result_ne (y := main_v78) (r := main_v76) (h := by decide),
      binary_result main_v74 main_v77 main_v78,
      ternary_result_ne (y := main_v77) (r := main_v76) (h := by decide),
      ternary_result_ne (y := main_v77) (r := main_v74) (h := by decide),
      ternary_result main_v76 main_v73 main_call2_v1 main_v77,
      unary_result_ne (y := main_call2_v1) (r := main_v76) (h := by decide),
      unary_result_ne (y := main_call2_v1) (r := main_v74) (h := by decide),
      unary_result_ne (y := main_call2_v1) (r := main_v73) (h := by decide),
      unary_result main_call2_v0 main_call2_v1,
      unary_result_ne (y := main_call2_v0) (r := main_v76) (h := by decide),
      unary_result_ne (y := main_call2_v0) (r := main_v74) (h := by decide),
      unary_result_ne (y := main_call2_v0) (r := main_v73) (h := by decide),
      unary_result main_cst_16 main_call2_v0,
      nullary_result_ne (y := main_cst_16) (r := main_v76) (h := by decide),
      nullary_result_ne (y := main_cst_16) (r := main_v74) (h := by decide),
      nullary_result_ne (y := main_cst_16) (r := main_v73) (h := by decide),
      nullary_result main_cst_16,
      h_main_v73,
      h_main_v74,
      h_main_v76]
    rfl

/-! ### Operations 108 to 116 -/

abbrev ops_14 : List (HloOp τ sig (Elt F)) :=
  [ binary main_v62 main_v79 main_v80 (subf : (⟨S128x128x1, .f32⟩ : BufTy).Contents (Elt F) → (⟨S128x128x1, .f32⟩ : BufTy).Contents (Elt F) → (⟨S128x128x1, .f32⟩ : BufTy).Contents (Elt F)),
    nullary main_cst_18 (constant S_ .f32 0x3F800000#32),
    unary main_cst_18 main_v81 (broadcastInDim S128x128x1 ![] bcast_S_S128x128x1 : (⟨S_, .f32⟩ : BufTy).Contents (Elt F) → (⟨S128x128x1, .f32⟩ : BufTy).Contents (Elt F)),
    binary main_v81 main_v80 main_v82 (subf : (⟨S128x128x1, .f32⟩ : BufTy).Contents (Elt F) → (⟨S128x128x1, .f32⟩ : BufTy).Contents (Elt F) → (⟨S128x128x1, .f32⟩ : BufTy).Contents (Elt F)),
    reshape main_v82 main_v83 rfl shapeCasts_S128x128x1_S128x128,
    binary main_v83 main_arg2 main_v84 (mulf : (⟨S128x128, .f32⟩ : BufTy).Contents (Elt F) → (⟨S128x128, .f32⟩ : BufTy).Contents (Elt F) → (⟨S128x128, .f32⟩ : BufTy).Contents (Elt F)),
    nullary main_cst_19 (constant S_ .f32 0x00000000#32),
    binary main_v84 main_cst_19 main_v85 ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)),
    binary main_v85 main_v4 main_v86 (Host.divf : (⟨S_, .f32⟩ : BufTy).Contents (Elt F) → (⟨S_, .f32⟩ : BufTy).Contents (Elt F) → (⟨S_, .f32⟩ : BufTy).Contents (Elt F)) ]

/-- The buffers they write. -/
abbrev outs_14 : List (Ref sig .tc) := [main_v80, main_cst_18, main_v81, main_v82, main_v83, main_v84, main_cst_19, main_v85, main_v86]

set_option maxRecDepth 8192 in
theorem writes_14 : (ops_14 (F := F)).Forall fun op => op.writes ⊆ ((outs_14).map (Proc.devRef (τ := τ) .tc)).toFinset :=
  ⟨binary_sub _ _ _ _ (by decide),
   nullary_sub _ _ (by decide),
   unary_sub _ _ _ (by decide),
   binary_sub _ _ _ _ (by decide),
   reshape_sub _ _ _ _ (by decide),
   binary_sub _ _ _ _ (by decide),
   nullary_sub _ _ (by decide),
   binary_sub _ _ _ _ (by decide),
   binary_sub _ _ _ _ (by decide)⟩

/-- A buffer they do not write keeps its contents. -/
theorem keep_14 (W : Valuation τ sig (Elt F)) {r : Ref sig .tc} (hr : r ∉ outs_14) :
    after (ops_14 (F := F)) W (Proc.devRef .tc r) = W (Proc.devRef .tc r) :=
  after_of_writes_sub _ W writes_14 hr

set_option maxRecDepth 8192 in
/-- After them, each buffer still read later holds its stage. -/
theorem stage_14 (W : Valuation τ sig (Elt F)) (x0 : (⟨S128x256x256x4, .f32⟩ : BufTy).Contents (Elt F)) (x1 : (⟨S128x128x4, .f32⟩ : BufTy).Contents (Elt F))
    (x2 : (⟨S128x128, .f32⟩ : BufTy).Contents (Elt F)) (x3 : (⟨S128x128x3, .i32⟩ : BufTy).Contents (Elt F))
    (h_main_arg2 : W (Proc.devRef .tc main_arg2) = x2)
    (h_main_v4 : W (Proc.devRef .tc main_v4) = ReadP.val_main_v4 (F := F) x2)
    (h_main_v62 : W (Proc.devRef .tc main_v62) = ReadP.val_main_v62 (F := F) x0 x1 x3)
    (h_main_v79 : W (Proc.devRef .tc main_v79) = ReadP.val_main_v79 (F := F) x0 x1 x3)
    :
    after (ops_14 (F := F)) W (Proc.devRef .tc main_v86) = ReadP.val_main_v86 (F := F) x0 x1 x2 x3 := by
  simp only [after_cons, after_nil]
  rw [binary_result main_v85 main_v4 main_v86,
    binary_result main_v84 main_cst_19 main_v85,
    binary_result_ne (y := main_v85) (r := main_v4) (h := by decide),
    nullary_result_ne (y := main_cst_19) (r := main_v84) (h := by decide),
    nullary_result main_cst_19,
    nullary_result_ne (y := main_cst_19) (r := main_v4) (h := by decide),
    binary_result main_v83 main_arg2 main_v84,
    binary_result_ne (y := main_v84) (r := main_v4) (h := by decide),
    reshape_result main_v82 main_v83,
    reshape_result_ne (y := main_v83) (r := main_arg2) (h := by decide),
    reshape_result_ne (y := main_v83) (r := main_v4) (h := by decide),
    binary_result main_v81 main_v80 main_v82,
    binary_result_ne (y := main_v82) (r := main_arg2) (h := by decide),
    binary_result_ne (y := main_v82) (r := main_v4) (h := by decide),
    unary_result main_cst_18 main_v81,
    unary_result_ne (y := main_v81) (r := main_v80) (h := by decide),
    unary_result_ne (y := main_v81) (r := main_arg2) (h := by decide),
    unary_result_ne (y := main_v81) (r := main_v4) (h := by decide),
    nullary_result main_cst_18,
    nullary_result_ne (y := main_cst_18) (r := main_v80) (h := by decide),
    nullary_result_ne (y := main_cst_18) (r := main_arg2) (h := by decide),
    nullary_result_ne (y := main_cst_18) (r := main_v4) (h := by decide),
    binary_result main_v62 main_v79 main_v80,
    binary_result_ne (y := main_v80) (r := main_arg2) (h := by decide),
    binary_result_ne (y := main_v80) (r := main_v4) (h := by decide),
    h_main_arg2,
    h_main_v4,
    h_main_v62,
    h_main_v79]
  rfl

/-! ### The whole line -/

/-- The stretches in a row. -/
abbrev opsAll : List (HloOp τ sig (Elt F)) :=
  ops_1 (F := F) ++ (ops_2 (F := F) ++ (ops_3 (F := F) ++ (ops_4 (F := F) ++ (ops_5 (F := F) ++ (ops_6 (F := F) ++ (ops_7 (F := F) ++ (ops_8 (F := F) ++ (ops_9 (F := F) ++ (ops_10 (F := F) ++ (ops_11 (F := F) ++ (ops_12 (F := F) ++ (ops_13 (F := F) ++ (ops_14 (F := F))))))))))))))

set_option maxRecDepth 8192 in
/-- THE RESULT: after the whole line the result buffer holds the last stage, a function of the four arguments' contents. -/
theorem after_all_result (V : Valuation τ sig (Elt F)) :
    after (opsAll (F := F)) V (Proc.devRef .tc main_v86)
      = ReadP.val_main_v86 (F := F) (V (Proc.devRef .tc main_arg0)) (V (Proc.devRef .tc main_arg1)) (V (Proc.devRef .tc main_arg2)) (V (Proc.devRef .tc main_arg3)) := by
  simp only [after_append]
  generalize h_main_arg0 : V (Proc.devRef .tc main_arg0) = x0
  generalize h_main_arg1 : V (Proc.devRef .tc main_arg1) = x1
  generalize h_main_arg2 : V (Proc.devRef .tc main_arg2) = x2
  generalize h_main_arg3 : V (Proc.devRef .tc main_arg3) = x3
  obtain ⟨h_main_arg1, h_main_arg2, h_main_arg3, h_main_v3, h_main_v4, h_main_v5⟩ := stage_1 V x0 x1 x2 x3 h_main_arg0 h_main_arg1 h_main_arg2 h_main_arg3
  generalize after (ops_1 (F := F)) V = W1 at *
  obtain ⟨h_main_arg1, h_main_arg2, h_main_v3, h_main_v4, h_main_v6, h_main_v8, h_main_v10, h_main_v12⟩ := stage_2 W1 x0 x1 x2 x3 h_main_arg1 h_main_arg2 h_main_arg3 h_main_v3 h_main_v4 h_main_v5
  generalize after (ops_2 (F := F)) W1 = W2 at *
  obtain ⟨h_main_arg1, h_main_arg2, h_main_v3, h_main_v4, h_main_v19, h_main_v20⟩ := stage_3 W2 x0 x1 x2 x3 h_main_arg1 h_main_arg2 h_main_v3 h_main_v4 h_main_v6 h_main_v8 h_main_v10 h_main_v12
  generalize after (ops_3 (F := F)) W2 = W3 at *
  obtain ⟨h_main_arg1, h_main_arg2, h_main_v3, h_main_v4, h_main_v21⟩ := stage_4 W3 x0 x1 x2 x3 h_main_arg1 h_main_arg2 h_main_v3 h_main_v4 h_main_v19 h_main_v20
  generalize after (ops_4 (F := F)) W3 = W4 at *
  obtain ⟨h_main_arg2, h_main_v4, h_main_v23, h_main_v24, h_main_v25, h_main_v26, h_main_v27, h_main_v28, h_main_v29, h_main_v30⟩ := stage_5 W4 x0 x1 x2 x3 h_main_arg1 h_main_arg2 h_main_v3 h_main_v4 h_main_v21
  generalize after (ops_5 (F := F)) W4 = W5 at *
  obtain ⟨h_main_arg2, h_main_v4, h_main_v23, h_main_v24, h_main_v25, h_main_v26, h_main_v27, h_main_v28, h_main_v29, h_main_v30, h_main_v37⟩ := stage_6 W5 x0 x1 x2 x3 h_main_arg2 h_main_v4 h_main_v23 h_main_v24 h_main_v25 h_main_v26 h_main_v27 h_main_v28 h_main_v29 h_main_v30
  generalize after (ops_6 (F := F)) W5 = W6 at *
  obtain ⟨h_main_arg2, h_main_v4, h_main_v23, h_main_v24, h_main_v25, h_main_v26, h_main_v27, h_main_v28, h_main_v29, h_main_v30, h_main_v37, h_main_v44⟩ := stage_7 W6 x0 x1 x2 x3 h_main_arg2 h_main_v4 h_main_v23 h_main_v24 h_main_v25 h_main_v26 h_main_v27 h_main_v28 h_main_v29 h_main_v30 h_main_v37
  generalize after (ops_7 (F := F)) W6 = W7 at *
  obtain ⟨h_main_arg2, h_main_v4, h_main_v23, h_main_v24, h_main_v25, h_main_v26, h_main_v27, h_main_v28, h_main_v29, h_main_v30, h_main_v37, h_main_v44, h_main_v51, h_main_v52⟩ := stage_8 W7 x0 x1 x2 x3 h_main_arg2 h_main_v4 h_main_v23 h_main_v24 h_main_v25 h_main_v26 h_main_v27 h_main_v28 h_main_v29 h_main_v30 h_main_v37 h_main_v44
  generalize after (ops_8 (F := F)) W7 = W8 at *
  obtain ⟨h_main_arg2, h_main_v4, h_main_v23, h_main_v24, h_main_v25, h_main_v26, h_main_v27, h_main_v28, h_main_v29, h_main_v30, h_main_v55, h_main_v57, h_main_v59⟩ := stage_9 W8 x0 x1 x2 x3 h_main_arg2 h_main_v4 h_main_v23 h_main_v24 h_main_v25 h_main_v26 h_main_v27 h_main_v28 h_main_v29 h_main_v30 h_main_v37 h_main_v44 h_main_v51 h_main_v52
  generalize after (ops_9 (F := F)) W8 = W9 at *
  obtain ⟨h_main_arg2, h_main_v4, h_main_v23, h_main_v24, h_main_v25, h_main_v26, h_main_v27, h_main_v28, h_main_v29, h_main_v30, h_main_v57, h_main_v62⟩ := stage_10 W9 x0 x1 x2 x3 h_main_arg2 h_main_v4 h_main_v23 h_main_v24 h_main_v25 h_main_v26 h_main_v27 h_main_v28 h_main_v29 h_main_v30 h_main_v55 h_main_v57 h_main_v59
  generalize after (ops_10 (F := F)) W9 = W10 at *
  obtain ⟨h_main_arg2, h_main_v4, h_main_v57, h_main_v62, h_main_v69, h_main_v70⟩ := stage_11 W10 x0 x1 x2 x3 h_main_arg2 h_main_v4 h_main_v23 h_main_v24 h_main_v25 h_main_v26 h_main_v27 h_main_v28 h_main_v29 h_main_v30 h_main_v57 h_main_v62
  generalize after (ops_11 (F := F)) W10 = W11 at *
  obtain ⟨h_main_arg2, h_main_v4, h_main_v62, h_main_v73, h_main_v74, h_main_v76⟩ := stage_12 W11 x0 x1 x2 x3 h_main_arg2 h_main_v4 h_main_v57 h_main_v62 h_main_v69 h_main_v70
  generalize after (ops_12 (F := F)) W11 = W12 at *
  obtain ⟨h_main_arg2, h_main_v4, h_main_v62, h_main_v79⟩ := stage_13 W12 x0 x1 x2 x3 h_main_arg2 h_main_v4 h_main_v62 h_main_v73 h_main_v74 h_main_v76
  generalize after (ops_13 (F := F)) W12 = W13 at *
  obtain h_main_v86 := stage_14 W13 x0 x1 x2 x3 h_main_arg2 h_main_v4 h_main_v62 h_main_v79
  exact h_main_v86

set_option maxRecDepth 8192 in
/-- THE ARGUMENTS: no operation writes one of the four argument buffers. -/
theorem after_all_args (V : Valuation τ sig (Elt F)) :
    after (opsAll (F := F)) V (Proc.devRef .tc main_arg0) = V (Proc.devRef .tc main_arg0) ∧
    after (opsAll (F := F)) V (Proc.devRef .tc main_arg1) = V (Proc.devRef .tc main_arg1) ∧
    after (opsAll (F := F)) V (Proc.devRef .tc main_arg2) = V (Proc.devRef .tc main_arg2) ∧
    after (opsAll (F := F)) V (Proc.devRef .tc main_arg3) = V (Proc.devRef .tc main_arg3) := by
  simp only [after_append]
  refine ⟨?_, ?_, ?_, ?_⟩
  · rw [keep_14 _ (by decide), keep_13 _ (by decide), keep_12 _ (by decide), keep_11 _ (by decide), keep_10 _ (by decide), keep_9 _ (by decide), keep_8 _ (by decide), keep_7 _ (by decide), keep_6 _ (by decide), keep_5 _ (by decide), keep_4 _ (by decide), keep_3 _ (by decide), keep_2 _ (by decide), keep_1 _ (by decide)]
  · rw [keep_14 _ (by decide), keep_13 _ (by decide), keep_12 _ (by decide), keep_11 _ (by decide), keep_10 _ (by decide), keep_9 _ (by decide), keep_8 _ (by decide), keep_7 _ (by decide), keep_6 _ (by decide), keep_5 _ (by decide), keep_4 _ (by decide), keep_3 _ (by decide), keep_2 _ (by decide), keep_1 _ (by decide)]
  · rw [keep_14 _ (by decide), keep_13 _ (by decide), keep_12 _ (by decide), keep_11 _ (by decide), keep_10 _ (by decide), keep_9 _ (by decide), keep_8 _ (by decide), keep_7 _ (by decide), keep_6 _ (by decide), keep_5 _ (by decide), keep_4 _ (by decide), keep_3 _ (by decide), keep_2 _ (by decide), keep_1 _ (by decide)]
  · rw [keep_14 _ (by decide), keep_13 _ (by decide), keep_12 _ (by decide), keep_11 _ (by decide), keep_10 _ (by decide), keep_9 _ (by decide), keep_8 _ (by decide), keep_7 _ (by decide), keep_6 _ (by decide), keep_5 _ (by decide), keep_4 _ (by decide), keep_3 _ (by decide), keep_2 _ (by decide), keep_1 _ (by decide)]

end Cert.ReferenceIdeal.Stages

end
-- ==== Proof.RefGather.lean ====
/-
  THE REFERENCE'S GATHER READ AT ONE ELEMENT. The reference gathers rows of the predictions, laid out [128, 65536, 4]
  and divided by 256, at start indices (batch, position) built from the index array by wrapping negative words
  ("if w < 0 then w + extent else w") and joining the two columns along a last axis of extent 2. A gather reads each
  start index signed and clamps it into the operand: on the two collapsed axes the operand coordinate is the clamped
  component, on the last axis it is the result's own coordinate (operandIdx_eq, from the dimension numbers). With both
  columns in range neither the wrap nor the clamp changes a word (start_word0, start_word1), so result element (b, j, k)
  is the predictions at (batch, position, k) over 256; and (batch, position, k) of [128, 65536, 4] is
  (batch * 65536 + position, k) of [8388608, 4], the two having the same row-major position (reshape_agree).
-/
import proofs.«412085_j52218212385067_2_alg».proof.Proof.RefReadP
import proofs.«412085_j52218212385067_2_alg».proof.Proof.IndexFacts
import proofs.«412085_j52218212385067_2_alg».proof.Proof.SpecTotal
import Idealize.ShloMosaic.Lib.ValueIdx
import Idealize.ShloMosaic.Lib.Pipeline.Value
import Idealize.ShloMosaic.Lib.Affine

noncomputable section

namespace Cert.RefGather

open Idealize.ShloMosaic Idealize.ShloMosaic.ValueIdx
open Cert.ReferenceIdeal Cert.ReferenceIdeal.Gen

/-- The gather's dimension numbers: operand [128, 65536, 4], start indices [128, 128, 2], result [128, 128, 4]. -/
abbrev gd : GatherDims S128x65536x4 S128x128x2 S128x128x4 := gather_S128x65536x4_S128x128x2_S128x128x4_2_01_n_n_01_2_114

/-- Component c of the start index of result (b, j, k) sits at (b, j, c) of the start indices. -/
theorem siIdx_eq (b j : Fin 128) (k : Fin 4) (c : Fin 2) (hc : c.val < gd.startIndexMap.length) :
    gd.siIdx (ix3 b j k) ⟨c.val, hc⟩ = ix3 b j c := by
  funext a
  refine Fin.ext ?_
  match a with
  | ⟨0, _⟩ => rfl
  | ⟨1, _⟩ => rfl
  | ⟨2, _⟩ => rfl

/-- Axes 0 and 1 of the operand are collapsed: they are not among the axes the result's offset coordinates read. -/
theorem not_kept0 : (0 : Fin 3) ∉ gd.sKept := fun h => ((GatherDims.mem_sKept gd _).mp h).1 (by decide)
theorem not_kept1 : (1 : Fin 3) ∉ gd.sKept := fun h => ((GatherDims.mem_sKept gd _).mp h).1 (by decide)

/-- On the first collapsed axis the operand coordinate is component 0 of the start index, read signed and clamped. -/
theorem operand0 {w : Nat} (idx : IVec S128x128x2 w) (b j : Fin 128) (k : Fin 4) :
    gd.start (ix3 b j k) idx (0 : Fin 3) + gd.batchCoord (ix3 b j k) (0 : Fin 3) + gd.offCoord (ix3 b j k) (0 : Fin 3)
      = min (idx (ix3 b j (0 : Fin 2))).toInt.toNat 127 := by
  rw [GatherDims.batchCoord_eq_zero gd _ _ List.not_mem_nil, GatherDims.offCoord_eq_zero gd _ _ not_kept0]
  simp only [Nat.add_zero]
  unfold GatherDims.start
  rw [dif_pos (show (0 : Fin 3) ∈ gd.startIndexMap from by decide)]
  rw [show (⟨List.idxOf (0 : Fin 3) gd.startIndexMap, List.idxOf_lt_length_iff.2 (show (0 : Fin 3) ∈ gd.startIndexMap from by decide)⟩ : Fin gd.startIndexMap.length)
      = ⟨(0 : Fin 2).val, by decide⟩ from rfl, siIdx_eq b j k 0]
  rfl

/-- On the second collapsed axis, component 1. -/
theorem operand1 {w : Nat} (idx : IVec S128x128x2 w) (b j : Fin 128) (k : Fin 4) :
    gd.start (ix3 b j k) idx (1 : Fin 3) + gd.batchCoord (ix3 b j k) (1 : Fin 3) + gd.offCoord (ix3 b j k) (1 : Fin 3)
      = min (idx (ix3 b j (1 : Fin 2))).toInt.toNat 65535 := by
  rw [GatherDims.batchCoord_eq_zero gd _ _ List.not_mem_nil, GatherDims.offCoord_eq_zero gd _ _ not_kept1]
  simp only [Nat.add_zero]
  unfold GatherDims.start
  rw [dif_pos (show (1 : Fin 3) ∈ gd.startIndexMap from by decide)]
  rw [show (⟨List.idxOf (1 : Fin 3) gd.startIndexMap, List.idxOf_lt_length_iff.2 (show (1 : Fin 3) ∈ gd.startIndexMap from by decide)⟩ : Fin gd.startIndexMap.length)
      = ⟨(1 : Fin 2).val, by decide⟩ from rfl, siIdx_eq b j k 1]
  rfl

/-- On the kept axis the operand coordinate is the result's offset coordinate. -/
theorem operand2 {w : Nat} (idx : IVec S128x128x2 w) (b j : Fin 128) (k : Fin 4) :
    gd.start (ix3 b j k) idx (2 : Fin 3) + gd.batchCoord (ix3 b j k) (2 : Fin 3) + gd.offCoord (ix3 b j k) (2 : Fin 3) = k.val := by
  rw [GatherDims.batchCoord_eq_zero gd _ _ List.not_mem_nil, Nat.add_zero]
  have hs : gd.start (ix3 b j k) idx (2 : Fin 3) = 0 := by
    unfold GatherDims.start
    rw [dif_neg (show (2 : Fin 3) ∉ gd.startIndexMap from by decide)]
  have ho : gd.offCoord (ix3 b j k) (2 : Fin 3) = k.val := by
    unfold GatherDims.offCoord
    rw [dif_pos (show (2 : Fin 3) ∈ gd.sKept from by decide)]
    rfl
  rw [hs, ho, Nat.zero_add]

/-- THE OPERAND INDEX of result (b, j, k): on the two collapsed axes the start index's components, read signed and
    clamped into [0, 127] and [0, 65535]; on the last axis the offset coordinate k. -/
theorem operandIdx_eq {w : Nat} (idx : IVec S128x128x2 w) (b j : Fin 128) (k : Fin 4) (q : S128x65536x4.Idx)
    (h0 : (q 0).val = min (idx (ix3 b j (0 : Fin 2))).toInt.toNat 127)
    (h1 : (q 1).val = min (idx (ix3 b j (1 : Fin 2))).toInt.toNat 65535)
    (h2 : (q 2).val = k.val) :
    gd.operandIdx (ix3 b j k) idx = q := by
  funext a
  refine Fin.ext ?_
  match a with
  | ⟨0, _⟩ => exact (operand0 idx b j k).trans h0.symm
  | ⟨1, _⟩ => exact (operand1 idx b j k).trans h1.symm
  | ⟨2, _⟩ => exact (operand2 idx b j k).trans h2.symm

/-! ## The start indices read at an element -/

/-- Two [128, 128, 1] columns joined along the last axis read, at (b, j, 0), the first column at (b, j, 0) … -/
theorem concat_col0 {α : Type} (y0 y1 : S128x128x1.Idx → α) (h : Shape.Concatenates [S128x128x1, S128x128x1] S128x128x2 2)
    (b j : Fin 128) :
    concatenate S128x128x2 2 [⟨S128x128x1, y0⟩, ⟨S128x128x1, y1⟩] h (ix3 b j (0 : Fin 2)) = y0 (ix3 b j (0 : Fin 1)) :=
  concatenate_pair_apply_left (2 : Fin 3) y0 y1 h (ix3 b j (0 : Fin 2)) rfl (ix3 b j (0 : Fin 1))
    (fun c => match c with | ⟨0, _⟩ => rfl | ⟨1, _⟩ => rfl | ⟨2, _⟩ => rfl)

/-- … and at (b, j, 1) the second column at (b, j, 0). -/
theorem concat_col1 {α : Type} (y0 y1 : S128x128x1.Idx → α) (h : Shape.Concatenates [S128x128x1, S128x128x1] S128x128x2 2)
    (b j : Fin 128) :
    concatenate S128x128x2 2 [⟨S128x128x1, y0⟩, ⟨S128x128x1, y1⟩] h (ix3 b j (1 : Fin 2)) = y1 (ix3 b j (0 : Fin 1)) :=
  concatenate_pair_apply_right (2 : Fin 3) y0 y1 h (ix3 b j (1 : Fin 2)) rfl rfl (ix3 b j (0 : Fin 1))
    (fun c hc => match c, hc with
      | ⟨0, _⟩, _ => rfl
      | ⟨1, _⟩, _ => rfl
      | ⟨2, _⟩, hc => absurd rfl hc)
    rfl

/-- A [128, 128] table given a trailing unit axis reads, at (b, j, 0), the table at (b, j). -/
theorem bcast_col {α : Type} (y : S128x128.Idx → α) (h : S128x128.BroadcastsInDim S128x128x1 ![0, 1]) (b j : Fin 128) :
    broadcastInDim S128x128x1 ![0, 1] h y (ix3 b j (0 : Fin 1)) = y (ix2 b j) :=
  broadcastInDim_apply _ h y _ _ (fun a => match a with
    | ⟨0, _⟩ => by show b.val = if (128 : Nat) = 1 then 0 else b.val; rw [if_neg (by decide)]
    | ⟨1, _⟩ => by show j.val = if (128 : Nat) = 1 then 0 else j.val; rw [if_neg (by decide)])

/-- A nonnegative word is not wrapped: "if w < 0 then w + c else w" is w. -/
theorem wrap_id (w c : BitVec 32) (hw : w.toNat < 2 ^ 31) :
    Scalar.select (IntOp.cmpi .slt w 0#32) (IntOp.addi w c) w = w := by
  have hn : ¬ IntOp.cmpi .slt w 0#32 = 1#1 := by
    rw [IntOp.cmpi_slt, BitVec.toInt_eq_toNat_of_lt (by omega), show (0#32 : BitVec 32).toInt = 0 from by decide]; omega
  rw [eq_zero_of_ne_one hn, select_zero]

/-- A word below 2³¹ read signed and cut at 0 is its unsigned value. -/
theorem toInt_toNat (w : BitVec 32) (hw : w.toNat < 2 ^ 31) : w.toInt.toNat = w.toNat := by
  rw [BitVec.toInt_eq_toNat_of_lt (by omega)]; exact Int.toNat_natCast _

/-! ## The two start-index words, in range -/

/-- In range, the batch component of the start index at (b, j) is the index array's word: the wrap of a negative
    word does not fire. -/
theorem start_word0 (x3 : (⟨S128x128x3, .i32⟩ : BufTy).Contents (Elt Ideal)) (h : Cert.IndexFacts.InRange x3) (b j : Fin 128) :
    ReadP.val_main_v21 (F := Ideal) x3 (ix3 b j (0 : Fin 2)) = x3 (ix3 b j (0 : Fin 3)) := by
  have e6 : ReadP.val_main_v6 (F := Ideal) x3 (ix2 b j) = x3 (ix3 b j (0 : Fin 3)) :=
    Cert.IndexFacts.col_read 0 x3 _ _ b j (0 : Fin 3) rfl
  refine (concat_col0 _ _ _ b j).trans ((bcast_col _ _ b j).trans ?_)
  show Scalar.select (IntOp.cmpi .slt (ReadP.val_main_v6 (F := Ideal) x3 (ix2 b j)) 0#32)
      (IntOp.addi (ReadP.val_main_v6 (F := Ideal) x3 (ix2 b j)) 128#32) (ReadP.val_main_v6 (F := Ideal) x3 (ix2 b j)) = _
  rw [e6]
  exact wrap_id _ _ (by have := (h b j).1; omega)

/-- Likewise the position component. -/
theorem start_word1 (x3 : (⟨S128x128x3, .i32⟩ : BufTy).Contents (Elt Ideal)) (h : Cert.IndexFacts.InRange x3) (b j : Fin 128) :
    ReadP.val_main_v21 (F := Ideal) x3 (ix3 b j (1 : Fin 2)) = x3 (ix3 b j (1 : Fin 3)) := by
  have e8 : ReadP.val_main_v8 (F := Ideal) x3 (ix2 b j) = x3 (ix3 b j (1 : Fin 3)) :=
    Cert.IndexFacts.col_read 1 x3 _ _ b j (1 : Fin 3) rfl
  refine (concat_col1 _ _ _ b j).trans ((bcast_col _ _ b j).trans ?_)
  show Scalar.select (IntOp.cmpi .slt (ReadP.val_main_v8 (F := Ideal) x3 (ix2 b j)) 0#32)
      (IntOp.addi (ReadP.val_main_v8 (F := Ideal) x3 (ix2 b j)) 65536#32) (ReadP.val_main_v8 (F := Ideal) x3 (ix2 b j)) = _
  rw [e8]
  exact wrap_id _ _ (by have := (h b j).2; omega)

/-! ## The gathered element -/

/-- The predictions as [128, 65536, 4] at (B, P, k) and as [8388608, 4] at (B * 65536 + P, k) are one element of
    the array: the two indices have the same row-major position. -/
theorem reshape_agree (x0 : (⟨S128x256x256x4, .f32⟩ : BufTy).Contents (Elt Ideal))
    (hflat : S128x256x256x4.ShapeCasts Cert.Spec.SFlat) (B : Fin 128) (P : Fin 65536) (R : Fin 8388608) (k : Fin 4)
    (hR : R.val = B.val * 65536 + P.val) :
    ReadP.val_main_v0 (F := Ideal) x0 (ix3 B P k) = shapeCast Cert.Spec.SFlat x0 hflat (ix2 R k) :=
  shapeCast_apply x0 _ (ix3 B P k) (Shape.reshapeEquiv hflat (ix2 R k)) (by
    rw [Shape.rowMajor_reshapeEquiv, Shape.rowMajor_val_two, Shape.rowMajor_val_three]
    show R.val * 4 + k.val = (B.val * 65536 + P.val) * 4 + k.val
    rw [hR])

theorem gather_apply (x0 : (⟨Cert.ReferenceIdeal.S128x256x256x4, .f32⟩ : BufTy).Contents (Elt Ideal)) (x3 : (⟨Cert.ReferenceIdeal.S128x128x3, .i32⟩ : BufTy).Contents (Elt Ideal))
    (h : Cert.IndexFacts.InRange x3) (hflat : Cert.ReferenceIdeal.S128x256x256x4.ShapeCasts Cert.Spec.SFlat) (b j : Fin 128) (k : Fin 4) :
    Cert.ReferenceIdeal.ReadP.val_main_v22 (F := Ideal) x0 x3 (ValueIdx.ix3 b j k)
      = (shapeCast Cert.Spec.SFlat x0 hflat) (ValueIdx.ix2 (⟨(Cert.IndexFacts.tblOf x3 (ValueIdx.ix2 b j)).toNat, Cert.IndexFacts.tblOf_lt x3 b j⟩ : Fin 8388608) k) * Cert.Spec.inv256 := by
  obtain ⟨hb, hp⟩ := h b j
  -- the operand index: (batch, position, k)
  have hq : gd.operandIdx (ix3 b j k) (ReadP.val_main_v21 (F := Ideal) x3)
      = ix3 (⟨(x3 (ix3 b j (0 : Fin 3))).toNat, hb⟩ : Fin 128) (⟨(x3 (ix3 b j (1 : Fin 3))).toNat, hp⟩ : Fin 65536) k :=
    operandIdx_eq _ b j k _
      (by
        show (x3 (ix3 b j (0 : Fin 3))).toNat = min (ReadP.val_main_v21 (F := Ideal) x3 (ix3 b j (0 : Fin 2))).toInt.toNat 127
        rw [start_word0 x3 h b j, toInt_toNat _ (by omega)]; omega)
      (by
        show (x3 (ix3 b j (1 : Fin 3))).toNat = min (ReadP.val_main_v21 (F := Ideal) x3 (ix3 b j (1 : Fin 2))).toInt.toNat 65535
        rw [start_word1 x3 h b j, toInt_toNat _ (by omega)]; omega)
      rfl
  show ReadP.val_main_v3 (F := Ideal) x0 (gd.operandIdx (ix3 b j k) (ReadP.val_main_v21 (F := Ideal) x3)) = _
  rw [hq]
  show Ideal.div (ReadP.val_main_v0 (F := Ideal) x0 _) (Ideal.ofBits .f32 0x43800000#32) = _
  rw [Cert.Spec.div256, reshape_agree x0 hflat ⟨_, hb⟩ ⟨_, hp⟩ ⟨_, Cert.IndexFacts.tblOf_lt x3 b j⟩ k (Cert.IndexFacts.tblOf_eq x3 h b j)]

end Cert.RefGather

end
-- ==== Proof.RefValue.lean ====
/-
  The reference program's result is the specification's.

  The program divides two sums over the 128 × 128 objects, each started from the printed zero: the sum of the
  masked losses and the sum of the mask.  The masked loss of object (b, j) is read one operation at a time down to
  the four columns of the gathered rows and of the true boxes at (b, j): every operation between is elementwise or
  a constant, the unit axis kept by the column slices is dropped by a cast that keeps the row-major position, and
  a "not equal" comparison that admits unordered operands is, on extended reals, the ordered one.  The gathered
  rows at (b, j, k) are the flat predictions at row  row b j  and column k, scaled by 1/256, which makes the masked
  loss the specification's element; a sum over the pairs' index set is the sum over pairs.
-/
import proofs.«412085_j52218212385067_2_alg».proof.Proof.RefReadP
import proofs.«412085_j52218212385067_2_alg».proof.Proof.SpecTotal
import proofs.«412085_j52218212385067_2_alg».proof.Proof.IndexFacts
import proofs.«412085_j52218212385067_2_alg».proof.Proof.RefGather
import Idealize.ShloMosaic.Lib.ValueIdx

noncomputable section

namespace Cert.RefValue

open Cert.ReferenceIdeal Cert.ReferenceIdeal.ReadP Idealize.ShloMosaic Idealize.ShloMosaic.ValueIdx
open scoped BigOperators

/-! ## The columns at one object -/

/-- Column 0 of the gathered rows, still with its unit axis, at (b, j, 0) is the gathered rows at (b, j, 0). -/
theorem v23_at (x0 : (⟨Cert.ReferenceIdeal.S128x256x256x4, .f32⟩ : BufTy).Contents (Elt Ideal)) (x3 : (⟨Cert.ReferenceIdeal.S128x128x3, .i32⟩ : BufTy).Contents (Elt Ideal)) (b j : Fin 128) :
    val_main_v23 (F := Ideal) x0 x3 (ix3 b j (0 : Fin 1)) = val_main_v22 (F := Ideal) x0 x3 (ix3 b j (0 : Fin 4)) := by
  rw [val_main_v23_apply]
  exact congrArg (val_main_v22 (F := Ideal) x0 x3) (funext fun a => Fin.ext (by
    match a with
    | ⟨0, _⟩ => rfl
    | ⟨1, _⟩ => rfl
    | ⟨2, _⟩ => rfl))

/-- Column 1 of the gathered rows, still with its unit axis, at (b, j, 0) is the gathered rows at (b, j, 1). -/
theorem v24_at (x0 : (⟨Cert.ReferenceIdeal.S128x256x256x4, .f32⟩ : BufTy).Contents (Elt Ideal)) (x3 : (⟨Cert.ReferenceIdeal.S128x128x3, .i32⟩ : BufTy).Contents (Elt Ideal)) (b j : Fin 128) :
    val_main_v24 (F := Ideal) x0 x3 (ix3 b j (0 : Fin 1)) = val_main_v22 (F := Ideal) x0 x3 (ix3 b j (1 : Fin 4)) := by
  rw [val_main_v24_apply]
  exact congrArg (val_main_v22 (F := Ideal) x0 x3) (funext fun a => Fin.ext (by
    match a with
    | ⟨0, _⟩ => rfl
    | ⟨1, _⟩ => rfl
    | ⟨2, _⟩ => rfl))

/-- Column 2 of the gathered rows, still with its unit axis, at (b, j, 0) is the gathered rows at (b, j, 2). -/
theorem v25_at (x0 : (⟨Cert.ReferenceIdeal.S128x256x256x4, .f32⟩ : BufTy).Contents (Elt Ideal)) (x3 : (⟨Cert.ReferenceIdeal.S128x128x3, .i32⟩ : BufTy).Contents (Elt Ideal)) (b j : Fin 128) :
    val_main_v25 (F := Ideal) x0 x3 (ix3 b j (0 : Fin 1)) = val_main_v22 (F := Ideal) x0 x3 (ix3 b j (2 : Fin 4)) := by
  rw [val_main_v25_apply]
  exact congrArg (val_main_v22 (F := Ideal) x0 x3) (funext fun a => Fin.ext (by
    match a with
    | ⟨0, _⟩ => rfl
    | ⟨1, _⟩ => rfl
    | ⟨2, _⟩ => rfl))

/-- Column 3 of the gathered rows, still with its unit axis, at (b, j, 0) is the gathered rows at (b, j, 3). -/
theorem v26_at (x0 : (⟨Cert.ReferenceIdeal.S128x256x256x4, .f32⟩ : BufTy).Contents (Elt Ideal)) (x3 : (⟨Cert.ReferenceIdeal.S128x128x3, .i32⟩ : BufTy).Contents (Elt Ideal)) (b j : Fin 128) :
    val_main_v26 (F := Ideal) x0 x3 (ix3 b j (0 : Fin 1)) = val_main_v22 (F := Ideal) x0 x3 (ix3 b j (3 : Fin 4)) := by
  rw [val_main_v26_apply]
  exact congrArg (val_main_v22 (F := Ideal) x0 x3) (funext fun a => Fin.ext (by
    match a with
    | ⟨0, _⟩ => rfl
    | ⟨1, _⟩ => rfl
    | ⟨2, _⟩ => rfl))

/-- Column 0 of the true boxes, still with its unit axis, at (b, j, 0) is the true boxes at (b, j, 0). -/
theorem v27_at (x1 : (⟨Cert.ReferenceIdeal.S128x128x4, .f32⟩ : BufTy).Contents (Elt Ideal)) (b j : Fin 128) :
    val_main_v27 (F := Ideal) x1 (ix3 b j (0 : Fin 1)) = x1 (ix3 b j (0 : Fin 4)) := by
  rw [val_main_v27_apply]
  exact congrArg x1 (funext fun a => Fin.ext (by
    match a with
    | ⟨0, _⟩ => rfl
    | ⟨1, _⟩ => rfl
    | ⟨2, _⟩ => rfl))

/-- Column 1 of the true boxes, still with its unit axis, at (b, j, 0) is the true boxes at (b, j, 1). -/
theorem v28_at (x1 : (⟨Cert.ReferenceIdeal.S128x128x4, .f32⟩ : BufTy).Contents (Elt Ideal)) (b j : Fin 128) :
    val_main_v28 (F := Ideal) x1 (ix3 b j (0 : Fin 1)) = x1 (ix3 b j (1 : Fin 4)) := by
  rw [val_main_v28_apply]
  exact congrArg x1 (funext fun a => Fin.ext (by
    match a with
    | ⟨0, _⟩ => rfl
    | ⟨1, _⟩ => rfl
    | ⟨2, _⟩ => rfl))

/-- Column 2 of the true boxes, still with its unit axis, at (b, j, 0) is the true boxes at (b, j, 2). -/
theorem v29_at (x1 : (⟨Cert.ReferenceIdeal.S128x128x4, .f32⟩ : BufTy).Contents (Elt Ideal)) (b j : Fin 128) :
    val_main_v29 (F := Ideal) x1 (ix3 b j (0 : Fin 1)) = x1 (ix3 b j (2 : Fin 4)) := by
  rw [val_main_v29_apply]
  exact congrArg x1 (funext fun a => Fin.ext (by
    match a with
    | ⟨0, _⟩ => rfl
    | ⟨1, _⟩ => rfl
    | ⟨2, _⟩ => rfl))

/-- Column 3 of the true boxes, still with its unit axis, at (b, j, 0) is the true boxes at (b, j, 3). -/
theorem v30_at (x1 : (⟨Cert.ReferenceIdeal.S128x128x4, .f32⟩ : BufTy).Contents (Elt Ideal)) (b j : Fin 128) :
    val_main_v30 (F := Ideal) x1 (ix3 b j (0 : Fin 1)) = x1 (ix3 b j (3 : Fin 4)) := by
  rw [val_main_v30_apply]
  exact congrArg x1 (funext fun a => Fin.ext (by
    match a with
    | ⟨0, _⟩ => rfl
    | ⟨1, _⟩ => rfl
    | ⟨2, _⟩ => rfl))

/-! ## One object's masked loss -/

/-- The masked loss at (b, j) from the eight columns at (b, j, 0) and the mask weight: the cast that drops the unit
    axis reads (b, j, 0), both having row-major position b * 128 + j, and every other operation is elementwise or
    a constant. -/
theorem v84_at (x0 : (⟨Cert.ReferenceIdeal.S128x256x256x4, .f32⟩ : BufTy).Contents (Elt Ideal)) (x1 : (⟨Cert.ReferenceIdeal.S128x128x4, .f32⟩ : BufTy).Contents (Elt Ideal)) (x2 : (⟨Cert.ReferenceIdeal.S128x128, .f32⟩ : BufTy).Contents (Elt Ideal)) (x3 : (⟨Cert.ReferenceIdeal.S128x128x3, .i32⟩ : BufTy).Contents (Elt Ideal)) (b j : Fin 128) :
    val_main_v84 (F := Ideal) x0 x1 x2 x3 (ix2 b j)
      = Spec.lossOf (val_main_v23 (F := Ideal) x0 x3 (ix3 b j (0 : Fin 1))) (val_main_v24 (F := Ideal) x0 x3 (ix3 b j (0 : Fin 1)))
          (val_main_v25 (F := Ideal) x0 x3 (ix3 b j (0 : Fin 1))) (val_main_v26 (F := Ideal) x0 x3 (ix3 b j (0 : Fin 1)))
          (val_main_v27 (F := Ideal) x1 (ix3 b j (0 : Fin 1))) (val_main_v28 (F := Ideal) x1 (ix3 b j (0 : Fin 1)))
          (val_main_v29 (F := Ideal) x1 (ix3 b j (0 : Fin 1))) (val_main_v30 (F := Ideal) x1 (ix3 b j (0 : Fin 1))) (x2 (ix2 b j)) := by
  have e : idx_main_v83 (ix2 b j) = ix3 b j (0 : Fin 1) := funext fun a => Fin.ext (by
    match a with
    | ⟨0, _⟩ => show (b.val * 128 + j.val) / 128 = b.val; omega
    | ⟨1, _⟩ => show (b.val * 128 + j.val) / 1 % 128 = j.val; omega
    | ⟨2, _⟩ => rfl)
  show (val_main_v83 (F := Ideal) x0 x1 x3 (ix2 b j) : EReal) * (x2 (ix2 b j) : EReal) = _
  rw [val_main_v83_apply, e]
  rfl

/-- Object (b, j)'s masked loss is the specification's element, given the gathered rows' reading. -/
theorem elem_at (x0 : (⟨Cert.ReferenceIdeal.S128x256x256x4, .f32⟩ : BufTy).Contents (Elt Ideal)) (x1 : (⟨Cert.ReferenceIdeal.S128x128x4, .f32⟩ : BufTy).Contents (Elt Ideal)) (x2 : (⟨Cert.ReferenceIdeal.S128x128, .f32⟩ : BufTy).Contents (Elt Ideal)) (x3 : (⟨Cert.ReferenceIdeal.S128x128x3, .i32⟩ : BufTy).Contents (Elt Ideal))
    (lpf : Spec.SFlat.Idx → EReal) (row : Fin 128 → Fin 128 → Fin 8388608)
    (hg : ∀ (b j : Fin 128) (k : Fin 4),
      val_main_v22 (F := Ideal) x0 x3 (ix3 b j k) = lpf (ix2 (row b j) k) * Spec.inv256) (b j : Fin 128) :
    val_main_v84 (F := Ideal) x0 x1 x2 x3 (ix2 b j) = Spec.elem lpf x1 x2 row b j := by
  rw [v84_at, v23_at, v24_at, v25_at, v26_at, v27_at, v28_at, v29_at, v30_at, hg, hg, hg, hg]
  rfl

/-! ## The two sums and their quotient -/

/-- A sum over the index set of a 128 × 128 array is the sum over pairs. -/
theorem sum_pairs (f : Cert.ReferenceIdeal.S128x128.Idx → EReal) :
    ∑ q, f q = ∑ p : Fin 128 × Fin 128, f (ix2 p.1 p.2) :=
  (sum_idx2 f).trans (Fintype.sum_prod_type fun p : Fin 128 × Fin 128 => f (ix2 p.1 p.2)).symm

/-- The result, given the gathered rows' reading: the summed elements over the summed mask. -/
theorem ref_result_of (x0 : (⟨Cert.ReferenceIdeal.S128x256x256x4, .f32⟩ : BufTy).Contents (Elt Ideal)) (x1 : (⟨Cert.ReferenceIdeal.S128x128x4, .f32⟩ : BufTy).Contents (Elt Ideal)) (x2 : (⟨Cert.ReferenceIdeal.S128x128, .f32⟩ : BufTy).Contents (Elt Ideal)) (x3 : (⟨Cert.ReferenceIdeal.S128x128x3, .i32⟩ : BufTy).Contents (Elt Ideal))
    (lpf : Spec.SFlat.Idx → EReal) (row : Fin 128 → Fin 128 → Fin 8388608)
    (hg : ∀ (b j : Fin 128) (k : Fin 4),
      val_main_v22 (F := Ideal) x0 x3 (ix3 b j k) = lpf (ix2 (row b j) k) * Spec.inv256) :
    val_main_v86 (F := Ideal) x0 x1 x2 x3 = fun _ => Spec.result lpf x1 x2 row := by
  funext i
  have hnum : ∑ q : Cert.ReferenceIdeal.S128x128.Idx, (val_main_v84 (F := Ideal) x0 x1 x2 x3 q : EReal)
      = ∑ p : Fin 128 × Fin 128, Spec.elem lpf x1 x2 row p.1 p.2 :=
    (sum_pairs _).trans (Finset.sum_congr rfl fun p _ => elem_at x0 x1 x2 x3 lpf row hg p.1 p.2)
  have hden : ∑ q : Cert.ReferenceIdeal.S128x128.Idx, (x2 q : EReal) = ∑ p : Fin 128 × Fin 128, (x2 (ix2 p.1 p.2) : EReal) :=
    sum_pairs _
  show Ideal.div (val_main_v85 (F := Ideal) x0 x1 x2 x3 i) (val_main_v4 (F := Ideal) x2 i) = Ideal.div _ _
  refine congr (congrArg Ideal.div ?_) ?_
  · exact (val_main_v85_apply x0 x1 x2 x3 i).trans (congrArg (fun s : EReal => Spec.zero + s) hnum)
  · exact (val_main_v4_apply x2 i).trans (congrArg (fun s : EReal => Spec.zero + s) hden)

/-- The reference program's result is the specification's result of the flat predictions, the true boxes, the mask and
    the flat row of each object. -/
theorem ref_result (x0 : (⟨Cert.ReferenceIdeal.S128x256x256x4, .f32⟩ : BufTy).Contents (Elt Ideal)) (x1 : (⟨Cert.ReferenceIdeal.S128x128x4, .f32⟩ : BufTy).Contents (Elt Ideal)) (x2 : (⟨Cert.ReferenceIdeal.S128x128, .f32⟩ : BufTy).Contents (Elt Ideal)) (x3 : (⟨Cert.ReferenceIdeal.S128x128x3, .i32⟩ : BufTy).Contents (Elt Ideal))
    (h : Cert.IndexFacts.InRange x3) (hflat : Cert.ReferenceIdeal.S128x256x256x4.ShapeCasts Cert.Spec.SFlat) :
    Cert.ReferenceIdeal.ReadP.val_main_v86 (F := Ideal) x0 x1 x2 x3
      = fun _ => Cert.Spec.result (shapeCast Cert.Spec.SFlat x0 hflat) x1 x2 (fun b j => ⟨(Cert.IndexFacts.tblOf x3 (ValueIdx.ix2 b j)).toNat, Cert.IndexFacts.tblOf_lt x3 b j⟩) :=
  ref_result_of x0 x1 x2 x3 _ _ (fun b j k => Cert.RefGather.gather_apply x0 x3 h hflat b j k)

end Cert.RefValue

end
-- ==== Proof.lean ====
/-
  A GIoU loss over gathered boxes: the kernel against its reference.

  For each of 128 batches and 128 objects the loss reads one row (four numbers) of the prediction map, chosen by the
  object's index pair (batch index, flattened position), scales it by 1/256, and compares the box with the object's
  true box: one minus the generalized intersection over union, times the object's mask weight; the result is the sum
  of these over the sum of the mask.

  The kernel lays the prediction map out as 8388608 rows of four and, per batch, copies the 128 rows it needs
  straight out of that array into a scratch buffer — one copy per row, each on a counter of its own, all started
  before any is waited for, all waited for before the scratch is read — at the row  clip(batch index · 65536 +
  position, 0, 8388607)  the host computes beforehand.  The clip keeps every copied row inside the array, so the
  programs run to the end on every input (the three frames).  The reference indexes the map as [128, 65536, 4] at
  (batch index, position), wrapping a negative index and clamping each index to its own axis; the two readings
  agree exactly when both indices are in range, which the precondition states (for the reference these are the
  indices of the array it indexes).  In range the clip does nothing, row · 65536 + position addresses the same four
  numbers in both layouts, dividing by 256 and scaling by the exact dyadic 1/256 agree on every extended real, the
  arithmetic of the loss is the same operations in the same order, and the two sums range over the same objects.
  No finiteness is used.
-/
import proofs.«412085_j52218212385067_2_alg».proof.Defs
import proofs.«412085_j52218212385067_2_alg».proof.Proof.Gen.Kernel
import proofs.«412085_j52218212385067_2_alg».proof.Proof.Gen.KernelIdeal
import proofs.«412085_j52218212385067_2_alg».proof.Proof.Gen.ReferenceIdeal
import proofs.«412085_j52218212385067_2_alg».proof.Proof.Gen.Pre_finite_inputs
import proofs.«412085_j52218212385067_2_alg».proof.Proof.KFrame
import proofs.«412085_j52218212385067_2_alg».proof.Proof.KTbl
import proofs.«412085_j52218212385067_2_alg».proof.Proof.KIFrame
import proofs.«412085_j52218212385067_2_alg».proof.Proof.KITbl
import proofs.«412085_j52218212385067_2_alg».proof.Proof.KIOut
import proofs.«412085_j52218212385067_2_alg».proof.Proof.KIValue
import proofs.«412085_j52218212385067_2_alg».proof.Proof.RefRunP
import proofs.«412085_j52218212385067_2_alg».proof.Proof.RefValue
import proofs.«412085_j52218212385067_2_alg».proof.Proof.IndexFacts
import Idealize.ShloMosaic.Adequacy
import Idealize.ShloMosaic.Init

noncomputable section

namespace Cert.Proof

open Idealize.ShloMosaic Idealize.SL.Sem

/-- The kernel as printed runs to the end and leaves its arguments alone, on every input. -/
theorem frame_k : Cert.frame_Kernel (hKernel := Cert.Kernel.Gen.facts) (hPre_finite_inputs := Cert.Pre_finite_inputs.Gen.facts) :=
  fun m ρ _ => Cert.Kernel.Hand.frame m ρ (Cert.Kernel.Hand.tblOk m)

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ (Cert.KernelIdeal.Hand.tblOk m)

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end at the summed masked losses over the summed mask, the rows read at the clipped flat
    index: the kernel's by its frame run read block by block, the reference's by its run read operation by operation,
    the index pairs in range by the precondition. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  have hflat : Cert.KernelIdeal.S128x256x256x4.ShapeCasts Cert.Spec.SFlat := by decide
  refine ⟨_, Cert.KernelIdeal.Hand.kernel_value m ρ (Cert.KernelIdeal.Hand.tblOk m) (Cert.KernelIdeal.Hand.out_apply m (Cert.KernelIdeal.Hand.tblOk m)) hflat, ?_⟩
  refine (θ_run Cert.ReferenceIdeal.defs _ _).mono (fun r h c => ⟨(h c).1.trans ?_, (h c).2⟩)
    (Cert.ReferenceIdeal.ValueP.run (F := Ideal) m' ρ')
  rw [(hagree c).1, (hagree c).2.1, (hagree c).2.2.1, (hagree c).2.2.2]
  exact Cert.RefValue.ref_result _ _ _ _ (Cert.IndexFacts.inRange_of_pre _ _ _ _ (hpre c)) hflat

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
